-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v161) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x64 : Shape := ⟨2, ![40000, 64]⟩
abbrev S40000x3 : Shape := ⟨2, ![40000, 3]⟩
abbrev S640000x16 : Shape := ⟨2, ![640000, 16]⟩
abbrev S640000 : Shape := ⟨1, ![640000]⟩
abbrev S2x145x64 : Shape := ⟨3, ![2, 145, 64]⟩
abbrev S2x64 : Shape := ⟨2, ![2, 64]⟩
abbrev S2x64x64 : Shape := ⟨3, ![2, 64, 64]⟩
abbrev S2x64x1 : Shape := ⟨3, ![2, 64, 1]⟩
abbrev S2x128x64 : Shape := ⟨3, ![2, 128, 64]⟩
abbrev S_ : Shape := ⟨0, ![]⟩

class Facts : Prop where
  bcast_S_S40000x64 : S_.BroadcastsInDim S40000x64 (![] : Fin 0 → Fin S40000x64.rank)
  reducesTo_S40000x64_S_d0_1 : S40000x64.ReducesTo [0, 1] S_
  h_S_ : 0 < S_.numel
  bcast_S_S40000x3 : S_.BroadcastsInDim S40000x3 (![] : Fin 0 → Fin S40000x3.rank)
  reducesTo_S40000x3_S_d0_1 : S40000x3.ReducesTo [0, 1] S_
  bcast_S_S640000x16 : S_.BroadcastsInDim S640000x16 (![] : Fin 0 → Fin S640000x16.rank)
  reducesTo_S640000x16_S_d0_1 : S640000x16.ReducesTo [0, 1] S_
  bcast_S_S2x145x64 : S_.BroadcastsInDim S2x145x64 (![] : Fin 0 → Fin S2x145x64.rank)
  reducesTo_S2x145x64_S_d0_1_2 : S2x145x64.ReducesTo [0, 1, 2] S_
  bcast_S_S2x64 : S_.BroadcastsInDim S2x64 (![] : Fin 0 → Fin S2x64.rank)
  reducesTo_S2x64_S_d0_1 : S2x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64x1 : S_.BroadcastsInDim S2x64x1 (![] : Fin 0 → Fin S2x64x1.rank)
  reducesTo_S2x64x1_S_d0_1_2 : S2x64x1.ReducesTo [0, 1, 2] S_
  bcast_S_S2x128x64 : S_.BroadcastsInDim S2x128x64 (![] : Fin 0 → Fin S2x128x64.rank)
  reducesTo_S2x128x64_S_d0_1_2 : S2x128x64.ReducesTo [0, 1, 2] S_
  bcast_S_S640000 : S_.BroadcastsInDim S640000 (![] : Fin 0 → Fin S640000.rank)
  reducesTo_S640000_S_d0 : S640000.ReducesTo [0] S_

variable [Facts]

def fn_part5 {F : FTy → Type} [FloatOps F] (main_arg4 : IVec S640000 32) (main_v82 : IVec S_ 1) (main_v84 : IVec S640000 1) : IVec S_ 1 :=
  let main_c_33 : IVec S_ 1 := constantI S_ 1 1#1
  let main_v85 : IVec S_ 1 := (fun x v => Host.reduce IntOp.andi x v reducesTo_S640000_S_d0 h_S_) main_v84 main_c_33
  let main_v86 : IVec S_ 1 := andi main_v82 main_v85
  let main_c_34 : IVec S_ 32 := constantI S_ 32 4294927296#32
  let main_v87 : IVec S640000 32 := broadcastInDim S640000 ![] bcast_S_S640000 main_c_34
  let main_v88 : IVec S640000 1 := cmpi .sge main_arg4 main_v87
  let main_c_35 : IVec S_ 1 := constantI S_ 1 1#1
  let main_v89 : IVec S_ 1 := (fun x v => Host.reduce IntOp.andi x v reducesTo_S640000_S_d0 h_S_) main_v88 main_c_35
  let main_v90 : IVec S_ 1 := andi main_v86 main_v89
  let main_c_36 : IVec S_ 32 := constantI S_ 32 40000#32
  let main_v91 : IVec S640000 32 := broadcastInDim S640000 ![] bcast_S_S640000 main_c_36
  let main_v92 : IVec S640000 1 := cmpi .slt main_arg4 main_v91
  let main_c_37 : IVec S_ 1 := constantI S_ 1 1#1
  let main_v93 : IVec S_ 1 := (fun x v => Host.reduce IntOp.andi x v reducesTo_S640000_S_d0 h_S_) main_v92 main_c_37
  let main_v94 : IVec S_ 1 := andi main_v90 main_v93
  main_v94

def fn_part4 {F : FTy → Type} [FloatOps F] (main_arg3 : IVec S640000 32) (main_arg4 : IVec S640000 32) (main_arg16 : FVec F S2x64 .f32) (main_arg17 : FVec F S2x64 .f32) (main_v63 : IVec S_ 1) (main_v67 : IVec S_ 1) : IVec S_ 1 :=
  let main_v68 : IVec S_ 1 := andi main_v63 main_v67
  let main_v69 : FVec F S2x64 .f32 := Host.absf main_arg16
  let main_cst_26 : FVec F S_ .f32 := constant S_ .f32 0x7F800000#32
  let main_v70 : FVec F S2x64 .f32 := broadcastInDim S2x64 ![] bcast_S_S2x64 main_cst_26
  let main_v71 : IVec S2x64 1 := cmpf .olt main_v69 main_v70
  let main_c_27 : IVec S_ 1 := constantI S_ 1 1#1
  let main_v72 : IVec S_ 1 := (fun x v => Host.reduce IntOp.andi x v reducesTo_S2x64_S_d0_1 h_S_) main_v71 main_c_27
  let main_v73 : IVec S_ 1 := andi main_v68 main_v72
  let main_v74 : FVec F S2x64 .f32 := Host.absf main_arg17
  let main_cst_28 : FVec F S_ .f32 := constant S_ .f32 0x7F800000#32
  let main_v75 : FVec F S2x64 .f32 := broadcastInDim S2x64 ![] bcast_S_S2x64 main_cst_28
  let main_v76 : IVec S2x64 1 := cmpf .olt main_v74 main_v75
  let main_c_29 : IVec S_ 1 := constantI S_ 1 1#1
  let main_v77 : IVec S_ 1 := (fun x v => Host.reduce IntOp.andi x v reducesTo_S2x64_S_d0_1 h_S_) main_v76 main_c_29
  let main_v78 : IVec S_ 1 := andi main_v73 main_v77
  let main_c_30 : IVec S_ 32 := constantI S_ 32 4294927296#32
  let main_v79 : IVec S640000 32 := broadcastInDim S640000 ![] bcast_S_S640000 main_c_30
  let main_v80 : IVec S640000 1 := cmpi .sge main_arg3 main_v79
  let main_c_31 : IVec S_ 1 := constantI S_ 1 1#1
  let main_v81 : IVec S_ 1 := (fun x v => Host.reduce IntOp.andi x v reducesTo_S640000_S_d0 h_S_) main_v80 main_c_31
  let main_v82 : IVec S_ 1 := andi main_v78 main_v81
  let main_c_32 : IVec S_ 32 := constantI S_ 32 40000#32
  let main_v83 : IVec S640000 32 := broadcastInDim S640000 ![] bcast_S_S640000 main_c_32
  let main_v84 : IVec S640000 1 := cmpi .slt main_arg3 main_v83
  fn_part5 (F := F) main_arg4 main_v82 main_v84

def fn_part3 {F : FTy → Type} [FloatOps F] (main_arg3 : IVec S640000 32) (main_arg4 : IVec S640000 32) (main_arg13 : FVec F S2x64 .f32) (main_arg14 : FVec F S2x64x64 .f32) (main_arg15 : FVec F S2x64 .f32) (main_arg16 : FVec F S2x64 .f32) (main_arg17 : FVec F S2x64 .f32) (main_v48 : IVec S_ 1) (main_v49 : FVec F S2x128x64 .f32) (main_v50 : FVec F S2x128x64 .f32) : IVec S_ 1 :=
  let main_v51 : IVec S2x128x64 1 := cmpf .olt main_v49 main_v50
  let main_c_19 : IVec S_ 1 := constantI S_ 1 1#1
  let main_v52 : IVec S_ 1 := (fun x v => Host.reduce IntOp.andi x v reducesTo_S2x128x64_S_d0_1_2 h_S_) main_v51 main_c_19
  let main_v53 : IVec S_ 1 := andi main_v48 main_v52
  let main_v54 : FVec F S2x64 .f32 := Host.absf main_arg13
  let main_cst_20 : FVec F S_ .f32 := constant S_ .f32 0x7F800000#32
  let main_v55 : FVec F S2x64 .f32 := broadcastInDim S2x64 ![] bcast_S_S2x64 main_cst_20
  let main_v56 : IVec S2x64 1 := cmpf .olt main_v54 main_v55
  let main_c_21 : IVec S_ 1 := constantI S_ 1 1#1
  let main_v57 : IVec S_ 1 := (fun x v => Host.reduce IntOp.andi x v reducesTo_S2x64_S_d0_1 h_S_) main_v56 main_c_21
  let main_v58 : IVec S_ 1 := andi main_v53 main_v57
  let main_v59 : FVec F S2x64x64 .f32 := Host.absf main_arg14
  let main_cst_22 : FVec F S_ .f32 := constant S_ .f32 0x7F800000#32
  let main_v60 : FVec F S2x64x64 .f32 := broadcastInDim S2x64x64 ![] bcast_S_S2x64x64 main_cst_22
  let main_v61 : IVec S2x64x64 1 := cmpf .olt main_v59 main_v60
  let main_c_23 : IVec S_ 1 := constantI S_ 1 1#1
  let main_v62 : IVec S_ 1 := (fun x v => Host.reduce IntOp.andi x v reducesTo_S2x64x64_S_d0_1_2 h_S_) main_v61 main_c_23
  let main_v63 : IVec S_ 1 := andi main_v58 main_v62
  let main_v64 : FVec F S2x64 .f32 := Host.absf main_arg15
  let main_cst_24 : FVec F S_ .f32 := constant S_ .f32 0x7F800000#32
  let main_v65 : FVec F S2x64 .f32 := broadcastInDim S2x64 ![] bcast_S_S2x64 main_cst_24
  let main_v66 : IVec S2x64 1 := cmpf .olt main_v64 main_v65
  let main_c_25 : IVec S_ 1 := constantI S_ 1 1#1
  let main_v67 : IVec S_ 1 := (fun x v => Host.reduce IntOp.andi x v reducesTo_S2x64_S_d0_1 h_S_) main_v66 main_c_25
  fn_part4 (F := F) main_arg3 main_arg4 main_arg16 main_arg17 main_v63 main_v67

def fn_part2 {F : FTy → Type} [FloatOps F] (main_arg3 : IVec S640000 32) (main_arg4 : IVec S640000 32) (main_arg9 : FVec F S2x64x64 .f32) (main_arg10 : FVec F S2x64 .f32) (main_arg11 : FVec F S2x64x1 .f32) (main_arg12 : FVec F S2x128x64 .f32) (main_arg13 : FVec F S2x64 .f32) (main_arg14 : FVec F S2x64x64 .f32) (main_arg15 : FVec F S2x64 .f32) (main_arg16 : FVec F S2x64 .f32) (main_arg17 : FVec F S2x64 .f32) (main_v33 : IVec S_ 1) : IVec S_ 1 :=
  let main_v34 : FVec F S2x64x64 .f32 := Host.absf main_arg9
  let main_cst_12 : FVec F S_ .f32 := constant S_ .f32 0x7F800000#32
  let main_v35 : FVec F S2x64x64 .f32 := broadcastInDim S2x64x64 ![] bcast_S_S2x64x64 main_cst_12
  let main_v36 : IVec S2x64x64 1 := cmpf .olt main_v34 main_v35
  let main_c_13 : IVec S_ 1 := constantI S_ 1 1#1
  let main_v37 : IVec S_ 1 := (fun x v => Host.reduce IntOp.andi x v reducesTo_S2x64x64_S_d0_1_2 h_S_) main_v36 main_c_13
  let main_v38 : IVec S_ 1 := andi main_v33 main_v37
  let main_v39 : FVec F S2x64 .f32 := Host.absf main_arg10
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S2x64x1 .f32 := Host.absf main_arg11
  let main_cst_16 : FVec F S_ .f32 := constant S_ .f32 0x7F800000#32
  let main_v45 : FVec F S2x64x1 .f32 := broadcastInDim S2x64x1 ![] bcast_S_S2x64x1 main_cst_16
  let main_v46 : IVec S2x64x1 1 := cmpf .olt main_v44 main_v45
  let main_c_17 : IVec S_ 1 := constantI S_ 1 1#1
  let main_v47 : IVec S_ 1 := (fun x v => Host.reduce IntOp.andi x v reducesTo_S2x64x1_S_d0_1_2 h_S_) main_v46 main_c_17
  let main_v48 : IVec S_ 1 := andi main_v43 main_v47
  let main_v49 : FVec F S2x128x64 .f32 := Host.absf main_arg12
  let main_cst_18 : FVec F S_ .f32 := constant S_ .f32 0x7F800000#32
  let main_v50 : FVec F S2x128x64 .f32 := broadcastInDim S2x128x64 ![] bcast_S_S2x128x64 main_cst_18
  fn_part3 (F := F) main_arg3 main_arg4 main_arg13 main_arg14 main_arg15 main_arg16 main_arg17 main_v48 main_v49 main_v50

def fn_part1 {F : FTy → Type} [FloatOps F] (main_arg3 : IVec S640000 32) (main_arg4 : IVec S640000 32) (main_arg6 : FVec F S2x64 .f32) (main_arg7 : FVec F S2x64x64 .f32) (main_arg8 : FVec F S2x64 .f32) (main_arg9 : FVec F S2x64x64 .f32) (main_arg10 : FVec F S2x64 .f32) (main_arg11 : FVec F S2x64x1 .f32) (main_arg12 : FVec F S2x128x64 .f32) (main_arg13 : FVec F S2x64 .f32) (main_arg14 : FVec F S2x64x64 .f32) (main_arg15 : FVec F S2x64 .f32) (main_arg16 : FVec F S2x64 .f32) (main_arg17 : FVec F S2x64 .f32) (main_v13 : IVec S_ 1) (main_v16 : IVec S2x145x64 1) : IVec S_ 1 :=
  let main_c_5 : IVec S_ 1 := constantI S_ 1 1#1
  let main_v17 : IVec S_ 1 := (fun x v => Host.reduce IntOp.andi x v reducesTo_S2x145x64_S_d0_1_2 h_S_) main_v16 main_c_5
  let main_v18 : IVec S_ 1 := andi main_v13 main_v17
  let main_v19 : FVec F S2x64 .f32 := Host.absf main_arg6
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x64x64 .f32 := Host.absf main_arg7
  let main_cst_8 : FVec F S_ .f32 := constant S_ .f32 0x7F800000#32
  let main_v25 : FVec F S2x64x64 .f32 := broadcastInDim S2x64x64 ![] bcast_S_S2x64x64 main_cst_8
  let main_v26 : IVec S2x64x64 1 := cmpf .olt main_v24 main_v25
  let main_c_9 : IVec S_ 1 := constantI S_ 1 1#1
  let main_v27 : IVec S_ 1 := (fun x v => Host.reduce IntOp.andi x v reducesTo_S2x64x64_S_d0_1_2 h_S_) main_v26 main_c_9
  let main_v28 : IVec S_ 1 := andi main_v23 main_v27
  let main_v29 : FVec F S2x64 .f32 := Host.absf main_arg8
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg3 main_arg4 main_arg9 main_arg10 main_arg11 main_arg12 main_arg13 main_arg14 main_arg15 main_arg16 main_arg17 main_v33

def fn {F : FTy → Type} [FloatOps F] (main_arg0 : FVec F S40000x64 .f32) (main_arg1 : FVec F S40000x3 .f32) (main_arg2 : FVec F S640000x16 .f32) (main_arg3 : IVec S640000 32) (main_arg4 : IVec S640000 32) (main_arg5 : FVec F S2x145x64 .f32) (main_arg6 : FVec F S2x64 .f32) (main_arg7 : FVec F S2x64x64 .f32) (main_arg8 : FVec F S2x64 .f32) (main_arg9 : FVec F S2x64x64 .f32) (main_arg10 : FVec F S2x64 .f32) (main_arg11 : FVec F S2x64x1 .f32) (main_arg12 : FVec F S2x128x64 .f32) (main_arg13 : FVec F S2x64 .f32) (main_arg14 : FVec F S2x64x64 .f32) (main_arg15 : FVec F S2x64 .f32) (main_arg16 : FVec F S2x64 .f32) (main_arg17 : FVec F S2x64 .f32) : IVec S_ 1 :=
  let main_v0 : FVec F S40000x64 .f32 := Host.absf main_arg0
  let main_cst : FVec F S_ .f32 := constant S_ .f32 0x7F800000#32
  let main_v1 : FVec F S40000x64 .f32 := broadcastInDim S40000x64 ![] bcast_S_S40000x64 main_cst
  let main_v2 : IVec S40000x64 1 := cmpf .olt main_v0 main_v1
  let main_c : IVec S_ 1 := constantI S_ 1 1#1
  let main_v3 : IVec S_ 1 := (fun x v => Host.reduce IntOp.andi x v reducesTo_S40000x64_S_d0_1 h_S_) main_v2 main_c
  let main_v4 : FVec F S40000x3 .f32 := Host.absf main_arg1
  let main_cst_0 : FVec F S_ .f32 := constant S_ .f32 0x7F800000#32
  let main_v5 : FVec F S40000x3 .f32 := broadcastInDim S40000x3 ![] bcast_S_S40000x3 main_cst_0
  let main_v6 : IVec S40000x3 1 := cmpf .olt main_v4 main_v5
  let main_c_1 : IVec S_ 1 := constantI S_ 1 1#1
  let main_v7 : IVec S_ 1 := (fun x v => Host.reduce IntOp.andi x v reducesTo_S40000x3_S_d0_1 h_S_) main_v6 main_c_1
  let main_v8 : IVec S_ 1 := andi main_v3 main_v7
  let main_v9 : FVec F S640000x16 .f32 := Host.absf main_arg2
  let main_cst_2 : FVec F S_ .f32 := constant S_ .f32 0x7F800000#32
  let main_v10 : FVec F S640000x16 .f32 := broadcastInDim S640000x16 ![] bcast_S_S640000x16 main_cst_2
  let main_v11 : IVec S640000x16 1 := cmpf .olt main_v9 main_v10
  let main_c_3 : IVec S_ 1 := constantI S_ 1 1#1
  let main_v12 : IVec S_ 1 := (fun x v => Host.reduce IntOp.andi x v reducesTo_S640000x16_S_d0_1 h_S_) main_v11 main_c_3
  let main_v13 : IVec S_ 1 := andi main_v8 main_v12
  let main_v14 : FVec F S2x145x64 .f32 := Host.absf main_arg5
  let main_cst_4 : FVec F S_ .f32 := constant S_ .f32 0x7F800000#32
  let main_v15 : FVec F S2x145x64 .f32 := broadcastInDim S2x145x64 ![] bcast_S_S2x145x64 main_cst_4
  let main_v16 : IVec S2x145x64 1 := cmpf .olt main_v14 main_v15
  fn_part1 (F := F) main_arg3 main_arg4 main_arg6 main_arg7 main_arg8 main_arg9 main_arg10 main_arg11 main_arg12 main_arg13 main_arg14 main_arg15 main_arg16 main_arg17 main_v13 main_v16
-- ==== Kernel.lean ====
abbrev S40000x64 : Shape := ⟨2, ![40000, 64]⟩
abbrev S40000x3 : Shape := ⟨2, ![40000, 3]⟩
abbrev S640000x16 : Shape := ⟨2, ![640000, 16]⟩
abbrev S640000 : Shape := ⟨1, ![640000]⟩
abbrev S2x145x64 : Shape := ⟨3, ![2, 145, 64]⟩
abbrev S2x64 : Shape := ⟨2, ![2, 64]⟩
abbrev S2x64x64 : Shape := ⟨3, ![2, 64, 64]⟩
abbrev S2x64x1 : Shape := ⟨3, ![2, 64, 1]⟩
abbrev S2x128x64 : Shape := ⟨3, ![2, 128, 64]⟩
abbrev S_ : Shape := ⟨0, ![]⟩
abbrev S640000x1 : Shape := ⟨2, ![640000, 1]⟩
abbrev S40000x1 : Shape := ⟨2, ![40000, 1]⟩
abbrev S40000x67 : Shape := ⟨2, ![40000, 67]⟩
abbrev S1 : Shape := ⟨1, ![1]⟩
abbrev S1x1 : Shape := ⟨2, ![1, 1]⟩
abbrev S640000x67 : Shape := ⟨2, ![640000, 67]⟩
abbrev S1x145x64 : Shape := ⟨3, ![1, 145, 64]⟩
abbrev S145x64 : Shape := ⟨2, ![145, 64]⟩
abbrev S64x64 : Shape := ⟨2, ![64, 64]⟩
abbrev S1x64 : Shape := ⟨2, ![1, 64]⟩
abbrev S16x64 : Shape := ⟨2, ![16, 64]⟩
abbrev S64 : Shape := ⟨1, ![64]⟩
abbrev S1x64x64 : Shape := ⟨3, ![1, 64, 64]⟩
abbrev S1x64x1 : Shape := ⟨3, ![1, 64, 1]⟩
abbrev S64x1 : Shape := ⟨2, ![64, 1]⟩
abbrev S640000x128 : Shape := ⟨2, ![640000, 128]⟩
abbrev S6400x67 : Shape := ⟨2, ![6400, 67]⟩
abbrev S6400x16 : Shape := ⟨2, ![6400, 16]⟩
abbrev S6400x128 : Shape := ⟨2, ![6400, 128]⟩
abbrev S6400x64 : Shape := ⟨2, ![6400, 64]⟩
abbrev S6400x3 : Shape := ⟨2, ![6400, 3]⟩
abbrev S6400 : Shape := ⟨1, ![6400]⟩
abbrev S6400x1 : Shape := ⟨2, ![6400, 1]⟩
abbrev S6400x61 : Shape := ⟨2, ![6400, 61]⟩
abbrev S40000x128 : Shape := ⟨2, ![40000, 128]⟩
abbrev S1x128x64 : Shape := ⟨3, ![1, 128, 64]⟩
abbrev S128x64 : Shape := ⟨2, ![128, 64]⟩

abbrev nBuf : Space → Nat
  | .hbm => 345
  | .vmem => 36
  | .smem => 0
  | _ => 0

abbrev hbmTy0_0 (i : Nat) : BufTy := match i % 128 with
  | 0 => ⟨S40000x64, .f32⟩
  | 1 => ⟨S40000x3, .f32⟩
  | 2 => ⟨S640000x16, .f32⟩
  | 3 => ⟨S640000, .i32⟩
  | 4 => ⟨S640000, .i32⟩
  | 5 => ⟨S2x145x64, .f32⟩
  | 6 => ⟨S2x64, .f32⟩
  | 7 => ⟨S2x64x64, .f32⟩
  | 8 => ⟨S2x64, .f32⟩
  | 9 => ⟨S2x64x64, .f32⟩
  | 10 => ⟨S2x64, .f32⟩
  | 11 => ⟨S2x64x1, .f32⟩
  | 12 => ⟨S2x128x64, .f32⟩
  | 13 => ⟨S2x64, .f32⟩
  | 14 => ⟨S2x64x64, .f32⟩
  | 15 => ⟨S2x64, .f32⟩
  | 16 => ⟨S2x64, .f32⟩
  | 17 => ⟨S2x64, .f32⟩
  | 18 => ⟨S_, .f32⟩
  | 19 => ⟨S40000x64, .f32⟩
  | 20 => ⟨S_, .f32⟩
  | 21 => ⟨S640000x1, .f32⟩
  | 22 => ⟨S_, .f32⟩
  | 23 => ⟨S40000x1, .f32⟩
  | 24 => ⟨S640000x1, .i32⟩
  | 25 => ⟨S40000x1, .f32⟩
  | 26 => ⟨S640000x16, .bf16⟩
  | 27 => ⟨S40000x67, .f32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S1, .i32⟩
  | 37 => ⟨S_, .i32⟩
  | 38 => ⟨S640000x1, .i32⟩
  | 39 => ⟨S640000x1, .i1⟩
  | 40 => ⟨S1x1, .i32⟩
  | 41 => ⟨S640000x1, .i32⟩
  | 42 => ⟨S640000x1, .i1⟩
  | 43 => ⟨S640000x1, .i1⟩
  | 44 => ⟨S_, .i1⟩
  | 45 => ⟨S640000, .i1⟩
  | 46 => ⟨S640000x67, .f32⟩
  | 47 => ⟨S640000x67, .i1⟩
  | 48 => ⟨S_, .f32⟩
  | 49 => ⟨S640000x67, .f32⟩
  | 50 => ⟨S640000x67, .f32⟩
  | 51 => ⟨S_, .i32⟩
  | 52 => ⟨S640000, .i32⟩
  | 53 => ⟨S640000, .i1⟩
  | 54 => ⟨S_, .i32⟩
  | 55 => ⟨S640000, .i32⟩
  | 56 => ⟨S640000, .i32⟩
  | 57 => ⟨S640000, .i32⟩
  | 58 => ⟨S640000x1, .i32⟩
  | 59 => ⟨S1, .i32⟩
  | 60 => ⟨S_, .i32⟩
  | 61 => ⟨S640000x1, .i32⟩
  | 62 => ⟨S640000x1, .i1⟩
  | 63 => ⟨S1x1, .i32⟩
  | 64 => ⟨S640000x1, .i32⟩
  | 65 => ⟨S640000x1, .i1⟩
  | 66 => ⟨S640000x1, .i1⟩
  | 67 => ⟨S_, .i1⟩
  | 68 => ⟨S640000, .i1⟩
  | 69 => ⟨S640000x67, .f32⟩
  | 70 => ⟨S640000x67, .i1⟩
  | 71 => ⟨S_, .f32⟩
  | 72 => ⟨S640000x67, .f32⟩
  | 73 => ⟨S640000x67, .f32⟩
  | 74 => ⟨S1x145x64, .f32⟩
  | 75 => ⟨S145x64, .f32⟩
  | 76 => ⟨S64x64, .f32⟩
  | 77 => ⟨S64x64, .f32⟩
  | 78 => ⟨S1x64, .f32⟩
  | 79 => ⟨S16x64, .f32⟩
  | 80 => ⟨S1x64, .f32⟩
  | 81 => ⟨S64, .f32⟩
  | 82 => ⟨S1x64, .f32⟩
  | 83 => ⟨S1x64x64, .f32⟩
  | 84 => ⟨S64x64, .f32⟩
  | 85 => ⟨S1x64, .f32⟩
  | 86 => ⟨S64, .f32⟩
  | 87 => ⟨S1x64, .f32⟩
  | 88 => ⟨S1x64x64, .f32⟩
  | 89 => ⟨S64x64, .f32⟩
  | 90 => ⟨S1x64, .f32⟩
  | 91 => ⟨S64, .f32⟩
  | 92 => ⟨S1x64, .f32⟩
  | 93 => ⟨S1x64x1, .f32⟩
  | 94 => ⟨S64x1, .f32⟩
  | 95 => ⟨S640000x128, .f32⟩
  | 96 => ⟨S_, .f32⟩
  | 97 => ⟨S40000x128, .f32⟩
  | 98 => ⟨S640000x1, .i32⟩
  | 99 => ⟨S40000x128, .f32⟩
  | 100 => ⟨S40000x64, .f32⟩
  | 101 => ⟨S40000x3, .f32⟩
  | 102 => ⟨S_, .f32⟩
  | 103 => ⟨S40000x1, .f32⟩
  | 104 => ⟨S40000x1, .f32⟩
  | 105 => ⟨S40000x3, .f32⟩
  | 106 => ⟨S40000x3, .f32⟩
  | 107 => ⟨S40000x128, .f32⟩
  | 108 => ⟨S1x128x64, .f32⟩
  | 109 => ⟨S128x64, .f32⟩
  | 110 => ⟨S40000x64, .f32⟩
  | 111 => ⟨S1x64, .f32⟩
  | 112 => ⟨S64, .f32⟩
  | 113 => ⟨S1x64, .f32⟩
  | 114 => ⟨S40000x64, .f32⟩
  | 115 => ⟨S40000x64, .f32⟩
  | 116 => ⟨S40000x64, .f32⟩
  | 117 => ⟨S40000x64, .f32⟩
  | 118 => ⟨S_, .f32⟩
  | 119 => ⟨S40000x64, .f32⟩
  | 120 => ⟨S40000x64, .f32⟩
  | 121 => ⟨S_, .f32⟩
  | 122 => ⟨S40000x64, .f32⟩
  | 123 => ⟨S40000x64, .f32⟩
  | 124 => ⟨S40000x64, .f32⟩
  | 125 => ⟨S1x64x64, .f32⟩
  | 126 => ⟨S64x64, .f32⟩
  | 127 => ⟨S40000x64, .f32⟩
  | _ => ⟨S40000x64, .f32⟩

abbrev hbmTy0_1 (i : Nat) : BufTy := match i % 128 with
  | 0 => ⟨S1x64, .f32⟩
  | 1 => ⟨S64, .f32⟩
  | 2 => ⟨S1x64, .f32⟩
  | 3 => ⟨S40000x64, .f32⟩
  | 4 => ⟨S40000x64, .f32⟩
  | 5 => ⟨S40000x3, .f32⟩
  | 6 => ⟨S_, .f32⟩
  | 7 => ⟨S64, .f32⟩
  | 8 => ⟨S_, .f32⟩
  | 9 => ⟨S64, .f32⟩
  | 10 => ⟨S64, .f32⟩
  | 11 => ⟨S_, .i32⟩
  | 12 => ⟨S_, .f32⟩
  | 13 => ⟨S64, .f32⟩
  | 14 => ⟨S1x64, .f32⟩
  | 15 => ⟨S_, .f32⟩
  | 16 => ⟨S1x64, .f32⟩
  | 17 => ⟨S1x64, .f32⟩
  | 18 => ⟨S40000x64, .f32⟩
  | 19 => ⟨S40000x64, .f32⟩
  | 20 => ⟨S40000x64, .f32⟩
  | 21 => ⟨S_, .f32⟩
  | 22 => ⟨S_, .f32⟩
  | 23 => ⟨S_, .f32⟩
  | 24 => ⟨S_, .f32⟩
  | 25 => ⟨S64, .f32⟩
  | 26 => ⟨S64, .f32⟩
  | 27 => ⟨S64, .f32⟩
  | 28 => ⟨S_, .f32⟩
  | 29 => ⟨S_, .i1⟩
  | 30 => ⟨S_, .f32⟩
  | 31 => ⟨S_, .f32⟩
  | 32 => ⟨S64, .f32⟩
  | 33 => ⟨S64, .f32⟩
  | 34 => ⟨S1x64, .f32⟩
  | 35 => ⟨S40000x64, .f32⟩
  | 36 => ⟨S40000x64, .f32⟩
  | 37 => ⟨S_, .f32⟩
  | 38 => ⟨S64, .f32⟩
  | 39 => ⟨S64, .f32⟩
  | 40 => ⟨S64, .f32⟩
  | 41 => ⟨S1x64, .f32⟩
  | 42 => ⟨S40000x64, .f32⟩
  | 43 => ⟨S40000x64, .f32⟩
  | 44 => ⟨S1x64, .f32⟩
  | 45 => ⟨S64, .f32⟩
  | 46 => ⟨S1x64, .f32⟩
  | 47 => ⟨S40000x64, .f32⟩
  | 48 => ⟨S40000x64, .f32⟩
  | 49 => ⟨S1x64, .f32⟩
  | 50 => ⟨S64, .f32⟩
  | 51 => ⟨S1x64, .f32⟩
  | 52 => ⟨S40000x64, .f32⟩
  | 53 => ⟨S40000x64, .f32⟩
  | 54 => ⟨S_, .f32⟩
  | 55 => ⟨S40000x64, .f32⟩
  | 56 => ⟨S40000x64, .f32⟩
  | 57 => ⟨S40000x64, .f32⟩
  | 58 => ⟨S40000x67, .f32⟩
  | 59 => ⟨S_, .i32⟩
  | 60 => ⟨S640000, .i32⟩
  | 61 => ⟨S640000, .i1⟩
  | 62 => ⟨S_, .i32⟩
  | 63 => ⟨S640000, .i32⟩
  | 64 => ⟨S640000, .i32⟩
  | 65 => ⟨S640000, .i32⟩
  | 66 => ⟨S640000x1, .i32⟩
  | 67 => ⟨S1, .i32⟩
  | 68 => ⟨S_, .i32⟩
  | 69 => ⟨S640000x1, .i32⟩
  | 70 => ⟨S640000x1, .i1⟩
  | 71 => ⟨S1x1, .i32⟩
  | 72 => ⟨S640000x1, .i32⟩
  | 73 => ⟨S640000x1, .i1⟩
  | 74 => ⟨S640000x1, .i1⟩
  | 75 => ⟨S_, .i1⟩
  | 76 => ⟨S640000, .i1⟩
  | 77 => ⟨S640000x67, .f32⟩
  | 78 => ⟨S640000x67, .i1⟩
  | 79 => ⟨S_, .f32⟩
  | 80 => ⟨S640000x67, .f32⟩
  | 81 => ⟨S640000x67, .f32⟩
  | 82 => ⟨S_, .i32⟩
  | 83 => ⟨S640000, .i32⟩
  | 84 => ⟨S640000, .i1⟩
  | 85 => ⟨S_, .i32⟩
  | 86 => ⟨S640000, .i32⟩
  | 87 => ⟨S640000, .i32⟩
  | 88 => ⟨S640000, .i32⟩
  | 89 => ⟨S640000x1, .i32⟩
  | 90 => ⟨S1, .i32⟩
  | 91 => ⟨S_, .i32⟩
  | 92 => ⟨S640000x1, .i32⟩
  | 93 => ⟨S640000x1, .i1⟩
  | 94 => ⟨S1x1, .i32⟩
  | 95 => ⟨S640000x1, .i32⟩
  | 96 => ⟨S640000x1, .i1⟩
  | 97 => ⟨S640000x1, .i1⟩
  | 98 => ⟨S_, .i1⟩
  | 99 => ⟨S640000, .i1⟩
  | 100 => ⟨S640000x67, .f32⟩
  | 101 => ⟨S640000x67, .i1⟩
  | 102 => ⟨S_, .f32⟩
  | 103 => ⟨S640000x67, .f32⟩
  | 104 => ⟨S640000x67, .f32⟩
  | 105 => ⟨S1x145x64, .f32⟩
  | 106 => ⟨S145x64, .f32⟩
  | 107 => ⟨S64x64, .f32⟩
  | 108 => ⟨S64x64, .f32⟩
  | 109 => ⟨S1x64, .f32⟩
  | 110 => ⟨S16x64, .f32⟩
  | 111 => ⟨S1x64, .f32⟩
  | 112 => ⟨S64, .f32⟩
  | 113 => ⟨S1x64, .f32⟩
  | 114 => ⟨S1x64x64, .f32⟩
  | 115 => ⟨S64x64, .f32⟩
  | 116 => ⟨S1x64, .f32⟩
  | 117 => ⟨S64, .f32⟩
  | 118 => ⟨S1x64, .f32⟩
  | 119 => ⟨S1x64x64, .f32⟩
  | 120 => ⟨S64x64, .f32⟩
  | 121 => ⟨S1x64, .f32⟩
  | 122 => ⟨S64, .f32⟩
  | 123 => ⟨S1x64, .f32⟩
  | 124 => ⟨S1x64x1, .f32⟩
  | 125 => ⟨S64x1, .f32⟩
  | 126 => ⟨S640000x128, .f32⟩
  | 127 => ⟨S_, .f32⟩
  | _ => ⟨S40000x64, .f32⟩

abbrev hbmTy0_2 (i : Nat) : BufTy := match i % 128 with
  | 0 => ⟨S40000x128, .f32⟩
  | 1 => ⟨S640000x1, .i32⟩
  | 2 => ⟨S40000x128, .f32⟩
  | 3 => ⟨S40000x64, .f32⟩
  | 4 => ⟨S40000x3, .f32⟩
  | 5 => ⟨S_, .f32⟩
  | 6 => ⟨S40000x1, .f32⟩
  | 7 => ⟨S40000x1, .f32⟩
  | 8 => ⟨S40000x3, .f32⟩
  | 9 => ⟨S40000x3, .f32⟩
  | 10 => ⟨S40000x128, .f32⟩
  | 11 => ⟨S1x128x64, .f32⟩
  | 12 => ⟨S128x64, .f32⟩
  | 13 => ⟨S40000x64, .f32⟩
  | 14 => ⟨S1x64, .f32⟩
  | 15 => ⟨S64, .f32⟩
  | 16 => ⟨S1x64, .f32⟩
  | 17 => ⟨S40000x64, .f32⟩
  | 18 => ⟨S40000x64, .f32⟩
  | 19 => ⟨S40000x64, .f32⟩
  | 20 => ⟨S40000x64, .f32⟩
  | 21 => ⟨S_, .f32⟩
  | 22 => ⟨S40000x64, .f32⟩
  | 23 => ⟨S40000x64, .f32⟩
  | 24 => ⟨S_, .f32⟩
  | 25 => ⟨S40000x64, .f32⟩
  | 26 => ⟨S40000x64, .f32⟩
  | 27 => ⟨S40000x64, .f32⟩
  | 28 => ⟨S1x64x64, .f32⟩
  | 29 => ⟨S64x64, .f32⟩
  | 30 => ⟨S40000x64, .f32⟩
  | 31 => ⟨S1x64, .f32⟩
  | 32 => ⟨S64, .f32⟩
  | 33 => ⟨S1x64, .f32⟩
  | 34 => ⟨S40000x64, .f32⟩
  | 35 => ⟨S40000x64, .f32⟩
  | 36 => ⟨S40000x3, .f32⟩
  | 37 => ⟨S_, .f32⟩
  | 38 => ⟨S64, .f32⟩
  | 39 => ⟨S_, .f32⟩
  | 40 => ⟨S64, .f32⟩
  | 41 => ⟨S64, .f32⟩
  | 42 => ⟨S_, .i32⟩
  | 43 => ⟨S_, .f32⟩
  | 44 => ⟨S64, .f32⟩
  | 45 => ⟨S1x64, .f32⟩
  | 46 => ⟨S_, .f32⟩
  | 47 => ⟨S1x64, .f32⟩
  | 48 => ⟨S1x64, .f32⟩
  | 49 => ⟨S40000x64, .f32⟩
  | 50 => ⟨S40000x64, .f32⟩
  | 51 => ⟨S40000x64, .f32⟩
  | 52 => ⟨S_, .f32⟩
  | 53 => ⟨S_, .f32⟩
  | 54 => ⟨S_, .f32⟩
  | 55 => ⟨S_, .f32⟩
  | 56 => ⟨S64, .f32⟩
  | 57 => ⟨S64, .f32⟩
  | 58 => ⟨S64, .f32⟩
  | 59 => ⟨S_, .f32⟩
  | 60 => ⟨S_, .i1⟩
  | 61 => ⟨S_, .f32⟩
  | 62 => ⟨S_, .f32⟩
  | 63 => ⟨S64, .f32⟩
  | 64 => ⟨S64, .f32⟩
  | 65 => ⟨S1x64, .f32⟩
  | 66 => ⟨S40000x64, .f32⟩
  | 67 => ⟨S40000x64, .f32⟩
  | 68 => ⟨S_, .f32⟩
  | 69 => ⟨S64, .f32⟩
  | 70 => ⟨S64, .f32⟩
  | 71 => ⟨S64, .f32⟩
  | 72 => ⟨S1x64, .f32⟩
  | 73 => ⟨S40000x64, .f32⟩
  | 74 => ⟨S40000x64, .f32⟩
  | 75 => ⟨S1x64, .f32⟩
  | 76 => ⟨S64, .f32⟩
  | 77 => ⟨S1x64, .f32⟩
  | 78 => ⟨S40000x64, .f32⟩
  | 79 => ⟨S40000x64, .f32⟩
  | 80 => ⟨S1x64, .f32⟩
  | 81 => ⟨S64, .f32⟩
  | 82 => ⟨S1x64, .f32⟩
  | 83 => ⟨S40000x64, .f32⟩
  | 84 => ⟨S40000x64, .f32⟩
  | 85 => ⟨S_, .f32⟩
  | 86 => ⟨S40000x64, .f32⟩
  | 87 => ⟨S40000x64, .f32⟩
  | 88 => ⟨S40000x64, .f32⟩
  | _ => ⟨S40000x64, .f32⟩

abbrev hbmTy (i : Nat) : BufTy := match i / 128 with
  | 0 => hbmTy0_0 i
  | 1 => hbmTy0_1 i
  | 2 => hbmTy0_2 i
  | _ => ⟨S40000x64, .f32⟩

abbrev bufTy : (tb : Table) → Fin (tcTables nBuf tb) → BufTy
  | .hbm, ⟨i, _⟩ => hbmTy i
  | .local _ .vmem, ⟨0, _⟩ => ⟨S6400x67, .f32⟩
  | .local _ .vmem, ⟨1, _⟩ => ⟨S6400x67, .f32⟩
  | .local _ .vmem, ⟨2, _⟩ => ⟨S6400x67, .f32⟩
  | .local _ .vmem, ⟨3, _⟩ => ⟨S6400x67, .f32⟩
  | .local _ .vmem, ⟨4, _⟩ => ⟨S6400x16, .bf16⟩
  | .local _ .vmem, ⟨5, _⟩ => ⟨S6400x16, .bf16⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S16x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S64x1, .f32⟩
  | .local _ .vmem, ⟨16, _⟩ => ⟨S6400x128, .f32⟩
  | .local _ .vmem, ⟨17, _⟩ => ⟨S6400x128, .f32⟩
  | .local _ .vmem, ⟨18, _⟩ => ⟨S6400x67, .f32⟩
  | .local _ .vmem, ⟨19, _⟩ => ⟨S6400x67, .f32⟩
  | .local _ .vmem, ⟨20, _⟩ => ⟨S6400x67, .f32⟩
  | .local _ .vmem, ⟨21, _⟩ => ⟨S6400x67, .f32⟩
  | .local _ .vmem, ⟨22, _⟩ => ⟨S6400x16, .bf16⟩
  | .local _ .vmem, ⟨23, _⟩ => ⟨S6400x16, .bf16⟩
  | .local _ .vmem, ⟨24, _⟩ => ⟨S64x64, .f32⟩
  | .local _ .vmem, ⟨25, _⟩ => ⟨S64x64, .f32⟩
  | .local _ .vmem, ⟨26, _⟩ => ⟨S1x64, .f32⟩
  | .local _ .vmem, ⟨27, _⟩ => ⟨S16x64, .f32⟩
  | .local _ .vmem, ⟨28, _⟩ => ⟨S1x64, .f32⟩
  | .local _ .vmem, ⟨29, _⟩ => ⟨S64x64, .f32⟩
  | .local _ .vmem, ⟨30, _⟩ => ⟨S1x64, .f32⟩
  | .local _ .vmem, ⟨31, _⟩ => ⟨S64x64, .f32⟩
  | .local _ .vmem, ⟨32, _⟩ => ⟨S1x64, .f32⟩
  | .local _ .vmem, ⟨33, _⟩ => ⟨S64x1, .f32⟩
  | .local _ .vmem, ⟨34, _⟩ => ⟨S6400x128, .f32⟩
  | .local _ .vmem, ⟨35, _⟩ => ⟨S6400x128, .f32⟩
  | _, _ => ⟨S40000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_cst_1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v7 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v8 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_cst_2 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_cst_3 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_call2_v0 : Ref sig .tc := ⟨.hbm, 116, rfl⟩
abbrev main_call2_v1 : Ref sig .tc := ⟨.hbm, 117, rfl⟩
abbrev main_call2_cst : Ref sig .tc := ⟨.hbm, 118, rfl⟩
abbrev main_call2_v2 : Ref sig .tc := ⟨.hbm, 119, rfl⟩
abbrev main_call2_v3 : Ref sig .tc := ⟨.hbm, 120, rfl⟩
abbrev main_call2_cst_0 : Ref sig .tc := ⟨.hbm, 121, rfl⟩
abbrev main_call2_v4 : Ref sig .tc := ⟨.hbm, 122, rfl⟩
abbrev main_call2_v5 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_cst_4 : Ref sig .tc := ⟨.hbm, 134, rfl⟩
abbrev main_v59 : Ref sig .tc := ⟨.hbm, 135, rfl⟩
abbrev main_cst_5 : Ref sig .tc := ⟨.hbm, 136, rfl⟩
abbrev main_v60 : Ref sig .tc := ⟨.hbm, 137, rfl⟩
abbrev main_v61 : Ref sig .tc := ⟨.hbm, 138, rfl⟩
abbrev main_c : Ref sig .tc := ⟨.hbm, 139, rfl⟩
abbrev main_call3_cst : Ref sig .tc := ⟨.hbm, 140, rfl⟩
abbrev main_call3_v0 : Ref sig .tc := ⟨.hbm, 141, rfl⟩
abbrev main_call3_v1 : Ref sig .tc := ⟨.hbm, 142, rfl⟩
abbrev main_call3_cst_0 : Ref sig .tc := ⟨.hbm, 143, rfl⟩
abbrev main_call3_v2 : Ref sig .tc := ⟨.hbm, 144, rfl⟩
abbrev main_call3_v3 : Ref sig .tc := ⟨.hbm, 145, rfl⟩
abbrev main_call3_v4 : Ref sig .tc := ⟨.hbm, 146, rfl⟩
abbrev main_call3_v5 : Ref sig .tc := ⟨.hbm, 147, rfl⟩
abbrev main_call3_v6 : Ref sig .tc := ⟨.hbm, 148, rfl⟩
abbrev main_call3_v7 : Ref sig .tc := ⟨.hbm, 149, rfl⟩
abbrev main_call3_cst_1 : Ref sig .tc := ⟨.hbm, 150, rfl⟩
abbrev main_call3_v8 : Ref sig .tc := ⟨.hbm, 151, rfl⟩
abbrev main_call3_cst_2 : Ref sig .tc := ⟨.hbm, 152, rfl⟩
abbrev main_call3_v9 : Ref sig .tc := ⟨.hbm, 153, rfl⟩
abbrev main_call3_v10 : Ref sig .tc := ⟨.hbm, 154, rfl⟩
abbrev main_call3_v11 : Ref sig .tc := ⟨.hbm, 155, rfl⟩
abbrev main_call3_cst_3 : Ref sig .tc := ⟨.hbm, 156, rfl⟩
abbrev main_call3_v12 : Ref sig .tc := ⟨.hbm, 157, rfl⟩
abbrev main_call3_cst_4 : Ref sig .tc := ⟨.hbm, 158, rfl⟩
abbrev main_call3_call0_v0 : Ref sig .tc := ⟨.hbm, 159, rfl⟩
abbrev main_call3_call0_v1 : Ref sig .tc := ⟨.hbm, 160, rfl⟩
abbrev main_v62 : Ref sig .tc := ⟨.hbm, 161, rfl⟩
abbrev main_v63 : Ref sig .tc := ⟨.hbm, 162, rfl⟩
abbrev main_v64 : Ref sig .tc := ⟨.hbm, 163, rfl⟩
abbrev main_v65 : Ref sig .tc := ⟨.hbm, 164, rfl⟩
abbrev main_cst_6 : Ref sig .tc := ⟨.hbm, 165, rfl⟩
abbrev main_v66 : Ref sig .tc := ⟨.hbm, 166, rfl⟩
abbrev main_v67 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_call4_cst : Ref sig .tc := ⟨.hbm, 182, rfl⟩
abbrev main_call4_v0 : Ref sig .tc := ⟨.hbm, 183, rfl⟩
abbrev main_v82 : Ref sig .tc := ⟨.hbm, 184, rfl⟩
abbrev main_v83 : Ref sig .tc := ⟨.hbm, 185, rfl⟩
abbrev main_v84 : Ref sig .tc := ⟨.hbm, 186, rfl⟩
abbrev main_call5_c : Ref sig .tc := ⟨.hbm, 187, rfl⟩
abbrev main_call5_v0 : Ref sig .tc := ⟨.hbm, 188, rfl⟩
abbrev main_call5_v1 : Ref sig .tc := ⟨.hbm, 189, rfl⟩
abbrev main_call5_c_0 : Ref sig .tc := ⟨.hbm, 190, rfl⟩
abbrev main_call5_v2 : Ref sig .tc := ⟨.hbm, 191, rfl⟩
abbrev main_call5_v3 : Ref sig .tc := ⟨.hbm, 192, rfl⟩
abbrev main_call5_v4 : Ref sig .tc := ⟨.hbm, 193, rfl⟩
abbrev main_call5_v5 : Ref sig .tc := ⟨.hbm, 194, rfl⟩
abbrev main_call5_c_1 : Ref sig .tc := ⟨.hbm, 195, rfl⟩
abbrev main_call5_c_2 : Ref sig .tc := ⟨.hbm, 196, rfl⟩
abbrev main_call5_v6 : Ref sig .tc := ⟨.hbm, 197, rfl⟩
abbrev main_call5_v7 : Ref sig .tc := ⟨.hbm, 198, rfl⟩
abbrev main_call5_v8 : Ref sig .tc := ⟨.hbm, 199, rfl⟩
abbrev main_call5_v9 : Ref sig .tc := ⟨.hbm, 200, rfl⟩
abbrev main_call5_v10 : Ref sig .tc := ⟨.hbm, 201, rfl⟩
abbrev main_call5_v11 : Ref sig .tc := ⟨.hbm, 202, rfl⟩
abbrev main_call5_c_3 : Ref sig .tc := ⟨.hbm, 203, rfl⟩
abbrev main_call5_v12 : Ref sig .tc := ⟨.hbm, 204, rfl⟩
abbrev main_call5_v13 : Ref sig .tc := ⟨.hbm, 205, rfl⟩
abbrev main_call5_v14 : Ref sig .tc := ⟨.hbm, 206, rfl⟩
abbrev main_call5_cst : Ref sig .tc := ⟨.hbm, 207, rfl⟩
abbrev main_call5_v15 : Ref sig .tc := ⟨.hbm, 208, rfl⟩
abbrev main_v85 : Ref sig .tc := ⟨.hbm, 209, rfl⟩
abbrev main_call6_c : Ref sig .tc := ⟨.hbm, 210, rfl⟩
abbrev main_call6_v0 : Ref sig .tc := ⟨.hbm, 211, rfl⟩
abbrev main_call6_v1 : Ref sig .tc := ⟨.hbm, 212, rfl⟩
abbrev main_call6_c_0 : Ref sig .tc := ⟨.hbm, 213, rfl⟩
abbrev main_call6_v2 : Ref sig .tc := ⟨.hbm, 214, rfl⟩
abbrev main_call6_v3 : Ref sig .tc := ⟨.hbm, 215, rfl⟩
abbrev main_call6_v4 : Ref sig .tc := ⟨.hbm, 216, rfl⟩
abbrev main_call6_v5 : Ref sig .tc := ⟨.hbm, 217, rfl⟩
abbrev main_call6_c_1 : Ref sig .tc := ⟨.hbm, 218, rfl⟩
abbrev main_call6_c_2 : Ref sig .tc := ⟨.hbm, 219, rfl⟩
abbrev main_call6_v6 : Ref sig .tc := ⟨.hbm, 220, rfl⟩
abbrev main_call6_v7 : Ref sig .tc := ⟨.hbm, 221, rfl⟩
abbrev main_call6_v8 : Ref sig .tc := ⟨.hbm, 222, rfl⟩
abbrev main_call6_v9 : Ref sig .tc := ⟨.hbm, 223, rfl⟩
abbrev main_call6_v10 : Ref sig .tc := ⟨.hbm, 224, rfl⟩
abbrev main_call6_v11 : Ref sig .tc := ⟨.hbm, 225, rfl⟩
abbrev main_call6_c_3 : Ref sig .tc := ⟨.hbm, 226, rfl⟩
abbrev main_call6_v12 : Ref sig .tc := ⟨.hbm, 227, rfl⟩
abbrev main_call6_v13 : Ref sig .tc := ⟨.hbm, 228, rfl⟩
abbrev main_call6_v14 : Ref sig .tc := ⟨.hbm, 229, rfl⟩
abbrev main_call6_cst : Ref sig .tc := ⟨.hbm, 230, rfl⟩
abbrev main_call6_v15 : Ref sig .tc := ⟨.hbm, 231, rfl⟩
abbrev main_v86 : Ref sig .tc := ⟨.hbm, 232, rfl⟩
abbrev main_v87 : Ref sig .tc := ⟨.hbm, 233, rfl⟩
abbrev main_v88 : Ref sig .tc := ⟨.hbm, 234, rfl⟩
abbrev main_v89 : Ref sig .tc := ⟨.hbm, 235, rfl⟩
abbrev main_v90 : Ref sig .tc := ⟨.hbm, 236, rfl⟩
abbrev main_v91 : Ref sig .tc := ⟨.hbm, 237, rfl⟩
abbrev main_v92 : Ref sig .tc := ⟨.hbm, 238, rfl⟩
abbrev main_v93 : Ref sig .tc := ⟨.hbm, 239, rfl⟩
abbrev main_v94 : Ref sig .tc := ⟨.hbm, 240, rfl⟩
abbrev main_v95 : Ref sig .tc := ⟨.hbm, 241, rfl⟩
abbrev main_v96 : Ref sig .tc := ⟨.hbm, 242, rfl⟩
abbrev main_v97 : Ref sig .tc := ⟨.hbm, 243, rfl⟩
abbrev main_v98 : Ref sig .tc := ⟨.hbm, 244, rfl⟩
abbrev main_v99 : Ref sig .tc := ⟨.hbm, 245, rfl⟩
abbrev main_v100 : Ref sig .tc := ⟨.hbm, 246, rfl⟩
abbrev main_v101 : Ref sig .tc := ⟨.hbm, 247, rfl⟩
abbrev main_v102 : Ref sig .tc := ⟨.hbm, 248, rfl⟩
abbrev main_v103 : Ref sig .tc := ⟨.hbm, 249, rfl⟩
abbrev main_v104 : Ref sig .tc := ⟨.hbm, 250, rfl⟩
abbrev main_v105 : Ref sig .tc := ⟨.hbm, 251, rfl⟩
abbrev main_v106 : Ref sig .tc := ⟨.hbm, 252, rfl⟩
abbrev main_v107 : Ref sig .tc := ⟨.hbm, 253, rfl⟩
abbrev main_v108 : Ref sig .tc := ⟨.hbm, 254, rfl⟩
abbrev main_cst_7 : Ref sig .tc := ⟨.hbm, 255, rfl⟩
abbrev main_v109 : Ref sig .tc := ⟨.hbm, 256, rfl⟩
abbrev main_v110 : Ref sig .tc := ⟨.hbm, 257, rfl⟩
abbrev main_v111 : Ref sig .tc := ⟨.hbm, 258, rfl⟩
abbrev main_v112 : Ref sig .tc := ⟨.hbm, 259, rfl⟩
abbrev main_v113 : Ref sig .tc := ⟨.hbm, 260, rfl⟩
abbrev main_cst_8 : Ref sig .tc := ⟨.hbm, 261, rfl⟩
abbrev main_v114 : Ref sig .tc := ⟨.hbm, 262, rfl⟩
abbrev main_v115 : Ref sig .tc := ⟨.hbm, 263, rfl⟩
abbrev main_v116 : Ref sig .tc := ⟨.hbm, 264, rfl⟩
abbrev main_v117 : Ref sig .tc := ⟨.hbm, 265, rfl⟩
abbrev main_v118 : Ref sig .tc := ⟨.hbm, 266, rfl⟩
abbrev main_v119 : Ref sig .tc := ⟨.hbm, 267, rfl⟩
abbrev main_v120 : Ref sig .tc := ⟨.hbm, 268, rfl⟩
abbrev main_v121 : Ref sig .tc := ⟨.hbm, 269, rfl⟩
abbrev main_v122 : Ref sig .tc := ⟨.hbm, 270, rfl⟩
abbrev main_v123 : Ref sig .tc := ⟨.hbm, 271, rfl⟩
abbrev main_v124 : Ref sig .tc := ⟨.hbm, 272, rfl⟩
abbrev main_v125 : Ref sig .tc := ⟨.hbm, 273, rfl⟩
abbrev main_v126 : Ref sig .tc := ⟨.hbm, 274, rfl⟩
abbrev main_call7_v0 : Ref sig .tc := ⟨.hbm, 275, rfl⟩
abbrev main_call7_v1 : Ref sig .tc := ⟨.hbm, 276, rfl⟩
abbrev main_call7_cst : Ref sig .tc := ⟨.hbm, 277, rfl⟩
abbrev main_call7_v2 : Ref sig .tc := ⟨.hbm, 278, rfl⟩
abbrev main_call7_v3 : Ref sig .tc := ⟨.hbm, 279, rfl⟩
abbrev main_call7_cst_0 : Ref sig .tc := ⟨.hbm, 280, rfl⟩
abbrev main_call7_v4 : Ref sig .tc := ⟨.hbm, 281, rfl⟩
abbrev main_call7_v5 : Ref sig .tc := ⟨.hbm, 282, rfl⟩
abbrev main_v127 : Ref sig .tc := ⟨.hbm, 283, rfl⟩
abbrev main_v128 : Ref sig .tc := ⟨.hbm, 284, rfl⟩
abbrev main_v129 : Ref sig .tc := ⟨.hbm, 285, rfl⟩
abbrev main_v130 : Ref sig .tc := ⟨.hbm, 286, rfl⟩
abbrev main_v131 : Ref sig .tc := ⟨.hbm, 287, rfl⟩
abbrev main_v132 : Ref sig .tc := ⟨.hbm, 288, rfl⟩
abbrev main_v133 : Ref sig .tc := ⟨.hbm, 289, rfl⟩
abbrev main_v134 : Ref sig .tc := ⟨.hbm, 290, rfl⟩
abbrev main_v135 : Ref sig .tc := ⟨.hbm, 291, rfl⟩
abbrev main_v136 : Ref sig .tc := ⟨.hbm, 292, rfl⟩
abbrev main_cst_9 : Ref sig .tc := ⟨.hbm, 293, rfl⟩
abbrev main_v137 : Ref sig .tc := ⟨.hbm, 294, rfl⟩
abbrev main_cst_10 : Ref sig .tc := ⟨.hbm, 295, rfl⟩
abbrev main_v138 : Ref sig .tc := ⟨.hbm, 296, rfl⟩
abbrev main_v139 : Ref sig .tc := ⟨.hbm, 297, rfl⟩
abbrev main_c_11 : Ref sig .tc := ⟨.hbm, 298, rfl⟩
abbrev main_call8_cst : Ref sig .tc := ⟨.hbm, 299, rfl⟩
abbrev main_call8_v0 : Ref sig .tc := ⟨.hbm, 300, rfl⟩
abbrev main_call8_v1 : Ref sig .tc := ⟨.hbm, 301, rfl⟩
abbrev main_call8_cst_0 : Ref sig .tc := ⟨.hbm, 302, rfl⟩
abbrev main_call8_v2 : Ref sig .tc := ⟨.hbm, 303, rfl⟩
abbrev main_call8_v3 : Ref sig .tc := ⟨.hbm, 304, rfl⟩
abbrev main_call8_v4 : Ref sig .tc := ⟨.hbm, 305, rfl⟩
abbrev main_call8_v5 : Ref sig .tc := ⟨.hbm, 306, rfl⟩
abbrev main_call8_v6 : Ref sig .tc := ⟨.hbm, 307, rfl⟩
abbrev main_call8_v7 : Ref sig .tc := ⟨.hbm, 308, rfl⟩
abbrev main_call8_cst_1 : Ref sig .tc := ⟨.hbm, 309, rfl⟩
abbrev main_call8_v8 : Ref sig .tc := ⟨.hbm, 310, rfl⟩
abbrev main_call8_cst_2 : Ref sig .tc := ⟨.hbm, 311, rfl⟩
abbrev main_call8_v9 : Ref sig .tc := ⟨.hbm, 312, rfl⟩
abbrev main_call8_v10 : Ref sig .tc := ⟨.hbm, 313, rfl⟩
abbrev main_call8_v11 : Ref sig .tc := ⟨.hbm, 314, rfl⟩
abbrev main_call8_cst_3 : Ref sig .tc := ⟨.hbm, 315, rfl⟩
abbrev main_call8_v12 : Ref sig .tc := ⟨.hbm, 316, rfl⟩
abbrev main_call8_cst_4 : Ref sig .tc := ⟨.hbm, 317, rfl⟩
abbrev main_call8_call0_v0 : Ref sig .tc := ⟨.hbm, 318, rfl⟩
abbrev main_call8_call0_v1 : Ref sig .tc := ⟨.hbm, 319, rfl⟩
abbrev main_v140 : Ref sig .tc := ⟨.hbm, 320, rfl⟩
abbrev main_v141 : Ref sig .tc := ⟨.hbm, 321, rfl⟩
abbrev main_v142 : Ref sig .tc := ⟨.hbm, 322, rfl⟩
abbrev main_v143 : Ref sig .tc := ⟨.hbm, 323, rfl⟩
abbrev main_cst_12 : Ref sig .tc := ⟨.hbm, 324, rfl⟩
abbrev main_v144 : Ref sig .tc := ⟨.hbm, 325, rfl⟩
abbrev main_v145 : Ref sig .tc := ⟨.hbm, 326, rfl⟩
abbrev main_v146 : Ref sig .tc := ⟨.hbm, 327, rfl⟩
abbrev main_v147 : Ref sig .tc := ⟨.hbm, 328, rfl⟩
abbrev main_v148 : Ref sig .tc := ⟨.hbm, 329, rfl⟩
abbrev main_v149 : Ref sig .tc := ⟨.hbm, 330, rfl⟩
abbrev main_v150 : Ref sig .tc := ⟨.hbm, 331, rfl⟩
abbrev main_v151 : Ref sig .tc := ⟨.hbm, 332, rfl⟩
abbrev main_v152 : Ref sig .tc := ⟨.hbm, 333, rfl⟩
abbrev main_v153 : Ref sig .tc := ⟨.hbm, 334, rfl⟩
abbrev main_v154 : Ref sig .tc := ⟨.hbm, 335, rfl⟩
abbrev main_v155 : Ref sig .tc := ⟨.hbm, 336, rfl⟩
abbrev main_v156 : Ref sig .tc := ⟨.hbm, 337, rfl⟩
abbrev main_v157 : Ref sig .tc := ⟨.hbm, 338, rfl⟩
abbrev main_v158 : Ref sig .tc := ⟨.hbm, 339, rfl⟩
abbrev main_v159 : Ref sig .tc := ⟨.hbm, 340, rfl⟩
abbrev main_call9_cst : Ref sig .tc := ⟨.hbm, 341, rfl⟩
abbrev main_call9_v0 : Ref sig .tc := ⟨.hbm, 342, rfl⟩
abbrev main_v160 : Ref sig .tc := ⟨.hbm, 343, rfl⟩
abbrev main_v161 : Ref sig .tc := ⟨.hbm, 344, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg12_0 : Ref sig .tc := ⟨.vmem, 33, rfl⟩
abbrev cc1_stg13_0 : Ref sig .tc := ⟨.vmem, 34, rfl⟩
abbrev cc1_stg13_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem12_0 : DmaSem sig := 33
abbrev cc1_sem13_0 : DmaSem sig := 34
abbrev cc1_sem13_1 : DmaSem sig := 35

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x67 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x67 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S6400x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x67 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x67 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x16 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S6400x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  bcast_S_S40000x64 : S_.BroadcastsInDim S40000x64 (![] : Fin 0 → Fin S40000x64.rank)
  bcast_S_S640000x1 : S_.BroadcastsInDim S640000x1 (![] : Fin 0 → Fin S640000x1.rank)
  bcast_S_S40000x1 : S_.BroadcastsInDim S40000x1 (![] : Fin 0 → Fin S40000x1.rank)
  bcast_S640000_S640000x1_0 : S640000.BroadcastsInDim S640000x1 (![0] : Fin 1 → Fin S640000x1.rank)
  bitsLt_bf16_f32 : FTy.bits .bf16 < FTy.bits .f32
  concatenates_S40000x64_S40000x3_S40000x67_d1 : Shape.Concatenates [S40000x64, S40000x3] S40000x67 1
  bcast_S_S640000 : S_.BroadcastsInDim S640000 (![] : Fin 0 → Fin S640000.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x67_0 : S640000.BroadcastsInDim S640000x67 (![0] : Fin 1 → Fin S640000x67.rank)
  bcast_S_S640000x67 : S_.BroadcastsInDim S640000x67 (![] : Fin 0 → Fin S640000x67.rank)
  slices_S2x145x64_S1x145x64_0_0_0 : S2x145x64.Slices ![0, 0, 0] S1x145x64
  shapeCasts_S1x145x64_S145x64 : S1x145x64.ShapeCasts S145x64
  slices_S145x64_S64x64_0_0 : S145x64.Slices ![0, 0] S64x64
  slices_S145x64_S64x64_64_0 : S145x64.Slices ![64, 0] S64x64
  slices_S145x64_S1x64_128_0 : S145x64.Slices ![128, 0] S1x64
  slices_S145x64_S16x64_129_0 : S145x64.Slices ![129, 0] S16x64
  slices_S2x64_S1x64_0_0 : S2x64.Slices ![0, 0] S1x64
  shapeCasts_S1x64_S64 : S1x64.ShapeCasts S64
  shapeCasts_S64_S1x64 : S64.ShapeCasts S1x64
  slices_S2x64x64_S1x64x64_0_0_0 : S2x64x64.Slices ![0, 0, 0] S1x64x64
  shapeCasts_S1x64x64_S64x64 : S1x64x64.ShapeCasts S64x64
  slices_S2x64x1_S1x64x1_0_0_0 : S2x64x1.Slices ![0, 0, 0] S1x64x1
  shapeCasts_S1x64x1_S64x1 : S1x64x1.ShapeCasts S64x1
  inb_S6400x67_S6400x64_0_0 : ∀ a, (![0, 0] : Fin 2 → Nat) a + S6400x64.size a ≤ S6400x67.size a
  h_S6400x64 : 0 < S6400x64.numel
  shapeCasts_S6400x64_S6400x64 : S6400x64.ShapeCasts S6400x64
  inb_S6400x67_S6400x3_0_64 : ∀ a, (![0, 64] : Fin 2 → Nat) a + S6400x3.size a ≤ S6400x67.size a
  h_S6400x3 : 0 < S6400x3.numel
  shapeCasts_S6400x3_S6400x3 : S6400x3.ShapeCasts S6400x3
  reduces_S6400x3_S6400 : S6400x3.Reduces [1] S6400
  shapeCasts_S6400_S6400x1 : S6400.ShapeCasts S6400x1
  broadcasts_S6400x1_S6400x3 : S6400x1.Broadcasts S6400x3
  inb_S6400x16_S6400x16_0_0 : ∀ a, (![0, 0] : Fin 2 → Nat) a + S6400x16.size a ≤ S6400x16.size a
  h_S6400x16 : 0 < S6400x16.numel
  shapeCasts_S6400x16_S6400x16 : S6400x16.ShapeCasts S6400x16
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S6400x1_S6400x64 : S6400x1.Broadcasts S6400x64
  broadcasts_S1x64_S6400x64 : S1x64.Broadcasts S6400x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  concatenates_S6400x64_S6400x3_S6400x61_S6400x128_d1 : Shape.Concatenates [S6400x64, S6400x3, S6400x61] S6400x128 1
  inb_S6400x128_S6400x128_0_0 : ∀ a, (![0, 0] : Fin 2 → Nat) a + S6400x128.size a ≤ S6400x128.size a
  h_S6400x128 : 0 < S6400x128.numel
  bcast_S_S40000x128 : S_.BroadcastsInDim S40000x128 (![] : Fin 0 → Fin S40000x128.rank)
  slices_S40000x128_S40000x64_0_0 : S40000x128.Slices ![0, 0] S40000x64
  slices_S40000x128_S40000x3_0_64 : S40000x128.Slices ![0, 64] S40000x3
  bcast_S40000x1_S40000x3_0_1 : S40000x1.BroadcastsInDim S40000x3 (![0, 1] : Fin 2 → Fin S40000x3.rank)
  concatenates_S40000x64_S40000x64_S40000x128_d1 : Shape.Concatenates [S40000x64, S40000x64] S40000x128 1
  slices_S2x128x64_S1x128x64_0_0_0 : S2x128x64.Slices ![0, 0, 0] S1x128x64
  shapeCasts_S1x128x64_S128x64 : S1x128x64.ShapeCasts S128x64
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  reducesTo_S40000x64_S64_d0 : S40000x64.ReducesTo [0] S64
  bcast_S_S64 : S_.BroadcastsInDim S64 (![] : Fin 0 → Fin S64.rank)
  bcast_S_S1x64 : S_.BroadcastsInDim S1x64 (![] : Fin 0 → Fin S1x64.rank)
  slices_S2x145x64_S1x145x64_1_0_0 : S2x145x64.Slices ![1, 0, 0] S1x145x64
  slices_S2x64_S1x64_1_0 : S2x64.Slices ![1, 0] S1x64
  slices_S2x64x64_S1x64x64_1_0_0 : S2x64x64.Slices ![1, 0, 0] S1x64x64
  slices_S2x64x1_S1x64x1_1_0_0 : S2x64x1.Slices ![1, 0, 0] S1x64x1
  slices_S2x128x64_S1x128x64_1_0_0 : S2x128x64.Slices ![1, 0, 0] S1x128x64
  scatter_S40000x1_S640000x1_S640000x1_1_0_0_1_wf : ScatterDims.WF S40000x1 S640000x1 S640000x1 [1] [0] [0] 1
  gather_S40000x67_S640000x1_S640000x67_1_0_n_n_0_1_167_wf : GatherDims.WF S40000x67 S640000x1 S640000x67 [1] [0] [] [0] [] 1 ![1, 67]
  dot_S6400x64_S64x64_S6400x64_1_0_0_1_n_n_wf : DotDims.WF S6400x64 S64x64 S6400x64 [1] [0] [0] [1] [] []
  dot_S6400x16_S16x64_S6400x64_1_0_0_1_n_n_wf : DotDims.WF S6400x16 S16x64 S6400x64 [1] [0] [0] [1] [] []
  dot_S6400x64_S64x1_S6400x1_1_0_0_1_n_n_wf : DotDims.WF S6400x64 S64x1 S6400x1 [1] [0] [0] [1] [] []
  scatter_S40000x128_S640000x1_S640000x128_1_0_0_1_wf : ScatterDims.WF S40000x128 S640000x1 S640000x128 [1] [0] [0] 1
  dot_S40000x128_S128x64_S40000x64_1_0_0_1_n_n_wf : DotDims.WF S40000x128 S128x64 S40000x64 [1] [0] [0] [1] [] []
  dot_S40000x64_S64x64_S40000x64_1_0_0_1_n_n_wf : DotDims.WF S40000x64 S64x64 S40000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x67.size a ≤ S640000x67.size a
  hwx0_0 : ∀ i : grid0.Coords, EltTy.bits .f32 = 32 ∨ (Rect.block (s := S640000x67) S6400x67.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x67.size a ≤ S640000x67.size a
  hwx0_1 : ∀ i : grid0.Coords, EltTy.bits .f32 = 32 ∨ (Rect.block (s := S640000x67) S6400x67.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x16.size a ≤ S640000x16.size a
  hwx0_2 : ∀ i : grid0.Coords, EltTy.bits .bf16 = 32 ∨ (Rect.block (s := S640000x16) S6400x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x64.size a ≤ S16x64.size a
  hwx0_6 : ∀ i : grid0.Coords, EltTy.bits .f32 = 32 ∨ (Rect.block (s := S16x64) S16x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x1.size a ≤ S64x1.size a
  hwx0_12 : ∀ i : grid0.Coords, EltTy.bits .f32 = 32 ∨ (Rect.block (s := S64x1) S64x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S6400x128.size a ≤ S640000x128.size a
  hwx0_13 : ∀ i : grid0.Coords, EltTy.bits .f32 = 32 ∨ (Rect.block (s := S640000x128) S6400x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x67.size a ≤ S640000x67.size a
  hwx1_0 : ∀ i : grid1.Coords, EltTy.bits .f32 = 32 ∨ (Rect.block (s := S640000x67) S6400x67.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x67.size a ≤ S640000x67.size a
  hwx1_1 : ∀ i : grid1.Coords, EltTy.bits .f32 = 32 ∨ (Rect.block (s := S640000x67) S6400x67.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x16.size a ≤ S640000x16.size a
  hwx1_2 : ∀ i : grid1.Coords, EltTy.bits .bf16 = 32 ∨ (Rect.block (s := S640000x16) S6400x16.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x64.size a ≤ S16x64.size a
  hwx1_6 : ∀ i : grid1.Coords, EltTy.bits .f32 = 32 ∨ (Rect.block (s := S16x64) S16x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x64.size a ≤ S64x64.size a
  hwx1_10 : ∀ i : grid1.Coords, EltTy.bits .f32 = 32 ∨ (Rect.block (s := S64x64) S64x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S64x1.size a ≤ S64x1.size a
  hwx1_12 : ∀ i : grid1.Coords, EltTy.bits .f32 = 32 ∨ (Rect.block (s := S64x1) S64x1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S6400x128.size a ≤ S640000x128.size a
  hwx1_13 : ∀ i : grid1.Coords, EltTy.bits .f32 = 32 ∨ (Rect.block (s := S640000x128) S6400x128.size (cc1_transform_13 i) (hinb1_13 i)).WholeWords (EltTy.packing .f32)

variable [Facts₀]

def scatter_S40000x1_S640000x1_S640000x1_1_0_0_1 : ScatterDims S40000x1 S640000x1 S640000x1 where
  updateWindowDims := [1]
  insertedWindowDims := [0]
  scatterDimsToOperandDims := [0]
  indexVectorDim := 1
  wf := scatter_S40000x1_S640000x1_S640000x1_1_0_0_1_wf
def gather_S40000x67_S640000x1_S640000x67_1_0_n_n_0_1_167 : GatherDims S40000x67 S640000x1 S640000x67 where
  offsetDims := [1]
  collapsedSliceDims := [0]
  operandBatchingDims := []
  startIndicesBatchingDims := []
  startIndexMap := [0]
  indexVectorDim := 1
  sliceSizes := ![1, 67]
  wf := gather_S40000x67_S640000x1_S640000x67_1_0_n_n_0_1_167_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def dot_S6400x16_S16x64_S6400x64_1_0_0_1_n_n : DotDims S6400x16 S16x64 S6400x64 where
  lhsContracting := [1]
  rhsContracting := [0]
  lhsNonContracting := [0]
  rhsNonContracting := [1]
  lhsBatch := []
  rhsBatch := []
  wf := dot_S6400x16_S16x64_S6400x64_1_0_0_1_n_n_wf
def dot_S6400x64_S64x1_S6400x1_1_0_0_1_n_n : DotDims S6400x64 S64x1 S6400x1 where
  lhsContracting := [1]
  rhsContracting := [0]
  lhsNonContracting := [0]
  rhsNonContracting := [1]
  lhsBatch := []
  rhsBatch := []
  wf := dot_S6400x64_S64x1_S6400x1_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf
def dot_S40000x64_S64x64_S40000x64_1_0_0_1_n_n : DotDims S40000x64 S64x64 S40000x64 where
  lhsContracting := [1]
  rhsContracting := [0]
  lhsNonContracting := [0]
  rhsNonContracting := [1]
  lhsBatch := []
  rhsBatch := []
  wf := dot_S40000x64_S64x64_S40000x64_1_0_0_1_n_n_wf

abbrev win0_0 : Pipeline.Window sig grid0 :=
  Pipeline.Window.ofSpec (Memref.whole main_v7) S6400x67.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S6400x67.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S6400x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S16x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v27) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v29) S64x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v30) S6400x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v85) S6400x67.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v86) S6400x67.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S6400x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v89) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v90) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v91) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v92) S16x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v95) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v97) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v100) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v102) S64x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v105) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v107) S64x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v108) S6400x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S40000x64 : Shape := ⟨2, ![40000, 64]⟩
abbrev S40000x3 : Shape := ⟨2, ![40000, 3]⟩
abbrev S640000x16 : Shape := ⟨2, ![640000, 16]⟩
abbrev S640000 : Shape := ⟨1, ![640000]⟩
abbrev S2x145x64 : Shape := ⟨3, ![2, 145, 64]⟩
abbrev S2x64 : Shape := ⟨2, ![2, 64]⟩
abbrev S2x64x64 : Shape := ⟨3, ![2, 64, 64]⟩
abbrev S2x64x1 : Shape := ⟨3, ![2, 64, 1]⟩
abbrev S2x128x64 : Shape := ⟨3, ![2, 128, 64]⟩
abbrev S_ : Shape := ⟨0, ![]⟩
abbrev S640000x1 : Shape := ⟨2, ![640000, 1]⟩
abbrev S640000x3 : Shape := ⟨2, ![640000, 3]⟩
abbrev S640000x64 : Shape := ⟨2, ![640000, 64]⟩
abbrev S640000x145 : Shape := ⟨2, ![640000, 145]⟩
abbrev S1x145x64 : Shape := ⟨3, ![1, 145, 64]⟩
abbrev S145x64 : Shape := ⟨2, ![145, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S1x64x1 : Shape := ⟨3, ![1, 64, 1]⟩
abbrev S64x1 : Shape := ⟨2, ![64, 1]⟩
abbrev S40000x1 : Shape := ⟨2, ![40000, 1]⟩
abbrev S40000x128 : Shape := ⟨2, ![40000, 128]⟩
abbrev S1x128x64 : Shape := ⟨3, ![1, 128, 64]⟩
abbrev S128x64 : Shape := ⟨2, ![128, 64]⟩

abbrev nBuf : Space → Nat
  | .hbm => 422
  | .vmem => 0
  | .smem => 0
  | _ => 0

abbrev hbmTy0_0 (i : Nat) : BufTy := match i % 128 with
  | 0 => ⟨S40000x64, .f32⟩
  | 1 => ⟨S40000x3, .f32⟩
  | 2 => ⟨S640000x16, .f32⟩
  | 3 => ⟨S640000, .i32⟩
  | 4 => ⟨S640000, .i32⟩
  | 5 => ⟨S2x145x64, .f32⟩
  | 6 => ⟨S2x64, .f32⟩
  | 7 => ⟨S2x64x64, .f32⟩
  | 8 => ⟨S2x64, .f32⟩
  | 9 => ⟨S2x64x64, .f32⟩
  | 10 => ⟨S2x64, .f32⟩
  | 11 => ⟨S2x64x1, .f32⟩
  | 12 => ⟨S2x128x64, .f32⟩
  | 13 => ⟨S2x64, .f32⟩
  | 14 => ⟨S2x64x64, .f32⟩
  | 15 => ⟨S2x64, .f32⟩
  | 16 => ⟨S2x64, .f32⟩
  | 17 => ⟨S2x64, .f32⟩
  | 18 => ⟨S_, .f32⟩
  | 19 => ⟨S40000x64, .f32⟩
  | 20 => ⟨S_, .f32⟩
  | 21 => ⟨S640000x1, .f32⟩
  | 22 => ⟨S_, .i32⟩
  | 23 => ⟨S640000, .i32⟩
  | 24 => ⟨S640000, .i1⟩
  | 25 => ⟨S_, .i32⟩
  | 26 => ⟨S640000, .i32⟩
  | 27 => ⟨S640000, .i32⟩
  | 28 => ⟨S640000, .i32⟩
  | 29 => ⟨S640000x1, .i32⟩
  | 30 => ⟨S640000x3, .f32⟩
  | 31 => ⟨S_, .i32⟩
  | 32 => ⟨S640000, .i32⟩
  | 33 => ⟨S640000, .i1⟩
  | 34 => ⟨S_, .i32⟩
  | 35 => ⟨S640000, .i32⟩
  | 36 => ⟨S640000, .i32⟩
  | 37 => ⟨S640000, .i32⟩
  | 38 => ⟨S640000x1, .i32⟩
  | 39 => ⟨S640000x3, .f32⟩
  | 40 => ⟨S640000x3, .f32⟩
  | 41 => ⟨S640000x3, .f32⟩
  | 42 => ⟨S_, .f32⟩
  | 43 => ⟨S640000, .f32⟩
  | 44 => ⟨S640000x1, .f32⟩
  | 45 => ⟨S640000x1, .f32⟩
  | 46 => ⟨S_, .f32⟩
  | 47 => ⟨S640000x1, .f32⟩
  | 48 => ⟨S640000x1, .f32⟩
  | 49 => ⟨S640000x3, .f32⟩
  | 50 => ⟨S640000x3, .f32⟩
  | 51 => ⟨S_, .i32⟩
  | 52 => ⟨S640000, .i32⟩
  | 53 => ⟨S640000, .i1⟩
  | 54 => ⟨S_, .i32⟩
  | 55 => ⟨S640000, .i32⟩
  | 56 => ⟨S640000, .i32⟩
  | 57 => ⟨S640000, .i32⟩
  | 58 => ⟨S640000x1, .i32⟩
  | 59 => ⟨S640000x64, .f32⟩
  | 60 => ⟨S_, .i32⟩
  | 61 => ⟨S640000, .i32⟩
  | 62 => ⟨S640000, .i1⟩
  | 63 => ⟨S_, .i32⟩
  | 64 => ⟨S640000, .i32⟩
  | 65 => ⟨S640000, .i32⟩
  | 66 => ⟨S640000, .i32⟩
  | 67 => ⟨S640000x1, .i32⟩
  | 68 => ⟨S640000x64, .f32⟩
  | 69 => ⟨S640000x145, .f32⟩
  | 70 => ⟨S1x145x64, .f32⟩
  | 71 => ⟨S145x64, .f32⟩
  | 72 => ⟨S640000x64, .f32⟩
  | 73 => ⟨S1x64, .f32⟩
  | 74 => ⟨S64, .f32⟩
  | 75 => ⟨S1x64, .f32⟩
  | 76 => ⟨S640000x64, .f32⟩
  | 77 => ⟨S640000x64, .f32⟩
  | 78 => ⟨S640000x64, .f32⟩
  | 79 => ⟨S640000x64, .f32⟩
  | 80 => ⟨S_, .f32⟩
  | 81 => ⟨S640000x64, .f32⟩
  | 82 => ⟨S640000x64, .f32⟩
  | 83 => ⟨S_, .f32⟩
  | 84 => ⟨S640000x64, .f32⟩
  | 85 => ⟨S640000x64, .f32⟩
  | 86 => ⟨S640000x64, .f32⟩
  | 87 => ⟨S1x64x64, .f32⟩
  | 88 => ⟨S64x64, .f32⟩
  | 89 => ⟨S640000x64, .f32⟩
  | 90 => ⟨S1x64, .f32⟩
  | 91 => ⟨S64, .f32⟩
  | 92 => ⟨S1x64, .f32⟩
  | 93 => ⟨S640000x64, .f32⟩
  | 94 => ⟨S640000x64, .f32⟩
  | 95 => ⟨S640000x64, .f32⟩
  | 96 => ⟨S640000x64, .f32⟩
  | 97 => ⟨S_, .f32⟩
  | 98 => ⟨S640000x64, .f32⟩
  | 99 => ⟨S640000x64, .f32⟩
  | 100 => ⟨S_, .f32⟩
  | 101 => ⟨S640000x64, .f32⟩
  | 102 => ⟨S640000x64, .f32⟩
  | 103 => ⟨S640000x64, .f32⟩
  | 104 => ⟨S1x64x64, .f32⟩
  | 105 => ⟨S64x64, .f32⟩
  | 106 => ⟨S640000x64, .f32⟩
  | 107 => ⟨S1x64, .f32⟩
  | 108 => ⟨S64, .f32⟩
  | 109 => ⟨S1x64, .f32⟩
  | 110 => ⟨S640000x64, .f32⟩
  | 111 => ⟨S640000x64, .f32⟩
  | 112 => ⟨S640000x64, .f32⟩
  | 113 => ⟨S640000x64, .f32⟩
  | 114 => ⟨S_, .f32⟩
  | 115 => ⟨S640000x64, .f32⟩
  | 116 => ⟨S640000x64, .f32⟩
  | 117 => ⟨S_, .f32⟩
  | 118 => ⟨S640000x64, .f32⟩
  | 119 => ⟨S640000x64, .f32⟩
  | 120 => ⟨S640000x64, .f32⟩
  | 121 => ⟨S1x64x1, .f32⟩
  | 122 => ⟨S64x1, .f32⟩
  | 123 => ⟨S640000x1, .f32⟩
  | 124 => ⟨S640000x3, .f32⟩
  | 125 => ⟨S640000x3, .f32⟩
  | 126 => ⟨S_, .f32⟩
  | 127 => ⟨S40000x64, .f32⟩
  | _ => ⟨S40000x64, .f32⟩

abbrev hbmTy0_1 (i : Nat) : BufTy := match i % 128 with
  | 0 => ⟨S640000x1, .i32⟩
  | 1 => ⟨S40000x64, .f32⟩
  | 2 => ⟨S_, .f32⟩
  | 3 => ⟨S40000x3, .f32⟩
  | 4 => ⟨S640000x1, .i32⟩
  | 5 => ⟨S40000x3, .f32⟩
  | 6 => ⟨S_, .f32⟩
  | 7 => ⟨S40000x1, .f32⟩
  | 8 => ⟨S640000x1, .i32⟩
  | 9 => ⟨S40000x1, .f32⟩
  | 10 => ⟨S_, .f32⟩
  | 11 => ⟨S40000x1, .f32⟩
  | 12 => ⟨S40000x1, .f32⟩
  | 13 => ⟨S40000x3, .f32⟩
  | 14 => ⟨S40000x3, .f32⟩
  | 15 => ⟨S40000x128, .f32⟩
  | 16 => ⟨S1x128x64, .f32⟩
  | 17 => ⟨S128x64, .f32⟩
  | 18 => ⟨S40000x64, .f32⟩
  | 19 => ⟨S1x64, .f32⟩
  | 20 => ⟨S64, .f32⟩
  | 21 => ⟨S1x64, .f32⟩
  | 22 => ⟨S40000x64, .f32⟩
  | 23 => ⟨S40000x64, .f32⟩
  | 24 => ⟨S40000x64, .f32⟩
  | 25 => ⟨S40000x64, .f32⟩
  | 26 => ⟨S_, .f32⟩
  | 27 => ⟨S40000x64, .f32⟩
  | 28 => ⟨S40000x64, .f32⟩
  | 29 => ⟨S_, .f32⟩
  | 30 => ⟨S40000x64, .f32⟩
  | 31 => ⟨S40000x64, .f32⟩
  | 32 => ⟨S40000x64, .f32⟩
  | 33 => ⟨S1x64x64, .f32⟩
  | 34 => ⟨S64x64, .f32⟩
  | 35 => ⟨S40000x64, .f32⟩
  | 36 => ⟨S1x64, .f32⟩
  | 37 => ⟨S64, .f32⟩
  | 38 => ⟨S1x64, .f32⟩
  | 39 => ⟨S40000x64, .f32⟩
  | 40 => ⟨S40000x64, .f32⟩
  | 41 => ⟨S40000x3, .f32⟩
  | 42 => ⟨S_, .f32⟩
  | 43 => ⟨S64, .f32⟩
  | 44 => ⟨S_, .f32⟩
  | 45 => ⟨S64, .f32⟩
  | 46 => ⟨S64, .f32⟩
  | 47 => ⟨S_, .i32⟩
  | 48 => ⟨S_, .f32⟩
  | 49 => ⟨S64, .f32⟩
  | 50 => ⟨S1x64, .f32⟩
  | 51 => ⟨S_, .f32⟩
  | 52 => ⟨S1x64, .f32⟩
  | 53 => ⟨S1x64, .f32⟩
  | 54 => ⟨S40000x64, .f32⟩
  | 55 => ⟨S40000x64, .f32⟩
  | 56 => ⟨S40000x64, .f32⟩
  | 57 => ⟨S_, .f32⟩
  | 58 => ⟨S_, .f32⟩
  | 59 => ⟨S_, .f32⟩
  | 60 => ⟨S_, .f32⟩
  | 61 => ⟨S64, .f32⟩
  | 62 => ⟨S64, .f32⟩
  | 63 => ⟨S64, .f32⟩
  | 64 => ⟨S_, .f32⟩
  | 65 => ⟨S_, .i1⟩
  | 66 => ⟨S_, .f32⟩
  | 67 => ⟨S_, .f32⟩
  | 68 => ⟨S64, .f32⟩
  | 69 => ⟨S64, .f32⟩
  | 70 => ⟨S1x64, .f32⟩
  | 71 => ⟨S40000x64, .f32⟩
  | 72 => ⟨S40000x64, .f32⟩
  | 73 => ⟨S_, .f32⟩
  | 74 => ⟨S64, .f32⟩
  | 75 => ⟨S64, .f32⟩
  | 76 => ⟨S64, .f32⟩
  | 77 => ⟨S1x64, .f32⟩
  | 78 => ⟨S40000x64, .f32⟩
  | 79 => ⟨S40000x64, .f32⟩
  | 80 => ⟨S1x64, .f32⟩
  | 81 => ⟨S64, .f32⟩
  | 82 => ⟨S1x64, .f32⟩
  | 83 => ⟨S40000x64, .f32⟩
  | 84 => ⟨S40000x64, .f32⟩
  | 85 => ⟨S1x64, .f32⟩
  | 86 => ⟨S64, .f32⟩
  | 87 => ⟨S1x64, .f32⟩
  | 88 => ⟨S40000x64, .f32⟩
  | 89 => ⟨S40000x64, .f32⟩
  | 90 => ⟨S_, .f32⟩
  | 91 => ⟨S40000x64, .f32⟩
  | 92 => ⟨S40000x64, .f32⟩
  | 93 => ⟨S40000x64, .f32⟩
  | 94 => ⟨S_, .i32⟩
  | 95 => ⟨S640000, .i32⟩
  | 96 => ⟨S640000, .i1⟩
  | 97 => ⟨S_, .i32⟩
  | 98 => ⟨S640000, .i32⟩
  | 99 => ⟨S640000, .i32⟩
  | 100 => ⟨S640000, .i32⟩
  | 101 => ⟨S640000x1, .i32⟩
  | 102 => ⟨S640000x3, .f32⟩
  | 103 => ⟨S_, .i32⟩
  | 104 => ⟨S640000, .i32⟩
  | 105 => ⟨S640000, .i1⟩
  | 106 => ⟨S_, .i32⟩
  | 107 => ⟨S640000, .i32⟩
  | 108 => ⟨S640000, .i32⟩
  | 109 => ⟨S640000, .i32⟩
  | 110 => ⟨S640000x1, .i32⟩
  | 111 => ⟨S640000x3, .f32⟩
  | 112 => ⟨S640000x3, .f32⟩
  | 113 => ⟨S640000x3, .f32⟩
  | 114 => ⟨S_, .f32⟩
  | 115 => ⟨S640000, .f32⟩
  | 116 => ⟨S640000x1, .f32⟩
  | 117 => ⟨S640000x1, .f32⟩
  | 118 => ⟨S_, .f32⟩
  | 119 => ⟨S640000x1, .f32⟩
  | 120 => ⟨S640000x1, .f32⟩
  | 121 => ⟨S640000x3, .f32⟩
  | 122 => ⟨S640000x3, .f32⟩
  | 123 => ⟨S_, .i32⟩
  | 124 => ⟨S640000, .i32⟩
  | 125 => ⟨S640000, .i1⟩
  | 126 => ⟨S_, .i32⟩
  | 127 => ⟨S640000, .i32⟩
  | _ => ⟨S40000x64, .f32⟩

abbrev hbmTy0_2 (i : Nat) : BufTy := match i % 128 with
  | 0 => ⟨S640000, .i32⟩
  | 1 => ⟨S640000, .i32⟩
  | 2 => ⟨S640000x1, .i32⟩
  | 3 => ⟨S640000x64, .f32⟩
  | 4 => ⟨S_, .i32⟩
  | 5 => ⟨S640000, .i32⟩
  | 6 => ⟨S640000, .i1⟩
  | 7 => ⟨S_, .i32⟩
  | 8 => ⟨S640000, .i32⟩
  | 9 => ⟨S640000, .i32⟩
  | 10 => ⟨S640000, .i32⟩
  | 11 => ⟨S640000x1, .i32⟩
  | 12 => ⟨S640000x64, .f32⟩
  | 13 => ⟨S640000x145, .f32⟩
  | 14 => ⟨S1x145x64, .f32⟩
  | 15 => ⟨S145x64, .f32⟩
  | 16 => ⟨S640000x64, .f32⟩
  | 17 => ⟨S1x64, .f32⟩
  | 18 => ⟨S64, .f32⟩
  | 19 => ⟨S1x64, .f32⟩
  | 20 => ⟨S640000x64, .f32⟩
  | 21 => ⟨S640000x64, .f32⟩
  | 22 => ⟨S640000x64, .f32⟩
  | 23 => ⟨S640000x64, .f32⟩
  | 24 => ⟨S_, .f32⟩
  | 25 => ⟨S640000x64, .f32⟩
  | 26 => ⟨S640000x64, .f32⟩
  | 27 => ⟨S_, .f32⟩
  | 28 => ⟨S640000x64, .f32⟩
  | 29 => ⟨S640000x64, .f32⟩
  | 30 => ⟨S640000x64, .f32⟩
  | 31 => ⟨S1x64x64, .f32⟩
  | 32 => ⟨S64x64, .f32⟩
  | 33 => ⟨S640000x64, .f32⟩
  | 34 => ⟨S1x64, .f32⟩
  | 35 => ⟨S64, .f32⟩
  | 36 => ⟨S1x64, .f32⟩
  | 37 => ⟨S640000x64, .f32⟩
  | 38 => ⟨S640000x64, .f32⟩
  | 39 => ⟨S640000x64, .f32⟩
  | 40 => ⟨S640000x64, .f32⟩
  | 41 => ⟨S_, .f32⟩
  | 42 => ⟨S640000x64, .f32⟩
  | 43 => ⟨S640000x64, .f32⟩
  | 44 => ⟨S_, .f32⟩
  | 45 => ⟨S640000x64, .f32⟩
  | 46 => ⟨S640000x64, .f32⟩
  | 47 => ⟨S640000x64, .f32⟩
  | 48 => ⟨S1x64x64, .f32⟩
  | 49 => ⟨S64x64, .f32⟩
  | 50 => ⟨S640000x64, .f32⟩
  | 51 => ⟨S1x64, .f32⟩
  | 52 => ⟨S64, .f32⟩
  | 53 => ⟨S1x64, .f32⟩
  | 54 => ⟨S640000x64, .f32⟩
  | 55 => ⟨S640000x64, .f32⟩
  | 56 => ⟨S640000x64, .f32⟩
  | 57 => ⟨S640000x64, .f32⟩
  | 58 => ⟨S_, .f32⟩
  | 59 => ⟨S640000x64, .f32⟩
  | 60 => ⟨S640000x64, .f32⟩
  | 61 => ⟨S_, .f32⟩
  | 62 => ⟨S640000x64, .f32⟩
  | 63 => ⟨S640000x64, .f32⟩
  | 64 => ⟨S640000x64, .f32⟩
  | 65 => ⟨S1x64x1, .f32⟩
  | 66 => ⟨S64x1, .f32⟩
  | 67 => ⟨S640000x1, .f32⟩
  | 68 => ⟨S640000x3, .f32⟩
  | 69 => ⟨S640000x3, .f32⟩
  | 70 => ⟨S_, .f32⟩
  | 71 => ⟨S40000x64, .f32⟩
  | 72 => ⟨S640000x1, .i32⟩
  | 73 => ⟨S40000x64, .f32⟩
  | 74 => ⟨S_, .f32⟩
  | 75 => ⟨S40000x3, .f32⟩
  | 76 => ⟨S640000x1, .i32⟩
  | 77 => ⟨S40000x3, .f32⟩
  | 78 => ⟨S_, .f32⟩
  | 79 => ⟨S40000x1, .f32⟩
  | 80 => ⟨S640000x1, .i32⟩
  | 81 => ⟨S40000x1, .f32⟩
  | 82 => ⟨S_, .f32⟩
  | 83 => ⟨S40000x1, .f32⟩
  | 84 => ⟨S40000x1, .f32⟩
  | 85 => ⟨S40000x3, .f32⟩
  | 86 => ⟨S40000x3, .f32⟩
  | 87 => ⟨S40000x128, .f32⟩
  | 88 => ⟨S1x128x64, .f32⟩
  | 89 => ⟨S128x64, .f32⟩
  | 90 => ⟨S40000x64, .f32⟩
  | 91 => ⟨S1x64, .f32⟩
  | 92 => ⟨S64, .f32⟩
  | 93 => ⟨S1x64, .f32⟩
  | 94 => ⟨S40000x64, .f32⟩
  | 95 => ⟨S40000x64, .f32⟩
  | 96 => ⟨S40000x64, .f32⟩
  | 97 => ⟨S40000x64, .f32⟩
  | 98 => ⟨S_, .f32⟩
  | 99 => ⟨S40000x64, .f32⟩
  | 100 => ⟨S40000x64, .f32⟩
  | 101 => ⟨S_, .f32⟩
  | 102 => ⟨S40000x64, .f32⟩
  | 103 => ⟨S40000x64, .f32⟩
  | 104 => ⟨S40000x64, .f32⟩
  | 105 => ⟨S1x64x64, .f32⟩
  | 106 => ⟨S64x64, .f32⟩
  | 107 => ⟨S40000x64, .f32⟩
  | 108 => ⟨S1x64, .f32⟩
  | 109 => ⟨S64, .f32⟩
  | 110 => ⟨S1x64, .f32⟩
  | 111 => ⟨S40000x64, .f32⟩
  | 112 => ⟨S40000x64, .f32⟩
  | 113 => ⟨S40000x3, .f32⟩
  | 114 => ⟨S_, .f32⟩
  | 115 => ⟨S64, .f32⟩
  | 116 => ⟨S_, .f32⟩
  | 117 => ⟨S64, .f32⟩
  | 118 => ⟨S64, .f32⟩
  | 119 => ⟨S_, .i32⟩
  | 120 => ⟨S_, .f32⟩
  | 121 => ⟨S64, .f32⟩
  | 122 => ⟨S1x64, .f32⟩
  | 123 => ⟨S_, .f32⟩
  | 124 => ⟨S1x64, .f32⟩
  | 125 => ⟨S1x64, .f32⟩
  | 126 => ⟨S40000x64, .f32⟩
  | 127 => ⟨S40000x64, .f32⟩
  | _ => ⟨S40000x64, .f32⟩

abbrev hbmTy0_3 (i : Nat) : BufTy := match i % 128 with
  | 0 => ⟨S40000x64, .f32⟩
  | 1 => ⟨S_, .f32⟩
  | 2 => ⟨S_, .f32⟩
  | 3 => ⟨S_, .f32⟩
  | 4 => ⟨S_, .f32⟩
  | 5 => ⟨S64, .f32⟩
  | 6 => ⟨S64, .f32⟩
  | 7 => ⟨S64, .f32⟩
  | 8 => ⟨S_, .f32⟩
  | 9 => ⟨S_, .i1⟩
  | 10 => ⟨S_, .f32⟩
  | 11 => ⟨S_, .f32⟩
  | 12 => ⟨S64, .f32⟩
  | 13 => ⟨S64, .f32⟩
  | 14 => ⟨S1x64, .f32⟩
  | 15 => ⟨S40000x64, .f32⟩
  | 16 => ⟨S40000x64, .f32⟩
  | 17 => ⟨S_, .f32⟩
  | 18 => ⟨S64, .f32⟩
  | 19 => ⟨S64, .f32⟩
  | 20 => ⟨S64, .f32⟩
  | 21 => ⟨S1x64, .f32⟩
  | 22 => ⟨S40000x64, .f32⟩
  | 23 => ⟨S40000x64, .f32⟩
  | 24 => ⟨S1x64, .f32⟩
  | 25 => ⟨S64, .f32⟩
  | 26 => ⟨S1x64, .f32⟩
  | 27 => ⟨S40000x64, .f32⟩
  | 28 => ⟨S40000x64, .f32⟩
  | 29 => ⟨S1x64, .f32⟩
  | 30 => ⟨S64, .f32⟩
  | 31 => ⟨S1x64, .f32⟩
  | 32 => ⟨S40000x64, .f32⟩
  | 33 => ⟨S40000x64, .f32⟩
  | 34 => ⟨S_, .f32⟩
  | 35 => ⟨S40000x64, .f32⟩
  | 36 => ⟨S40000x64, .f32⟩
  | 37 => ⟨S40000x64, .f32⟩
  | _ => ⟨S40000x64, .f32⟩

abbrev hbmTy (i : Nat) : BufTy := match i / 128 with
  | 0 => hbmTy0_0 i
  | 1 => hbmTy0_1 i
  | 2 => hbmTy0_2 i
  | 3 => hbmTy0_3 i
  | _ => ⟨S40000x64, .f32⟩

abbrev bufTy : (tb : Table) → Fin (tcTables nBuf tb) → BufTy
  | .hbm, ⟨i, _⟩ => hbmTy i
  | _, _ => ⟨S40000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_c : Ref sig .tc := ⟨.hbm, 22, rfl⟩
abbrev main_v2 : Ref sig .tc := ⟨.hbm, 23, rfl⟩
abbrev main_v3 : Ref sig .tc := ⟨.hbm, 24, rfl⟩
abbrev main_c_1 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_c_3 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_6 : Ref sig .tc := ⟨.hbm, 51, rfl⟩
abbrev main_v25 : Ref sig .tc := ⟨.hbm, 52, rfl⟩
abbrev main_v26 : Ref sig .tc := ⟨.hbm, 53, rfl⟩
abbrev main_c_7 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_8 : Ref sig .tc := ⟨.hbm, 60, rfl⟩
abbrev main_v32 : Ref sig .tc := ⟨.hbm, 61, rfl⟩
abbrev main_v33 : Ref sig .tc := ⟨.hbm, 62, rfl⟩
abbrev main_c_9 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_call1_v0 : Ref sig .tc := ⟨.hbm, 95, rfl⟩
abbrev main_call1_v1 : Ref sig .tc := ⟨.hbm, 96, rfl⟩
abbrev main_call1_cst : Ref sig .tc := ⟨.hbm, 97, rfl⟩
abbrev main_call1_v2 : Ref sig .tc := ⟨.hbm, 98, rfl⟩
abbrev main_call1_v3 : Ref sig .tc := ⟨.hbm, 99, rfl⟩
abbrev main_call1_cst_0 : Ref sig .tc := ⟨.hbm, 100, rfl⟩
abbrev main_call1_v4 : Ref sig .tc := ⟨.hbm, 101, rfl⟩
abbrev main_call1_v5 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_call2_v0 : Ref sig .tc := ⟨.hbm, 112, rfl⟩
abbrev main_call2_v1 : Ref sig .tc := ⟨.hbm, 113, rfl⟩
abbrev main_call2_cst : Ref sig .tc := ⟨.hbm, 114, rfl⟩
abbrev main_call2_v2 : Ref sig .tc := ⟨.hbm, 115, rfl⟩
abbrev main_call2_v3 : Ref sig .tc := ⟨.hbm, 116, rfl⟩
abbrev main_call2_cst_0 : Ref sig .tc := ⟨.hbm, 117, rfl⟩
abbrev main_call2_v4 : Ref sig .tc := ⟨.hbm, 118, rfl⟩
abbrev main_call2_v5 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_cst_10 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_cst_11 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_cst_12 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_cst_13 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_call3_v0 : Ref sig .tc := ⟨.hbm, 152, rfl⟩
abbrev main_call3_v1 : Ref sig .tc := ⟨.hbm, 153, rfl⟩
abbrev main_call3_cst : Ref sig .tc := ⟨.hbm, 154, rfl⟩
abbrev main_call3_v2 : Ref sig .tc := ⟨.hbm, 155, rfl⟩
abbrev main_call3_v3 : Ref sig .tc := ⟨.hbm, 156, rfl⟩
abbrev main_call3_cst_0 : Ref sig .tc := ⟨.hbm, 157, rfl⟩
abbrev main_call3_v4 : Ref sig .tc := ⟨.hbm, 158, rfl⟩
abbrev main_call3_v5 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_cst_14 : Ref sig .tc := ⟨.hbm, 170, rfl⟩
abbrev main_v104 : Ref sig .tc := ⟨.hbm, 171, rfl⟩
abbrev main_cst_15 : Ref sig .tc := ⟨.hbm, 172, rfl⟩
abbrev main_v105 : Ref sig .tc := ⟨.hbm, 173, rfl⟩
abbrev main_v106 : Ref sig .tc := ⟨.hbm, 174, rfl⟩
abbrev main_c_16 : Ref sig .tc := ⟨.hbm, 175, rfl⟩
abbrev main_call4_cst : Ref sig .tc := ⟨.hbm, 176, rfl⟩
abbrev main_call4_v0 : Ref sig .tc := ⟨.hbm, 177, rfl⟩
abbrev main_call4_v1 : Ref sig .tc := ⟨.hbm, 178, rfl⟩
abbrev main_call4_cst_0 : Ref sig .tc := ⟨.hbm, 179, rfl⟩
abbrev main_call4_v2 : Ref sig .tc := ⟨.hbm, 180, rfl⟩
abbrev main_call4_v3 : Ref sig .tc := ⟨.hbm, 181, rfl⟩
abbrev main_call4_v4 : Ref sig .tc := ⟨.hbm, 182, rfl⟩
abbrev main_call4_v5 : Ref sig .tc := ⟨.hbm, 183, rfl⟩
abbrev main_call4_v6 : Ref sig .tc := ⟨.hbm, 184, rfl⟩
abbrev main_call4_v7 : Ref sig .tc := ⟨.hbm, 185, rfl⟩
abbrev main_call4_cst_1 : Ref sig .tc := ⟨.hbm, 186, rfl⟩
abbrev main_call4_v8 : Ref sig .tc := ⟨.hbm, 187, rfl⟩
abbrev main_call4_cst_2 : Ref sig .tc := ⟨.hbm, 188, rfl⟩
abbrev main_call4_v9 : Ref sig .tc := ⟨.hbm, 189, rfl⟩
abbrev main_call4_v10 : Ref sig .tc := ⟨.hbm, 190, rfl⟩
abbrev main_call4_v11 : Ref sig .tc := ⟨.hbm, 191, rfl⟩
abbrev main_call4_cst_3 : Ref sig .tc := ⟨.hbm, 192, rfl⟩
abbrev main_call4_v12 : Ref sig .tc := ⟨.hbm, 193, rfl⟩
abbrev main_call4_cst_4 : Ref sig .tc := ⟨.hbm, 194, rfl⟩
abbrev main_call4_call0_v0 : Ref sig .tc := ⟨.hbm, 195, rfl⟩
abbrev main_call4_call0_v1 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_cst_17 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_call5_cst : Ref sig .tc := ⟨.hbm, 218, rfl⟩
abbrev main_call5_v0 : Ref sig .tc := ⟨.hbm, 219, rfl⟩
abbrev main_v127 : Ref sig .tc := ⟨.hbm, 220, rfl⟩
abbrev main_v128 : Ref sig .tc := ⟨.hbm, 221, rfl⟩
abbrev main_c_18 : Ref sig .tc := ⟨.hbm, 222, rfl⟩
abbrev main_v129 : Ref sig .tc := ⟨.hbm, 223, rfl⟩
abbrev main_v130 : Ref sig .tc := ⟨.hbm, 224, rfl⟩
abbrev main_c_19 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_c_20 : Ref sig .tc := ⟨.hbm, 231, rfl⟩
abbrev main_v136 : Ref sig .tc := ⟨.hbm, 232, rfl⟩
abbrev main_v137 : Ref sig .tc := ⟨.hbm, 233, rfl⟩
abbrev main_c_21 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_cst_22 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_cst_23 : Ref sig .tc := ⟨.hbm, 246, rfl⟩
abbrev main_v148 : Ref sig .tc := ⟨.hbm, 247, rfl⟩
abbrev main_v149 : Ref sig .tc := ⟨.hbm, 248, rfl⟩
abbrev main_v150 : Ref sig .tc := ⟨.hbm, 249, rfl⟩
abbrev main_v151 : Ref sig .tc := ⟨.hbm, 250, rfl⟩
abbrev main_c_24 : Ref sig .tc := ⟨.hbm, 251, rfl⟩
abbrev main_v152 : Ref sig .tc := ⟨.hbm, 252, rfl⟩
abbrev main_v153 : Ref sig .tc := ⟨.hbm, 253, rfl⟩
abbrev main_c_25 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_v158 : Ref sig .tc := ⟨.hbm, 259, rfl⟩
abbrev main_c_26 : Ref sig .tc := ⟨.hbm, 260, rfl⟩
abbrev main_v159 : Ref sig .tc := ⟨.hbm, 261, rfl⟩
abbrev main_v160 : Ref sig .tc := ⟨.hbm, 262, rfl⟩
abbrev main_c_27 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_v170 : Ref sig .tc := ⟨.hbm, 273, rfl⟩
abbrev main_v171 : Ref sig .tc := ⟨.hbm, 274, rfl⟩
abbrev main_v172 : Ref sig .tc := ⟨.hbm, 275, rfl⟩
abbrev main_v173 : Ref sig .tc := ⟨.hbm, 276, rfl⟩
abbrev main_v174 : Ref sig .tc := ⟨.hbm, 277, rfl⟩
abbrev main_call6_v0 : Ref sig .tc := ⟨.hbm, 278, rfl⟩
abbrev main_call6_v1 : Ref sig .tc := ⟨.hbm, 279, rfl⟩
abbrev main_call6_cst : Ref sig .tc := ⟨.hbm, 280, rfl⟩
abbrev main_call6_v2 : Ref sig .tc := ⟨.hbm, 281, rfl⟩
abbrev main_call6_v3 : Ref sig .tc := ⟨.hbm, 282, rfl⟩
abbrev main_call6_cst_0 : Ref sig .tc := ⟨.hbm, 283, rfl⟩
abbrev main_call6_v4 : Ref sig .tc := ⟨.hbm, 284, rfl⟩
abbrev main_call6_v5 : Ref sig .tc := ⟨.hbm, 285, rfl⟩
abbrev main_v175 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_v180 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_call7_v0 : Ref sig .tc := ⟨.hbm, 295, rfl⟩
abbrev main_call7_v1 : Ref sig .tc := ⟨.hbm, 296, rfl⟩
abbrev main_call7_cst : Ref sig .tc := ⟨.hbm, 297, rfl⟩
abbrev main_call7_v2 : Ref sig .tc := ⟨.hbm, 298, rfl⟩
abbrev main_call7_v3 : Ref sig .tc := ⟨.hbm, 299, rfl⟩
abbrev main_call7_cst_0 : Ref sig .tc := ⟨.hbm, 300, rfl⟩
abbrev main_call7_v4 : Ref sig .tc := ⟨.hbm, 301, rfl⟩
abbrev main_call7_v5 : Ref sig .tc := ⟨.hbm, 302, rfl⟩
abbrev main_v184 : Ref sig .tc := ⟨.hbm, 303, rfl⟩
abbrev main_v185 : Ref sig .tc := ⟨.hbm, 304, rfl⟩
abbrev main_v186 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_v190 : Ref sig .tc := ⟨.hbm, 309, rfl⟩
abbrev main_v191 : Ref sig .tc := ⟨.hbm, 310, rfl⟩
abbrev main_v192 : Ref sig .tc := ⟨.hbm, 311, rfl⟩
abbrev main_call8_v0 : Ref sig .tc := ⟨.hbm, 312, rfl⟩
abbrev main_call8_v1 : Ref sig .tc := ⟨.hbm, 313, rfl⟩
abbrev main_call8_cst : Ref sig .tc := ⟨.hbm, 314, rfl⟩
abbrev main_call8_v2 : Ref sig .tc := ⟨.hbm, 315, rfl⟩
abbrev main_call8_v3 : Ref sig .tc := ⟨.hbm, 316, rfl⟩
abbrev main_call8_cst_0 : Ref sig .tc := ⟨.hbm, 317, rfl⟩
abbrev main_call8_v4 : Ref sig .tc := ⟨.hbm, 318, rfl⟩
abbrev main_call8_v5 : Ref sig .tc := ⟨.hbm, 319, rfl⟩
abbrev main_v193 : Ref sig .tc := ⟨.hbm, 320, rfl⟩
abbrev main_v194 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_v198 : Ref sig .tc := ⟨.hbm, 325, rfl⟩
abbrev main_cst_28 : Ref sig .tc := ⟨.hbm, 326, rfl⟩
abbrev main_v199 : Ref sig .tc := ⟨.hbm, 327, rfl⟩
abbrev main_v200 : Ref sig .tc := ⟨.hbm, 328, rfl⟩
abbrev main_v201 : Ref sig .tc := ⟨.hbm, 329, rfl⟩
abbrev main_cst_29 : Ref sig .tc := ⟨.hbm, 330, rfl⟩
abbrev main_v202 : Ref sig .tc := ⟨.hbm, 331, rfl⟩
abbrev main_v203 : Ref sig .tc := ⟨.hbm, 332, rfl⟩
abbrev main_v204 : Ref sig .tc := ⟨.hbm, 333, rfl⟩
abbrev main_cst_30 : Ref sig .tc := ⟨.hbm, 334, rfl⟩
abbrev main_v205 : Ref sig .tc := ⟨.hbm, 335, rfl⟩
abbrev main_v206 : Ref sig .tc := ⟨.hbm, 336, rfl⟩
abbrev main_v207 : Ref sig .tc := ⟨.hbm, 337, rfl⟩
abbrev main_cst_31 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_v211 : Ref sig .tc := ⟨.hbm, 342, rfl⟩
abbrev main_v212 : Ref sig .tc := ⟨.hbm, 343, rfl⟩
abbrev main_v213 : Ref sig .tc := ⟨.hbm, 344, rfl⟩
abbrev main_v214 : Ref sig .tc := ⟨.hbm, 345, rfl⟩
abbrev main_v215 : Ref sig .tc := ⟨.hbm, 346, rfl⟩
abbrev main_v216 : Ref sig .tc := ⟨.hbm, 347, rfl⟩
abbrev main_v217 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_call9_v0 : Ref sig .tc := ⟨.hbm, 352, rfl⟩
abbrev main_call9_v1 : Ref sig .tc := ⟨.hbm, 353, rfl⟩
abbrev main_call9_cst : Ref sig .tc := ⟨.hbm, 354, rfl⟩
abbrev main_call9_v2 : Ref sig .tc := ⟨.hbm, 355, rfl⟩
abbrev main_call9_v3 : Ref sig .tc := ⟨.hbm, 356, rfl⟩
abbrev main_call9_cst_0 : Ref sig .tc := ⟨.hbm, 357, rfl⟩
abbrev main_call9_v4 : Ref sig .tc := ⟨.hbm, 358, rfl⟩
abbrev main_call9_v5 : Ref sig .tc := ⟨.hbm, 359, rfl⟩
abbrev main_v221 : Ref sig .tc := ⟨.hbm, 360, rfl⟩
abbrev main_v222 : Ref sig .tc := ⟨.hbm, 361, rfl⟩
abbrev main_v223 : Ref sig .tc := ⟨.hbm, 362, rfl⟩
abbrev main_v224 : Ref sig .tc := ⟨.hbm, 363, rfl⟩
abbrev main_v225 : Ref sig .tc := ⟨.hbm, 364, rfl⟩
abbrev main_v226 : Ref sig .tc := ⟨.hbm, 365, rfl⟩
abbrev main_v227 : Ref sig .tc := ⟨.hbm, 366, rfl⟩
abbrev main_v228 : Ref sig .tc := ⟨.hbm, 367, rfl⟩
abbrev main_v229 : Ref sig .tc := ⟨.hbm, 368, rfl⟩
abbrev main_v230 : Ref sig .tc := ⟨.hbm, 369, rfl⟩
abbrev main_cst_32 : Ref sig .tc := ⟨.hbm, 370, rfl⟩
abbrev main_v231 : Ref sig .tc := ⟨.hbm, 371, rfl⟩
abbrev main_cst_33 : Ref sig .tc := ⟨.hbm, 372, rfl⟩
abbrev main_v232 : Ref sig .tc := ⟨.hbm, 373, rfl⟩
abbrev main_v233 : Ref sig .tc := ⟨.hbm, 374, rfl⟩
abbrev main_c_34 : Ref sig .tc := ⟨.hbm, 375, rfl⟩
abbrev main_call10_cst : Ref sig .tc := ⟨.hbm, 376, rfl⟩
abbrev main_call10_v0 : Ref sig .tc := ⟨.hbm, 377, rfl⟩
abbrev main_call10_v1 : Ref sig .tc := ⟨.hbm, 378, rfl⟩
abbrev main_call10_cst_0 : Ref sig .tc := ⟨.hbm, 379, rfl⟩
abbrev main_call10_v2 : Ref sig .tc := ⟨.hbm, 380, rfl⟩
abbrev main_call10_v3 : Ref sig .tc := ⟨.hbm, 381, rfl⟩
abbrev main_call10_v4 : Ref sig .tc := ⟨.hbm, 382, rfl⟩
abbrev main_call10_v5 : Ref sig .tc := ⟨.hbm, 383, rfl⟩
abbrev main_call10_v6 : Ref sig .tc := ⟨.hbm, 384, rfl⟩
abbrev main_call10_v7 : Ref sig .tc := ⟨.hbm, 385, rfl⟩
abbrev main_call10_cst_1 : Ref sig .tc := ⟨.hbm, 386, rfl⟩
abbrev main_call10_v8 : Ref sig .tc := ⟨.hbm, 387, rfl⟩
abbrev main_call10_cst_2 : Ref sig .tc := ⟨.hbm, 388, rfl⟩
abbrev main_call10_v9 : Ref sig .tc := ⟨.hbm, 389, rfl⟩
abbrev main_call10_v10 : Ref sig .tc := ⟨.hbm, 390, rfl⟩
abbrev main_call10_v11 : Ref sig .tc := ⟨.hbm, 391, rfl⟩
abbrev main_call10_cst_3 : Ref sig .tc := ⟨.hbm, 392, rfl⟩
abbrev main_call10_v12 : Ref sig .tc := ⟨.hbm, 393, rfl⟩
abbrev main_call10_cst_4 : Ref sig .tc := ⟨.hbm, 394, rfl⟩
abbrev main_call10_call0_v0 : Ref sig .tc := ⟨.hbm, 395, rfl⟩
abbrev main_call10_call0_v1 : Ref sig .tc := ⟨.hbm, 396, rfl⟩
abbrev main_v234 : Ref sig .tc := ⟨.hbm, 397, rfl⟩
abbrev main_v235 : Ref sig .tc := ⟨.hbm, 398, rfl⟩
abbrev main_v236 : Ref sig .tc := ⟨.hbm, 399, rfl⟩
abbrev main_v237 : Ref sig .tc := ⟨.hbm, 400, rfl⟩
abbrev main_cst_35 : Ref sig .tc := ⟨.hbm, 401, rfl⟩
abbrev main_v238 : Ref sig .tc := ⟨.hbm, 402, rfl⟩
abbrev main_v239 : Ref sig .tc := ⟨.hbm, 403, rfl⟩
abbrev main_v240 : Ref sig .tc := ⟨.hbm, 404, rfl⟩
abbrev main_v241 : Ref sig .tc := ⟨.hbm, 405, rfl⟩
abbrev main_v242 : Ref sig .tc := ⟨.hbm, 406, rfl⟩
abbrev main_v243 : Ref sig .tc := ⟨.hbm, 407, rfl⟩
abbrev main_v244 : Ref sig .tc := ⟨.hbm, 408, rfl⟩
abbrev main_v245 : Ref sig .tc := ⟨.hbm, 409, rfl⟩
abbrev main_v246 : Ref sig .tc := ⟨.hbm, 410, rfl⟩
abbrev main_v247 : Ref sig .tc := ⟨.hbm, 411, rfl⟩
abbrev main_v248 : Ref sig .tc := ⟨.hbm, 412, rfl⟩
abbrev main_v249 : Ref sig .tc := ⟨.hbm, 413, rfl⟩
abbrev main_v250 : Ref sig .tc := ⟨.hbm, 414, rfl⟩
abbrev main_v251 : Ref sig .tc := ⟨.hbm, 415, rfl⟩
abbrev main_v252 : Ref sig .tc := ⟨.hbm, 416, rfl⟩
abbrev main_v253 : Ref sig .tc := ⟨.hbm, 417, rfl⟩
abbrev main_call11_cst : Ref sig .tc := ⟨.hbm, 418, rfl⟩
abbrev main_call11_v0 : Ref sig .tc := ⟨.hbm, 419, rfl⟩
abbrev main_v254 : Ref sig .tc := ⟨.hbm, 420, rfl⟩
abbrev main_v255 : Ref sig .tc := ⟨.hbm, 421, rfl⟩

abbrev nD : Nat := 1
abbrev τ : Topo := Topo.v7x

variable {F : FTy → Type} [FloatOps F]

class Facts₀ : Prop where
  bcast_S_S40000x64 : S_.BroadcastsInDim S40000x64 (![] : Fin 0 → Fin S40000x64.rank)
  bcast_S_S640000x1 : S_.BroadcastsInDim S640000x1 (![] : Fin 0 → Fin S640000x1.rank)
  bcast_S_S640000 : S_.BroadcastsInDim S640000 (![] : Fin 0 → Fin S640000.rank)
  bcast_S640000_S640000x1_0 : S640000.BroadcastsInDim S640000x1 (![0] : Fin 1 → Fin S640000x1.rank)
  reducesTo_S640000x3_S640000_d1 : S640000x3.ReducesTo [1] S640000
  h_S_ : 0 < S_.numel
  bcast_S640000x1_S640000x3_0_1 : S640000x1.BroadcastsInDim S640000x3 (![0, 1] : Fin 2 → Fin S640000x3.rank)
  concatenates_S640000x64_S640000x64_S640000x1_S640000x16_S640000x145_d1 : Shape.Concatenates [S640000x64, S640000x64, S640000x1, S640000x16] S640000x145 1
  slices_S2x145x64_S1x145x64_0_0_0 : S2x145x64.Slices ![0, 0, 0] S1x145x64
  shapeCasts_S1x145x64_S145x64 : S1x145x64.ShapeCasts S145x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S640000x64_0_1 : S1x64.BroadcastsInDim S640000x64 (![0, 1] : Fin 2 → Fin S640000x64.rank)
  bcast_S_S640000x64 : S_.BroadcastsInDim S640000x64 (![] : Fin 0 → Fin S640000x64.rank)
  slices_S2x64x64_S1x64x64_0_0_0 : S2x64x64.Slices ![0, 0, 0] S1x64x64
  shapeCasts_S1x64x64_S64x64 : S1x64x64.ShapeCasts S64x64
  slices_S2x64x1_S1x64x1_0_0_0 : S2x64x1.Slices ![0, 0, 0] S1x64x1
  shapeCasts_S1x64x1_S64x1 : S1x64x1.ShapeCasts S64x1
  bcast_S_S40000x3 : S_.BroadcastsInDim S40000x3 (![] : Fin 0 → Fin S40000x3.rank)
  bcast_S_S40000x1 : S_.BroadcastsInDim S40000x1 (![] : Fin 0 → Fin S40000x1.rank)
  bcast_S40000x1_S40000x3_0_1 : S40000x1.BroadcastsInDim S40000x3 (![0, 1] : Fin 2 → Fin S40000x3.rank)
  concatenates_S40000x64_S40000x64_S40000x128_d1 : Shape.Concatenates [S40000x64, S40000x64] S40000x128 1
  slices_S2x128x64_S1x128x64_0_0_0 : S2x128x64.Slices ![0, 0, 0] S1x128x64
  shapeCasts_S1x128x64_S128x64 : S1x128x64.ShapeCasts S128x64
  bcast_S1x64_S40000x64_0_1 : S1x64.BroadcastsInDim S40000x64 (![0, 1] : Fin 2 → Fin S40000x64.rank)
  reducesTo_S40000x64_S64_d0 : S40000x64.ReducesTo [0] S64
  bcast_S_S64 : S_.BroadcastsInDim S64 (![] : Fin 0 → Fin S64.rank)
  bcast_S_S1x64 : S_.BroadcastsInDim S1x64 (![] : Fin 0 → Fin S1x64.rank)
  slices_S2x145x64_S1x145x64_1_0_0 : S2x145x64.Slices ![1, 0, 0] S1x145x64
  slices_S2x64_S1x64_1_0 : S2x64.Slices ![1, 0] S1x64
  slices_S2x64x64_S1x64x64_1_0_0 : S2x64x64.Slices ![1, 0, 0] S1x64x64
  slices_S2x64x1_S1x64x1_1_0_0 : S2x64x1.Slices ![1, 0, 0] S1x64x1
  slices_S2x128x64_S1x128x64_1_0_0 : S2x128x64.Slices ![1, 0, 0] S1x128x64
  gather_S40000x3_S640000x1_S640000x3_1_0_n_n_0_1_13_wf : GatherDims.WF S40000x3 S640000x1 S640000x3 [1] [0] [] [0] [] 1 ![1, 3]
  gather_S40000x64_S640000x1_S640000x64_1_0_n_n_0_1_164_wf : GatherDims.WF S40000x64 S640000x1 S640000x64 [1] [0] [] [0] [] 1 ![1, 64]
  dot_S640000x145_S145x64_S640000x64_1_0_0_1_n_n_wf : DotDims.WF S640000x145 S145x64 S640000x64 [1] [0] [0] [1] [] []
  dot_S640000x64_S64x64_S640000x64_1_0_0_1_n_n_wf : DotDims.WF S640000x64 S64x64 S640000x64 [1] [0] [0] [1] [] []
  dot_S640000x64_S64x1_S640000x1_1_0_0_1_n_n_wf : DotDims.WF S640000x64 S64x1 S640000x1 [1] [0] [0] [1] [] []
  scatter_S40000x64_S640000x1_S640000x64_1_0_0_1_wf : ScatterDims.WF S40000x64 S640000x1 S640000x64 [1] [0] [0] 1
  scatter_S40000x3_S640000x1_S640000x3_1_0_0_1_wf : ScatterDims.WF S40000x3 S640000x1 S640000x3 [1] [0] [0] 1
  scatter_S40000x1_S640000x1_S640000x1_1_0_0_1_wf : ScatterDims.WF S40000x1 S640000x1 S640000x1 [1] [0] [0] 1
  dot_S40000x128_S128x64_S40000x64_1_0_0_1_n_n_wf : DotDims.WF S40000x128 S128x64 S40000x64 [1] [0] [0] [1] [] []
  dot_S40000x64_S64x64_S40000x64_1_0_0_1_n_n_wf : DotDims.WF S40000x64 S64x64 S40000x64 [1] [0] [0] [1] [] []

variable [Facts₀]

def gather_S40000x3_S640000x1_S640000x3_1_0_n_n_0_1_13 : GatherDims S40000x3 S640000x1 S640000x3 where
  offsetDims := [1]
  collapsedSliceDims := [0]
  operandBatchingDims := []
  startIndicesBatchingDims := []
  startIndexMap := [0]
  indexVectorDim := 1
  sliceSizes := ![1, 3]
  wf := gather_S40000x3_S640000x1_S640000x3_1_0_n_n_0_1_13_wf
def gather_S40000x64_S640000x1_S640000x64_1_0_n_n_0_1_164 : GatherDims S40000x64 S640000x1 S640000x64 where
  offsetDims := [1]
  collapsedSliceDims := [0]
  operandBatchingDims := []
  startIndicesBatchingDims := []
  startIndexMap := [0]
  indexVectorDim := 1
  sliceSizes := ![1, 64]
  wf := gather_S40000x64_S640000x1_S640000x64_1_0_n_n_0_1_164_wf
def dot_S640000x145_S145x64_S640000x64_1_0_0_1_n_n : DotDims S640000x145 S145x64 S640000x64 where
  lhsContracting := [1]
  rhsContracting := [0]
  lhsNonContracting := [0]
  rhsNonContracting := [1]
  lhsBatch := []
  rhsBatch := []
  wf := dot_S640000x145_S145x64_S640000x64_1_0_0_1_n_n_wf
def dot_S640000x64_S64x64_S640000x64_1_0_0_1_n_n : DotDims S640000x64 S64x64 S640000x64 where
  lhsContracting := [1]
  rhsContracting := [0]
  lhsNonContracting := [0]
  rhsNonContracting := [1]
  lhsBatch := []
  rhsBatch := []
  wf := dot_S640000x64_S64x64_S640000x64_1_0_0_1_n_n_wf
def dot_S640000x64_S64x1_S640000x1_1_0_0_1_n_n : DotDims S640000x64 S64x1 S640000x1 where
  lhsContracting := [1]
  rhsContracting := [0]
  lhsNonContracting := [0]
  rhsNonContracting := [1]
  lhsBatch := []
  rhsBatch := []
  wf := dot_S640000x64_S64x1_S640000x1_1_0_0_1_n_n_wf
def scatter_S40000x64_S640000x1_S640000x64_1_0_0_1 : ScatterDims S40000x64 S640000x1 S640000x64 where
  updateWindowDims := [1]
  insertedWindowDims := [0]
  scatterDimsToOperandDims := [0]
  indexVectorDim := 1
  wf := scatter_S40000x64_S640000x1_S640000x64_1_0_0_1_wf
def scatter_S40000x3_S640000x1_S640000x3_1_0_0_1 : ScatterDims S40000x3 S640000x1 S640000x3 where
  updateWindowDims := [1]
  insertedWindowDims := [0]
  scatterDimsToOperandDims := [0]
  indexVectorDim := 1
  wf := scatter_S40000x3_S640000x1_S640000x3_1_0_0_1_wf
def scatter_S40000x1_S640000x1_S640000x1_1_0_0_1 : ScatterDims S40000x1 S640000x1 S640000x1 where
  updateWindowDims := [1]
  insertedWindowDims := [0]
  scatterDimsToOperandDims := [0]
  indexVectorDim := 1
  wf := scatter_S40000x1_S640000x1_S640000x1_1_0_0_1_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf
def dot_S40000x64_S64x64_S40000x64_1_0_0_1_n_n : DotDims S40000x64 S64x64 S40000x64 where
  lhsContracting := [1]
  rhsContracting := [0]
  lhsNonContracting := [0]
  rhsNonContracting := [1]
  lhsBatch := []
  rhsBatch := []
  wf := dot_S40000x64_S64x64_S40000x64_1_0_0_1_n_n_wf

class Facts : Prop extends Facts₀ where

variable [Facts]
-- ==== Proof.Tail.lean ====
/-
  The host-side arithmetic of one message-passing layer, written once as pure functions of whole arrays.

  Around each layer's edge stage the program does, on whole arrays:
    * deg      — the in-degree of every node: ones added at the destination index of every edge;
    * takeK    — the rows of a node table [h | x] at an index vector, a negative index first moved up by the
                 table's height, a row whose moved index is outside 0 … 39999 replaced by the quiet-NaN word;
    * sumPacked — the per-edge packed messages added at the destination index of every edge into zeros;
    * featPart / coordPart — the 64 feature columns and the 3 coordinate columns of the packed sums;
    * newX     — x + (coordinate sums) / max(deg, 1);
    * nodeNet  — the node network on [h | feature sums]: a linear map and bias, silu, a linear map and bias,
                 batch normalisation over the 40000 nodes (mean, the variance with its guarded divisor,
                 division by the square root of variance plus the literal 1e-5, scale and shift), then relu;
    * the per-layer slices of the stacked parameters (layer 0 and layer 1 of each).
  Each definition lists the elementary array operations in the order in which they are applied, one name per
  intermediate array, so that it unfolds to the operation term itself. The shape relations the operations take
  are decided here; the dimension records of the two scatters, the gather and the two matrix products are stated
  with the same fields as the program's.
-/
import Idealize.ShloMosaic.Lib.StableHlo
import Idealize.ShloMosaic.PureOps

noncomputable section

namespace Cert.Bridge.Tail

open Idealize.ShloMosaic

/-! ## Shapes -/

abbrev S_ : Shape := ⟨0, ![]⟩
abbrev S1 : Shape := ⟨1, ![1]⟩
abbrev S1x1 : Shape := ⟨2, ![1, 1]⟩
abbrev S64 : Shape := ⟨1, ![64]⟩
abbrev S1x64 : Shape := ⟨2, ![1, 64]⟩
abbrev S16x64 : Shape := ⟨2, ![16, 64]⟩
abbrev S64x64 : Shape := ⟨2, ![64, 64]⟩
abbrev S64x1 : Shape := ⟨2, ![64, 1]⟩
abbrev S145x64 : Shape := ⟨2, ![145, 64]⟩
abbrev S128x64 : Shape := ⟨2, ![128, 64]⟩
abbrev S1x145x64 : Shape := ⟨3, ![1, 145, 64]⟩
abbrev S1x64x64 : Shape := ⟨3, ![1, 64, 64]⟩
abbrev S1x64x1 : Shape := ⟨3, ![1, 64, 1]⟩
abbrev S1x128x64 : Shape := ⟨3, ![1, 128, 64]⟩
abbrev S2x145x64 : Shape := ⟨3, ![2, 145, 64]⟩
abbrev S2x64 : Shape := ⟨2, ![2, 64]⟩
abbrev S2x64x64 : Shape := ⟨3, ![2, 64, 64]⟩
abbrev S2x64x1 : Shape := ⟨3, ![2, 64, 1]⟩
abbrev S2x128x64 : Shape := ⟨3, ![2, 128, 64]⟩
abbrev S40000x1 : Shape := ⟨2, ![40000, 1]⟩
abbrev S40000x3 : Shape := ⟨2, ![40000, 3]⟩
abbrev S40000x64 : Shape := ⟨2, ![40000, 64]⟩
abbrev S40000x67 : Shape := ⟨2, ![40000, 67]⟩
abbrev S40000x128 : Shape := ⟨2, ![40000, 128]⟩
abbrev S640000 : Shape := ⟨1, ![640000]⟩
abbrev S640000x1 : Shape := ⟨2, ![640000, 1]⟩
abbrev S640000x16 : Shape := ⟨2, ![640000, 16]⟩
abbrev S640000x67 : Shape := ⟨2, ![640000, 67]⟩
abbrev S640000x128 : Shape := ⟨2, ![640000, 128]⟩

/-! ## The shape relations the operations take, decided -/

theorem bcast_S_S40000x64 : S_.BroadcastsInDim S40000x64 (![] : Fin 0 → Fin S40000x64.rank) := by decide
theorem bcast_S_S640000x1 : S_.BroadcastsInDim S640000x1 (![] : Fin 0 → Fin S640000x1.rank) := by decide
theorem bcast_S_S40000x1 : S_.BroadcastsInDim S40000x1 (![] : Fin 0 → Fin S40000x1.rank) := by decide
theorem bcast_S640000_S640000x1_0 : S640000.BroadcastsInDim S640000x1 (![0] : Fin 1 → Fin S640000x1.rank) := by decide
theorem bitsLt_bf16_f32 : FTy.bits .bf16 < FTy.bits .f32 := by decide
theorem concatenates_S40000x64_S40000x3_S40000x67_d1 : Shape.Concatenates [S40000x64, S40000x3] S40000x67 1 := by decide
theorem bcast_S_S640000 : S_.BroadcastsInDim S640000 (![] : Fin 0 → Fin S640000.rank) := by decide
theorem bcast_S1_S1x1_1 : S1.BroadcastsInDim S1x1 (![1] : Fin 1 → Fin S1x1.rank) := by decide
theorem bcast_S1x1_S640000x1_0_1 : S1x1.BroadcastsInDim S640000x1 (![0, 1] : Fin 2 → Fin S640000x1.rank) := by decide
theorem reducesTo_S640000x1_S640000_d1 : S640000x1.ReducesTo [1] S640000 := by decide
theorem h_S_ : 0 < S_.numel := by decide
theorem bcast_S640000_S640000x67_0 : S640000.BroadcastsInDim S640000x67 (![0] : Fin 1 → Fin S640000x67.rank) := by decide
theorem bcast_S_S640000x67 : S_.BroadcastsInDim S640000x67 (![] : Fin 0 → Fin S640000x67.rank) := by decide
theorem slices_S2x145x64_S1x145x64_0_0_0 : S2x145x64.Slices ![0, 0, 0] S1x145x64 := by decide
theorem slices_S2x145x64_S1x145x64_1_0_0 : S2x145x64.Slices ![1, 0, 0] S1x145x64 := by decide
theorem shapeCasts_S1x145x64_S145x64 : S1x145x64.ShapeCasts S145x64 := by decide
theorem slices_S145x64_S64x64_0_0 : S145x64.Slices ![0, 0] S64x64 := by decide
theorem slices_S145x64_S64x64_64_0 : S145x64.Slices ![64, 0] S64x64 := by decide
theorem slices_S145x64_S1x64_128_0 : S145x64.Slices ![128, 0] S1x64 := by decide
theorem slices_S145x64_S16x64_129_0 : S145x64.Slices ![129, 0] S16x64 := by decide
theorem slices_S2x64_S1x64_0_0 : S2x64.Slices ![0, 0] S1x64 := by decide
theorem slices_S2x64_S1x64_1_0 : S2x64.Slices ![1, 0] S1x64 := by decide
theorem shapeCasts_S1x64_S64 : S1x64.ShapeCasts S64 := by decide
theorem shapeCasts_S64_S1x64 : S64.ShapeCasts S1x64 := by decide
theorem slices_S2x64x64_S1x64x64_0_0_0 : S2x64x64.Slices ![0, 0, 0] S1x64x64 := by decide
theorem slices_S2x64x64_S1x64x64_1_0_0 : S2x64x64.Slices ![1, 0, 0] S1x64x64 := by decide
theorem shapeCasts_S1x64x64_S64x64 : S1x64x64.ShapeCasts S64x64 := by decide
theorem slices_S2x64x1_S1x64x1_0_0_0 : S2x64x1.Slices ![0, 0, 0] S1x64x1 := by decide
theorem slices_S2x64x1_S1x64x1_1_0_0 : S2x64x1.Slices ![1, 0, 0] S1x64x1 := by decide
theorem shapeCasts_S1x64x1_S64x1 : S1x64x1.ShapeCasts S64x1 := by decide
theorem bcast_S_S40000x128 : S_.BroadcastsInDim S40000x128 (![] : Fin 0 → Fin S40000x128.rank) := by decide
theorem slices_S40000x128_S40000x64_0_0 : S40000x128.Slices ![0, 0] S40000x64 := by decide
theorem slices_S40000x128_S40000x3_0_64 : S40000x128.Slices ![0, 64] S40000x3 := by decide
theorem bcast_S40000x1_S40000x3_0_1 : S40000x1.BroadcastsInDim S40000x3 (![0, 1] : Fin 2 → Fin S40000x3.rank) := by decide
theorem concatenates_S40000x64_S40000x64_S40000x128_d1 : Shape.Concatenates [S40000x64, S40000x64] S40000x128 1 := by decide
theorem slices_S2x128x64_S1x128x64_0_0_0 : S2x128x64.Slices ![0, 0, 0] S1x128x64 := by decide
theorem slices_S2x128x64_S1x128x64_1_0_0 : S2x128x64.Slices ![1, 0, 0] S1x128x64 := by decide
theorem shapeCasts_S1x128x64_S128x64 : S1x128x64.ShapeCasts S128x64 := by decide
theorem bcast_S64_S1x64_1 : S64.BroadcastsInDim S1x64 (![1] : Fin 1 → Fin S1x64.rank) := by decide
theorem bcast_S1x64_S40000x64_0_1 : S1x64.BroadcastsInDim S40000x64 (![0, 1] : Fin 2 → Fin S40000x64.rank) := by decide
theorem reducesTo_S40000x64_S64_d0 : S40000x64.ReducesTo [0] S64 := by decide
theorem bcast_S_S64 : S_.BroadcastsInDim S64 (![] : Fin 0 → Fin S64.rank) := by decide
theorem bcast_S_S1x64 : S_.BroadcastsInDim S1x64 (![] : Fin 0 → Fin S1x64.rank) := by decide
theorem scatter_S40000x1_S640000x1_S640000x1_1_0_0_1_wf : ScatterDims.WF S40000x1 S640000x1 S640000x1 [1] [0] [0] 1 := by decide
theorem gather_S40000x67_S640000x1_S640000x67_1_0_n_n_0_1_167_wf : GatherDims.WF S40000x67 S640000x1 S640000x67 [1] [0] [] [0] [] 1 ![1, 67] := by decide
theorem scatter_S40000x128_S640000x1_S640000x128_1_0_0_1_wf : ScatterDims.WF S40000x128 S640000x1 S640000x128 [1] [0] [0] 1 := by decide
theorem dot_S40000x128_S128x64_S40000x64_1_0_0_1_n_n_wf : DotDims.WF S40000x128 S128x64 S40000x64 [1] [0] [0] [1] [] [] := by decide
theorem dot_S40000x64_S64x64_S40000x64_1_0_0_1_n_n_wf : DotDims.WF S40000x64 S64x64 S40000x64 [1] [0] [0] [1] [] [] := by decide

/-! ## The dimension records of the scatters, the gather and the matrix products -/

/-- Scatter of one-column updates into a one-column operand, the index its row. -/
def scatter_S40000x1_S640000x1_S640000x1_1_0_0_1 : ScatterDims S40000x1 S640000x1 S640000x1 where
  updateWindowDims := [1]
  insertedWindowDims := [0]
  scatterDimsToOperandDims := [0]
  indexVectorDim := 1
  wf := scatter_S40000x1_S640000x1_S640000x1_1_0_0_1_wf
/-- Gather of whole 67-wide rows, the index the row. -/
def gather_S40000x67_S640000x1_S640000x67_1_0_n_n_0_1_167 : GatherDims S40000x67 S640000x1 S640000x67 where
  offsetDims := [1]
  collapsedSliceDims := [0]
  operandBatchingDims := []
  startIndicesBatchingDims := []
  startIndexMap := [0]
  indexVectorDim := 1
  sliceSizes := ![1, 67]
  wf := gather_S40000x67_S640000x1_S640000x67_1_0_n_n_0_1_167_wf
/-- Scatter of 128-wide rows into a 128-wide operand, the index the row. -/
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
/-- The product [40000,128] · [128,64]. -/
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf
/-- The product [40000,64] · [64,64]. -/
def dot_S40000x64_S64x64_S40000x64_1_0_0_1_n_n : DotDims S40000x64 S64x64 S40000x64 where
  lhsContracting := [1]
  rhsContracting := [0]
  lhsNonContracting := [0]
  rhsNonContracting := [1]
  lhsBatch := []
  rhsBatch := []
  wf := dot_S40000x64_S64x64_S40000x64_1_0_0_1_n_n_wf

variable {F : FTy → Type} [FloatOps F]

/-! ## Degree, gather of table rows, scatter of packed messages -/

/-- The in-degree of every node, as a column: ones added into zeros at each edge's destination. -/
def degOf (dst : IVec S640000 32) : FVec F S40000x1 .f32 :=
  let cst_0 : FVec F S_ .f32 := constant S_ .f32 0x3F800000#32
  let v1 : FVec F S640000x1 .f32 := broadcastInDim S640000x1 ![] bcast_S_S640000x1 cst_0
  let cst_1 : FVec F S_ .f32 := constant S_ .f32 0x00000000#32
  let v2 : FVec F S40000x1 .f32 := broadcastInDim S40000x1 ![] bcast_S_S40000x1 cst_1
  let v3 : IVec S640000x1 32 := broadcastInDim S640000x1 ![0] bcast_S640000_S640000x1_0 dst
  Host.scatterAdd scatter_S40000x1_S640000x1_S640000x1_1_0_0_1 v2 v3 v1

/-- The rows of a 67-wide node table at an index vector: a negative index is first moved up by 40000; a row
    whose moved index lies outside 0 … 39999 is the quiet-NaN word throughout, any other the table's row. -/
def takeK (tbl : FVec F S40000x67 .f32) (idx : IVec S640000 32) : FVec F S640000x67 .f32 :=
  let c : IVec S_ 32 := constantI S_ 32 0#32
  let v0 : IVec S640000 32 := broadcastInDim S640000 ![] bcast_S_S640000 c
  let v1 : IVec S640000 1 := cmpi .slt idx v0
  let c_0 : IVec S_ 32 := constantI S_ 32 40000#32
  let v2 : IVec S640000 32 := broadcastInDim S640000 ![] bcast_S_S640000 c_0
  let v3 : IVec S640000 32 := addi idx v2
  let v4 : IVec S640000 32 := select v1 v3 idx
  let v5 : IVec S640000x1 32 := broadcastInDim S640000x1 ![0] bcast_S640000_S640000x1_0 v4
  let c_1 : IVec S1 32 := constantI S1 32 39999#32
  let c_2 : IVec S_ 32 := constantI S_ 32 0#32
  let v6 : IVec S640000x1 32 := broadcastInDim S640000x1 ![] bcast_S_S640000x1 c_2
  let v7 : IVec S640000x1 1 := cmpi .sge v5 v6
  let v8 : IVec S1x1 32 := broadcastInDim S1x1 ![1] bcast_S1_S1x1_1 c_1
  let v9 : IVec S640000x1 32 := broadcastInDim S640000x1 ![0, 1] bcast_S1x1_S640000x1_0_1 v8
  let v10 : IVec S640000x1 1 := cmpi .sle v5 v9
  let v11 : IVec S640000x1 1 := andi v7 v10
  let c_3 : IVec S_ 1 := constantI S_ 1 1#1
  let v12 : IVec S640000 1 := Host.reduce IntOp.andi v11 c_3 reducesTo_S640000x1_S640000_d1 h_S_
  let v13 : FVec F S640000x67 .f32 := Host.gather gather_S40000x67_S640000x1_S640000x67_1_0_n_n_0_1_167 tbl v5
  let v14 : IVec S640000x67 1 := broadcastInDim S640000x67 ![0] bcast_S640000_S640000x67_0 v12
  let cst : FVec F S_ .f32 := constant S_ .f32 0x7FC00000#32
  let v15 : FVec F S640000x67 .f32 := broadcastInDim S640000x67 ![] bcast_S_S640000x67 cst
  select v14 v13 v15

/-- The packed per-edge messages added into zeros at each edge's destination. -/
def sumPacked (dst : IVec S640000 32) (p : FVec F S640000x128 .f32) : FVec F S40000x128 .f32 :=
  let cst_2 : FVec F S_ .f32 := constant S_ .f32 0x00000000#32
  let v31 : FVec F S40000x128 .f32 := broadcastInDim S40000x128 ![] bcast_S_S40000x128 cst_2
  let v32 : IVec S640000x1 32 := broadcastInDim S640000x1 ![0] bcast_S640000_S640000x1_0 dst
  Host.scatterAdd scatter_S40000x128_S640000x1_S640000x128_1_0_0_1 v31 v32 p

/-- Columns 0 … 63 of the packed sums: the summed feature messages. -/
def featPart (s : FVec F S40000x128 .f32) : FVec F S40000x64 .f32 :=
  extractStridedSlice S40000x64 ![0, 0] s slices_S40000x128_S40000x64_0_0

/-- Columns 64 … 66 of the packed sums: the summed coordinate messages. -/
def coordPart (s : FVec F S40000x128 .f32) : FVec F S40000x3 .f32 :=
  extractStridedSlice S40000x3 ![0, 64] s slices_S40000x128_S40000x3_0_64

/-- The node table [h | x]. -/
def tableOf (h : FVec F S40000x64 .f32) (x : FVec F S40000x3 .f32) : FVec F S40000x67 .f32 :=
  concatenate S40000x67 1 [⟨S40000x64, h⟩, ⟨S40000x3, x⟩] concatenates_S40000x64_S40000x3_S40000x67_d1

/-! ## The coordinate update and the node network -/

/-- x + (summed coordinate messages) / max(deg, 1), the degree column spread over the three coordinates. -/
def newX (x xsum : FVec F S40000x3 .f32) (deg : FVec F S40000x1 .f32) : FVec F S40000x3 .f32 :=
  let cst_3 : FVec F S_ .f32 := constant S_ .f32 0x3F800000#32
  let v36 : FVec F S40000x1 .f32 := broadcastInDim S40000x1 ![] bcast_S_S40000x1 cst_3
  let v37 : FVec F S40000x1 .f32 := maximumf deg v36
  let v38 : FVec F S40000x3 .f32 := broadcastInDim S40000x3 ![0, 1] bcast_S40000x1_S40000x3_0_1 v37
  let v39 : FVec F S40000x3 .f32 := Host.divf xsum v38
  addf x v39

/-- A row vector spread over the 40000 nodes. -/
def overNodes (b : FVec F S64 .f32) : FVec F S40000x64 .f32 :=
  let u : FVec F S1x64 .f32 := broadcastInDim S1x64 ![1] bcast_S64_S1x64_1 b
  broadcastInDim S40000x64 ![0, 1] bcast_S1x64_S40000x64_0_1 u

/-- [h | summed messages] · w + b, the first linear map of the node network. -/
def linear128 (h hneigh : FVec F S40000x64 .f32) (w : FVec F S128x64 .f32) (b : FVec F S64 .f32) : FVec F S40000x64 .f32 :=
  let v40 : FVec F S40000x128 .f32 := concatenate S40000x128 1 [⟨S40000x64, h⟩, ⟨S40000x64, hneigh⟩] concatenates_S40000x64_S40000x64_S40000x128_d1
  let v43 : FVec F S40000x64 .f32 := Host.dotGeneral dot_S40000x128_S128x64_S40000x64_1_0_0_1_n_n none v40 w
  let v46 : FVec F S1x64 .f32 := broadcastInDim S1x64 ![1] bcast_S64_S1x64_1 b
  let v47 : FVec F S40000x64 .f32 := broadcastInDim S40000x64 ![0, 1] bcast_S1x64_S40000x64_0_1 v46
  addf v43 v47

/-- silu on every entry: t · (1 / (1 + exp (-t))). -/
def siluV (t : FVec F S40000x64 .f32) : FVec F S40000x64 .f32 :=
  let s0 : FVec F S40000x64 .f32 := Host.negf t
  let s1 : FVec F S40000x64 .f32 := Host.exp s0
  let s_cst : FVec F S_ .f32 := constant S_ .f32 0x3F800000#32
  let s2 : FVec F S40000x64 .f32 := broadcastInDim S40000x64 ![] bcast_S_S40000x64 s_cst
  let s3 : FVec F S40000x64 .f32 := addf s2 s1
  let s_cst_0 : FVec F S_ .f32 := constant S_ .f32 0x3F800000#32
  let s4 : FVec F S40000x64 .f32 := broadcastInDim S40000x64 ![] bcast_S_S40000x64 s_cst_0
  let s5 : FVec F S40000x64 .f32 := Host.divf s4 s3
  mulf t s5

/-- t · w + b, the second linear map of the node network. -/
def linear64 (t : FVec F S40000x64 .f32) (w : FVec F S64x64 .f32) (b : FVec F S64 .f32) : FVec F S40000x64 .f32 :=
  let v52 : FVec F S40000x64 .f32 := Host.dotGeneral dot_S40000x64_S64x64_S40000x64_1_0_0_1_n_n none t w
  let v55 : FVec F S1x64 .f32 := broadcastInDim S1x64 ![1] bcast_S64_S1x64_1 b
  let v56 : FVec F S40000x64 .f32 := broadcastInDim S40000x64 ![0, 1] bcast_S1x64_S40000x64_0_1 v55
  addf v52 v56

/-- The mean of every column over the nodes: the column sums over the literal 40000. -/
def colMean (t : FVec F S40000x64 .f32) : FVec F S64 .f32 :=
  let cst_4 : FVec F S_ .f32 := constant S_ .f32 0x00000000#32
  let v59 : FVec F S64 .f32 := Host.reduceAdd t cst_4 reducesTo_S40000x64_S64_d0 h_S_
  let cst_5 : FVec F S_ .f32 := constant S_ .f32 0x471C4000#32
  let v60 : FVec F S64 .f32 := broadcastInDim S64 ![] bcast_S_S64 cst_5
  Host.divf v59 v60

/-- The variance of every column over the nodes: the column sums of squared deviations from the column mean,
    over 40000 minus the (zero) correction, the quotient kept only where that divisor is positive and the
    quiet-NaN word put otherwise. -/
def colVar (t : FVec F S40000x64 .f32) : FVec F S64 .f32 :=
  let c : IVec S_ 32 := constantI S_ 32 0#32
  let r_cst : FVec F S_ .f32 := constant S_ .f32 0x00000000#32
  let r0 : FVec F S64 .f32 := Host.reduceAdd t r_cst reducesTo_S40000x64_S64_d0 h_S_
  let r1 : FVec F S1x64 .f32 := broadcastInDim S1x64 ![1] bcast_S64_S1x64_1 r0
  let r_cst_0 : FVec F S_ .f32 := constant S_ .f32 0x471C4000#32
  let r2 : FVec F S1x64 .f32 := broadcastInDim S1x64 ![] bcast_S_S1x64 r_cst_0
  let r3 : FVec F S1x64 .f32 := Host.divf r1 r2
  let r4 : FVec F S40000x64 .f32 := broadcastInDim S40000x64 ![0, 1] bcast_S1x64_S40000x64_0_1 r3
  let r5 : FVec F S40000x64 .f32 := subf t r4
  let r6 : FVec F S40000x64 .f32 := mulf r5 r5
  let r7 : FVec F S_ .f32 := sitofp .f32 c
  let r_cst_1 : FVec F S_ .f32 := constant S_ .f32 0x471C4000#32
  let r8 : FVec F S_ .f32 := subf r_cst_1 r7
  let r_cst_2 : FVec F S_ .f32 := constant S_ .f32 0x00000000#32
  let r9 : FVec F S64 .f32 := Host.reduceAdd r6 r_cst_2 reducesTo_S40000x64_S64_d0 h_S_
  let r10 : FVec F S64 .f32 := broadcastInDim S64 ![] bcast_S_S64 r8
  let r11 : FVec F S64 .f32 := Host.divf r9 r10
  let r_cst_3 : FVec F S_ .f32 := constant S_ .f32 0x00000000#32
  let r12 : IVec S_ 1 := cmpf .ogt r8 r_cst_3
  let r_cst_4 : FVec F S_ .f32 := constant S_ .f32 0x7FC00000#32
  let w0 : FVec F S_ .f32 := id r_cst_4
  let w1 : FVec F S64 .f32 := broadcastInDim S64 ![] bcast_S_S64 w0
  select (broadcastInDim S64 ![] bcast_S_S64 r12) r11 w1

/-- Batch normalisation over the nodes from a given column mean and variance:
    (t - mean) / sqrt (variance + 1e-5), times gamma, plus beta. -/
def normalise (t : FVec F S40000x64 .f32) (mean var gamma beta : FVec F S64 .f32) : FVec F S40000x64 .f32 :=
  let v63 : FVec F S1x64 .f32 := broadcastInDim S1x64 ![1] bcast_S64_S1x64_1 mean
  let v64 : FVec F S40000x64 .f32 := broadcastInDim S40000x64 ![0, 1] bcast_S1x64_S40000x64_0_1 v63
  let v65 : FVec F S40000x64 .f32 := subf t v64
  let cst_6 : FVec F S_ .f32 := constant S_ .f32 0x3727C5AC#32
  let v66 : FVec F S64 .f32 := broadcastInDim S64 ![] bcast_S_S64 cst_6
  let v67 : FVec F S64 .f32 := addf var v66
  let v68 : FVec F S64 .f32 := Host.sqrt v67
  let v69 : FVec F S1x64 .f32 := broadcastInDim S1x64 ![1] bcast_S64_S1x64_1 v68
  let v70 : FVec F S40000x64 .f32 := broadcastInDim S40000x64 ![0, 1] bcast_S1x64_S40000x64_0_1 v69
  let v71 : FVec F S40000x64 .f32 := Host.divf v65 v70
  let v74 : FVec F S1x64 .f32 := broadcastInDim S1x64 ![1] bcast_S64_S1x64_1 gamma
  let v75 : FVec F S40000x64 .f32 := broadcastInDim S40000x64 ![0, 1] bcast_S1x64_S40000x64_0_1 v74
  let v76 : FVec F S40000x64 .f32 := mulf v71 v75
  let v79 : FVec F S1x64 .f32 := broadcastInDim S1x64 ![1] bcast_S64_S1x64_1 beta
  let v80 : FVec F S40000x64 .f32 := broadcastInDim S40000x64 ![0, 1] bcast_S1x64_S40000x64_0_1 v79
  addf v76 v80

/-- relu on every entry: the maximum with zero. -/
def reluV (t : FVec F S40000x64 .f32) : FVec F S40000x64 .f32 :=
  let q_cst : FVec F S_ .f32 := constant S_ .f32 0x00000000#32
  let q0 : FVec F S40000x64 .f32 := broadcastInDim S40000x64 ![] bcast_S_S40000x64 q_cst
  maximumf t q0

/-- The node network's output before normalisation: linear map, silu, linear map. -/
def nodePre (h hneigh : FVec F S40000x64 .f32) (nw1 : FVec F S128x64 .f32) (nb1 : FVec F S64 .f32)
    (nw2 : FVec F S64x64 .f32) (nb2 : FVec F S64 .f32) : FVec F S40000x64 .f32 :=
  linear64 (siluV (linear128 h hneigh nw1 nb1)) nw2 nb2

/-- The node network and batch normalisation of one layer, then relu. -/
def nodeNet (h hneigh : FVec F S40000x64 .f32) (nw1 : FVec F S128x64 .f32) (nb1 : FVec F S64 .f32)
    (nw2 : FVec F S64x64 .f32) (nb2 : FVec F S64 .f32) (gamma beta : FVec F S64 .f32) : FVec F S40000x64 .f32 :=
  let t : FVec F S40000x64 .f32 := nodePre h hneigh nw1 nb1 nw2 nb2
  reluV (normalise t (colMean t) (colVar t) gamma beta)

/-! ## The per-layer slices of the stacked parameters -/

/-- Rows 0 … 63 of the first edge weight: the source features' block (layer 0). -/
def ew1hs0 (a5 : FVec F S2x145x64 .f32) : FVec F S64x64 .f32 :=
  let u : FVec F S1x145x64 .f32 := extractStridedSlice S1x145x64 ![0, 0, 0] a5 slices_S2x145x64_S1x145x64_0_0_0
  let v : FVec F S145x64 .f32 := shapeCast S145x64 u shapeCasts_S1x145x64_S145x64
  extractStridedSlice S64x64 ![0, 0] v slices_S145x64_S64x64_0_0
/-- Rows 64 … 127 of the first edge weight: the destination features' block (layer 0). -/
def ew1hd0 (a5 : FVec F S2x145x64 .f32) : FVec F S64x64 .f32 :=
  let u : FVec F S1x145x64 .f32 := extractStridedSlice S1x145x64 ![0, 0, 0] a5 slices_S2x145x64_S1x145x64_0_0_0
  let v : FVec F S145x64 .f32 := shapeCast S145x64 u shapeCasts_S1x145x64_S145x64
  extractStridedSlice S64x64 ![64, 0] v slices_S145x64_S64x64_64_0
/-- Row 128 of the first edge weight: the squared distance's row (layer 0). -/
def ew1rad0 (a5 : FVec F S2x145x64 .f32) : FVec F S1x64 .f32 :=
  let u : FVec F S1x145x64 .f32 := extractStridedSlice S1x145x64 ![0, 0, 0] a5 slices_S2x145x64_S1x145x64_0_0_0
  let v : FVec F S145x64 .f32 := shapeCast S145x64 u shapeCasts_S1x145x64_S145x64
  extractStridedSlice S1x64 ![128, 0] v slices_S145x64_S1x64_128_0
/-- Rows 129 … 144 of the first edge weight: the edge attributes' block (layer 0). -/
def ew1ef0 (a5 : FVec F S2x145x64 .f32) : FVec F S16x64 .f32 :=
  let u : FVec F S1x145x64 .f32 := extractStridedSlice S1x145x64 ![0, 0, 0] a5 slices_S2x145x64_S1x145x64_0_0_0
  let v : FVec F S145x64 .f32 := shapeCast S145x64 u shapeCasts_S1x145x64_S145x64
  extractStridedSlice S16x64 ![129, 0] v slices_S145x64_S16x64_129_0
/-- The first edge bias (layer 0), as a row. -/
def eb1_0 (a6 : FVec F S2x64 .f32) : FVec F S1x64 .f32 :=
  let u : FVec F S1x64 .f32 := extractStridedSlice S1x64 ![0, 0] a6 slices_S2x64_S1x64_0_0
  let v : FVec F S64 .f32 := shapeCast S64 u shapeCasts_S1x64_S64
  shapeCast S1x64 v shapeCasts_S64_S1x64
/-- The second edge weight (layer 0). -/
def ew2_0 (a7 : FVec F S2x64x64 .f32) : FVec F S64x64 .f32 :=
  let u : FVec F S1x64x64 .f32 := extractStridedSlice S1x64x64 ![0, 0, 0] a7 slices_S2x64x64_S1x64x64_0_0_0
  shapeCast S64x64 u shapeCasts_S1x64x64_S64x64
/-- The second edge bias (layer 0), as a row. -/
def eb2_0 (a8 : FVec F S2x64 .f32) : FVec F S1x64 .f32 :=
  let u : FVec F S1x64 .f32 := extractStridedSlice S1x64 ![0, 0] a8 slices_S2x64_S1x64_0_0
  let v : FVec F S64 .f32 := shapeCast S64 u shapeCasts_S1x64_S64
  shapeCast S1x64 v shapeCasts_S64_S1x64
/-- The first coordinate weight (layer 0). -/
def cw1_0 (a9 : FVec F S2x64x64 .f32) : FVec F S64x64 .f32 :=
  let u : FVec F S1x64x64 .f32 := extractStridedSlice S1x64x64 ![0, 0, 0] a9 slices_S2x64x64_S1x64x64_0_0_0
  shapeCast S64x64 u shapeCasts_S1x64x64_S64x64
/-- The first coordinate bias (layer 0), as a row. -/
def cb1_0 (a10 : FVec F S2x64 .f32) : FVec F S1x64 .f32 :=
  let u : FVec F S1x64 .f32 := extractStridedSlice S1x64 ![0, 0] a10 slices_S2x64_S1x64_0_0
  let v : FVec F S64 .f32 := shapeCast S64 u shapeCasts_S1x64_S64
  shapeCast S1x64 v shapeCasts_S64_S1x64
/-- The second coordinate weight, a column (layer 0). -/
def cw2_0 (a11 : FVec F S2x64x1 .f32) : FVec F S64x1 .f32 :=
  let u : FVec F S1x64x1 .f32 := extractStridedSlice S1x64x1 ![0, 0, 0] a11 slices_S2x64x1_S1x64x1_0_0_0
  shapeCast S64x1 u shapeCasts_S1x64x1_S64x1
/-- The first node weight (layer 0). -/
def nw1_0 (a12 : FVec F S2x128x64 .f32) : FVec F S128x64 .f32 :=
  let u : FVec F S1x128x64 .f32 := extractStridedSlice S1x128x64 ![0, 0, 0] a12 slices_S2x128x64_S1x128x64_0_0_0
  shapeCast S128x64 u shapeCasts_S1x128x64_S128x64
/-- The first node bias (layer 0). -/
def nb1_0 (a13 : FVec F S2x64 .f32) : FVec F S64 .f32 :=
  let u : FVec F S1x64 .f32 := extractStridedSlice S1x64 ![0, 0] a13 slices_S2x64_S1x64_0_0
  shapeCast S64 u shapeCasts_S1x64_S64
/-- The second node weight (layer 0). -/
def nw2_0 (a14 : FVec F S2x64x64 .f32) : FVec F S64x64 .f32 :=
  let u : FVec F S1x64x64 .f32 := extractStridedSlice S1x64x64 ![0, 0, 0] a14 slices_S2x64x64_S1x64x64_0_0_0
  shapeCast S64x64 u shapeCasts_S1x64x64_S64x64
/-- The second node bias (layer 0). -/
def nb2_0 (a15 : FVec F S2x64 .f32) : FVec F S64 .f32 :=
  let u : FVec F S1x64 .f32 := extractStridedSlice S1x64 ![0, 0] a15 slices_S2x64_S1x64_0_0
  shapeCast S64 u shapeCasts_S1x64_S64
/-- The batch-norm scale (layer 0). -/
def gamma_0 (a16 : FVec F S2x64 .f32) : FVec F S64 .f32 :=
  let u : FVec F S1x64 .f32 := extractStridedSlice S1x64 ![0, 0] a16 slices_S2x64_S1x64_0_0
  shapeCast S64 u shapeCasts_S1x64_S64
/-- The batch-norm shift (layer 0). -/
def beta_0 (a17 : FVec F S2x64 .f32) : FVec F S64 .f32 :=
  let u : FVec F S1x64 .f32 := extractStridedSlice S1x64 ![0, 0] a17 slices_S2x64_S1x64_0_0
  shapeCast S64 u shapeCasts_S1x64_S64

/-- Rows 0 … 63 of the first edge weight: the source features' block (layer 1). -/
def ew1hs1 (a5 : FVec F S2x145x64 .f32) : FVec F S64x64 .f32 :=
  let u : FVec F S1x145x64 .f32 := extractStridedSlice S1x145x64 ![1, 0, 0] a5 slices_S2x145x64_S1x145x64_1_0_0
  let v : FVec F S145x64 .f32 := shapeCast S145x64 u shapeCasts_S1x145x64_S145x64
  extractStridedSlice S64x64 ![0, 0] v slices_S145x64_S64x64_0_0
/-- Rows 64 … 127 of the first edge weight: the destination features' block (layer 1). -/
def ew1hd1 (a5 : FVec F S2x145x64 .f32) : FVec F S64x64 .f32 :=
  let u : FVec F S1x145x64 .f32 := extractStridedSlice S1x145x64 ![1, 0, 0] a5 slices_S2x145x64_S1x145x64_1_0_0
  let v : FVec F S145x64 .f32 := shapeCast S145x64 u shapeCasts_S1x145x64_S145x64
  extractStridedSlice S64x64 ![64, 0] v slices_S145x64_S64x64_64_0
/-- Row 128 of the first edge weight: the squared distance's row (layer 1). -/
def ew1rad1 (a5 : FVec F S2x145x64 .f32) : FVec F S1x64 .f32 :=
  let u : FVec F S1x145x64 .f32 := extractStridedSlice S1x145x64 ![1, 0, 0] a5 slices_S2x145x64_S1x145x64_1_0_0
  let v : FVec F S145x64 .f32 := shapeCast S145x64 u shapeCasts_S1x145x64_S145x64
  extractStridedSlice S1x64 ![128, 0] v slices_S145x64_S1x64_128_0
/-- Rows 129 … 144 of the first edge weight: the edge attributes' block (layer 1). -/
def ew1ef1 (a5 : FVec F S2x145x64 .f32) : FVec F S16x64 .f32 :=
  let u : FVec F S1x145x64 .f32 := extractStridedSlice S1x145x64 ![1, 0, 0] a5 slices_S2x145x64_S1x145x64_1_0_0
  let v : FVec F S145x64 .f32 := shapeCast S145x64 u shapeCasts_S1x145x64_S145x64
  extractStridedSlice S16x64 ![129, 0] v slices_S145x64_S16x64_129_0
/-- The first edge bias (layer 1), as a row. -/
def eb1_1 (a6 : FVec F S2x64 .f32) : FVec F S1x64 .f32 :=
  let u : FVec F S1x64 .f32 := extractStridedSlice S1x64 ![1, 0] a6 slices_S2x64_S1x64_1_0
  let v : FVec F S64 .f32 := shapeCast S64 u shapeCasts_S1x64_S64
  shapeCast S1x64 v shapeCasts_S64_S1x64
/-- The second edge weight (layer 1). -/
def ew2_1 (a7 : FVec F S2x64x64 .f32) : FVec F S64x64 .f32 :=
  let u : FVec F S1x64x64 .f32 := extractStridedSlice S1x64x64 ![1, 0, 0] a7 slices_S2x64x64_S1x64x64_1_0_0
  shapeCast S64x64 u shapeCasts_S1x64x64_S64x64
/-- The second edge bias (layer 1), as a row. -/
def eb2_1 (a8 : FVec F S2x64 .f32) : FVec F S1x64 .f32 :=
  let u : FVec F S1x64 .f32 := extractStridedSlice S1x64 ![1, 0] a8 slices_S2x64_S1x64_1_0
  let v : FVec F S64 .f32 := shapeCast S64 u shapeCasts_S1x64_S64
  shapeCast S1x64 v shapeCasts_S64_S1x64
/-- The first coordinate weight (layer 1). -/
def cw1_1 (a9 : FVec F S2x64x64 .f32) : FVec F S64x64 .f32 :=
  let u : FVec F S1x64x64 .f32 := extractStridedSlice S1x64x64 ![1, 0, 0] a9 slices_S2x64x64_S1x64x64_1_0_0
  shapeCast S64x64 u shapeCasts_S1x64x64_S64x64
/-- The first coordinate bias (layer 1), as a row. -/
def cb1_1 (a10 : FVec F S2x64 .f32) : FVec F S1x64 .f32 :=
  let u : FVec F S1x64 .f32 := extractStridedSlice S1x64 ![1, 0] a10 slices_S2x64_S1x64_1_0
  let v : FVec F S64 .f32 := shapeCast S64 u shapeCasts_S1x64_S64
  shapeCast S1x64 v shapeCasts_S64_S1x64
/-- The second coordinate weight, a column (layer 1). -/
def cw2_1 (a11 : FVec F S2x64x1 .f32) : FVec F S64x1 .f32 :=
  let u : FVec F S1x64x1 .f32 := extractStridedSlice S1x64x1 ![1, 0, 0] a11 slices_S2x64x1_S1x64x1_1_0_0
  shapeCast S64x1 u shapeCasts_S1x64x1_S64x1
/-- The first node weight (layer 1). -/
def nw1_1 (a12 : FVec F S2x128x64 .f32) : FVec F S128x64 .f32 :=
  let u : FVec F S1x128x64 .f32 := extractStridedSlice S1x128x64 ![1, 0, 0] a12 slices_S2x128x64_S1x128x64_1_0_0
  shapeCast S128x64 u shapeCasts_S1x128x64_S128x64
/-- The first node bias (layer 1). -/
def nb1_1 (a13 : FVec F S2x64 .f32) : FVec F S64 .f32 :=
  let u : FVec F S1x64 .f32 := extractStridedSlice S1x64 ![1, 0] a13 slices_S2x64_S1x64_1_0
  shapeCast S64 u shapeCasts_S1x64_S64
/-- The second node weight (layer 1). -/
def nw2_1 (a14 : FVec F S2x64x64 .f32) : FVec F S64x64 .f32 :=
  let u : FVec F S1x64x64 .f32 := extractStridedSlice S1x64x64 ![1, 0, 0] a14 slices_S2x64x64_S1x64x64_1_0_0
  shapeCast S64x64 u shapeCasts_S1x64x64_S64x64
/-- The second node bias (layer 1). -/
def nb2_1 (a15 : FVec F S2x64 .f32) : FVec F S64 .f32 :=
  let u : FVec F S1x64 .f32 := extractStridedSlice S1x64 ![1, 0] a15 slices_S2x64_S1x64_1_0
  shapeCast S64 u shapeCasts_S1x64_S64
/-- The batch-norm scale (layer 1). -/
def gamma_1 (a16 : FVec F S2x64 .f32) : FVec F S64 .f32 :=
  let u : FVec F S1x64 .f32 := extractStridedSlice S1x64 ![1, 0] a16 slices_S2x64_S1x64_1_0
  shapeCast S64 u shapeCasts_S1x64_S64
/-- The batch-norm shift (layer 1). -/
def beta_1 (a17 : FVec F S2x64 .f32) : FVec F S64 .f32 :=
  let u : FVec F S1x64 .f32 := extractStridedSlice S1x64 ![1, 0] a17 slices_S2x64_S1x64_1_0
  shapeCast S64 u shapeCasts_S1x64_S64

end Cert.Bridge.Tail
-- ==== Proof.KOps.lean ====
/-
  What each stretch of whole-array operations between the two edge stages leaves in the arrays it writes, stated
  over an arbitrary assignment `V` of contents to the arrays at the stretch's start: the array written is the
  corresponding function of `Tail` applied to `V` at the arrays the stretch reads, and an array the stretch
  does not write keeps its contents. Nothing here mentions where `V` comes from, so each fact is about one
  stretch alone.
-/
import proofs.«409836_j4174708212115_3_alg».proof.Proof.Gen.KernelIdeal.Launch
import proofs.«409836_j4174708212115_3_alg».proof.Proof.Tail

set_option maxRecDepth 16384

noncomputable section

namespace Cert.Bridge.KOps

open Idealize.ShloMosaic Idealize.ShloMosaic.TcCoe
open Cert.KernelIdeal Cert.KernelIdeal.Gen
open Cert.Bridge

variable {F : FTy → Type} [FloatOps F]

/-! ## Three small array functions beside `Tail`'s -/

/-- The all-zero [40000,64] array. -/
def zerosH : FVec F Tail.S40000x64 .f32 :=
  broadcastInDim Tail.S40000x64 ![] Tail.bcast_S_S40000x64 (constant Tail.S_ .f32 0x00000000#32)

/-- The edge attributes narrowed to the 16-bit format. -/
def efBf (a2 : FVec F Tail.S640000x16 .f32) : FVec F Tail.S640000x16 .bf16 :=
  truncf .bf16 a2 Tail.bitsLt_bf16_f32

/-- The coordinate increment: (summed coordinate messages) / max(deg, 1). -/
def xDelta (xsum : FVec F Tail.S40000x3 .f32) (deg : FVec F Tail.S40000x1 .f32) : FVec F Tail.S40000x3 .f32 :=
  let cst_3 : FVec F Tail.S_ .f32 := constant Tail.S_ .f32 0x3F800000#32
  let v36 : FVec F Tail.S40000x1 .f32 := broadcastInDim Tail.S40000x1 ![] Tail.bcast_S_S40000x1 cst_3
  let v37 : FVec F Tail.S40000x1 .f32 := maximumf deg v36
  let v38 : FVec F Tail.S40000x3 .f32 := broadcastInDim Tail.S40000x3 ![0, 1] Tail.bcast_S40000x1_S40000x3_0_1 v37
  Host.divf xsum v38

/-- The new coordinates are the old plus the increment. -/
theorem newX_eq (x xsum : FVec F Tail.S40000x3 .f32) (deg : FVec F Tail.S40000x1 .f32) :
    Tail.newX x xsum deg = addf x (xDelta xsum deg) := rfl

/-! ## The arrays each stretch writes, and that it leaves every other array alone -/

/-- The arrays `hostOps0` writes. -/
abbrev hostOps0_W : List (Ref sig .tc) := [main_cst, main_v0, main_cst_0, main_v1, main_cst_1, main_v2, main_v3, main_v4, main_v5, main_v6]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps0` does not write keeps its contents. -/
theorem carry_hostOps0 (V : Valuation τ sig (Elt F)) (r : Ref sig .tc) (h : r ∉ hostOps0_W) :
    StableHlo.after hostOps0 V (Proc.devRef .tc r) = V (Proc.devRef .tc r) :=
  StableHlo.after_of_writes_sub hostOps0 V hostOps0_writes h

/-- The arrays `hostOps0_1` writes. -/
abbrev hostOps0_1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v7]
theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps0_1` does not write keeps its contents. -/
theorem carry_hostOps0_1 (V : Valuation τ sig (Elt F)) (r : Ref sig .tc) (h : r ∉ hostOps0_1_W) :
    StableHlo.after hostOps0_1 V (Proc.devRef .tc r) = V (Proc.devRef .tc r) :=
  StableHlo.after_of_writes_sub hostOps0_1 V hostOps0_1_writes h

/-- The arrays `hostOps0_2` writes. -/
abbrev hostOps0_2_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v8]
theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps0_2` does not write keeps its contents. -/
theorem carry_hostOps0_2 (V : Valuation τ sig (Elt F)) (r : Ref sig .tc) (h : r ∉ hostOps0_2_W) :
    StableHlo.after hostOps0_2 V (Proc.devRef .tc r) = V (Proc.devRef .tc r) :=
  StableHlo.after_of_writes_sub hostOps0_2 V hostOps0_2_writes h

/-- The arrays `hostOps0_3` writes. -/
abbrev hostOps0_3_W : List (Ref sig .tc) := [main_v9, main_v10, main_v11, main_v12, main_v13, main_v14, main_v15, main_v16, main_v17, main_v18, main_v19, main_v20, main_v21, main_v22, main_v23, main_v24, main_v25, main_v26, main_v27, main_v28, main_v29]
theorem hostOps0_3_writes : (hostOps0_3 : List (HloOp τ sig (Elt F))).Forall fun op => op.writes ⊆ (hostOps0_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps0_3` does not write keeps its contents. -/
theorem carry_hostOps0_3 (V : Valuation τ sig (Elt F)) (r : Ref sig .tc) (h : r ∉ hostOps0_3_W) :
    StableHlo.after hostOps0_3 V (Proc.devRef .tc r) = V (Proc.devRef .tc r) :=
  StableHlo.after_of_writes_sub hostOps0_3 V hostOps0_3_writes h

/-- The arrays `hostOps1` writes. -/
abbrev hostOps1_W : List (Ref sig .tc) := [main_cst_2, main_v31, main_v32, main_v33, main_v34, main_v35, main_cst_3, main_v36, main_v37, main_v38, main_v39, main_v40, main_v41, main_v42, main_v43, main_v44, main_v45, main_v46, main_v47, main_v48]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps1` does not write keeps its contents. -/
theorem carry_hostOps1 (V : Valuation τ sig (Elt F)) (r : Ref sig .tc) (h : r ∉ hostOps1_W) :
    StableHlo.after hostOps1 V (Proc.devRef .tc r) = V (Proc.devRef .tc r) :=
  StableHlo.after_of_writes_sub hostOps1 V hostOps1_writes h

/-- The arrays `hostOps1_1` writes. -/
abbrev hostOps1_1_W : List (Ref sig .tc) := [main_call2_v0, main_call2_v1, main_call2_cst, main_call2_v2, main_call2_v3, main_call2_cst_0, main_call2_v4, main_call2_v5, main_v49]
theorem hostOps1_1_writes : (hostOps1_1 : List (HloOp τ sig (Elt F))).Forall fun op => op.writes ⊆ (hostOps1_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps1_1` does not write keeps its contents. -/
theorem carry_hostOps1_1 (V : Valuation τ sig (Elt F)) (r : Ref sig .tc) (h : r ∉ hostOps1_1_W) :
    StableHlo.after hostOps1_1 V (Proc.devRef .tc r) = V (Proc.devRef .tc r) :=
  StableHlo.after_of_writes_sub hostOps1_1 V hostOps1_1_writes h

/-- The arrays `hostOps1_2` writes. -/
abbrev hostOps1_2_W : List (Ref sig .tc) := [main_v50, main_v51, main_v52, main_v53, main_v54, main_v55, main_v56, main_v57, main_v58, main_cst_4, main_v59, main_cst_5, main_v60, main_v61, main_c]
theorem hostOps1_2_writes : (hostOps1_2 : List (HloOp τ sig (Elt F))).Forall fun op => op.writes ⊆ (hostOps1_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps1_2` does not write keeps its contents. -/
theorem carry_hostOps1_2 (V : Valuation τ sig (Elt F)) (r : Ref sig .tc) (h : r ∉ hostOps1_2_W) :
    StableHlo.after hostOps1_2 V (Proc.devRef .tc r) = V (Proc.devRef .tc r) :=
  StableHlo.after_of_writes_sub hostOps1_2 V hostOps1_2_writes h

/-- The arrays `hostOps1_3` writes. -/
abbrev hostOps1_3_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v62]
theorem hostOps1_3_writes : (hostOps1_3 : List (HloOp τ sig (Elt F))).Forall fun op => op.writes ⊆ (hostOps1_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps1_3` does not write keeps its contents. -/
theorem carry_hostOps1_3 (V : Valuation τ sig (Elt F)) (r : Ref sig .tc) (h : r ∉ hostOps1_3_W) :
    StableHlo.after hostOps1_3 V (Proc.devRef .tc r) = V (Proc.devRef .tc r) :=
  StableHlo.after_of_writes_sub hostOps1_3 V hostOps1_3_writes h

/-- The arrays `hostOps1_4` writes. -/
abbrev hostOps1_4_W : List (Ref sig .tc) := [main_v63, main_v64, main_v65, main_cst_6, main_v66, main_v67, main_v68, main_v69, main_v70, main_v71, main_v72, main_v73, main_v74, main_v75, main_v76, main_v77, main_v78, main_v79, main_v80, main_v81]
theorem hostOps1_4_writes : (hostOps1_4 : List (HloOp τ sig (Elt F))).Forall fun op => op.writes ⊆ (hostOps1_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps1_4` does not write keeps its contents. -/
theorem carry_hostOps1_4 (V : Valuation τ sig (Elt F)) (r : Ref sig .tc) (h : r ∉ hostOps1_4_W) :
    StableHlo.after hostOps1_4 V (Proc.devRef .tc r) = V (Proc.devRef .tc r) :=
  StableHlo.after_of_writes_sub hostOps1_4 V hostOps1_4_writes h

/-- The arrays `hostOps1_5` writes. -/
abbrev hostOps1_5_W : List (Ref sig .tc) := [main_call4_cst, main_call4_v0, main_v82]
theorem hostOps1_5_writes : (hostOps1_5 : List (HloOp τ sig (Elt F))).Forall fun op => op.writes ⊆ (hostOps1_5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps1_5` does not write keeps its contents. -/
theorem carry_hostOps1_5 (V : Valuation τ sig (Elt F)) (r : Ref sig .tc) (h : r ∉ hostOps1_5_W) :
    StableHlo.after hostOps1_5 V (Proc.devRef .tc r) = V (Proc.devRef .tc r) :=
  StableHlo.after_of_writes_sub hostOps1_5 V hostOps1_5_writes h

/-- The arrays `hostOps1_6` writes. -/
abbrev hostOps1_6_W : List (Ref sig .tc) := [main_v83, main_v84]
theorem hostOps1_6_writes : (hostOps1_6 : List (HloOp τ sig (Elt F))).Forall fun op => op.writes ⊆ (hostOps1_6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps1_6` does not write keeps its contents. -/
theorem carry_hostOps1_6 (V : Valuation τ sig (Elt F)) (r : Ref sig .tc) (h : r ∉ hostOps1_6_W) :
    StableHlo.after hostOps1_6 V (Proc.devRef .tc r) = V (Proc.devRef .tc r) :=
  StableHlo.after_of_writes_sub hostOps1_6 V hostOps1_6_writes h

/-- The arrays `hostOps1_7` writes. -/
abbrev hostOps1_7_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v85]
theorem hostOps1_7_writes : (hostOps1_7 : List (HloOp τ sig (Elt F))).Forall fun op => op.writes ⊆ (hostOps1_7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps1_7` does not write keeps its contents. -/
theorem carry_hostOps1_7 (V : Valuation τ sig (Elt F)) (r : Ref sig .tc) (h : r ∉ hostOps1_7_W) :
    StableHlo.after hostOps1_7 V (Proc.devRef .tc r) = V (Proc.devRef .tc r) :=
  StableHlo.after_of_writes_sub hostOps1_7 V hostOps1_7_writes h

/-- The arrays `hostOps1_8` writes. -/
abbrev hostOps1_8_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v86]
theorem hostOps1_8_writes : (hostOps1_8 : List (HloOp τ sig (Elt F))).Forall fun op => op.writes ⊆ (hostOps1_8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps1_8` does not write keeps its contents. -/
theorem carry_hostOps1_8 (V : Valuation τ sig (Elt F)) (r : Ref sig .tc) (h : r ∉ hostOps1_8_W) :
    StableHlo.after hostOps1_8 V (Proc.devRef .tc r) = V (Proc.devRef .tc r) :=
  StableHlo.after_of_writes_sub hostOps1_8 V hostOps1_8_writes h

/-- The arrays `hostOps1_9` writes. -/
abbrev hostOps1_9_W : List (Ref sig .tc) := [main_v87, main_v88, main_v89, main_v90, main_v91, main_v92, main_v93, main_v94, main_v95, main_v96, main_v97, main_v98, main_v99, main_v100, main_v101, main_v102, main_v103, main_v104, main_v105, main_v106, main_v107]
theorem hostOps1_9_writes : (hostOps1_9 : List (HloOp τ sig (Elt F))).Forall fun op => op.writes ⊆ (hostOps1_9_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps1_9` does not write keeps its contents. -/
theorem carry_hostOps1_9 (V : Valuation τ sig (Elt F)) (r : Ref sig .tc) (h : r ∉ hostOps1_9_W) :
    StableHlo.after hostOps1_9 V (Proc.devRef .tc r) = V (Proc.devRef .tc r) :=
  StableHlo.after_of_writes_sub hostOps1_9 V hostOps1_9_writes h

/-- The arrays `hostOps2` writes. -/
abbrev hostOps2_W : List (Ref sig .tc) := [main_cst_7, main_v109, main_v110, main_v111, main_v112, main_v113, main_cst_8, main_v114, main_v115, main_v116, main_v117, main_v118, main_v119, main_v120, main_v121, main_v122, main_v123, main_v124, main_v125, main_v126]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps2` does not write keeps its contents. -/
theorem carry_hostOps2 (V : Valuation τ sig (Elt F)) (r : Ref sig .tc) (h : r ∉ hostOps2_W) :
    StableHlo.after hostOps2 V (Proc.devRef .tc r) = V (Proc.devRef .tc r) :=
  StableHlo.after_of_writes_sub hostOps2 V hostOps2_writes h

/-- The arrays `hostOps2_1` writes. -/
abbrev hostOps2_1_W : List (Ref sig .tc) := [main_call7_v0, main_call7_v1, main_call7_cst, main_call7_v2, main_call7_v3, main_call7_cst_0, main_call7_v4, main_call7_v5, main_v127]
theorem hostOps2_1_writes : (hostOps2_1 : List (HloOp τ sig (Elt F))).Forall fun op => op.writes ⊆ (hostOps2_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps2_1` does not write keeps its contents. -/
theorem carry_hostOps2_1 (V : Valuation τ sig (Elt F)) (r : Ref sig .tc) (h : r ∉ hostOps2_1_W) :
    StableHlo.after hostOps2_1 V (Proc.devRef .tc r) = V (Proc.devRef .tc r) :=
  StableHlo.after_of_writes_sub hostOps2_1 V hostOps2_1_writes h

/-- The arrays `hostOps2_2` writes. -/
abbrev hostOps2_2_W : List (Ref sig .tc) := [main_v128, main_v129, main_v130, main_v131, main_v132, main_v133, main_v134, main_v135, main_v136, main_cst_9, main_v137, main_cst_10, main_v138, main_v139, main_c_11]
theorem hostOps2_2_writes : (hostOps2_2 : List (HloOp τ sig (Elt F))).Forall fun op => op.writes ⊆ (hostOps2_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps2_2` does not write keeps its contents. -/
theorem carry_hostOps2_2 (V : Valuation τ sig (Elt F)) (r : Ref sig .tc) (h : r ∉ hostOps2_2_W) :
    StableHlo.after hostOps2_2 V (Proc.devRef .tc r) = V (Proc.devRef .tc r) :=
  StableHlo.after_of_writes_sub hostOps2_2 V hostOps2_2_writes h

/-- The arrays `hostOps2_3` writes. -/
abbrev hostOps2_3_W : List (Ref sig .tc) := [main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v140]
theorem hostOps2_3_writes : (hostOps2_3 : List (HloOp τ sig (Elt F))).Forall fun op => op.writes ⊆ (hostOps2_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps2_3` does not write keeps its contents. -/
theorem carry_hostOps2_3 (V : Valuation τ sig (Elt F)) (r : Ref sig .tc) (h : r ∉ hostOps2_3_W) :
    StableHlo.after hostOps2_3 V (Proc.devRef .tc r) = V (Proc.devRef .tc r) :=
  StableHlo.after_of_writes_sub hostOps2_3 V hostOps2_3_writes h

/-- The arrays `hostOps2_4` writes. -/
abbrev hostOps2_4_W : List (Ref sig .tc) := [main_v141, main_v142, main_v143, main_cst_12, main_v144, main_v145, main_v146, main_v147, main_v148, main_v149, main_v150, main_v151, main_v152, main_v153, main_v154, main_v155, main_v156, main_v157, main_v158, main_v159]
theorem hostOps2_4_writes : (hostOps2_4 : List (HloOp τ sig (Elt F))).Forall fun op => op.writes ⊆ (hostOps2_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps2_4` does not write keeps its contents. -/
theorem carry_hostOps2_4 (V : Valuation τ sig (Elt F)) (r : Ref sig .tc) (h : r ∉ hostOps2_4_W) :
    StableHlo.after hostOps2_4 V (Proc.devRef .tc r) = V (Proc.devRef .tc r) :=
  StableHlo.after_of_writes_sub hostOps2_4 V hostOps2_4_writes h

/-- The arrays `hostOps2_5` writes. -/
abbrev hostOps2_5_W : List (Ref sig .tc) := [main_call9_cst, main_call9_v0, main_v160]
theorem hostOps2_5_writes : (hostOps2_5 : List (HloOp τ sig (Elt F))).Forall fun op => op.writes ⊆ (hostOps2_5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps2_5` does not write keeps its contents. -/
theorem carry_hostOps2_5 (V : Valuation τ sig (Elt F)) (r : Ref sig .tc) (h : r ∉ hostOps2_5_W) :
    StableHlo.after hostOps2_5 V (Proc.devRef .tc r) = V (Proc.devRef .tc r) :=
  StableHlo.after_of_writes_sub hostOps2_5 V hostOps2_5_writes h

/-- The arrays `hostOps2_6` writes. -/
abbrev hostOps2_6_W : List (Ref sig .tc) := [main_v161]
theorem hostOps2_6_writes : (hostOps2_6 : List (HloOp τ sig (Elt F))).Forall fun op => op.writes ⊆ (hostOps2_6_W.map (Proc.devRef (τ := τ) .tc)).toFinset := by
  simp only [List.Forall]
  (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))
/-- An array `hostOps2_6` does not write keeps its contents. -/
theorem carry_hostOps2_6 (V : Valuation τ sig (Elt F)) (r : Ref sig .tc) (h : r ∉ hostOps2_6_W) :
    StableHlo.after hostOps2_6 V (Proc.devRef .tc r) = V (Proc.devRef .tc r) :=
  StableHlo.after_of_writes_sub hostOps2_6 V hostOps2_6_writes h

/-! ## What each stretch writes, as a function of what it reads -/

/-- Rewrites, one at a time, each operation's result at a named array: to the operation's function of its operands
    at the array it writes, to the earlier contents at any other. -/
local macro "results_rw" : tactic =>
  `(tactic| repeat (first
     | rw [StableHlo.nullary_result] | rw [StableHlo.unary_result] | rw [StableHlo.binary_result]
     | rw [StableHlo.ternary_result] | rw [StableHlo.reshape_result]
     | (rw [StableHlo.nullary_result_ne]; rotate_left; decide)
     | (rw [StableHlo.unary_result_ne]; rotate_left; decide)
     | (rw [StableHlo.binary_result_ne]; rotate_left; decide)
     | (rw [StableHlo.ternary_result_ne]; rotate_left; decide)
     | (rw [StableHlo.reshape_result_ne]; rotate_left; decide)))

/-- The first stretch leaves zeros in the accumulator's seed. -/
theorem s0_v0 (V : Valuation τ sig (Elt F)) :
    StableHlo.after hostOps0 V (Proc.devRef .tc main_v0)
      = (zerosH : FVec F Tail.S40000x64 .f32) := by
  after_results_simp
  try simp only [StableHlo.TRef.ofBuf, StableHlo.TRef.toBuf, cast_eq]
  results_rw
  all_goals rfl

/-- The first stretch leaves the in-degrees. -/
theorem s0_v4 (V : Valuation τ sig (Elt F)) :
    StableHlo.after hostOps0 V (Proc.devRef .tc main_v4)
      = Tail.degOf (V (Proc.devRef .tc main_arg4)) := by
  after_results_simp
  try simp only [StableHlo.TRef.ofBuf, StableHlo.TRef.toBuf, cast_eq]
  results_rw
  all_goals rfl

/-- The first stretch leaves the narrowed edge attributes. -/
theorem s0_v5 (V : Valuation τ sig (Elt F)) :
    StableHlo.after hostOps0 V (Proc.devRef .tc main_v5)
      = efBf (V (Proc.devRef .tc main_arg2)) := by
  after_results_simp
  try simp only [StableHlo.TRef.ofBuf, StableHlo.TRef.toBuf, cast_eq]
  results_rw
  all_goals rfl

/-- The first stretch leaves the node table [h | x]. -/
theorem s0_v6 (V : Valuation τ sig (Elt F)) :
    StableHlo.after hostOps0 V (Proc.devRef .tc main_v6)
      = Tail.tableOf (V (Proc.devRef .tc main_arg0)) (V (Proc.devRef .tc main_arg1)) := by
  after_results_simp
  try simp only [StableHlo.TRef.ofBuf, StableHlo.TRef.toBuf, cast_eq]
  results_rw
  all_goals rfl

/-- The table's rows at the source indices (layer 0). -/
theorem take0 (V : Valuation τ sig (Elt F)) :
    StableHlo.after hostOps0_1 V (Proc.devRef .tc main_v7)
      = Tail.takeK (V (Proc.devRef .tc main_v6)) (V (Proc.devRef .tc main_arg3)) := by
  after_results_simp
  try simp only [StableHlo.TRef.ofBuf, StableHlo.TRef.toBuf, cast_eq]
  results_rw
  all_goals rfl

/-- The table's rows at the destination indices (layer 0). -/
theorem take1 (V : Valuation τ sig (Elt F)) :
    StableHlo.after hostOps0_2 V (Proc.devRef .tc main_v8)
      = Tail.takeK (V (Proc.devRef .tc main_v6)) (V (Proc.devRef .tc main_arg4)) := by
  after_results_simp
  try simp only [StableHlo.TRef.ofBuf, StableHlo.TRef.toBuf, cast_eq]
  results_rw
  all_goals rfl

/-- Layer 0's slice `ew1hs` of its stacked parameter. -/
theorem s0_3_v11 (V : Valuation τ sig (Elt F)) :
    StableHlo.after hostOps0_3 V (Proc.devRef .tc main_v11)
      = Tail.ew1hs0 (V (Proc.devRef .tc main_arg5)) := by
  after_results_simp
  try simp only [StableHlo.TRef.ofBuf, StableHlo.TRef.toBuf, cast_eq]
  results_rw
  all_goals rfl

/-- Layer 0's slice `ew1hd` of its stacked parameter. -/
theorem s0_3_v12 (V : Valuation τ sig (Elt F)) :
    StableHlo.after hostOps0_3 V (Proc.devRef .tc main_v12)
      = Tail.ew1hd0 (V (Proc.devRef .tc main_arg5)) := by
  after_results_simp
  try simp only [StableHlo.TRef.ofBuf, StableHlo.TRef.toBuf, cast_eq]
  results_rw
  all_goals rfl

/-- Layer 0's slice `ew1rad` of its stacked parameter. -/
theorem s0_3_v13 (V : Valuation τ sig (Elt F)) :
    StableHlo.after hostOps0_3 V (Proc.devRef .tc main_v13)
      = Tail.ew1rad0 (V (Proc.devRef .tc main_arg5)) := by
  after_results_simp
  try simp only [StableHlo.TRef.ofBuf, StableHlo.TRef.toBuf, cast_eq]
  results_rw
  all_goals rfl

/-- Layer 0's slice `ew1ef` of its stacked parameter. -/
theorem s0_3_v14 (V : Valuation τ sig (Elt F)) :
    StableHlo.after hostOps0_3 V (Proc.devRef .tc main_v14)
      = Tail.ew1ef0 (V (Proc.devRef .tc main_arg5)) := by
  after_results_simp
  try simp only [StableHlo.TRef.ofBuf, StableHlo.TRef.toBuf, cast_eq]
  results_rw
  all_goals rfl

/-- Layer 0's slice `eb1` of its stacked parameter. -/
theorem s0_3_v17 (V : Valuation τ sig (Elt F)) :
    StableHlo.after hostOps0_3 V (Proc.devRef .tc main_v17)
      = Tail.eb1_0 (V (Proc.devRef .tc main_arg6)) := by
  after_results_simp
  try simp only [StableHlo.TRef.ofBuf, StableHlo.TRef.toBuf, cast_eq]
  results_rw
  all_goals rfl

/-- Layer 0's slice `ew2` of its stacked parameter. -/
theorem s0_3_v19 (V : Valuation τ sig (Elt F)) :
    StableHlo.after hostOps0_3 V (Proc.devRef .tc main_v19)
      = Tail.ew2_0 (V (Proc.devRef .tc main_arg7)) := by
  after_results_simp
  try simp only [StableHlo.TRef.ofBuf, StableHlo.TRef.toBuf, cast_eq]
  results_rw
  all_goals rfl

/-- Layer 0's slice `eb2` of its stacked parameter. -/
theorem s0_3_v22 (V : Valuation τ sig (Elt F)) :
    StableHlo.after hostOps0_3 V (Proc.devRef .tc main_v22)
      = Tail.eb2_0 (V (Proc.devRef .tc main_arg8)) := by
  after_results_simp
  try simp only [StableHlo.TRef.ofBuf, StableHlo.TRef.toBuf, cast_eq]
  results_rw
  all_goals rfl

/-- Layer 0's slice `cw1` of its stacked parameter. -/
theorem s0_3_v24 (V : Valuation τ sig (Elt F)) :
    StableHlo.after hostOps0_3 V (Proc.devRef .tc main_v24)
      = Tail.cw1_0 (V (Proc.devRef .tc main_arg9)) := by
  after_results_simp
  try simp only [StableHlo.TRef.ofBuf, StableHlo.TRef.toBuf, cast_eq]
  results_rw
  all_goals rfl

/-- Layer 0's slice `cb1` of its stacked parameter. -/
theorem s0_3_v27 (V : Valuation τ sig (Elt F)) :
    StableHlo.after hostOps0_3 V (Proc.devRef .tc main_v27)
      = Tail.cb1_0 (V (Proc.devRef .tc main_arg10)) := by
  after_results_simp
  try simp only [StableHlo.TRef.ofBuf, StableHlo.TRef.toBuf, cast_eq]
  results_rw
  all_goals rfl

/-- Layer 0's slice `cw2` of its stacked parameter. -/
theorem s0_3_v29 (V : Valuation τ sig (Elt F)) :
    StableHlo.after hostOps0_3 V (Proc.devRef .tc main_v29)
      = Tail.cw2_0 (V (Proc.devRef .tc main_arg11)) := by
  after_results_simp
  try simp only [StableHlo.TRef.ofBuf, StableHlo.TRef.toBuf, cast_eq]
  results_rw
  all_goals rfl

/-- The coordinate increment of layer 0. -/
theorem s1_v39 (V : Valuation τ sig (Elt F)) :
    StableHlo.after hostOps1 V (Proc.devRef .tc main_v39)
      = xDelta (Tail.coordPart (Tail.sumPacked (V (Proc.devRef .tc main_arg4)) (V (Proc.devRef .tc main_v30)))) (V (Proc.devRef .tc main_v4)) := by
  after_results_simp
  try simp only [StableHlo.TRef.ofBuf, StableHlo.TRef.toBuf, cast_eq]
  results_rw
  all_goals rfl

/-- The node network's first linear map (layer 0). -/
theorem s1_v48 (V : Valuation τ sig (Elt F)) :
    StableHlo.after hostOps1 V (Proc.devRef .tc main_v48)
      = Tail.linear128 (V (Proc.devRef .tc main_arg0)) (Tail.featPart (Tail.sumPacked (V (Proc.devRef .tc main_arg4)) (V (Proc.devRef .tc main_v30)))) (Tail.nw1_0 (V (Proc.devRef .tc main_arg12))) (Tail.nb1_0 (V (Proc.devRef .tc main_arg13))) := by
  after_results_simp
  try simp only [StableHlo.TRef.ofBuf, StableHlo.TRef.toBuf, cast_eq]
  results_rw
  all_goals rfl

/-- silu (layer 0). -/
theorem s1_1_v49 (V : Valuation τ sig (Elt F)) :
    StableHlo.after hostOps1_1 V (Proc.devRef .tc main_v49)
      = Tail.siluV (V (Proc.devRef .tc main_v48)) := by
  after_results_simp
  try simp only [StableHlo.TRef.ofBuf, StableHlo.TRef.toBuf, cast_eq]
  results_rw
  all_goals rfl

/-- The node network's second linear map (layer 0). -/
theorem s1_2_v57 (V : Valuation τ sig (Elt F)) :
    StableHlo.after hostOps1_2 V (Proc.devRef .tc main_v57)
      = Tail.linear64 (V (Proc.devRef .tc main_v49)) (Tail.nw2_0 (V (Proc.devRef .tc main_arg14))) (Tail.nb2_0 (V (Proc.devRef .tc main_arg15))) := by
  after_results_simp
  try simp only [StableHlo.TRef.ofBuf, StableHlo.TRef.toBuf, cast_eq]
  results_rw
  all_goals rfl

/-- The new coordinates (layer 0). -/
theorem s1_2_v58 (V : Valuation τ sig (Elt F)) :
    StableHlo.after hostOps1_2 V (Proc.devRef .tc main_v58)
      = addf (V (Proc.devRef .tc main_arg1)) (V (Proc.devRef .tc main_v39)) := by
  after_results_simp
  try simp only [StableHlo.TRef.ofBuf, StableHlo.TRef.toBuf, cast_eq]
  results_rw
  all_goals rfl

/-- The column means (layer 0). -/
theorem s1_2_v61 (V : Valuation τ sig (Elt F)) :
    StableHlo.after hostOps1_2 V (Proc.devRef .tc main_v61)
      = Tail.colMean (Tail.linear64 (V (Proc.devRef .tc main_v49)) (Tail.nw2_0 (V (Proc.devRef .tc main_arg14))) (Tail.nb2_0 (V (Proc.devRef .tc main_arg15)))) := by
  after_results_simp
  try simp only [StableHlo.TRef.ofBuf, StableHlo.TRef.toBuf, cast_eq]
  results_rw
  all_goals rfl

/-- The variance's correction term, zero (layer 0). -/
theorem s1_2_c (V : Valuation τ sig (Elt F)) :
    StableHlo.after hostOps1_2 V (Proc.devRef .tc main_c)
      = (constantI Tail.S_ 32 0#32 : IVec Tail.S_ 32) := by
  after_results_simp
  try simp only [StableHlo.TRef.ofBuf, StableHlo.TRef.toBuf, cast_eq]
  results_rw
  all_goals rfl

/-- The column variances (layer 0), the correction term being zero. -/
theorem s1_3_v62 (V : Valuation τ sig (Elt F)) (hc : V (Proc.devRef .tc main_c) = (constantI Tail.S_ 32 0#32 : IVec Tail.S_ 32)) :
    StableHlo.after hostOps1_3 V (Proc.devRef .tc main_v62)
      = Tail.colVar (V (Proc.devRef .tc main_v57)) := by
  after_results_simp
  try simp only [StableHlo.TRef.ofBuf, StableHlo.TRef.toBuf, cast_eq]
  rw [hc]
  all_goals rfl

/-- Batch normalisation (layer 0). -/
theorem s1_4_v81 (V : Valuation τ sig (Elt F)) :
    StableHlo.after hostOps1_4 V (Proc.devRef .tc main_v81)
      = Tail.normalise (V (Proc.devRef .tc main_v57)) (V (Proc.devRef .tc main_v61)) (V (Proc.devRef .tc main_v62)) (Tail.gamma_0 (V (Proc.devRef .tc main_arg16))) (Tail.beta_0 (V (Proc.devRef .tc main_arg17))) := by
  after_results_simp
  try simp only [StableHlo.TRef.ofBuf, StableHlo.TRef.toBuf, cast_eq]
  results_rw
  all_goals rfl

/-- relu (layer 0). -/
theorem s1_5_v82 (V : Valuation τ sig (Elt F)) :
    StableHlo.after hostOps1_5 V (Proc.devRef .tc main_v82)
      = Tail.reluV (V (Proc.devRef .tc main_v81)) := by
  after_results_simp
  try simp only [StableHlo.TRef.ofBuf, StableHlo.TRef.toBuf, cast_eq]
  results_rw
  all_goals rfl

/-- The accumulator after layer 0. -/
theorem s1_6_v83 (V : Valuation τ sig (Elt F)) :
    StableHlo.after hostOps1_6 V (Proc.devRef .tc main_v83)
      = addf (V (Proc.devRef .tc main_v0)) (V (Proc.devRef .tc main_v82)) := by
  after_results_simp
  try simp only [StableHlo.TRef.ofBuf, StableHlo.TRef.toBuf, cast_eq]
  results_rw
  all_goals rfl

/-- The node table of layer 1. -/
theorem s1_6_v84 (V : Valuation τ sig (Elt F)) :
    StableHlo.after hostOps1_6 V (Proc.devRef .tc main_v84)
      = Tail.tableOf (V (Proc.devRef .tc main_v82)) (V (Proc.devRef .tc main_v58)) := by
  after_results_simp
  try simp only [StableHlo.TRef.ofBuf, StableHlo.TRef.toBuf, cast_eq]
  results_rw
  all_goals rfl

/-- The table's rows at the source indices (layer 1). -/
theorem take2 (V : Valuation τ sig (Elt F)) :
    StableHlo.after hostOps1_7 V (Proc.devRef .tc main_v85)
      = Tail.takeK (V (Proc.devRef .tc main_v84)) (V (Proc.devRef .tc main_arg3)) := by
  after_results_simp
  try simp only [StableHlo.TRef.ofBuf, StableHlo.TRef.toBuf, cast_eq]
  results_rw
  all_goals rfl

/-- The table's rows at the destination indices (layer 1). -/
theorem take3 (V : Valuation τ sig (Elt F)) :
    StableHlo.after hostOps1_8 V (Proc.devRef .tc main_v86)
      = Tail.takeK (V (Proc.devRef .tc main_v84)) (V (Proc.devRef .tc main_arg4)) := by
  after_results_simp
  try simp only [StableHlo.TRef.ofBuf, StableHlo.TRef.toBuf, cast_eq]
  results_rw
  all_goals rfl

/-- Layer 1's slice `ew1hs` of its stacked parameter. -/
theorem s1_9_v89 (V : Valuation τ sig (Elt F)) :
    StableHlo.after hostOps1_9 V (Proc.devRef .tc main_v89)
      = Tail.ew1hs1 (V (Proc.devRef .tc main_arg5)) := by
  after_results_simp
  try simp only [StableHlo.TRef.ofBuf, StableHlo.TRef.toBuf, cast_eq]
  results_rw
  all_goals rfl

/-- Layer 1's slice `ew1hd` of its stacked parameter. -/
theorem s1_9_v90 (V : Valuation τ sig (Elt F)) :
    StableHlo.after hostOps1_9 V (Proc.devRef .tc main_v90)
      = Tail.ew1hd1 (V (Proc.devRef .tc main_arg5)) := by
  after_results_simp
  try simp only [StableHlo.TRef.ofBuf, StableHlo.TRef.toBuf, cast_eq]
  results_rw
  all_goals rfl

/-- Layer 1's slice `ew1rad` of its stacked parameter. -/
theorem s1_9_v91 (V : Valuation τ sig (Elt F)) :
    StableHlo.after hostOps1_9 V (Proc.devRef .tc main_v91)
      = Tail.ew1rad1 (V (Proc.devRef .tc main_arg5)) := by
  after_results_simp
  try simp only [StableHlo.TRef.ofBuf, StableHlo.TRef.toBuf, cast_eq]
  results_rw
  all_goals rfl

/-- Layer 1's slice `ew1ef` of its stacked parameter. -/
theorem s1_9_v92 (V : Valuation τ sig (Elt F)) :
    StableHlo.after hostOps1_9 V (Proc.devRef .tc main_v92)
      = Tail.ew1ef1 (V (Proc.devRef .tc main_arg5)) := by
  after_results_simp
  try simp only [StableHlo.TRef.ofBuf, StableHlo.TRef.toBuf, cast_eq]
  results_rw
  all_goals rfl

/-- Layer 1's slice `eb1` of its stacked parameter. -/
theorem s1_9_v95 (V : Valuation τ sig (Elt F)) :
    StableHlo.after hostOps1_9 V (Proc.devRef .tc main_v95)
      = Tail.eb1_1 (V (Proc.devRef .tc main_arg6)) := by
  after_results_simp
  try simp only [StableHlo.TRef.ofBuf, StableHlo.TRef.toBuf, cast_eq]
  results_rw
  all_goals rfl

/-- Layer 1's slice `ew2` of its stacked parameter. -/
theorem s1_9_v97 (V : Valuation τ sig (Elt F)) :
    StableHlo.after hostOps1_9 V (Proc.devRef .tc main_v97)
      = Tail.ew2_1 (V (Proc.devRef .tc main_arg7)) := by
  after_results_simp
  try simp only [StableHlo.TRef.ofBuf, StableHlo.TRef.toBuf, cast_eq]
  results_rw
  all_goals rfl

/-- Layer 1's slice `eb2` of its stacked parameter. -/
theorem s1_9_v100 (V : Valuation τ sig (Elt F)) :
    StableHlo.after hostOps1_9 V (Proc.devRef .tc main_v100)
      = Tail.eb2_1 (V (Proc.devRef .tc main_arg8)) := by
  after_results_simp
  try simp only [StableHlo.TRef.ofBuf, StableHlo.TRef.toBuf, cast_eq]
  results_rw
  all_goals rfl

/-- Layer 1's slice `cw1` of its stacked parameter. -/
theorem s1_9_v102 (V : Valuation τ sig (Elt F)) :
    StableHlo.after hostOps1_9 V (Proc.devRef .tc main_v102)
      = Tail.cw1_1 (V (Proc.devRef .tc main_arg9)) := by
  after_results_simp
  try simp only [StableHlo.TRef.ofBuf, StableHlo.TRef.toBuf, cast_eq]
  results_rw
  all_goals rfl

/-- Layer 1's slice `cb1` of its stacked parameter. -/
theorem s1_9_v105 (V : Valuation τ sig (Elt F)) :
    StableHlo.after hostOps1_9 V (Proc.devRef .tc main_v105)
      = Tail.cb1_1 (V (Proc.devRef .tc main_arg10)) := by
  after_results_simp
  try simp only [StableHlo.TRef.ofBuf, StableHlo.TRef.toBuf, cast_eq]
  results_rw
  all_goals rfl

/-- Layer 1's slice `cw2` of its stacked parameter. -/
theorem s1_9_v107 (V : Valuation τ sig (Elt F)) :
    StableHlo.after hostOps1_9 V (Proc.devRef .tc main_v107)
      = Tail.cw2_1 (V (Proc.devRef .tc main_arg11)) := by
  after_results_simp
  try simp only [StableHlo.TRef.ofBuf, StableHlo.TRef.toBuf, cast_eq]
  results_rw
  all_goals rfl

/-- The node network's first linear map (layer 1). -/
theorem s2_v126 (V : Valuation τ sig (Elt F)) :
    StableHlo.after hostOps2 V (Proc.devRef .tc main_v126)
      = Tail.linear128 (V (Proc.devRef .tc main_v82)) (Tail.featPart (Tail.sumPacked (V (Proc.devRef .tc main_arg4)) (V (Proc.devRef .tc main_v108)))) (Tail.nw1_1 (V (Proc.devRef .tc main_arg12))) (Tail.nb1_1 (V (Proc.devRef .tc main_arg13))) := by
  after_results_simp
  try simp only [StableHlo.TRef.ofBuf, StableHlo.TRef.toBuf, cast_eq]
  results_rw
  all_goals rfl

/-- silu (layer 1). -/
theorem s2_1_v127 (V : Valuation τ sig (Elt F)) :
    StableHlo.after hostOps2_1 V (Proc.devRef .tc main_v127)
      = Tail.siluV (V (Proc.devRef .tc main_v126)) := by
  after_results_simp
  try simp only [StableHlo.TRef.ofBuf, StableHlo.TRef.toBuf, cast_eq]
  results_rw
  all_goals rfl

/-- The node network's second linear map (layer 1). -/
theorem s2_2_v135 (V : Valuation τ sig (Elt F)) :
    StableHlo.after hostOps2_2 V (Proc.devRef .tc main_v135)
      = Tail.linear64 (V (Proc.devRef .tc main_v127)) (Tail.nw2_1 (V (Proc.devRef .tc main_arg14))) (Tail.nb2_1 (V (Proc.devRef .tc main_arg15))) := by
  after_results_simp
  try simp only [StableHlo.TRef.ofBuf, StableHlo.TRef.toBuf, cast_eq]
  results_rw
  all_goals rfl

/-- The column means (layer 1). -/
theorem s2_2_v139 (V : Valuation τ sig (Elt F)) :
    StableHlo.after hostOps2_2 V (Proc.devRef .tc main_v139)
      = Tail.colMean (Tail.linear64 (V (Proc.devRef .tc main_v127)) (Tail.nw2_1 (V (Proc.devRef .tc main_arg14))) (Tail.nb2_1 (V (Proc.devRef .tc main_arg15)))) := by
  after_results_simp
  try simp only [StableHlo.TRef.ofBuf, StableHlo.TRef.toBuf, cast_eq]
  results_rw
  all_goals rfl

/-- The variance's correction term, zero (layer 1). -/
theorem s2_2_c (V : Valuation τ sig (Elt F)) :
    StableHlo.after hostOps2_2 V (Proc.devRef .tc main_c_11)
      = (constantI Tail.S_ 32 0#32 : IVec Tail.S_ 32) := by
  after_results_simp
  try simp only [StableHlo.TRef.ofBuf, StableHlo.TRef.toBuf, cast_eq]
  results_rw
  all_goals rfl

/-- The column variances (layer 1), the correction term being zero. -/
theorem s2_3_v140 (V : Valuation τ sig (Elt F)) (hc : V (Proc.devRef .tc main_c_11) = (constantI Tail.S_ 32 0#32 : IVec Tail.S_ 32)) :
    StableHlo.after hostOps2_3 V (Proc.devRef .tc main_v140)
      = Tail.colVar (V (Proc.devRef .tc main_v135)) := by
  after_results_simp
  try simp only [StableHlo.TRef.ofBuf, StableHlo.TRef.toBuf, cast_eq]
  rw [hc]
  all_goals rfl

/-- Batch normalisation (layer 1). -/
theorem s2_4_v159 (V : Valuation τ sig (Elt F)) :
    StableHlo.after hostOps2_4 V (Proc.devRef .tc main_v159)
      = Tail.normalise (V (Proc.devRef .tc main_v135)) (V (Proc.devRef .tc main_v139)) (V (Proc.devRef .tc main_v140)) (Tail.gamma_1 (V (Proc.devRef .tc main_arg16))) (Tail.beta_1 (V (Proc.devRef .tc main_arg17))) := by
  after_results_simp
  try simp only [StableHlo.TRef.ofBuf, StableHlo.TRef.toBuf, cast_eq]
  results_rw
  all_goals rfl

/-- relu (layer 1). -/
theorem s2_5_v160 (V : Valuation τ sig (Elt F)) :
    StableHlo.after hostOps2_5 V (Proc.devRef .tc main_v160)
      = Tail.reluV (V (Proc.devRef .tc main_v159)) := by
  after_results_simp
  try simp only [StableHlo.TRef.ofBuf, StableHlo.TRef.toBuf, cast_eq]
  results_rw
  all_goals rfl

/-- The result: the accumulator plus layer 1's output. -/
theorem s2_6_v161 (V : Valuation τ sig (Elt F)) :
    StableHlo.after hostOps2_6 V (Proc.devRef .tc main_v161)
      = addf (V (Proc.devRef .tc main_v83)) (V (Proc.devRef .tc main_v160)) := by
  after_results_simp
  try simp only [StableHlo.TRef.ofBuf, StableHlo.TRef.toBuf, cast_eq]
  results_rw
  all_goals rfl

end Cert.Bridge.KOps
-- ==== Proof.KRead.lean ====
/-
  The program's whole-array dataflow read back: what the arrays hold at the entry of each edge stage and at the
  end, as `Tail`'s functions of the launch contents and of the two edge stages' outputs.

  With a0 … a17 the launch contents of the eighteen argument arrays, P0 the packed messages the first edge
  stage leaves and P1 those the second leaves:
    * at the first edge stage's entry its gathered rows are takeK [a0 | a1] a3 and takeK [a0 | a1] a4, its edge
      attributes a2 narrowed, its parameters layer 0's slices of a5 … a11;
    * with S0 = the sums of P0 by destination, h1 = nodeNet a0 (features of S0) (layer 0's node parameters) and
      x1 = newX a1 (coordinates of S0) (degrees), the second edge stage's entry has takeK [h1 | x1] a3 and
      takeK [h1 | x1] a4, the same narrowed attributes, and layer 1's slices;
    * with S1 = the sums of P1 by destination, the result is (0 + h1) + nodeNet h1 (features of S1) (layer 1's
      node parameters).
  Each fact is one stretch's fact (`KOps`) at the contents before the stretch, and an array no stretch in
  between writes is carried unchanged.
-/
import proofs.«409836_j4174708212115_3_alg».proof.Proof.Gen.KernelIdeal.Frame
import proofs.«409836_j4174708212115_3_alg».proof.Proof.KOps

set_option maxRecDepth 16384

noncomputable section

namespace Cert.Bridge.KRead

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.Bridge

variable {F : FTy → Type} [FloatOps F]
variable (m : (ℓ : Loc nD τ sig) → Buf (Elt F) ℓ) (ρ : Dev nD → PrngReg)

/-! ## The launch contents of the argument arrays -/

/-- Launch contents of argument 0: node features h. -/
abbrev a0 (c : Dev nD) : FVec F Tail.S40000x64 .f32 := m ((c : Thread nD τ).loc main_arg0)
/-- Launch contents of argument 1: node positions x. -/
abbrev a1 (c : Dev nD) : FVec F Tail.S40000x3 .f32 := m ((c : Thread nD τ).loc main_arg1)
/-- Launch contents of argument 2: edge attributes. -/
abbrev a2 (c : Dev nD) : FVec F Tail.S640000x16 .f32 := m ((c : Thread nD τ).loc main_arg2)
/-- Launch contents of argument 3: edge sources. -/
abbrev a3 (c : Dev nD) : IVec Tail.S640000 32 := m ((c : Thread nD τ).loc main_arg3)
/-- Launch contents of argument 4: edge destinations. -/
abbrev a4 (c : Dev nD) : IVec Tail.S640000 32 := m ((c : Thread nD τ).loc main_arg4)
/-- Launch contents of argument 5: stacked first edge weights. -/
abbrev a5 (c : Dev nD) : FVec F Tail.S2x145x64 .f32 := m ((c : Thread nD τ).loc main_arg5)
/-- Launch contents of argument 6: stacked first edge biases. -/
abbrev a6 (c : Dev nD) : FVec F Tail.S2x64 .f32 := m ((c : Thread nD τ).loc main_arg6)
/-- Launch contents of argument 7: stacked second edge weights. -/
abbrev a7 (c : Dev nD) : FVec F Tail.S2x64x64 .f32 := m ((c : Thread nD τ).loc main_arg7)
/-- Launch contents of argument 8: stacked second edge biases. -/
abbrev a8 (c : Dev nD) : FVec F Tail.S2x64 .f32 := m ((c : Thread nD τ).loc main_arg8)
/-- Launch contents of argument 9: stacked first coordinate weights. -/
abbrev a9 (c : Dev nD) : FVec F Tail.S2x64x64 .f32 := m ((c : Thread nD τ).loc main_arg9)
/-- Launch contents of argument 10: stacked first coordinate biases. -/
abbrev a10 (c : Dev nD) : FVec F Tail.S2x64 .f32 := m ((c : Thread nD τ).loc main_arg10)
/-- Launch contents of argument 11: stacked second coordinate weights. -/
abbrev a11 (c : Dev nD) : FVec F Tail.S2x64x1 .f32 := m ((c : Thread nD τ).loc main_arg11)
/-- Launch contents of argument 12: stacked first node weights. -/
abbrev a12 (c : Dev nD) : FVec F Tail.S2x128x64 .f32 := m ((c : Thread nD τ).loc main_arg12)
/-- Launch contents of argument 13: stacked first node biases. -/
abbrev a13 (c : Dev nD) : FVec F Tail.S2x64 .f32 := m ((c : Thread nD τ).loc main_arg13)
/-- Launch contents of argument 14: stacked second node weights. -/
abbrev a14 (c : Dev nD) : FVec F Tail.S2x64x64 .f32 := m ((c : Thread nD τ).loc main_arg14)
/-- Launch contents of argument 15: stacked second node biases. -/
abbrev a15 (c : Dev nD) : FVec F Tail.S2x64 .f32 := m ((c : Thread nD τ).loc main_arg15)
/-- Launch contents of argument 16: stacked batch-norm scales. -/
abbrev a16 (c : Dev nD) : FVec F Tail.S2x64 .f32 := m ((c : Thread nD τ).loc main_arg16)
/-- Launch contents of argument 17: stacked batch-norm shifts. -/
abbrev a17 (c : Dev nD) : FVec F Tail.S2x64 .f32 := m ((c : Thread nD τ).loc main_arg17)

/-! ## An array a stretch does not write is the same after it -/

theorem W1_of (c : Dev nD) (r : Ref sig .tc) (h : r ∉ KOps.hostOps0_W) :
    W1 m ρ c (Proc.devRef .tc r) = W0 m ρ c (Proc.devRef .tc r) := KOps.carry_hostOps0 _ r h
theorem W2_of (c : Dev nD) (r : Ref sig .tc) (h : r ∉ KOps.hostOps0_1_W) :
    W2 m ρ c (Proc.devRef .tc r) = W1 m ρ c (Proc.devRef .tc r) := KOps.carry_hostOps0_1 _ r h
theorem W3_of (c : Dev nD) (r : Ref sig .tc) (h : r ∉ KOps.hostOps0_2_W) :
    W3 m ρ c (Proc.devRef .tc r) = W2 m ρ c (Proc.devRef .tc r) := KOps.carry_hostOps0_2 _ r h
theorem W4_of (c : Dev nD) (r : Ref sig .tc) (h : r ∉ KOps.hostOps0_3_W) :
    W4 m ρ c (Proc.devRef .tc r) = W3 m ρ c (Proc.devRef .tc r) := KOps.carry_hostOps0_3 _ r h
theorem W5_of (c : Dev nD) (r : Ref sig .tc) (h : ∀ w, Pipeline.arrRef spec0 w ≠ r) :
    W5 m ρ c (Proc.devRef .tc r) = W4 m ρ c (Proc.devRef .tc r) := W5_of_ne m ρ c r h
theorem W6_of (c : Dev nD) (r : Ref sig .tc) (h : r ∉ KOps.hostOps1_W) :
    W6 m ρ c (Proc.devRef .tc r) = W5 m ρ c (Proc.devRef .tc r) := KOps.carry_hostOps1 _ r h
theorem W7_of (c : Dev nD) (r : Ref sig .tc) (h : r ∉ KOps.hostOps1_1_W) :
    W7 m ρ c (Proc.devRef .tc r) = W6 m ρ c (Proc.devRef .tc r) := KOps.carry_hostOps1_1 _ r h
theorem W8_of (c : Dev nD) (r : Ref sig .tc) (h : r ∉ KOps.hostOps1_2_W) :
    W8 m ρ c (Proc.devRef .tc r) = W7 m ρ c (Proc.devRef .tc r) := KOps.carry_hostOps1_2 _ r h
theorem W9_of (c : Dev nD) (r : Ref sig .tc) (h : r ∉ KOps.hostOps1_3_W) :
    W9 m ρ c (Proc.devRef .tc r) = W8 m ρ c (Proc.devRef .tc r) := KOps.carry_hostOps1_3 _ r h
theorem W10_of (c : Dev nD) (r : Ref sig .tc) (h : r ∉ KOps.hostOps1_4_W) :
    W10 m ρ c (Proc.devRef .tc r) = W9 m ρ c (Proc.devRef .tc r) := KOps.carry_hostOps1_4 _ r h
theorem W11_of (c : Dev nD) (r : Ref sig .tc) (h : r ∉ KOps.hostOps1_5_W) :
    W11 m ρ c (Proc.devRef .tc r) = W10 m ρ c (Proc.devRef .tc r) := KOps.carry_hostOps1_5 _ r h
theorem W12_of (c : Dev nD) (r : Ref sig .tc) (h : r ∉ KOps.hostOps1_6_W) :
    W12 m ρ c (Proc.devRef .tc r) = W11 m ρ c (Proc.devRef .tc r) := KOps.carry_hostOps1_6 _ r h
theorem W13_of (c : Dev nD) (r : Ref sig .tc) (h : r ∉ KOps.hostOps1_7_W) :
    W13 m ρ c (Proc.devRef .tc r) = W12 m ρ c (Proc.devRef .tc r) := KOps.carry_hostOps1_7 _ r h
theorem W14_of (c : Dev nD) (r : Ref sig .tc) (h : r ∉ KOps.hostOps1_8_W) :
    W14 m ρ c (Proc.devRef .tc r) = W13 m ρ c (Proc.devRef .tc r) := KOps.carry_hostOps1_8 _ r h
theorem W15_of (c : Dev nD) (r : Ref sig .tc) (h : r ∉ KOps.hostOps1_9_W) :
    W15 m ρ c (Proc.devRef .tc r) = W14 m ρ c (Proc.devRef .tc r) := KOps.carry_hostOps1_9 _ r h
theorem W16_of (c : Dev nD) (r : Ref sig .tc) (h : ∀ w, Pipeline.arrRef spec1 w ≠ r) :
    W16 m ρ c (Proc.devRef .tc r) = W15 m ρ c (Proc.devRef .tc r) := W16_of_ne m ρ c r h
theorem W17_of (c : Dev nD) (r : Ref sig .tc) (h : r ∉ KOps.hostOps2_W) :
    W17 m ρ c (Proc.devRef .tc r) = W16 m ρ c (Proc.devRef .tc r) := KOps.carry_hostOps2 _ r h
theorem W18_of (c : Dev nD) (r : Ref sig .tc) (h : r ∉ KOps.hostOps2_1_W) :
    W18 m ρ c (Proc.devRef .tc r) = W17 m ρ c (Proc.devRef .tc r) := KOps.carry_hostOps2_1 _ r h
theorem W19_of (c : Dev nD) (r : Ref sig .tc) (h : r ∉ KOps.hostOps2_2_W) :
    W19 m ρ c (Proc.devRef .tc r) = W18 m ρ c (Proc.devRef .tc r) := KOps.carry_hostOps2_2 _ r h
theorem W20_of (c : Dev nD) (r : Ref sig .tc) (h : r ∉ KOps.hostOps2_3_W) :
    W20 m ρ c (Proc.devRef .tc r) = W19 m ρ c (Proc.devRef .tc r) := KOps.carry_hostOps2_3 _ r h
theorem W21_of (c : Dev nD) (r : Ref sig .tc) (h : r ∉ KOps.hostOps2_4_W) :
    W21 m ρ c (Proc.devRef .tc r) = W20 m ρ c (Proc.devRef .tc r) := KOps.carry_hostOps2_4 _ r h
theorem W22_of (c : Dev nD) (r : Ref sig .tc) (h : r ∉ KOps.hostOps2_5_W) :
    W22 m ρ c (Proc.devRef .tc r) = W21 m ρ c (Proc.devRef .tc r) := KOps.carry_hostOps2_5 _ r h
theorem W23_of (c : Dev nD) (r : Ref sig .tc) (h : r ∉ KOps.hostOps2_6_W) :
    W23 m ρ c (Proc.devRef .tc r) = W22 m ρ c (Proc.devRef .tc r) := KOps.carry_hostOps2_6 _ r h

/-! ## The argument arrays hold their launch contents wherever a stretch reads them -/

theorem W0_arg0 (c : Dev nD) : W0 m ρ c (Proc.devRef .tc main_arg0) = a0 m c := rfl
theorem W1_arg0 (c : Dev nD) : W1 m ρ c (Proc.devRef .tc main_arg0) = a0 m c := (W1_of m ρ c main_arg0 (by decide)).trans (W0_arg0 m ρ c)
theorem W2_arg0 (c : Dev nD) : W2 m ρ c (Proc.devRef .tc main_arg0) = a0 m c := (W2_of m ρ c main_arg0 (by decide)).trans (W1_arg0 m ρ c)
theorem W3_arg0 (c : Dev nD) : W3 m ρ c (Proc.devRef .tc main_arg0) = a0 m c := (W3_of m ρ c main_arg0 (by decide)).trans (W2_arg0 m ρ c)
theorem W4_arg0 (c : Dev nD) : W4 m ρ c (Proc.devRef .tc main_arg0) = a0 m c := (W4_of m ρ c main_arg0 (by decide)).trans (W3_arg0 m ρ c)
theorem W5_arg0 (c : Dev nD) : W5 m ρ c (Proc.devRef .tc main_arg0) = a0 m c := (W5_of m ρ c main_arg0 (by decide)).trans (W4_arg0 m ρ c)
theorem W0_arg1 (c : Dev nD) : W0 m ρ c (Proc.devRef .tc main_arg1) = a1 m c := rfl
theorem W1_arg1 (c : Dev nD) : W1 m ρ c (Proc.devRef .tc main_arg1) = a1 m c := (W1_of m ρ c main_arg1 (by decide)).trans (W0_arg1 m ρ c)
theorem W2_arg1 (c : Dev nD) : W2 m ρ c (Proc.devRef .tc main_arg1) = a1 m c := (W2_of m ρ c main_arg1 (by decide)).trans (W1_arg1 m ρ c)
theorem W3_arg1 (c : Dev nD) : W3 m ρ c (Proc.devRef .tc main_arg1) = a1 m c := (W3_of m ρ c main_arg1 (by decide)).trans (W2_arg1 m ρ c)
theorem W4_arg1 (c : Dev nD) : W4 m ρ c (Proc.devRef .tc main_arg1) = a1 m c := (W4_of m ρ c main_arg1 (by decide)).trans (W3_arg1 m ρ c)
theorem W5_arg1 (c : Dev nD) : W5 m ρ c (Proc.devRef .tc main_arg1) = a1 m c := (W5_of m ρ c main_arg1 (by decide)).trans (W4_arg1 m ρ c)
theorem W6_arg1 (c : Dev nD) : W6 m ρ c (Proc.devRef .tc main_arg1) = a1 m c := (W6_of m ρ c main_arg1 (by decide)).trans (W5_arg1 m ρ c)
theorem W7_arg1 (c : Dev nD) : W7 m ρ c (Proc.devRef .tc main_arg1) = a1 m c := (W7_of m ρ c main_arg1 (by decide)).trans (W6_arg1 m ρ c)
theorem W0_arg2 (c : Dev nD) : W0 m ρ c (Proc.devRef .tc main_arg2) = a2 m c := rfl
theorem W0_arg3 (c : Dev nD) : W0 m ρ c (Proc.devRef .tc main_arg3) = a3 m c := rfl
theorem W1_arg3 (c : Dev nD) : W1 m ρ c (Proc.devRef .tc main_arg3) = a3 m c := (W1_of m ρ c main_arg3 (by decide)).trans (W0_arg3 m ρ c)
theorem W2_arg3 (c : Dev nD) : W2 m ρ c (Proc.devRef .tc main_arg3) = a3 m c := (W2_of m ρ c main_arg3 (by decide)).trans (W1_arg3 m ρ c)
theorem W3_arg3 (c : Dev nD) : W3 m ρ c (Proc.devRef .tc main_arg3) = a3 m c := (W3_of m ρ c main_arg3 (by decide)).trans (W2_arg3 m ρ c)
theorem W4_arg3 (c : Dev nD) : W4 m ρ c (Proc.devRef .tc main_arg3) = a3 m c := (W4_of m ρ c main_arg3 (by decide)).trans (W3_arg3 m ρ c)
theorem W5_arg3 (c : Dev nD) : W5 m ρ c (Proc.devRef .tc main_arg3) = a3 m c := (W5_of m ρ c main_arg3 (by decide)).trans (W4_arg3 m ρ c)
theorem W6_arg3 (c : Dev nD) : W6 m ρ c (Proc.devRef .tc main_arg3) = a3 m c := (W6_of m ρ c main_arg3 (by decide)).trans (W5_arg3 m ρ c)
theorem W7_arg3 (c : Dev nD) : W7 m ρ c (Proc.devRef .tc main_arg3) = a3 m c := (W7_of m ρ c main_arg3 (by decide)).trans (W6_arg3 m ρ c)
theorem W8_arg3 (c : Dev nD) : W8 m ρ c (Proc.devRef .tc main_arg3) = a3 m c := (W8_of m ρ c main_arg3 (by decide)).trans (W7_arg3 m ρ c)
theorem W9_arg3 (c : Dev nD) : W9 m ρ c (Proc.devRef .tc main_arg3) = a3 m c := (W9_of m ρ c main_arg3 (by decide)).trans (W8_arg3 m ρ c)
theorem W10_arg3 (c : Dev nD) : W10 m ρ c (Proc.devRef .tc main_arg3) = a3 m c := (W10_of m ρ c main_arg3 (by decide)).trans (W9_arg3 m ρ c)
theorem W11_arg3 (c : Dev nD) : W11 m ρ c (Proc.devRef .tc main_arg3) = a3 m c := (W11_of m ρ c main_arg3 (by decide)).trans (W10_arg3 m ρ c)
theorem W12_arg3 (c : Dev nD) : W12 m ρ c (Proc.devRef .tc main_arg3) = a3 m c := (W12_of m ρ c main_arg3 (by decide)).trans (W11_arg3 m ρ c)
theorem W0_arg4 (c : Dev nD) : W0 m ρ c (Proc.devRef .tc main_arg4) = a4 m c := rfl
theorem W1_arg4 (c : Dev nD) : W1 m ρ c (Proc.devRef .tc main_arg4) = a4 m c := (W1_of m ρ c main_arg4 (by decide)).trans (W0_arg4 m ρ c)
theorem W2_arg4 (c : Dev nD) : W2 m ρ c (Proc.devRef .tc main_arg4) = a4 m c := (W2_of m ρ c main_arg4 (by decide)).trans (W1_arg4 m ρ c)
theorem W3_arg4 (c : Dev nD) : W3 m ρ c (Proc.devRef .tc main_arg4) = a4 m c := (W3_of m ρ c main_arg4 (by decide)).trans (W2_arg4 m ρ c)
theorem W4_arg4 (c : Dev nD) : W4 m ρ c (Proc.devRef .tc main_arg4) = a4 m c := (W4_of m ρ c main_arg4 (by decide)).trans (W3_arg4 m ρ c)
theorem W5_arg4 (c : Dev nD) : W5 m ρ c (Proc.devRef .tc main_arg4) = a4 m c := (W5_of m ρ c main_arg4 (by decide)).trans (W4_arg4 m ρ c)
theorem W6_arg4 (c : Dev nD) : W6 m ρ c (Proc.devRef .tc main_arg4) = a4 m c := (W6_of m ρ c main_arg4 (by decide)).trans (W5_arg4 m ρ c)
theorem W7_arg4 (c : Dev nD) : W7 m ρ c (Proc.devRef .tc main_arg4) = a4 m c := (W7_of m ρ c main_arg4 (by decide)).trans (W6_arg4 m ρ c)
theorem W8_arg4 (c : Dev nD) : W8 m ρ c (Proc.devRef .tc main_arg4) = a4 m c := (W8_of m ρ c main_arg4 (by decide)).trans (W7_arg4 m ρ c)
theorem W9_arg4 (c : Dev nD) : W9 m ρ c (Proc.devRef .tc main_arg4) = a4 m c := (W9_of m ρ c main_arg4 (by decide)).trans (W8_arg4 m ρ c)
theorem W10_arg4 (c : Dev nD) : W10 m ρ c (Proc.devRef .tc main_arg4) = a4 m c := (W10_of m ρ c main_arg4 (by decide)).trans (W9_arg4 m ρ c)
theorem W11_arg4 (c : Dev nD) : W11 m ρ c (Proc.devRef .tc main_arg4) = a4 m c := (W11_of m ρ c main_arg4 (by decide)).trans (W10_arg4 m ρ c)
theorem W12_arg4 (c : Dev nD) : W12 m ρ c (Proc.devRef .tc main_arg4) = a4 m c := (W12_of m ρ c main_arg4 (by decide)).trans (W11_arg4 m ρ c)
theorem W13_arg4 (c : Dev nD) : W13 m ρ c (Proc.devRef .tc main_arg4) = a4 m c := (W13_of m ρ c main_arg4 (by decide)).trans (W12_arg4 m ρ c)
theorem W14_arg4 (c : Dev nD) : W14 m ρ c (Proc.devRef .tc main_arg4) = a4 m c := (W14_of m ρ c main_arg4 (by decide)).trans (W13_arg4 m ρ c)
theorem W15_arg4 (c : Dev nD) : W15 m ρ c (Proc.devRef .tc main_arg4) = a4 m c := (W15_of m ρ c main_arg4 (by decide)).trans (W14_arg4 m ρ c)
theorem W16_arg4 (c : Dev nD) : W16 m ρ c (Proc.devRef .tc main_arg4) = a4 m c := (W16_of m ρ c main_arg4 (by decide)).trans (W15_arg4 m ρ c)
theorem W0_arg5 (c : Dev nD) : W0 m ρ c (Proc.devRef .tc main_arg5) = a5 m c := rfl
theorem W1_arg5 (c : Dev nD) : W1 m ρ c (Proc.devRef .tc main_arg5) = a5 m c := (W1_of m ρ c main_arg5 (by decide)).trans (W0_arg5 m ρ c)
theorem W2_arg5 (c : Dev nD) : W2 m ρ c (Proc.devRef .tc main_arg5) = a5 m c := (W2_of m ρ c main_arg5 (by decide)).trans (W1_arg5 m ρ c)
theorem W3_arg5 (c : Dev nD) : W3 m ρ c (Proc.devRef .tc main_arg5) = a5 m c := (W3_of m ρ c main_arg5 (by decide)).trans (W2_arg5 m ρ c)
theorem W4_arg5 (c : Dev nD) : W4 m ρ c (Proc.devRef .tc main_arg5) = a5 m c := (W4_of m ρ c main_arg5 (by decide)).trans (W3_arg5 m ρ c)
theorem W5_arg5 (c : Dev nD) : W5 m ρ c (Proc.devRef .tc main_arg5) = a5 m c := (W5_of m ρ c main_arg5 (by decide)).trans (W4_arg5 m ρ c)
theorem W6_arg5 (c : Dev nD) : W6 m ρ c (Proc.devRef .tc main_arg5) = a5 m c := (W6_of m ρ c main_arg5 (by decide)).trans (W5_arg5 m ρ c)
theorem W7_arg5 (c : Dev nD) : W7 m ρ c (Proc.devRef .tc main_arg5) = a5 m c := (W7_of m ρ c main_arg5 (by decide)).trans (W6_arg5 m ρ c)
theorem W8_arg5 (c : Dev nD) : W8 m ρ c (Proc.devRef .tc main_arg5) = a5 m c := (W8_of m ρ c main_arg5 (by decide)).trans (W7_arg5 m ρ c)
theorem W9_arg5 (c : Dev nD) : W9 m ρ c (Proc.devRef .tc main_arg5) = a5 m c := (W9_of m ρ c main_arg5 (by decide)).trans (W8_arg5 m ρ c)
theorem W10_arg5 (c : Dev nD) : W10 m ρ c (Proc.devRef .tc main_arg5) = a5 m c := (W10_of m ρ c main_arg5 (by decide)).trans (W9_arg5 m ρ c)
theorem W11_arg5 (c : Dev nD) : W11 m ρ c (Proc.devRef .tc main_arg5) = a5 m c := (W11_of m ρ c main_arg5 (by decide)).trans (W10_arg5 m ρ c)
theorem W12_arg5 (c : Dev nD) : W12 m ρ c (Proc.devRef .tc main_arg5) = a5 m c := (W12_of m ρ c main_arg5 (by decide)).trans (W11_arg5 m ρ c)
theorem W13_arg5 (c : Dev nD) : W13 m ρ c (Proc.devRef .tc main_arg5) = a5 m c := (W13_of m ρ c main_arg5 (by decide)).trans (W12_arg5 m ρ c)
theorem W14_arg5 (c : Dev nD) : W14 m ρ c (Proc.devRef .tc main_arg5) = a5 m c := (W14_of m ρ c main_arg5 (by decide)).trans (W13_arg5 m ρ c)
theorem W0_arg6 (c : Dev nD) : W0 m ρ c (Proc.devRef .tc main_arg6) = a6 m c := rfl
theorem W1_arg6 (c : Dev nD) : W1 m ρ c (Proc.devRef .tc main_arg6) = a6 m c := (W1_of m ρ c main_arg6 (by decide)).trans (W0_arg6 m ρ c)
theorem W2_arg6 (c : Dev nD) : W2 m ρ c (Proc.devRef .tc main_arg6) = a6 m c := (W2_of m ρ c main_arg6 (by decide)).trans (W1_arg6 m ρ c)
theorem W3_arg6 (c : Dev nD) : W3 m ρ c (Proc.devRef .tc main_arg6) = a6 m c := (W3_of m ρ c main_arg6 (by decide)).trans (W2_arg6 m ρ c)
theorem W4_arg6 (c : Dev nD) : W4 m ρ c (Proc.devRef .tc main_arg6) = a6 m c := (W4_of m ρ c main_arg6 (by decide)).trans (W3_arg6 m ρ c)
theorem W5_arg6 (c : Dev nD) : W5 m ρ c (Proc.devRef .tc main_arg6) = a6 m c := (W5_of m ρ c main_arg6 (by decide)).trans (W4_arg6 m ρ c)
theorem W6_arg6 (c : Dev nD) : W6 m ρ c (Proc.devRef .tc main_arg6) = a6 m c := (W6_of m ρ c main_arg6 (by decide)).trans (W5_arg6 m ρ c)
theorem W7_arg6 (c : Dev nD) : W7 m ρ c (Proc.devRef .tc main_arg6) = a6 m c := (W7_of m ρ c main_arg6 (by decide)).trans (W6_arg6 m ρ c)
theorem W8_arg6 (c : Dev nD) : W8 m ρ c (Proc.devRef .tc main_arg6) = a6 m c := (W8_of m ρ c main_arg6 (by decide)).trans (W7_arg6 m ρ c)
theorem W9_arg6 (c : Dev nD) : W9 m ρ c (Proc.devRef .tc main_arg6) = a6 m c := (W9_of m ρ c main_arg6 (by decide)).trans (W8_arg6 m ρ c)
theorem W10_arg6 (c : Dev nD) : W10 m ρ c (Proc.devRef .tc main_arg6) = a6 m c := (W10_of m ρ c main_arg6 (by decide)).trans (W9_arg6 m ρ c)
theorem W11_arg6 (c : Dev nD) : W11 m ρ c (Proc.devRef .tc main_arg6) = a6 m c := (W11_of m ρ c main_arg6 (by decide)).trans (W10_arg6 m ρ c)
theorem W12_arg6 (c : Dev nD) : W12 m ρ c (Proc.devRef .tc main_arg6) = a6 m c := (W12_of m ρ c main_arg6 (by decide)).trans (W11_arg6 m ρ c)
theorem W13_arg6 (c : Dev nD) : W13 m ρ c (Proc.devRef .tc main_arg6) = a6 m c := (W13_of m ρ c main_arg6 (by decide)).trans (W12_arg6 m ρ c)
theorem W14_arg6 (c : Dev nD) : W14 m ρ c (Proc.devRef .tc main_arg6) = a6 m c := (W14_of m ρ c main_arg6 (by decide)).trans (W13_arg6 m ρ c)
theorem W0_arg7 (c : Dev nD) : W0 m ρ c (Proc.devRef .tc main_arg7) = a7 m c := rfl
theorem W1_arg7 (c : Dev nD) : W1 m ρ c (Proc.devRef .tc main_arg7) = a7 m c := (W1_of m ρ c main_arg7 (by decide)).trans (W0_arg7 m ρ c)
theorem W2_arg7 (c : Dev nD) : W2 m ρ c (Proc.devRef .tc main_arg7) = a7 m c := (W2_of m ρ c main_arg7 (by decide)).trans (W1_arg7 m ρ c)
theorem W3_arg7 (c : Dev nD) : W3 m ρ c (Proc.devRef .tc main_arg7) = a7 m c := (W3_of m ρ c main_arg7 (by decide)).trans (W2_arg7 m ρ c)
theorem W4_arg7 (c : Dev nD) : W4 m ρ c (Proc.devRef .tc main_arg7) = a7 m c := (W4_of m ρ c main_arg7 (by decide)).trans (W3_arg7 m ρ c)
theorem W5_arg7 (c : Dev nD) : W5 m ρ c (Proc.devRef .tc main_arg7) = a7 m c := (W5_of m ρ c main_arg7 (by decide)).trans (W4_arg7 m ρ c)
theorem W6_arg7 (c : Dev nD) : W6 m ρ c (Proc.devRef .tc main_arg7) = a7 m c := (W6_of m ρ c main_arg7 (by decide)).trans (W5_arg7 m ρ c)
theorem W7_arg7 (c : Dev nD) : W7 m ρ c (Proc.devRef .tc main_arg7) = a7 m c := (W7_of m ρ c main_arg7 (by decide)).trans (W6_arg7 m ρ c)
theorem W8_arg7 (c : Dev nD) : W8 m ρ c (Proc.devRef .tc main_arg7) = a7 m c := (W8_of m ρ c main_arg7 (by decide)).trans (W7_arg7 m ρ c)
theorem W9_arg7 (c : Dev nD) : W9 m ρ c (Proc.devRef .tc main_arg7) = a7 m c := (W9_of m ρ c main_arg7 (by decide)).trans (W8_arg7 m ρ c)
theorem W10_arg7 (c : Dev nD) : W10 m ρ c (Proc.devRef .tc main_arg7) = a7 m c := (W10_of m ρ c main_arg7 (by decide)).trans (W9_arg7 m ρ c)
theorem W11_arg7 (c : Dev nD) : W11 m ρ c (Proc.devRef .tc main_arg7) = a7 m c := (W11_of m ρ c main_arg7 (by decide)).trans (W10_arg7 m ρ c)
theorem W12_arg7 (c : Dev nD) : W12 m ρ c (Proc.devRef .tc main_arg7) = a7 m c := (W12_of m ρ c main_arg7 (by decide)).trans (W11_arg7 m ρ c)
theorem W13_arg7 (c : Dev nD) : W13 m ρ c (Proc.devRef .tc main_arg7) = a7 m c := (W13_of m ρ c main_arg7 (by decide)).trans (W12_arg7 m ρ c)
theorem W14_arg7 (c : Dev nD) : W14 m ρ c (Proc.devRef .tc main_arg7) = a7 m c := (W14_of m ρ c main_arg7 (by decide)).trans (W13_arg7 m ρ c)
theorem W0_arg8 (c : Dev nD) : W0 m ρ c (Proc.devRef .tc main_arg8) = a8 m c := rfl
theorem W1_arg8 (c : Dev nD) : W1 m ρ c (Proc.devRef .tc main_arg8) = a8 m c := (W1_of m ρ c main_arg8 (by decide)).trans (W0_arg8 m ρ c)
theorem W2_arg8 (c : Dev nD) : W2 m ρ c (Proc.devRef .tc main_arg8) = a8 m c := (W2_of m ρ c main_arg8 (by decide)).trans (W1_arg8 m ρ c)
theorem W3_arg8 (c : Dev nD) : W3 m ρ c (Proc.devRef .tc main_arg8) = a8 m c := (W3_of m ρ c main_arg8 (by decide)).trans (W2_arg8 m ρ c)
theorem W4_arg8 (c : Dev nD) : W4 m ρ c (Proc.devRef .tc main_arg8) = a8 m c := (W4_of m ρ c main_arg8 (by decide)).trans (W3_arg8 m ρ c)
theorem W5_arg8 (c : Dev nD) : W5 m ρ c (Proc.devRef .tc main_arg8) = a8 m c := (W5_of m ρ c main_arg8 (by decide)).trans (W4_arg8 m ρ c)
theorem W6_arg8 (c : Dev nD) : W6 m ρ c (Proc.devRef .tc main_arg8) = a8 m c := (W6_of m ρ c main_arg8 (by decide)).trans (W5_arg8 m ρ c)
theorem W7_arg8 (c : Dev nD) : W7 m ρ c (Proc.devRef .tc main_arg8) = a8 m c := (W7_of m ρ c main_arg8 (by decide)).trans (W6_arg8 m ρ c)
theorem W8_arg8 (c : Dev nD) : W8 m ρ c (Proc.devRef .tc main_arg8) = a8 m c := (W8_of m ρ c main_arg8 (by decide)).trans (W7_arg8 m ρ c)
theorem W9_arg8 (c : Dev nD) : W9 m ρ c (Proc.devRef .tc main_arg8) = a8 m c := (W9_of m ρ c main_arg8 (by decide)).trans (W8_arg8 m ρ c)
theorem W10_arg8 (c : Dev nD) : W10 m ρ c (Proc.devRef .tc main_arg8) = a8 m c := (W10_of m ρ c main_arg8 (by decide)).trans (W9_arg8 m ρ c)
theorem W11_arg8 (c : Dev nD) : W11 m ρ c (Proc.devRef .tc main_arg8) = a8 m c := (W11_of m ρ c main_arg8 (by decide)).trans (W10_arg8 m ρ c)
theorem W12_arg8 (c : Dev nD) : W12 m ρ c (Proc.devRef .tc main_arg8) = a8 m c := (W12_of m ρ c main_arg8 (by decide)).trans (W11_arg8 m ρ c)
theorem W13_arg8 (c : Dev nD) : W13 m ρ c (Proc.devRef .tc main_arg8) = a8 m c := (W13_of m ρ c main_arg8 (by decide)).trans (W12_arg8 m ρ c)
theorem W14_arg8 (c : Dev nD) : W14 m ρ c (Proc.devRef .tc main_arg8) = a8 m c := (W14_of m ρ c main_arg8 (by decide)).trans (W13_arg8 m ρ c)
theorem W0_arg9 (c : Dev nD) : W0 m ρ c (Proc.devRef .tc main_arg9) = a9 m c := rfl
theorem W1_arg9 (c : Dev nD) : W1 m ρ c (Proc.devRef .tc main_arg9) = a9 m c := (W1_of m ρ c main_arg9 (by decide)).trans (W0_arg9 m ρ c)
theorem W2_arg9 (c : Dev nD) : W2 m ρ c (Proc.devRef .tc main_arg9) = a9 m c := (W2_of m ρ c main_arg9 (by decide)).trans (W1_arg9 m ρ c)
theorem W3_arg9 (c : Dev nD) : W3 m ρ c (Proc.devRef .tc main_arg9) = a9 m c := (W3_of m ρ c main_arg9 (by decide)).trans (W2_arg9 m ρ c)
theorem W4_arg9 (c : Dev nD) : W4 m ρ c (Proc.devRef .tc main_arg9) = a9 m c := (W4_of m ρ c main_arg9 (by decide)).trans (W3_arg9 m ρ c)
theorem W5_arg9 (c : Dev nD) : W5 m ρ c (Proc.devRef .tc main_arg9) = a9 m c := (W5_of m ρ c main_arg9 (by decide)).trans (W4_arg9 m ρ c)
theorem W6_arg9 (c : Dev nD) : W6 m ρ c (Proc.devRef .tc main_arg9) = a9 m c := (W6_of m ρ c main_arg9 (by decide)).trans (W5_arg9 m ρ c)
theorem W7_arg9 (c : Dev nD) : W7 m ρ c (Proc.devRef .tc main_arg9) = a9 m c := (W7_of m ρ c main_arg9 (by decide)).trans (W6_arg9 m ρ c)
theorem W8_arg9 (c : Dev nD) : W8 m ρ c (Proc.devRef .tc main_arg9) = a9 m c := (W8_of m ρ c main_arg9 (by decide)).trans (W7_arg9 m ρ c)
theorem W9_arg9 (c : Dev nD) : W9 m ρ c (Proc.devRef .tc main_arg9) = a9 m c := (W9_of m ρ c main_arg9 (by decide)).trans (W8_arg9 m ρ c)
theorem W10_arg9 (c : Dev nD) : W10 m ρ c (Proc.devRef .tc main_arg9) = a9 m c := (W10_of m ρ c main_arg9 (by decide)).trans (W9_arg9 m ρ c)
theorem W11_arg9 (c : Dev nD) : W11 m ρ c (Proc.devRef .tc main_arg9) = a9 m c := (W11_of m ρ c main_arg9 (by decide)).trans (W10_arg9 m ρ c)
theorem W12_arg9 (c : Dev nD) : W12 m ρ c (Proc.devRef .tc main_arg9) = a9 m c := (W12_of m ρ c main_arg9 (by decide)).trans (W11_arg9 m ρ c)
theorem W13_arg9 (c : Dev nD) : W13 m ρ c (Proc.devRef .tc main_arg9) = a9 m c := (W13_of m ρ c main_arg9 (by decide)).trans (W12_arg9 m ρ c)
theorem W14_arg9 (c : Dev nD) : W14 m ρ c (Proc.devRef .tc main_arg9) = a9 m c := (W14_of m ρ c main_arg9 (by decide)).trans (W13_arg9 m ρ c)
theorem W0_arg10 (c : Dev nD) : W0 m ρ c (Proc.devRef .tc main_arg10) = a10 m c := rfl
theorem W1_arg10 (c : Dev nD) : W1 m ρ c (Proc.devRef .tc main_arg10) = a10 m c := (W1_of m ρ c main_arg10 (by decide)).trans (W0_arg10 m ρ c)
theorem W2_arg10 (c : Dev nD) : W2 m ρ c (Proc.devRef .tc main_arg10) = a10 m c := (W2_of m ρ c main_arg10 (by decide)).trans (W1_arg10 m ρ c)
theorem W3_arg10 (c : Dev nD) : W3 m ρ c (Proc.devRef .tc main_arg10) = a10 m c := (W3_of m ρ c main_arg10 (by decide)).trans (W2_arg10 m ρ c)
theorem W4_arg10 (c : Dev nD) : W4 m ρ c (Proc.devRef .tc main_arg10) = a10 m c := (W4_of m ρ c main_arg10 (by decide)).trans (W3_arg10 m ρ c)
theorem W5_arg10 (c : Dev nD) : W5 m ρ c (Proc.devRef .tc main_arg10) = a10 m c := (W5_of m ρ c main_arg10 (by decide)).trans (W4_arg10 m ρ c)
theorem W6_arg10 (c : Dev nD) : W6 m ρ c (Proc.devRef .tc main_arg10) = a10 m c := (W6_of m ρ c main_arg10 (by decide)).trans (W5_arg10 m ρ c)
theorem W7_arg10 (c : Dev nD) : W7 m ρ c (Proc.devRef .tc main_arg10) = a10 m c := (W7_of m ρ c main_arg10 (by decide)).trans (W6_arg10 m ρ c)
theorem W8_arg10 (c : Dev nD) : W8 m ρ c (Proc.devRef .tc main_arg10) = a10 m c := (W8_of m ρ c main_arg10 (by decide)).trans (W7_arg10 m ρ c)
theorem W9_arg10 (c : Dev nD) : W9 m ρ c (Proc.devRef .tc main_arg10) = a10 m c := (W9_of m ρ c main_arg10 (by decide)).trans (W8_arg10 m ρ c)
theorem W10_arg10 (c : Dev nD) : W10 m ρ c (Proc.devRef .tc main_arg10) = a10 m c := (W10_of m ρ c main_arg10 (by decide)).trans (W9_arg10 m ρ c)
theorem W11_arg10 (c : Dev nD) : W11 m ρ c (Proc.devRef .tc main_arg10) = a10 m c := (W11_of m ρ c main_arg10 (by decide)).trans (W10_arg10 m ρ c)
theorem W12_arg10 (c : Dev nD) : W12 m ρ c (Proc.devRef .tc main_arg10) = a10 m c := (W12_of m ρ c main_arg10 (by decide)).trans (W11_arg10 m ρ c)
theorem W13_arg10 (c : Dev nD) : W13 m ρ c (Proc.devRef .tc main_arg10) = a10 m c := (W13_of m ρ c main_arg10 (by decide)).trans (W12_arg10 m ρ c)
theorem W14_arg10 (c : Dev nD) : W14 m ρ c (Proc.devRef .tc main_arg10) = a10 m c := (W14_of m ρ c main_arg10 (by decide)).trans (W13_arg10 m ρ c)
theorem W0_arg11 (c : Dev nD) : W0 m ρ c (Proc.devRef .tc main_arg11) = a11 m c := rfl
theorem W1_arg11 (c : Dev nD) : W1 m ρ c (Proc.devRef .tc main_arg11) = a11 m c := (W1_of m ρ c main_arg11 (by decide)).trans (W0_arg11 m ρ c)
theorem W2_arg11 (c : Dev nD) : W2 m ρ c (Proc.devRef .tc main_arg11) = a11 m c := (W2_of m ρ c main_arg11 (by decide)).trans (W1_arg11 m ρ c)
theorem W3_arg11 (c : Dev nD) : W3 m ρ c (Proc.devRef .tc main_arg11) = a11 m c := (W3_of m ρ c main_arg11 (by decide)).trans (W2_arg11 m ρ c)
theorem W4_arg11 (c : Dev nD) : W4 m ρ c (Proc.devRef .tc main_arg11) = a11 m c := (W4_of m ρ c main_arg11 (by decide)).trans (W3_arg11 m ρ c)
theorem W5_arg11 (c : Dev nD) : W5 m ρ c (Proc.devRef .tc main_arg11) = a11 m c := (W5_of m ρ c main_arg11 (by decide)).trans (W4_arg11 m ρ c)
theorem W6_arg11 (c : Dev nD) : W6 m ρ c (Proc.devRef .tc main_arg11) = a11 m c := (W6_of m ρ c main_arg11 (by decide)).trans (W5_arg11 m ρ c)
theorem W7_arg11 (c : Dev nD) : W7 m ρ c (Proc.devRef .tc main_arg11) = a11 m c := (W7_of m ρ c main_arg11 (by decide)).trans (W6_arg11 m ρ c)
theorem W8_arg11 (c : Dev nD) : W8 m ρ c (Proc.devRef .tc main_arg11) = a11 m c := (W8_of m ρ c main_arg11 (by decide)).trans (W7_arg11 m ρ c)
theorem W9_arg11 (c : Dev nD) : W9 m ρ c (Proc.devRef .tc main_arg11) = a11 m c := (W9_of m ρ c main_arg11 (by decide)).trans (W8_arg11 m ρ c)
theorem W10_arg11 (c : Dev nD) : W10 m ρ c (Proc.devRef .tc main_arg11) = a11 m c := (W10_of m ρ c main_arg11 (by decide)).trans (W9_arg11 m ρ c)
theorem W11_arg11 (c : Dev nD) : W11 m ρ c (Proc.devRef .tc main_arg11) = a11 m c := (W11_of m ρ c main_arg11 (by decide)).trans (W10_arg11 m ρ c)
theorem W12_arg11 (c : Dev nD) : W12 m ρ c (Proc.devRef .tc main_arg11) = a11 m c := (W12_of m ρ c main_arg11 (by decide)).trans (W11_arg11 m ρ c)
theorem W13_arg11 (c : Dev nD) : W13 m ρ c (Proc.devRef .tc main_arg11) = a11 m c := (W13_of m ρ c main_arg11 (by decide)).trans (W12_arg11 m ρ c)
theorem W14_arg11 (c : Dev nD) : W14 m ρ c (Proc.devRef .tc main_arg11) = a11 m c := (W14_of m ρ c main_arg11 (by decide)).trans (W13_arg11 m ρ c)
theorem W0_arg12 (c : Dev nD) : W0 m ρ c (Proc.devRef .tc main_arg12) = a12 m c := rfl
theorem W1_arg12 (c : Dev nD) : W1 m ρ c (Proc.devRef .tc main_arg12) = a12 m c := (W1_of m ρ c main_arg12 (by decide)).trans (W0_arg12 m ρ c)
theorem W2_arg12 (c : Dev nD) : W2 m ρ c (Proc.devRef .tc main_arg12) = a12 m c := (W2_of m ρ c main_arg12 (by decide)).trans (W1_arg12 m ρ c)
theorem W3_arg12 (c : Dev nD) : W3 m ρ c (Proc.devRef .tc main_arg12) = a12 m c := (W3_of m ρ c main_arg12 (by decide)).trans (W2_arg12 m ρ c)
theorem W4_arg12 (c : Dev nD) : W4 m ρ c (Proc.devRef .tc main_arg12) = a12 m c := (W4_of m ρ c main_arg12 (by decide)).trans (W3_arg12 m ρ c)
theorem W5_arg12 (c : Dev nD) : W5 m ρ c (Proc.devRef .tc main_arg12) = a12 m c := (W5_of m ρ c main_arg12 (by decide)).trans (W4_arg12 m ρ c)
theorem W6_arg12 (c : Dev nD) : W6 m ρ c (Proc.devRef .tc main_arg12) = a12 m c := (W6_of m ρ c main_arg12 (by decide)).trans (W5_arg12 m ρ c)
theorem W7_arg12 (c : Dev nD) : W7 m ρ c (Proc.devRef .tc main_arg12) = a12 m c := (W7_of m ρ c main_arg12 (by decide)).trans (W6_arg12 m ρ c)
theorem W8_arg12 (c : Dev nD) : W8 m ρ c (Proc.devRef .tc main_arg12) = a12 m c := (W8_of m ρ c main_arg12 (by decide)).trans (W7_arg12 m ρ c)
theorem W9_arg12 (c : Dev nD) : W9 m ρ c (Proc.devRef .tc main_arg12) = a12 m c := (W9_of m ρ c main_arg12 (by decide)).trans (W8_arg12 m ρ c)
theorem W10_arg12 (c : Dev nD) : W10 m ρ c (Proc.devRef .tc main_arg12) = a12 m c := (W10_of m ρ c main_arg12 (by decide)).trans (W9_arg12 m ρ c)
theorem W11_arg12 (c : Dev nD) : W11 m ρ c (Proc.devRef .tc main_arg12) = a12 m c := (W11_of m ρ c main_arg12 (by decide)).trans (W10_arg12 m ρ c)
theorem W12_arg12 (c : Dev nD) : W12 m ρ c (Proc.devRef .tc main_arg12) = a12 m c := (W12_of m ρ c main_arg12 (by decide)).trans (W11_arg12 m ρ c)
theorem W13_arg12 (c : Dev nD) : W13 m ρ c (Proc.devRef .tc main_arg12) = a12 m c := (W13_of m ρ c main_arg12 (by decide)).trans (W12_arg12 m ρ c)
theorem W14_arg12 (c : Dev nD) : W14 m ρ c (Proc.devRef .tc main_arg12) = a12 m c := (W14_of m ρ c main_arg12 (by decide)).trans (W13_arg12 m ρ c)
theorem W15_arg12 (c : Dev nD) : W15 m ρ c (Proc.devRef .tc main_arg12) = a12 m c := (W15_of m ρ c main_arg12 (by decide)).trans (W14_arg12 m ρ c)
theorem W16_arg12 (c : Dev nD) : W16 m ρ c (Proc.devRef .tc main_arg12) = a12 m c := (W16_of m ρ c main_arg12 (by decide)).trans (W15_arg12 m ρ c)
theorem W0_arg13 (c : Dev nD) : W0 m ρ c (Proc.devRef .tc main_arg13) = a13 m c := rfl
theorem W1_arg13 (c : Dev nD) : W1 m ρ c (Proc.devRef .tc main_arg13) = a13 m c := (W1_of m ρ c main_arg13 (by decide)).trans (W0_arg13 m ρ c)
theorem W2_arg13 (c : Dev nD) : W2 m ρ c (Proc.devRef .tc main_arg13) = a13 m c := (W2_of m ρ c main_arg13 (by decide)).trans (W1_arg13 m ρ c)
theorem W3_arg13 (c : Dev nD) : W3 m ρ c (Proc.devRef .tc main_arg13) = a13 m c := (W3_of m ρ c main_arg13 (by decide)).trans (W2_arg13 m ρ c)
theorem W4_arg13 (c : Dev nD) : W4 m ρ c (Proc.devRef .tc main_arg13) = a13 m c := (W4_of m ρ c main_arg13 (by decide)).trans (W3_arg13 m ρ c)
theorem W5_arg13 (c : Dev nD) : W5 m ρ c (Proc.devRef .tc main_arg13) = a13 m c := (W5_of m ρ c main_arg13 (by decide)).trans (W4_arg13 m ρ c)
theorem W6_arg13 (c : Dev nD) : W6 m ρ c (Proc.devRef .tc main_arg13) = a13 m c := (W6_of m ρ c main_arg13 (by decide)).trans (W5_arg13 m ρ c)
theorem W7_arg13 (c : Dev nD) : W7 m ρ c (Proc.devRef .tc main_arg13) = a13 m c := (W7_of m ρ c main_arg13 (by decide)).trans (W6_arg13 m ρ c)
theorem W8_arg13 (c : Dev nD) : W8 m ρ c (Proc.devRef .tc main_arg13) = a13 m c := (W8_of m ρ c main_arg13 (by decide)).trans (W7_arg13 m ρ c)
theorem W9_arg13 (c : Dev nD) : W9 m ρ c (Proc.devRef .tc main_arg13) = a13 m c := (W9_of m ρ c main_arg13 (by decide)).trans (W8_arg13 m ρ c)
theorem W10_arg13 (c : Dev nD) : W10 m ρ c (Proc.devRef .tc main_arg13) = a13 m c := (W10_of m ρ c main_arg13 (by decide)).trans (W9_arg13 m ρ c)
theorem W11_arg13 (c : Dev nD) : W11 m ρ c (Proc.devRef .tc main_arg13) = a13 m c := (W11_of m ρ c main_arg13 (by decide)).trans (W10_arg13 m ρ c)
theorem W12_arg13 (c : Dev nD) : W12 m ρ c (Proc.devRef .tc main_arg13) = a13 m c := (W12_of m ρ c main_arg13 (by decide)).trans (W11_arg13 m ρ c)
theorem W13_arg13 (c : Dev nD) : W13 m ρ c (Proc.devRef .tc main_arg13) = a13 m c := (W13_of m ρ c main_arg13 (by decide)).trans (W12_arg13 m ρ c)
theorem W14_arg13 (c : Dev nD) : W14 m ρ c (Proc.devRef .tc main_arg13) = a13 m c := (W14_of m ρ c main_arg13 (by decide)).trans (W13_arg13 m ρ c)
theorem W15_arg13 (c : Dev nD) : W15 m ρ c (Proc.devRef .tc main_arg13) = a13 m c := (W15_of m ρ c main_arg13 (by decide)).trans (W14_arg13 m ρ c)
theorem W16_arg13 (c : Dev nD) : W16 m ρ c (Proc.devRef .tc main_arg13) = a13 m c := (W16_of m ρ c main_arg13 (by decide)).trans (W15_arg13 m ρ c)
theorem W0_arg14 (c : Dev nD) : W0 m ρ c (Proc.devRef .tc main_arg14) = a14 m c := rfl
theorem W1_arg14 (c : Dev nD) : W1 m ρ c (Proc.devRef .tc main_arg14) = a14 m c := (W1_of m ρ c main_arg14 (by decide)).trans (W0_arg14 m ρ c)
theorem W2_arg14 (c : Dev nD) : W2 m ρ c (Proc.devRef .tc main_arg14) = a14 m c := (W2_of m ρ c main_arg14 (by decide)).trans (W1_arg14 m ρ c)
theorem W3_arg14 (c : Dev nD) : W3 m ρ c (Proc.devRef .tc main_arg14) = a14 m c := (W3_of m ρ c main_arg14 (by decide)).trans (W2_arg14 m ρ c)
theorem W4_arg14 (c : Dev nD) : W4 m ρ c (Proc.devRef .tc main_arg14) = a14 m c := (W4_of m ρ c main_arg14 (by decide)).trans (W3_arg14 m ρ c)
theorem W5_arg14 (c : Dev nD) : W5 m ρ c (Proc.devRef .tc main_arg14) = a14 m c := (W5_of m ρ c main_arg14 (by decide)).trans (W4_arg14 m ρ c)
theorem W6_arg14 (c : Dev nD) : W6 m ρ c (Proc.devRef .tc main_arg14) = a14 m c := (W6_of m ρ c main_arg14 (by decide)).trans (W5_arg14 m ρ c)
theorem W7_arg14 (c : Dev nD) : W7 m ρ c (Proc.devRef .tc main_arg14) = a14 m c := (W7_of m ρ c main_arg14 (by decide)).trans (W6_arg14 m ρ c)
theorem W8_arg14 (c : Dev nD) : W8 m ρ c (Proc.devRef .tc main_arg14) = a14 m c := (W8_of m ρ c main_arg14 (by decide)).trans (W7_arg14 m ρ c)
theorem W9_arg14 (c : Dev nD) : W9 m ρ c (Proc.devRef .tc main_arg14) = a14 m c := (W9_of m ρ c main_arg14 (by decide)).trans (W8_arg14 m ρ c)
theorem W10_arg14 (c : Dev nD) : W10 m ρ c (Proc.devRef .tc main_arg14) = a14 m c := (W10_of m ρ c main_arg14 (by decide)).trans (W9_arg14 m ρ c)
theorem W11_arg14 (c : Dev nD) : W11 m ρ c (Proc.devRef .tc main_arg14) = a14 m c := (W11_of m ρ c main_arg14 (by decide)).trans (W10_arg14 m ρ c)
theorem W12_arg14 (c : Dev nD) : W12 m ρ c (Proc.devRef .tc main_arg14) = a14 m c := (W12_of m ρ c main_arg14 (by decide)).trans (W11_arg14 m ρ c)
theorem W13_arg14 (c : Dev nD) : W13 m ρ c (Proc.devRef .tc main_arg14) = a14 m c := (W13_of m ρ c main_arg14 (by decide)).trans (W12_arg14 m ρ c)
theorem W14_arg14 (c : Dev nD) : W14 m ρ c (Proc.devRef .tc main_arg14) = a14 m c := (W14_of m ρ c main_arg14 (by decide)).trans (W13_arg14 m ρ c)
theorem W15_arg14 (c : Dev nD) : W15 m ρ c (Proc.devRef .tc main_arg14) = a14 m c := (W15_of m ρ c main_arg14 (by decide)).trans (W14_arg14 m ρ c)
theorem W16_arg14 (c : Dev nD) : W16 m ρ c (Proc.devRef .tc main_arg14) = a14 m c := (W16_of m ρ c main_arg14 (by decide)).trans (W15_arg14 m ρ c)
theorem W17_arg14 (c : Dev nD) : W17 m ρ c (Proc.devRef .tc main_arg14) = a14 m c := (W17_of m ρ c main_arg14 (by decide)).trans (W16_arg14 m ρ c)
theorem W18_arg14 (c : Dev nD) : W18 m ρ c (Proc.devRef .tc main_arg14) = a14 m c := (W18_of m ρ c main_arg14 (by decide)).trans (W17_arg14 m ρ c)
theorem W0_arg15 (c : Dev nD) : W0 m ρ c (Proc.devRef .tc main_arg15) = a15 m c := rfl
theorem W1_arg15 (c : Dev nD) : W1 m ρ c (Proc.devRef .tc main_arg15) = a15 m c := (W1_of m ρ c main_arg15 (by decide)).trans (W0_arg15 m ρ c)
theorem W2_arg15 (c : Dev nD) : W2 m ρ c (Proc.devRef .tc main_arg15) = a15 m c := (W2_of m ρ c main_arg15 (by decide)).trans (W1_arg15 m ρ c)
theorem W3_arg15 (c : Dev nD) : W3 m ρ c (Proc.devRef .tc main_arg15) = a15 m c := (W3_of m ρ c main_arg15 (by decide)).trans (W2_arg15 m ρ c)
theorem W4_arg15 (c : Dev nD) : W4 m ρ c (Proc.devRef .tc main_arg15) = a15 m c := (W4_of m ρ c main_arg15 (by decide)).trans (W3_arg15 m ρ c)
theorem W5_arg15 (c : Dev nD) : W5 m ρ c (Proc.devRef .tc main_arg15) = a15 m c := (W5_of m ρ c main_arg15 (by decide)).trans (W4_arg15 m ρ c)
theorem W6_arg15 (c : Dev nD) : W6 m ρ c (Proc.devRef .tc main_arg15) = a15 m c := (W6_of m ρ c main_arg15 (by decide)).trans (W5_arg15 m ρ c)
theorem W7_arg15 (c : Dev nD) : W7 m ρ c (Proc.devRef .tc main_arg15) = a15 m c := (W7_of m ρ c main_arg15 (by decide)).trans (W6_arg15 m ρ c)
theorem W8_arg15 (c : Dev nD) : W8 m ρ c (Proc.devRef .tc main_arg15) = a15 m c := (W8_of m ρ c main_arg15 (by decide)).trans (W7_arg15 m ρ c)
theorem W9_arg15 (c : Dev nD) : W9 m ρ c (Proc.devRef .tc main_arg15) = a15 m c := (W9_of m ρ c main_arg15 (by decide)).trans (W8_arg15 m ρ c)
theorem W10_arg15 (c : Dev nD) : W10 m ρ c (Proc.devRef .tc main_arg15) = a15 m c := (W10_of m ρ c main_arg15 (by decide)).trans (W9_arg15 m ρ c)
theorem W11_arg15 (c : Dev nD) : W11 m ρ c (Proc.devRef .tc main_arg15) = a15 m c := (W11_of m ρ c main_arg15 (by decide)).trans (W10_arg15 m ρ c)
theorem W12_arg15 (c : Dev nD) : W12 m ρ c (Proc.devRef .tc main_arg15) = a15 m c := (W12_of m ρ c main_arg15 (by decide)).trans (W11_arg15 m ρ c)
theorem W13_arg15 (c : Dev nD) : W13 m ρ c (Proc.devRef .tc main_arg15) = a15 m c := (W13_of m ρ c main_arg15 (by decide)).trans (W12_arg15 m ρ c)
theorem W14_arg15 (c : Dev nD) : W14 m ρ c (Proc.devRef .tc main_arg15) = a15 m c := (W14_of m ρ c main_arg15 (by decide)).trans (W13_arg15 m ρ c)
theorem W15_arg15 (c : Dev nD) : W15 m ρ c (Proc.devRef .tc main_arg15) = a15 m c := (W15_of m ρ c main_arg15 (by decide)).trans (W14_arg15 m ρ c)
theorem W16_arg15 (c : Dev nD) : W16 m ρ c (Proc.devRef .tc main_arg15) = a15 m c := (W16_of m ρ c main_arg15 (by decide)).trans (W15_arg15 m ρ c)
theorem W17_arg15 (c : Dev nD) : W17 m ρ c (Proc.devRef .tc main_arg15) = a15 m c := (W17_of m ρ c main_arg15 (by decide)).trans (W16_arg15 m ρ c)
theorem W18_arg15 (c : Dev nD) : W18 m ρ c (Proc.devRef .tc main_arg15) = a15 m c := (W18_of m ρ c main_arg15 (by decide)).trans (W17_arg15 m ρ c)
theorem W0_arg16 (c : Dev nD) : W0 m ρ c (Proc.devRef .tc main_arg16) = a16 m c := rfl
theorem W1_arg16 (c : Dev nD) : W1 m ρ c (Proc.devRef .tc main_arg16) = a16 m c := (W1_of m ρ c main_arg16 (by decide)).trans (W0_arg16 m ρ c)
theorem W2_arg16 (c : Dev nD) : W2 m ρ c (Proc.devRef .tc main_arg16) = a16 m c := (W2_of m ρ c main_arg16 (by decide)).trans (W1_arg16 m ρ c)
theorem W3_arg16 (c : Dev nD) : W3 m ρ c (Proc.devRef .tc main_arg16) = a16 m c := (W3_of m ρ c main_arg16 (by decide)).trans (W2_arg16 m ρ c)
theorem W4_arg16 (c : Dev nD) : W4 m ρ c (Proc.devRef .tc main_arg16) = a16 m c := (W4_of m ρ c main_arg16 (by decide)).trans (W3_arg16 m ρ c)
theorem W5_arg16 (c : Dev nD) : W5 m ρ c (Proc.devRef .tc main_arg16) = a16 m c := (W5_of m ρ c main_arg16 (by decide)).trans (W4_arg16 m ρ c)
theorem W6_arg16 (c : Dev nD) : W6 m ρ c (Proc.devRef .tc main_arg16) = a16 m c := (W6_of m ρ c main_arg16 (by decide)).trans (W5_arg16 m ρ c)
theorem W7_arg16 (c : Dev nD) : W7 m ρ c (Proc.devRef .tc main_arg16) = a16 m c := (W7_of m ρ c main_arg16 (by decide)).trans (W6_arg16 m ρ c)
theorem W8_arg16 (c : Dev nD) : W8 m ρ c (Proc.devRef .tc main_arg16) = a16 m c := (W8_of m ρ c main_arg16 (by decide)).trans (W7_arg16 m ρ c)
theorem W9_arg16 (c : Dev nD) : W9 m ρ c (Proc.devRef .tc main_arg16) = a16 m c := (W9_of m ρ c main_arg16 (by decide)).trans (W8_arg16 m ρ c)
theorem W10_arg16 (c : Dev nD) : W10 m ρ c (Proc.devRef .tc main_arg16) = a16 m c := (W10_of m ρ c main_arg16 (by decide)).trans (W9_arg16 m ρ c)
theorem W11_arg16 (c : Dev nD) : W11 m ρ c (Proc.devRef .tc main_arg16) = a16 m c := (W11_of m ρ c main_arg16 (by decide)).trans (W10_arg16 m ρ c)
theorem W12_arg16 (c : Dev nD) : W12 m ρ c (Proc.devRef .tc main_arg16) = a16 m c := (W12_of m ρ c main_arg16 (by decide)).trans (W11_arg16 m ρ c)
theorem W13_arg16 (c : Dev nD) : W13 m ρ c (Proc.devRef .tc main_arg16) = a16 m c := (W13_of m ρ c main_arg16 (by decide)).trans (W12_arg16 m ρ c)
theorem W14_arg16 (c : Dev nD) : W14 m ρ c (Proc.devRef .tc main_arg16) = a16 m c := (W14_of m ρ c main_arg16 (by decide)).trans (W13_arg16 m ρ c)
theorem W15_arg16 (c : Dev nD) : W15 m ρ c (Proc.devRef .tc main_arg16) = a16 m c := (W15_of m ρ c main_arg16 (by decide)).trans (W14_arg16 m ρ c)
theorem W16_arg16 (c : Dev nD) : W16 m ρ c (Proc.devRef .tc main_arg16) = a16 m c := (W16_of m ρ c main_arg16 (by decide)).trans (W15_arg16 m ρ c)
theorem W17_arg16 (c : Dev nD) : W17 m ρ c (Proc.devRef .tc main_arg16) = a16 m c := (W17_of m ρ c main_arg16 (by decide)).trans (W16_arg16 m ρ c)
theorem W18_arg16 (c : Dev nD) : W18 m ρ c (Proc.devRef .tc main_arg16) = a16 m c := (W18_of m ρ c main_arg16 (by decide)).trans (W17_arg16 m ρ c)
theorem W19_arg16 (c : Dev nD) : W19 m ρ c (Proc.devRef .tc main_arg16) = a16 m c := (W19_of m ρ c main_arg16 (by decide)).trans (W18_arg16 m ρ c)
theorem W20_arg16 (c : Dev nD) : W20 m ρ c (Proc.devRef .tc main_arg16) = a16 m c := (W20_of m ρ c main_arg16 (by decide)).trans (W19_arg16 m ρ c)
theorem W0_arg17 (c : Dev nD) : W0 m ρ c (Proc.devRef .tc main_arg17) = a17 m c := rfl
theorem W1_arg17 (c : Dev nD) : W1 m ρ c (Proc.devRef .tc main_arg17) = a17 m c := (W1_of m ρ c main_arg17 (by decide)).trans (W0_arg17 m ρ c)
theorem W2_arg17 (c : Dev nD) : W2 m ρ c (Proc.devRef .tc main_arg17) = a17 m c := (W2_of m ρ c main_arg17 (by decide)).trans (W1_arg17 m ρ c)
theorem W3_arg17 (c : Dev nD) : W3 m ρ c (Proc.devRef .tc main_arg17) = a17 m c := (W3_of m ρ c main_arg17 (by decide)).trans (W2_arg17 m ρ c)
theorem W4_arg17 (c : Dev nD) : W4 m ρ c (Proc.devRef .tc main_arg17) = a17 m c := (W4_of m ρ c main_arg17 (by decide)).trans (W3_arg17 m ρ c)
theorem W5_arg17 (c : Dev nD) : W5 m ρ c (Proc.devRef .tc main_arg17) = a17 m c := (W5_of m ρ c main_arg17 (by decide)).trans (W4_arg17 m ρ c)
theorem W6_arg17 (c : Dev nD) : W6 m ρ c (Proc.devRef .tc main_arg17) = a17 m c := (W6_of m ρ c main_arg17 (by decide)).trans (W5_arg17 m ρ c)
theorem W7_arg17 (c : Dev nD) : W7 m ρ c (Proc.devRef .tc main_arg17) = a17 m c := (W7_of m ρ c main_arg17 (by decide)).trans (W6_arg17 m ρ c)
theorem W8_arg17 (c : Dev nD) : W8 m ρ c (Proc.devRef .tc main_arg17) = a17 m c := (W8_of m ρ c main_arg17 (by decide)).trans (W7_arg17 m ρ c)
theorem W9_arg17 (c : Dev nD) : W9 m ρ c (Proc.devRef .tc main_arg17) = a17 m c := (W9_of m ρ c main_arg17 (by decide)).trans (W8_arg17 m ρ c)
theorem W10_arg17 (c : Dev nD) : W10 m ρ c (Proc.devRef .tc main_arg17) = a17 m c := (W10_of m ρ c main_arg17 (by decide)).trans (W9_arg17 m ρ c)
theorem W11_arg17 (c : Dev nD) : W11 m ρ c (Proc.devRef .tc main_arg17) = a17 m c := (W11_of m ρ c main_arg17 (by decide)).trans (W10_arg17 m ρ c)
theorem W12_arg17 (c : Dev nD) : W12 m ρ c (Proc.devRef .tc main_arg17) = a17 m c := (W12_of m ρ c main_arg17 (by decide)).trans (W11_arg17 m ρ c)
theorem W13_arg17 (c : Dev nD) : W13 m ρ c (Proc.devRef .tc main_arg17) = a17 m c := (W13_of m ρ c main_arg17 (by decide)).trans (W12_arg17 m ρ c)
theorem W14_arg17 (c : Dev nD) : W14 m ρ c (Proc.devRef .tc main_arg17) = a17 m c := (W14_of m ρ c main_arg17 (by decide)).trans (W13_arg17 m ρ c)
theorem W15_arg17 (c : Dev nD) : W15 m ρ c (Proc.devRef .tc main_arg17) = a17 m c := (W15_of m ρ c main_arg17 (by decide)).trans (W14_arg17 m ρ c)
theorem W16_arg17 (c : Dev nD) : W16 m ρ c (Proc.devRef .tc main_arg17) = a17 m c := (W16_of m ρ c main_arg17 (by decide)).trans (W15_arg17 m ρ c)
theorem W17_arg17 (c : Dev nD) : W17 m ρ c (Proc.devRef .tc main_arg17) = a17 m c := (W17_of m ρ c main_arg17 (by decide)).trans (W16_arg17 m ρ c)
theorem W18_arg17 (c : Dev nD) : W18 m ρ c (Proc.devRef .tc main_arg17) = a17 m c := (W18_of m ρ c main_arg17 (by decide)).trans (W17_arg17 m ρ c)
theorem W19_arg17 (c : Dev nD) : W19 m ρ c (Proc.devRef .tc main_arg17) = a17 m c := (W19_of m ρ c main_arg17 (by decide)).trans (W18_arg17 m ρ c)
theorem W20_arg17 (c : Dev nD) : W20 m ρ c (Proc.devRef .tc main_arg17) = a17 m c := (W20_of m ρ c main_arg17 (by decide)).trans (W19_arg17 m ρ c)

/-! ## Names for the repeated arrays -/

/-- The node table of layer 0: [a0 | a1]. -/
abbrev tbl0 (c : Dev nD) : FVec F Tail.S40000x67 .f32 := Tail.tableOf (a0 m c) (a1 m c)
/-- The in-degrees. -/
abbrev deg (c : Dev nD) : FVec F Tail.S40000x1 .f32 := Tail.degOf (a4 m c)
/-- The packed messages the first edge stage leaves. -/
abbrev P0 (c : Dev nD) : FVec F Tail.S640000x128 .f32 := W5 m ρ c (Proc.devRef .tc main_v30)
/-- Their sums by destination. -/
abbrev S0 (c : Dev nD) : FVec F Tail.S40000x128 .f32 := Tail.sumPacked (a4 m c) (P0 m ρ c)
/-- Layer 0's node network before normalisation. -/
abbrev pre0 (c : Dev nD) : FVec F Tail.S40000x64 .f32 :=
  Tail.nodePre (a0 m c) (Tail.featPart (S0 m ρ c)) (Tail.nw1_0 (a12 m c)) (Tail.nb1_0 (a13 m c)) (Tail.nw2_0 (a14 m c)) (Tail.nb2_0 (a15 m c))
/-- The node features after layer 0. -/
abbrev h1 (c : Dev nD) : FVec F Tail.S40000x64 .f32 :=
  Tail.nodeNet (a0 m c) (Tail.featPart (S0 m ρ c)) (Tail.nw1_0 (a12 m c)) (Tail.nb1_0 (a13 m c)) (Tail.nw2_0 (a14 m c)) (Tail.nb2_0 (a15 m c))
    (Tail.gamma_0 (a16 m c)) (Tail.beta_0 (a17 m c))
/-- The node positions after layer 0. -/
abbrev x1 (c : Dev nD) : FVec F Tail.S40000x3 .f32 := Tail.newX (a1 m c) (Tail.coordPart (S0 m ρ c)) (deg m c)
/-- The node table of layer 1: [h1 | x1]. -/
abbrev tbl1 (c : Dev nD) : FVec F Tail.S40000x67 .f32 := Tail.tableOf (h1 m ρ c) (x1 m ρ c)
/-- The accumulator after layer 0: zeros plus h1. -/
abbrev acc1 (c : Dev nD) : FVec F Tail.S40000x64 .f32 := addf KOps.zerosH (h1 m ρ c)
/-- The packed messages the second edge stage leaves. -/
abbrev P1 (c : Dev nD) : FVec F Tail.S640000x128 .f32 := W16 m ρ c (Proc.devRef .tc main_v108)
/-- Their sums by destination. -/
abbrev S1 (c : Dev nD) : FVec F Tail.S40000x128 .f32 := Tail.sumPacked (a4 m c) (P1 m ρ c)
/-- Layer 1's node network before normalisation. -/
abbrev pre1 (c : Dev nD) : FVec F Tail.S40000x64 .f32 :=
  Tail.nodePre (h1 m ρ c) (Tail.featPart (S1 m ρ c)) (Tail.nw1_1 (a12 m c)) (Tail.nb1_1 (a13 m c)) (Tail.nw2_1 (a14 m c)) (Tail.nb2_1 (a15 m c))
/-- Layer 1's output. -/
abbrev h2 (c : Dev nD) : FVec F Tail.S40000x64 .f32 :=
  Tail.nodeNet (h1 m ρ c) (Tail.featPart (S1 m ρ c)) (Tail.nw1_1 (a12 m c)) (Tail.nb1_1 (a13 m c)) (Tail.nw2_1 (a14 m c)) (Tail.nb2_1 (a15 m c))
    (Tail.gamma_1 (a16 m c)) (Tail.beta_1 (a17 m c))

/-! ## Up to the first edge stage's entry -/

theorem W1_v0 (c : Dev nD) : W1 m ρ c (Proc.devRef .tc main_v0) = (KOps.zerosH : FVec F Tail.S40000x64 .f32) :=
  (KOps.s0_v0 (W0 m ρ c)).trans (by rfl)
theorem W1_v4 (c : Dev nD) : W1 m ρ c (Proc.devRef .tc main_v4) = deg m c :=
  (KOps.s0_v4 (W0 m ρ c)).trans (by rw [W0_arg4 m ρ c])
theorem W1_v5 (c : Dev nD) : W1 m ρ c (Proc.devRef .tc main_v5) = KOps.efBf (a2 m c) :=
  (KOps.s0_v5 (W0 m ρ c)).trans (by rw [W0_arg2 m ρ c])
theorem W1_v6 (c : Dev nD) : W1 m ρ c (Proc.devRef .tc main_v6) = tbl0 m c :=
  (KOps.s0_v6 (W0 m ρ c)).trans (by rw [W0_arg0 m ρ c, W0_arg1 m ρ c])
theorem W2_v6 (c : Dev nD) : W2 m ρ c (Proc.devRef .tc main_v6) = tbl0 m c := (W2_of m ρ c main_v6 (by decide)).trans (W1_v6 m ρ c)
theorem W2_v7 (c : Dev nD) : W2 m ρ c (Proc.devRef .tc main_v7) = Tail.takeK (tbl0 m c) (a3 m c) :=
  (KOps.take0 (W1 m ρ c)).trans (by rw [W1_v6 m ρ c, W1_arg3 m ρ c])
theorem W3_v8 (c : Dev nD) : W3 m ρ c (Proc.devRef .tc main_v8) = Tail.takeK (tbl0 m c) (a4 m c) :=
  (KOps.take1 (W2 m ρ c)).trans (by rw [W2_v6 m ρ c, W2_arg4 m ρ c])
theorem W3_v7 (c : Dev nD) : W3 m ρ c (Proc.devRef .tc main_v7) = Tail.takeK (tbl0 m c) (a3 m c) := (W3_of m ρ c main_v7 (by decide)).trans (W2_v7 m ρ c)
theorem W4_v7 (c : Dev nD) : W4 m ρ c (Proc.devRef .tc main_v7) = Tail.takeK (tbl0 m c) (a3 m c) := (W4_of m ρ c main_v7 (by decide)).trans (W3_v7 m ρ c)
theorem W4_v8 (c : Dev nD) : W4 m ρ c (Proc.devRef .tc main_v8) = Tail.takeK (tbl0 m c) (a4 m c) := (W4_of m ρ c main_v8 (by decide)).trans (W3_v8 m ρ c)
theorem W2_v5 (c : Dev nD) : W2 m ρ c (Proc.devRef .tc main_v5) = KOps.efBf (a2 m c) := (W2_of m ρ c main_v5 (by decide)).trans (W1_v5 m ρ c)
theorem W3_v5 (c : Dev nD) : W3 m ρ c (Proc.devRef .tc main_v5) = KOps.efBf (a2 m c) := (W3_of m ρ c main_v5 (by decide)).trans (W2_v5 m ρ c)
theorem W4_v5 (c : Dev nD) : W4 m ρ c (Proc.devRef .tc main_v5) = KOps.efBf (a2 m c) := (W4_of m ρ c main_v5 (by decide)).trans (W3_v5 m ρ c)
/-- The narrowed edge attributes are an input of the first edge stage, which leaves its inputs as entered. -/
theorem W5_v5 (c : Dev nD) : W5 m ρ c (Proc.devRef .tc main_v5) = KOps.efBf (a2 m c) :=
  ((W5_arr m ρ c 2).trans ((dat0 (V4 m ρ) c).arrAt_in 2 rfl cfg0.N)).trans (W4_v5 m ρ c)
theorem W6_v5 (c : Dev nD) : W6 m ρ c (Proc.devRef .tc main_v5) = KOps.efBf (a2 m c) := (W6_of m ρ c main_v5 (by decide)).trans (W5_v5 m ρ c)
theorem W7_v5 (c : Dev nD) : W7 m ρ c (Proc.devRef .tc main_v5) = KOps.efBf (a2 m c) := (W7_of m ρ c main_v5 (by decide)).trans (W6_v5 m ρ c)
theorem W8_v5 (c : Dev nD) : W8 m ρ c (Proc.devRef .tc main_v5) = KOps.efBf (a2 m c) := (W8_of m ρ c main_v5 (by decide)).trans (W7_v5 m ρ c)
theorem W9_v5 (c : Dev nD) : W9 m ρ c (Proc.devRef .tc main_v5) = KOps.efBf (a2 m c) := (W9_of m ρ c main_v5 (by decide)).trans (W8_v5 m ρ c)
theorem W10_v5 (c : Dev nD) : W10 m ρ c (Proc.devRef .tc main_v5) = KOps.efBf (a2 m c) := (W10_of m ρ c main_v5 (by decide)).trans (W9_v5 m ρ c)
theorem W11_v5 (c : Dev nD) : W11 m ρ c (Proc.devRef .tc main_v5) = KOps.efBf (a2 m c) := (W11_of m ρ c main_v5 (by decide)).trans (W10_v5 m ρ c)
theorem W12_v5 (c : Dev nD) : W12 m ρ c (Proc.devRef .tc main_v5) = KOps.efBf (a2 m c) := (W12_of m ρ c main_v5 (by decide)).trans (W11_v5 m ρ c)
theorem W13_v5 (c : Dev nD) : W13 m ρ c (Proc.devRef .tc main_v5) = KOps.efBf (a2 m c) := (W13_of m ρ c main_v5 (by decide)).trans (W12_v5 m ρ c)
theorem W14_v5 (c : Dev nD) : W14 m ρ c (Proc.devRef .tc main_v5) = KOps.efBf (a2 m c) := (W14_of m ρ c main_v5 (by decide)).trans (W13_v5 m ρ c)
theorem W15_v5 (c : Dev nD) : W15 m ρ c (Proc.devRef .tc main_v5) = KOps.efBf (a2 m c) := (W15_of m ρ c main_v5 (by decide)).trans (W14_v5 m ρ c)
theorem W2_v4 (c : Dev nD) : W2 m ρ c (Proc.devRef .tc main_v4) = deg m c := (W2_of m ρ c main_v4 (by decide)).trans (W1_v4 m ρ c)
theorem W3_v4 (c : Dev nD) : W3 m ρ c (Proc.devRef .tc main_v4) = deg m c := (W3_of m ρ c main_v4 (by decide)).trans (W2_v4 m ρ c)
theorem W4_v4 (c : Dev nD) : W4 m ρ c (Proc.devRef .tc main_v4) = deg m c := (W4_of m ρ c main_v4 (by decide)).trans (W3_v4 m ρ c)
theorem W5_v4 (c : Dev nD) : W5 m ρ c (Proc.devRef .tc main_v4) = deg m c := (W5_of m ρ c main_v4 (by decide)).trans (W4_v4 m ρ c)
theorem W2_v0 (c : Dev nD) : W2 m ρ c (Proc.devRef .tc main_v0) = (KOps.zerosH : FVec F Tail.S40000x64 .f32) := (W2_of m ρ c main_v0 (by decide)).trans (W1_v0 m ρ c)
theorem W3_v0 (c : Dev nD) : W3 m ρ c (Proc.devRef .tc main_v0) = (KOps.zerosH : FVec F Tail.S40000x64 .f32) := (W3_of m ρ c main_v0 (by decide)).trans (W2_v0 m ρ c)
theorem W4_v0 (c : Dev nD) : W4 m ρ c (Proc.devRef .tc main_v0) = (KOps.zerosH : FVec F Tail.S40000x64 .f32) := (W4_of m ρ c main_v0 (by decide)).trans (W3_v0 m ρ c)
theorem W5_v0 (c : Dev nD) : W5 m ρ c (Proc.devRef .tc main_v0) = (KOps.zerosH : FVec F Tail.S40000x64 .f32) := (W5_of m ρ c main_v0 (by decide)).trans (W4_v0 m ρ c)
theorem W6_v0 (c : Dev nD) : W6 m ρ c (Proc.devRef .tc main_v0) = (KOps.zerosH : FVec F Tail.S40000x64 .f32) := (W6_of m ρ c main_v0 (by decide)).trans (W5_v0 m ρ c)
theorem W7_v0 (c : Dev nD) : W7 m ρ c (Proc.devRef .tc main_v0) = (KOps.zerosH : FVec F Tail.S40000x64 .f32) := (W7_of m ρ c main_v0 (by decide)).trans (W6_v0 m ρ c)
theorem W8_v0 (c : Dev nD) : W8 m ρ c (Proc.devRef .tc main_v0) = (KOps.zerosH : FVec F Tail.S40000x64 .f32) := (W8_of m ρ c main_v0 (by decide)).trans (W7_v0 m ρ c)
theorem W9_v0 (c : Dev nD) : W9 m ρ c (Proc.devRef .tc main_v0) = (KOps.zerosH : FVec F Tail.S40000x64 .f32) := (W9_of m ρ c main_v0 (by decide)).trans (W8_v0 m ρ c)
theorem W10_v0 (c : Dev nD) : W10 m ρ c (Proc.devRef .tc main_v0) = (KOps.zerosH : FVec F Tail.S40000x64 .f32) := (W10_of m ρ c main_v0 (by decide)).trans (W9_v0 m ρ c)
theorem W11_v0 (c : Dev nD) : W11 m ρ c (Proc.devRef .tc main_v0) = (KOps.zerosH : FVec F Tail.S40000x64 .f32) := (W11_of m ρ c main_v0 (by decide)).trans (W10_v0 m ρ c)
theorem W4_v11 (c : Dev nD) : W4 m ρ c (Proc.devRef .tc main_v11) = Tail.ew1hs0 (a5 m c) :=
  (KOps.s0_3_v11 (W3 m ρ c)).trans (by rw [W3_arg5 m ρ c])
theorem W4_v12 (c : Dev nD) : W4 m ρ c (Proc.devRef .tc main_v12) = Tail.ew1hd0 (a5 m c) :=
  (KOps.s0_3_v12 (W3 m ρ c)).trans (by rw [W3_arg5 m ρ c])
theorem W4_v13 (c : Dev nD) : W4 m ρ c (Proc.devRef .tc main_v13) = Tail.ew1rad0 (a5 m c) :=
  (KOps.s0_3_v13 (W3 m ρ c)).trans (by rw [W3_arg5 m ρ c])
theorem W4_v14 (c : Dev nD) : W4 m ρ c (Proc.devRef .tc main_v14) = Tail.ew1ef0 (a5 m c) :=
  (KOps.s0_3_v14 (W3 m ρ c)).trans (by rw [W3_arg5 m ρ c])
theorem W4_v17 (c : Dev nD) : W4 m ρ c (Proc.devRef .tc main_v17) = Tail.eb1_0 (a6 m c) :=
  (KOps.s0_3_v17 (W3 m ρ c)).trans (by rw [W3_arg6 m ρ c])
theorem W4_v19 (c : Dev nD) : W4 m ρ c (Proc.devRef .tc main_v19) = Tail.ew2_0 (a7 m c) :=
  (KOps.s0_3_v19 (W3 m ρ c)).trans (by rw [W3_arg7 m ρ c])
theorem W4_v22 (c : Dev nD) : W4 m ρ c (Proc.devRef .tc main_v22) = Tail.eb2_0 (a8 m c) :=
  (KOps.s0_3_v22 (W3 m ρ c)).trans (by rw [W3_arg8 m ρ c])
theorem W4_v24 (c : Dev nD) : W4 m ρ c (Proc.devRef .tc main_v24) = Tail.cw1_0 (a9 m c) :=
  (KOps.s0_3_v24 (W3 m ρ c)).trans (by rw [W3_arg9 m ρ c])
theorem W4_v27 (c : Dev nD) : W4 m ρ c (Proc.devRef .tc main_v27) = Tail.cb1_0 (a10 m c) :=
  (KOps.s0_3_v27 (W3 m ρ c)).trans (by rw [W3_arg10 m ρ c])
theorem W4_v29 (c : Dev nD) : W4 m ρ c (Proc.devRef .tc main_v29) = Tail.cw2_0 (a11 m c) :=
  (KOps.s0_3_v29 (W3 m ρ c)).trans (by rw [W3_arg11 m ρ c])

/-! ## From the first edge stage's exit to the second's entry -/

theorem W6_v39 (c : Dev nD) : W6 m ρ c (Proc.devRef .tc main_v39) = KOps.xDelta (Tail.coordPart (S0 m ρ c)) (deg m c) :=
  (KOps.s1_v39 (W5 m ρ c)).trans (by rw [W5_arg4 m ρ c, W5_v4 m ρ c])
theorem W6_v48 (c : Dev nD) : W6 m ρ c (Proc.devRef .tc main_v48) = Tail.linear128 (a0 m c) (Tail.featPart (S0 m ρ c)) (Tail.nw1_0 (a12 m c)) (Tail.nb1_0 (a13 m c)) :=
  (KOps.s1_v48 (W5 m ρ c)).trans (by rw [W5_arg0 m ρ c, W5_arg4 m ρ c, W5_arg12 m ρ c, W5_arg13 m ρ c])
theorem W7_v39 (c : Dev nD) : W7 m ρ c (Proc.devRef .tc main_v39) = KOps.xDelta (Tail.coordPart (S0 m ρ c)) (deg m c) := (W7_of m ρ c main_v39 (by decide)).trans (W6_v39 m ρ c)
theorem W7_v49 (c : Dev nD) : W7 m ρ c (Proc.devRef .tc main_v49) = Tail.siluV (Tail.linear128 (a0 m c) (Tail.featPart (S0 m ρ c)) (Tail.nw1_0 (a12 m c)) (Tail.nb1_0 (a13 m c))) :=
  (KOps.s1_1_v49 (W6 m ρ c)).trans (by rw [W6_v48 m ρ c])
theorem W8_v57 (c : Dev nD) : W8 m ρ c (Proc.devRef .tc main_v57) = pre0 m ρ c :=
  (KOps.s1_2_v57 (W7 m ρ c)).trans (by rw [W7_v49 m ρ c, W7_arg14 m ρ c, W7_arg15 m ρ c]; rfl)
theorem W8_v58 (c : Dev nD) : W8 m ρ c (Proc.devRef .tc main_v58) = x1 m ρ c :=
  (KOps.s1_2_v58 (W7 m ρ c)).trans (by rw [W7_arg1 m ρ c, W7_v39 m ρ c]; exact (KOps.newX_eq _ _ _).symm)
theorem W8_v61 (c : Dev nD) : W8 m ρ c (Proc.devRef .tc main_v61) = Tail.colMean (pre0 m ρ c) :=
  (KOps.s1_2_v61 (W7 m ρ c)).trans (by rw [W7_v49 m ρ c, W7_arg14 m ρ c, W7_arg15 m ρ c]; rfl)
theorem W8_c (c : Dev nD) : W8 m ρ c (Proc.devRef .tc main_c) = (constantI Tail.S_ 32 0#32 : IVec Tail.S_ 32) := KOps.s1_2_c (W7 m ρ c)
theorem W9_v62 (c : Dev nD) : W9 m ρ c (Proc.devRef .tc main_v62) = Tail.colVar (pre0 m ρ c) :=
  (KOps.s1_3_v62 (W8 m ρ c) (W8_c m ρ c)).trans (by rw [W8_v57 m ρ c])
theorem W9_v57 (c : Dev nD) : W9 m ρ c (Proc.devRef .tc main_v57) = pre0 m ρ c := (W9_of m ρ c main_v57 (by decide)).trans (W8_v57 m ρ c)
theorem W9_v61 (c : Dev nD) : W9 m ρ c (Proc.devRef .tc main_v61) = Tail.colMean (pre0 m ρ c) := (W9_of m ρ c main_v61 (by decide)).trans (W8_v61 m ρ c)
theorem W9_v58 (c : Dev nD) : W9 m ρ c (Proc.devRef .tc main_v58) = x1 m ρ c := (W9_of m ρ c main_v58 (by decide)).trans (W8_v58 m ρ c)
theorem W10_v58 (c : Dev nD) : W10 m ρ c (Proc.devRef .tc main_v58) = x1 m ρ c := (W10_of m ρ c main_v58 (by decide)).trans (W9_v58 m ρ c)
theorem W11_v58 (c : Dev nD) : W11 m ρ c (Proc.devRef .tc main_v58) = x1 m ρ c := (W11_of m ρ c main_v58 (by decide)).trans (W10_v58 m ρ c)
theorem W10_v81 (c : Dev nD) : W10 m ρ c (Proc.devRef .tc main_v81) = Tail.normalise (pre0 m ρ c) (Tail.colMean (pre0 m ρ c)) (Tail.colVar (pre0 m ρ c)) (Tail.gamma_0 (a16 m c)) (Tail.beta_0 (a17 m c)) :=
  (KOps.s1_4_v81 (W9 m ρ c)).trans (by rw [W9_v57 m ρ c, W9_v61 m ρ c, W9_v62 m ρ c, W9_arg16 m ρ c, W9_arg17 m ρ c])
theorem W11_v82 (c : Dev nD) : W11 m ρ c (Proc.devRef .tc main_v82) = h1 m ρ c :=
  (KOps.s1_5_v82 (W10 m ρ c)).trans (by rw [W10_v81 m ρ c]; rfl)
theorem W12_v83 (c : Dev nD) : W12 m ρ c (Proc.devRef .tc main_v83) = acc1 m ρ c :=
  (KOps.s1_6_v83 (W11 m ρ c)).trans (by rw [W11_v0 m ρ c, W11_v82 m ρ c])
theorem W12_v84 (c : Dev nD) : W12 m ρ c (Proc.devRef .tc main_v84) = tbl1 m ρ c :=
  (KOps.s1_6_v84 (W11 m ρ c)).trans (by rw [W11_v82 m ρ c, W11_v58 m ρ c])
theorem W13_v84 (c : Dev nD) : W13 m ρ c (Proc.devRef .tc main_v84) = tbl1 m ρ c := (W13_of m ρ c main_v84 (by decide)).trans (W12_v84 m ρ c)
theorem W12_v82 (c : Dev nD) : W12 m ρ c (Proc.devRef .tc main_v82) = h1 m ρ c := (W12_of m ρ c main_v82 (by decide)).trans (W11_v82 m ρ c)
theorem W13_v82 (c : Dev nD) : W13 m ρ c (Proc.devRef .tc main_v82) = h1 m ρ c := (W13_of m ρ c main_v82 (by decide)).trans (W12_v82 m ρ c)
theorem W14_v82 (c : Dev nD) : W14 m ρ c (Proc.devRef .tc main_v82) = h1 m ρ c := (W14_of m ρ c main_v82 (by decide)).trans (W13_v82 m ρ c)
theorem W15_v82 (c : Dev nD) : W15 m ρ c (Proc.devRef .tc main_v82) = h1 m ρ c := (W15_of m ρ c main_v82 (by decide)).trans (W14_v82 m ρ c)
theorem W16_v82 (c : Dev nD) : W16 m ρ c (Proc.devRef .tc main_v82) = h1 m ρ c := (W16_of m ρ c main_v82 (by decide)).trans (W15_v82 m ρ c)
theorem W13_v83 (c : Dev nD) : W13 m ρ c (Proc.devRef .tc main_v83) = acc1 m ρ c := (W13_of m ρ c main_v83 (by decide)).trans (W12_v83 m ρ c)
theorem W14_v83 (c : Dev nD) : W14 m ρ c (Proc.devRef .tc main_v83) = acc1 m ρ c := (W14_of m ρ c main_v83 (by decide)).trans (W13_v83 m ρ c)
theorem W15_v83 (c : Dev nD) : W15 m ρ c (Proc.devRef .tc main_v83) = acc1 m ρ c := (W15_of m ρ c main_v83 (by decide)).trans (W14_v83 m ρ c)
theorem W16_v83 (c : Dev nD) : W16 m ρ c (Proc.devRef .tc main_v83) = acc1 m ρ c := (W16_of m ρ c main_v83 (by decide)).trans (W15_v83 m ρ c)
theorem W17_v83 (c : Dev nD) : W17 m ρ c (Proc.devRef .tc main_v83) = acc1 m ρ c := (W17_of m ρ c main_v83 (by decide)).trans (W16_v83 m ρ c)
theorem W18_v83 (c : Dev nD) : W18 m ρ c (Proc.devRef .tc main_v83) = acc1 m ρ c := (W18_of m ρ c main_v83 (by decide)).trans (W17_v83 m ρ c)
theorem W19_v83 (c : Dev nD) : W19 m ρ c (Proc.devRef .tc main_v83) = acc1 m ρ c := (W19_of m ρ c main_v83 (by decide)).trans (W18_v83 m ρ c)
theorem W20_v83 (c : Dev nD) : W20 m ρ c (Proc.devRef .tc main_v83) = acc1 m ρ c := (W20_of m ρ c main_v83 (by decide)).trans (W19_v83 m ρ c)
theorem W21_v83 (c : Dev nD) : W21 m ρ c (Proc.devRef .tc main_v83) = acc1 m ρ c := (W21_of m ρ c main_v83 (by decide)).trans (W20_v83 m ρ c)
theorem W22_v83 (c : Dev nD) : W22 m ρ c (Proc.devRef .tc main_v83) = acc1 m ρ c := (W22_of m ρ c main_v83 (by decide)).trans (W21_v83 m ρ c)
theorem W13_v85 (c : Dev nD) : W13 m ρ c (Proc.devRef .tc main_v85) = Tail.takeK (tbl1 m ρ c) (a3 m c) :=
  (KOps.take2 (W12 m ρ c)).trans (by rw [W12_v84 m ρ c, W12_arg3 m ρ c])
theorem W14_v86 (c : Dev nD) : W14 m ρ c (Proc.devRef .tc main_v86) = Tail.takeK (tbl1 m ρ c) (a4 m c) :=
  (KOps.take3 (W13 m ρ c)).trans (by rw [W13_v84 m ρ c, W13_arg4 m ρ c])
theorem W14_v85 (c : Dev nD) : W14 m ρ c (Proc.devRef .tc main_v85) = Tail.takeK (tbl1 m ρ c) (a3 m c) := (W14_of m ρ c main_v85 (by decide)).trans (W13_v85 m ρ c)
theorem W15_v85 (c : Dev nD) : W15 m ρ c (Proc.devRef .tc main_v85) = Tail.takeK (tbl1 m ρ c) (a3 m c) := (W15_of m ρ c main_v85 (by decide)).trans (W14_v85 m ρ c)
theorem W15_v86 (c : Dev nD) : W15 m ρ c (Proc.devRef .tc main_v86) = Tail.takeK (tbl1 m ρ c) (a4 m c) := (W15_of m ρ c main_v86 (by decide)).trans (W14_v86 m ρ c)
theorem W15_v89 (c : Dev nD) : W15 m ρ c (Proc.devRef .tc main_v89) = Tail.ew1hs1 (a5 m c) :=
  (KOps.s1_9_v89 (W14 m ρ c)).trans (by rw [W14_arg5 m ρ c])
theorem W15_v90 (c : Dev nD) : W15 m ρ c (Proc.devRef .tc main_v90) = Tail.ew1hd1 (a5 m c) :=
  (KOps.s1_9_v90 (W14 m ρ c)).trans (by rw [W14_arg5 m ρ c])
theorem W15_v91 (c : Dev nD) : W15 m ρ c (Proc.devRef .tc main_v91) = Tail.ew1rad1 (a5 m c) :=
  (KOps.s1_9_v91 (W14 m ρ c)).trans (by rw [W14_arg5 m ρ c])
theorem W15_v92 (c : Dev nD) : W15 m ρ c (Proc.devRef .tc main_v92) = Tail.ew1ef1 (a5 m c) :=
  (KOps.s1_9_v92 (W14 m ρ c)).trans (by rw [W14_arg5 m ρ c])
theorem W15_v95 (c : Dev nD) : W15 m ρ c (Proc.devRef .tc main_v95) = Tail.eb1_1 (a6 m c) :=
  (KOps.s1_9_v95 (W14 m ρ c)).trans (by rw [W14_arg6 m ρ c])
theorem W15_v97 (c : Dev nD) : W15 m ρ c (Proc.devRef .tc main_v97) = Tail.ew2_1 (a7 m c) :=
  (KOps.s1_9_v97 (W14 m ρ c)).trans (by rw [W14_arg7 m ρ c])
theorem W15_v100 (c : Dev nD) : W15 m ρ c (Proc.devRef .tc main_v100) = Tail.eb2_1 (a8 m c) :=
  (KOps.s1_9_v100 (W14 m ρ c)).trans (by rw [W14_arg8 m ρ c])
theorem W15_v102 (c : Dev nD) : W15 m ρ c (Proc.devRef .tc main_v102) = Tail.cw1_1 (a9 m c) :=
  (KOps.s1_9_v102 (W14 m ρ c)).trans (by rw [W14_arg9 m ρ c])
theorem W15_v105 (c : Dev nD) : W15 m ρ c (Proc.devRef .tc main_v105) = Tail.cb1_1 (a10 m c) :=
  (KOps.s1_9_v105 (W14 m ρ c)).trans (by rw [W14_arg10 m ρ c])
theorem W15_v107 (c : Dev nD) : W15 m ρ c (Proc.devRef .tc main_v107) = Tail.cw2_1 (a11 m c) :=
  (KOps.s1_9_v107 (W14 m ρ c)).trans (by rw [W14_arg11 m ρ c])

/-! ## From the second edge stage's exit to the result -/

theorem W17_v126 (c : Dev nD) : W17 m ρ c (Proc.devRef .tc main_v126) = Tail.linear128 (h1 m ρ c) (Tail.featPart (S1 m ρ c)) (Tail.nw1_1 (a12 m c)) (Tail.nb1_1 (a13 m c)) :=
  (KOps.s2_v126 (W16 m ρ c)).trans (by rw [W16_v82 m ρ c, W16_arg4 m ρ c, W16_arg12 m ρ c, W16_arg13 m ρ c])
theorem W18_v127 (c : Dev nD) : W18 m ρ c (Proc.devRef .tc main_v127) = Tail.siluV (Tail.linear128 (h1 m ρ c) (Tail.featPart (S1 m ρ c)) (Tail.nw1_1 (a12 m c)) (Tail.nb1_1 (a13 m c))) :=
  (KOps.s2_1_v127 (W17 m ρ c)).trans (by rw [W17_v126 m ρ c])
theorem W19_v135 (c : Dev nD) : W19 m ρ c (Proc.devRef .tc main_v135) = pre1 m ρ c :=
  (KOps.s2_2_v135 (W18 m ρ c)).trans (by rw [W18_v127 m ρ c, W18_arg14 m ρ c, W18_arg15 m ρ c]; rfl)
theorem W19_v139 (c : Dev nD) : W19 m ρ c (Proc.devRef .tc main_v139) = Tail.colMean (pre1 m ρ c) :=
  (KOps.s2_2_v139 (W18 m ρ c)).trans (by rw [W18_v127 m ρ c, W18_arg14 m ρ c, W18_arg15 m ρ c]; rfl)
theorem W19_c_11 (c : Dev nD) : W19 m ρ c (Proc.devRef .tc main_c_11) = (constantI Tail.S_ 32 0#32 : IVec Tail.S_ 32) := KOps.s2_2_c (W18 m ρ c)
theorem W20_v140 (c : Dev nD) : W20 m ρ c (Proc.devRef .tc main_v140) = Tail.colVar (pre1 m ρ c) :=
  (KOps.s2_3_v140 (W19 m ρ c) (W19_c_11 m ρ c)).trans (by rw [W19_v135 m ρ c])
theorem W20_v135 (c : Dev nD) : W20 m ρ c (Proc.devRef .tc main_v135) = pre1 m ρ c := (W20_of m ρ c main_v135 (by decide)).trans (W19_v135 m ρ c)
theorem W20_v139 (c : Dev nD) : W20 m ρ c (Proc.devRef .tc main_v139) = Tail.colMean (pre1 m ρ c) := (W20_of m ρ c main_v139 (by decide)).trans (W19_v139 m ρ c)
theorem W21_v159 (c : Dev nD) : W21 m ρ c (Proc.devRef .tc main_v159) = Tail.normalise (pre1 m ρ c) (Tail.colMean (pre1 m ρ c)) (Tail.colVar (pre1 m ρ c)) (Tail.gamma_1 (a16 m c)) (Tail.beta_1 (a17 m c)) :=
  (KOps.s2_4_v159 (W20 m ρ c)).trans (by rw [W20_v135 m ρ c, W20_v139 m ρ c, W20_v140 m ρ c, W20_arg16 m ρ c, W20_arg17 m ρ c])
theorem W22_v160 (c : Dev nD) : W22 m ρ c (Proc.devRef .tc main_v160) = h2 m ρ c :=
  (KOps.s2_5_v160 (W21 m ρ c)).trans (by rw [W21_v159 m ρ c]; rfl)
/-- The result array at the end: (zeros + h1) + layer 1's output. -/
theorem W23_v161 (c : Dev nD) : W23 m ρ c (Proc.devRef .tc main_v161) = addf (acc1 m ρ c) (h2 m ρ c) :=
  (KOps.s2_6_v161 (W22 m ρ c)).trans (by rw [W22_v83 m ρ c, W22_v160 m ρ c])

end Cert.Bridge.KRead
-- ==== Proof.Spec.lean ====
/-
  The mathematics both programs compute in one message-passing layer's edge stage, stated once over the
  extended reals, index by index, with no program in sight.

  For an edge `e` with endpoints `s` (source) and `t` (destination), node features `h : 64` and positions
  `x : 3`, edge attributes `a : 16`:
    d      = x_s - x_t                       (coordinate difference)
    ρ      = Σ_k d_k · d_k                   (squared distance)
    u_k    = d_k / (√ρ + ε)                  (normalised difference; ε the shared literal 1e-30)
    f      = [h_s | h_t | ρ | a]             (145 features)
    z1_j   = Σ_k f_k · W1_kj + b1_j ,  a1 = silu z1
    m_j    = silu (Σ_k a1_k · W2_kj + b2_j)                    (the feature message, 64 wide)
    c      = Σ_k silu(Σ_i m_i · C1_ik + cb1_k) · C2_k          (the coordinate coefficient)
    p_k    = c · u_k                                            (the coordinate message, 3 wide)
  and a node `n` receives the sums of `m` and of `p` over the edges whose destination is `n`.
  `silu t = t · logistic t`, and `logistic t = 1 / (1 + e^(-t))` with the extended reals' conventions.
-/
import Idealize.ShloMosaic.PureOps.Ideal

noncomputable section

namespace Cert.Bridge.Spec

open Idealize.ShloMosaic

/-- One layer's edge-network parameters, read at indices. -/
structure LP where
  w1 : Fin 145 → Fin 64 → EReal
  b1 : Fin 64 → EReal
  w2 : Fin 64 → Fin 64 → EReal
  b2 : Fin 64 → EReal
  c1 : Fin 64 → Fin 64 → EReal
  cb1 : Fin 64 → EReal
  c2 : Fin 64 → EReal

/-- `silu t = t · logistic t`. -/
def silu (t : EReal) : EReal := t * Ideal.logistic t

/-- The literal both programs add to the distance before dividing (the f32 word of 1e-30, read exactly). -/
def eps : EReal := Ideal.ofBits .f32 0x0DA24260#32

/-- Coordinate difference of an edge's endpoints. -/
def diff (xs xt : Fin 3 → EReal) (k : Fin 3) : EReal := xs k - xt k

/-- Squared distance of an edge's endpoints. -/
def radial (xs xt : Fin 3 → EReal) : EReal := ∑ k : Fin 3, diff xs xt k * diff xs xt k

/-- The difference divided by the distance plus `eps`. -/
def unitDiff (xs xt : Fin 3 → EReal) (k : Fin 3) : EReal :=
  Ideal.div (diff xs xt k) (Ideal.sqrt (radial xs xt) + eps)

/-- The 145 features of an edge: source features, destination features, squared distance, edge attributes. -/
def feat (hs ht : Fin 64 → EReal) (rad : EReal) (a : Fin 16 → EReal) (k : Fin 145) : EReal :=
  if h1 : k.val < 64 then hs ⟨k.val, h1⟩
  else if h2 : k.val < 128 then ht ⟨k.val - 64, by omega⟩
  else if h3 : k.val < 129 then rad
  else a ⟨k.val - 129, by have := k.isLt; omega⟩

/-- First hidden layer of the edge network. -/
def hid1 (P : LP) (hs ht : Fin 64 → EReal) (xs xt : Fin 3 → EReal) (a : Fin 16 → EReal) (j : Fin 64) : EReal :=
  silu ((∑ k : Fin 145, feat hs ht (radial xs xt) a k * P.w1 k j) + P.b1 j)

/-- The feature message of an edge. -/
def msgH (P : LP) (hs ht : Fin 64 → EReal) (xs xt : Fin 3 → EReal) (a : Fin 16 → EReal) (j : Fin 64) : EReal :=
  silu ((∑ k : Fin 64, hid1 P hs ht xs xt a k * P.w2 k j) + P.b2 j)

/-- Hidden layer of the coordinate network. -/
def hid3 (P : LP) (hs ht : Fin 64 → EReal) (xs xt : Fin 3 → EReal) (a : Fin 16 → EReal) (j : Fin 64) : EReal :=
  silu ((∑ k : Fin 64, msgH P hs ht xs xt a k * P.c1 k j) + P.cb1 j)

/-- The coordinate coefficient of an edge. -/
def coef (P : LP) (hs ht : Fin 64 → EReal) (xs xt : Fin 3 → EReal) (a : Fin 16 → EReal) : EReal :=
  ∑ k : Fin 64, hid3 P hs ht xs xt a k * P.c2 k

/-- The coordinate message of an edge. -/
def msgX (P : LP) (hs ht : Fin 64 → EReal) (xs xt : Fin 3 → EReal) (a : Fin 16 → EReal) (k : Fin 3) : EReal :=
  coef P hs ht xs xt a * unitDiff xs xt k

/-- What a node receives: the sum of a per-edge quantity over the edges whose destination word, read as a
    signed integer, is the node's number. -/
def agg {W : Nat} (dst : Fin 640000 → BitVec 32) (M : Fin 640000 → Fin W → EReal) (n : Fin 40000) (j : Fin W) : EReal :=
  ∑ e ∈ Finset.univ.filter (fun e : Fin 640000 => (dst e).toInt = (n.val : Int)), M e j

/-- A negative index counts from the end: the word both programs gather with. -/
def wrapWord (v : BitVec 32) : BitVec 32 := if v.toInt < 0 then v + 40000#32 else v

/-- The row an in-range wrapped index names. -/
def rowOf (v : BitVec 32) (h : 0 ≤ (wrapWord v).toInt ∧ (wrapWord v).toInt ≤ 39999) : Fin 40000 :=
  ⟨(wrapWord v).toInt.toNat, by omega⟩

end Cert.Bridge.Spec

end
-- ==== Proof.SpecParams.lean ====
/-
  One layer's edge-network parameters read straight off the stacked parameter arrays: layer `l` of a parameter
  stacked along its first axis is the slice at first coordinate `l`. Both programs slice and reshape the stacked
  arrays in their own way before using them; each way reads, index by index, as this.
-/
import proofs.«409836_j4174708212115_3_alg».proof.Proof.Spec
import Idealize.ShloMosaic.Lib.ValueIdx

noncomputable section

namespace Cert.Bridge.Spec

open Idealize.ShloMosaic Idealize.ShloMosaic.ValueIdx

/-- Layer `l`'s parameters of the edge network, from the seven stacked arrays (first weights `[2,145,64]`, first bias
    `[2,64]`, second weights `[2,64,64]`, second bias `[2,64]`, coordinate weights `[2,64,64]`, coordinate bias `[2,64]`,
    coordinate read-out `[2,64,1]`). -/
def lpOf (l : Fin 2)
    (a5 : (⟨3, ![2, 145, 64]⟩ : Shape).Idx → EReal) (a6 : (⟨2, ![2, 64]⟩ : Shape).Idx → EReal)
    (a7 : (⟨3, ![2, 64, 64]⟩ : Shape).Idx → EReal) (a8 : (⟨2, ![2, 64]⟩ : Shape).Idx → EReal)
    (a9 : (⟨3, ![2, 64, 64]⟩ : Shape).Idx → EReal) (a10 : (⟨2, ![2, 64]⟩ : Shape).Idx → EReal)
    (a11 : (⟨3, ![2, 64, 1]⟩ : Shape).Idx → EReal) : LP where
  w1 := fun k j => a5 (ix3 l k j)
  b1 := fun j => a6 (ix2 l j)
  w2 := fun k j => a7 (ix3 l k j)
  b2 := fun j => a8 (ix2 l j)
  c1 := fun k j => a9 (ix3 l k j)
  cb1 := fun j => a10 (ix2 l j)
  c2 := fun k => a11 (ix3 l k (0 : Fin 1))

end Cert.Bridge.Spec

end
-- ==== Proof.LibGatherScatter.lean ====
/-
  ROW GATHER AND ROW SCATTER-ADD OF A TWO-AXIS TABLE, READ AT ONE ELEMENT.

  A table `x : [N, W]` and a column `idx : [E, 1]` of row numbers (integer words, read signed). Two host operations
  with the dimension numbers of `x[idx]` and of `x.at[idx].add(u)` along the row axis:

  * the GATHER (offset axes `[1]`, collapsed slice axes `[0]`, start index map `[0]`, index vector on axis 1, no
    batching axes) has result `[E, W]`; its element (e, j) is `x[r, j]` where `r` is `idx[e, 0]` clamped into
    `[0, N − 1]` (`gather_apply`), so `x[idx[e, 0], j]` when the row number is in range (`gather_apply_of_inRange`);
  * the SCATTER-ADD (update window axes `[1]`, inserted window axes `[0]`, scatter axes to operand axes `[0]`,
    index vector on axis 1) of updates `u : [E, W]` has, at the ideal instance, the element (n, j)
    `x[n, j] + ∑ over the e with idx[e, 0] = n of u[e, j]` (`hostScatterAdd_apply` / `scatterAdd_apply`): the row number
    is NOT clamped, and an update row whose number is no row of the table is dropped — no range condition is needed.

  Both act on each column by itself, so they commute with any choice of columns `c : Fin W' → Fin W`, in particular
  with taking the block of columns that starts at an offset (`gather_cols` / `gather_cols_offset`,
  `hostScatterAdd_cols` / `hostScatterAdd_cols_offset`, and `scatterAdd_cols` / `scatterAdd_cols_offset` on
  `Host.scatterAdd`): the gather of a concatenation `[h | p]` along the columns is, column block by column block, the
  gather of `h` and the gather of `p`, and likewise the scatter-add.

  Every lemma takes ANY dimension-number record whose lists are the ones above (hypotheses on the fields, each closed
  by `rfl` at a literal record), at any extents `N`, `E`, `W`, and speaks of indices built by `ix2` from coordinates.
-/
import Idealize.ShloMosaic.PureOps.Ideal
import Idealize.ShloMosaic.Lib.ValueIdx

open scoped BigOperators

namespace Cert.Bridge.GS

open Idealize.ShloMosaic Idealize.ShloMosaic.ValueIdx

/-- An entry of a list that is a singleton is its one element. -/
private theorem getElem_of_eq_singleton {β : Type} {l : List β} {b : β} (hl : l = [b]) {k : Nat} (hk : k < l.length) :
    l[k] = b := by
  subst hl
  have hk0 : k = 0 := by simpa using hk
  subst hk0; rfl

/-! ## The gather -/

section Gather
variable {α : Type} {N E W w : Nat}

/-- THE OPERAND INDEX of result element (e, j): the row is the start index `idx[e, 0]` read signed and clamped into
    `[0, N − 1]` (the row axis is collapsed, its slice one row), the column is `j` (the one offset axis). -/
theorem operandIdx_rows (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (j : Fin W) :
    d.operandIdx (ix2 e j) idx = ix2 ⟨min (idx (ix2 e 0)).toInt.toNat (N - 1), by omega⟩ j := by
  obtain ⟨od, cd, ob, sb, sim, ivd, ss, wf⟩ := d
  dsimp only at hoff hcoll hob hsim hivd
  subst hoff hcoll hob hsim hivd
  have hsl : ss 0 = 1 :=
    GatherDims.slice_collapsed (⟨[1], [0], [], sb, [0], 1, ss, wf⟩ : GatherDims ⟨2, ![N, W]⟩ ⟨2, ![E, 1]⟩ ⟨2, ![E, W]⟩) 0
      (List.mem_singleton.mpr rfl)
  funext a
  match a with
  | ⟨0, _⟩ =>
    refine Fin.ext ?_
    show GatherDims.start _ (ix2 e j) idx 0 + GatherDims.batchCoord _ (ix2 e j) 0 + GatherDims.offCoord _ (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    refine Fin.ext ?_
    match b with
    | ⟨0, _⟩ => rfl
    | ⟨1, _⟩ => rfl
  | ⟨1, _⟩ =>
    refine Fin.ext ?_
    show GatherDims.start _ (ix2 e j) idx 1 + GatherDims.batchCoord _ (ix2 e j) 1 + GatherDims.offCoord _ (ix2 e j) 1 = _
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨show (1 : Fin 2) ∉ [0] by decide, List.not_mem_nil⟩)]
    rw [getElem_of_eq_singleton (b := (1 : Fin 2)) rfl]
    show 0 + 0 + j.val = j.val
    omega

/-- THE GATHER READ AT (e, j), no range condition: the table at the row the start index `idx[e, 0]` names, read
    signed and clamped into `[0, N − 1]` (StableHLO clamps a start index so that the slice fits), at column `j`. -/
theorem gather_apply (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W) :
    Host.gather d x idx (ix2 e j) = x (ix2 ⟨min (idx (ix2 e 0)).toInt.toNat (N - 1), by omega⟩ j) := by
  unfold Host.gather
  rw [operandIdx_rows hN d hoff hcoll hob hsim hivd idx e j]

/-- (G1) THE GATHER READ AT (e, j), start index in range: when `0 ≤ idx[e, 0] < N` (read signed) the clamp does
    nothing, and the result is the table's row `idx[e, 0]` at column `j`. -/
theorem gather_apply_of_inRange (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W)
    (h0 : 0 ≤ (idx (ix2 e 0)).toInt) (h1 : (idx (ix2 e 0)).toInt < N) :
    Host.gather d x idx (ix2 e j) = x (ix2 ⟨(idx (ix2 e 0)).toInt.toNat, by omega⟩ j) := by
  have hN : 0 < N := by omega
  rw [gather_apply hN d hoff hcoll hob hsim hivd x idx e j]
  congr 2
  refine Fin.ext ?_
  show min (idx (ix2 e 0)).toInt.toNat (N - 1) = (idx (ix2 e 0)).toInt.toNat
  omega

/-- (G2) THE GATHER COMMUTES WITH A CHOICE OF COLUMNS. If a table `y` of width `W'` is the columns `c 0, c 1, …` of a
    table `x` of width `W` (`y[n, j'] = x[n, c j']`), then the gather of `y` at (e, j') is the gather of `x` at
    (e, c j'), at the same start indices — in range or not: both sides clamp the start index alike. -/
theorem gather_cols {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (c : Fin W' → Fin W)
    (x : (⟨2, ![N, W]⟩ : Shape).Idx → α) (y : (⟨2, ![N, W']⟩ : Shape).Idx → α)
    (hxy : ∀ (n : Fin N) (j' : Fin W'), y (ix2 n j') = x (ix2 n (c j')))
    (idx : IVec ⟨2, ![E, 1]⟩ w) (e : Fin E) (j' : Fin W') :
    Host.gather d' y idx (ix2 e j') = Host.gather d x idx (ix2 e (c j')) := by
  rw [gather_apply hN d' hoff' hcoll' hob' hsim' hivd' y idx e j',
    gather_apply hN d hoff hcoll hob hsim hivd x idx e (c j')]
  exact hxy _ _

/-- (G2), the columns a contiguous run: if `y[n, j'] = x[n, off + j']` (`y` is the column block of `x` that starts at
    `off`: a slice of a concatenation along the columns), then the gather of `y` at (e, j') is the gather of `x` at
    (e, off + j'). -/
theorem gather_cols_offset {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (off : Nat) (hW : off + W' ≤ W)
    (x : (⟨2, ![N, W]⟩ : Shape).Idx → α) (y : (⟨2, ![N, W']⟩ : Shape).Idx → α)
    (hxy : ∀ (n : Fin N) (j' : Fin W'), y (ix2 n j') = x (ix2 n ⟨off + j'.val, by omega⟩))
    (idx : IVec ⟨2, ![E, 1]⟩ w) (e : Fin E) (j' : Fin W') :
    Host.gather d' y idx (ix2 e j') = Host.gather d x idx (ix2 e ⟨off + j'.val, by omega⟩) :=
  gather_cols hN d hoff hcoll hob hsim hivd d' hoff' hcoll' hob' hsim' hivd' (fun j' => ⟨off + j'.val, by omega⟩) x y hxy idx e j'

end Gather

/-! ## The scatter-add -/

/-- Two rank-2 indices built from coordinates are equal exactly when the coordinates are. -/
theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

section Scatter
variable {N E W w : Nat}

/-- WHERE AN UPDATE LANDS. Update element (e, j) of a row scatter (the table's row axis inserted and scattered, the
    column axis the window; one row number per update row, on the index vector's axis 1) lands at
    (`idx[e, 0]`, j) when the row number, read signed and NOT clamped, is a row of the table, and nowhere when it is
    not. -/
theorem resultIdx?_rows (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j : Fin W) :
    d.resultIdx? (ix2 e j) idx =
      if h : 0 ≤ (idx (ix2 e 0)).toInt ∧ (idx (ix2 e 0)).toInt < N then
        some (ix2 ⟨(idx (ix2 e 0)).toInt.toNat, by omega⟩ j)
      else none := by
  obtain ⟨uw, iw, sd, ivd, wf⟩ := d
  dsimp only at huw hiw hsd hivd
  subst huw hiw hsd hivd
  set D : ScatterDims ⟨2, ![N, W]⟩ ⟨2, ![E, 1]⟩ ⟨2, ![E, W]⟩ := ⟨[1], [0], [0], 1, wf⟩ with hD
  have hs0 : D.start (ix2 e j) idx 0 = (idx (ix2 e 0)).toInt := by
    unfold ScatterDims.start
    rw [dif_pos (show (0 : Fin 2) ∈ D.scatterDimsToOperandDims from List.mem_singleton.mpr rfl)]
    congr 2
    funext b
    refine Fin.ext ?_
    match b with
    | ⟨0, _⟩ => rfl
    | ⟨1, _⟩ => rfl
  have hs1 : D.start (ix2 e j) idx 1 = 0 := by
    unfold ScatterDims.start
    rw [dif_neg (show (1 : Fin 2) ∉ D.scatterDimsToOperandDims from (by decide : (1 : Fin 2) ∉ [0]))]
  have hw0 : D.window (ix2 e j) 0 = 0 := by
    unfold ScatterDims.window
    rw [dif_neg (show (0 : Fin 2) ∉ D.sKept from by simp [hD, ScatterDims.sKept, Shape.kept])]
  have hw1 : D.window (ix2 e j) 1 = j.val := by
    unfold ScatterDims.window
    rw [dif_pos (show (1 : Fin 2) ∈ D.sKept from by simp [hD, ScatterDims.sKept, Shape.kept])]
    rw [getElem_of_eq_singleton (b := (1 : Fin 2)) rfl]
  unfold ScatterDims.resultIdx?
  by_cases h : 0 ≤ (idx (ix2 e 0)).toInt ∧ (idx (ix2 e 0)).toInt < N
  · have hall : ∀ a, 0 ≤ D.start (ix2 e j) idx a + D.window (ix2 e j) a ∧
        D.start (ix2 e j) idx a + D.window (ix2 e j) a < (⟨2, ![N, W]⟩ : Shape).size a := by
      intro a
      match a with
      | ⟨0, _⟩ =>
        show 0 ≤ D.start (ix2 e j) idx 0 + D.window (ix2 e j) 0 ∧ D.start (ix2 e j) idx 0 + D.window (ix2 e j) 0 < (N : Int)
        rw [hs0, hw0]; omega
      | ⟨1, _⟩ =>
        show 0 ≤ D.start (ix2 e j) idx 1 + D.window (ix2 e j) 1 ∧ D.start (ix2 e j) idx 1 + D.window (ix2 e j) 1 < (W : Int)
        rw [hs1, hw1]; have := j.isLt; omega
    rw [dif_pos hall, dif_pos h]
    congr 1
    funext a
    refine Fin.ext ?_
    match a with
    | ⟨0, _⟩ =>
      show (D.start (ix2 e j) idx 0 + D.window (ix2 e j) 0).toNat = (idx (ix2 e 0)).toInt.toNat
      rw [hs0, hw0]; simp
    | ⟨1, _⟩ =>
      show (D.start (ix2 e j) idx 1 + D.window (ix2 e j) 1).toNat = j.val
      rw [hs1, hw1]; simp
  · rw [dif_neg h, dif_neg]
    intro hall
    have h0 : 0 ≤ D.start (ix2 e j) idx 0 + D.window (ix2 e j) 0 ∧ D.start (ix2 e j) idx 0 + D.window (ix2 e j) 0 < (N : Int) :=
      hall 0
    rw [hs0, hw0] at h0
    exact h (by omega)

/-- An update element (e, j') lands at the table's (n, j) exactly when its row number `idx[e, 0]`, read signed, is `n`
    and its column is `j`. -/
theorem resultIdx?_eq_some_iff (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j' : Fin W) (n : Fin N) (j : Fin W) :
    d.resultIdx? (ix2 e j') idx = some (ix2 n j) ↔ (idx (ix2 e 0)).toInt = (n.val : Int) ∧ j' = j := by
  rw [resultIdx?_rows d huw hiw hsd hivd idx e j']
  have hn := n.isLt
  split
  · next h =>
    rw [Option.some.injEq, ix2_inj]
    constructor
    · rintro ⟨h1, h2⟩
      refine ⟨?_, h2⟩
      have := congrArg Fin.val h1
      simp only at this
      omega
    · rintro ⟨h1, h2⟩
      refine ⟨Fin.ext ?_, h2⟩
      show (idx (ix2 e 0)).toInt.toNat = n.val
      omega
  · next h =>
    constructor
    · intro h'; exact absurd h' (by simp)
    · rintro ⟨h1, _⟩; exact absurd (show 0 ≤ (idx (ix2 e 0)).toInt ∧ (idx (ix2 e 0)).toInt < N by omega) h

/-- (S1) THE SCATTER-ADD READ AT (n, j), no range condition: the table's element plus the sum, over the update rows
    `e` whose row number `idx[e, 0]` (read signed, not clamped) is `n`, of the update's element (e, j). An update
    row whose number is not a row of the table lands nowhere. -/
theorem hostScatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : (⟨2, ![N, W]⟩ : Shape).Idx → EReal) (idx : IVec ⟨2, ![E, 1]⟩ w) (upd : (⟨2, ![E, W]⟩ : Shape).Idx → EReal)
    (n : Fin N) (j : Fin W) :
    Ideal.hostScatterAdd d x idx upd (ix2 n j) =
      x (ix2 n j) + ∑ e ∈ Finset.univ.filter (fun e : Fin E => (idx (ix2 e 0)).toInt = (n.val : Int)), upd (ix2 e j) := by
  unfold Ideal.hostScatterAdd
  congr 1
  rw [Finset.sum_filter, sum_idx2, Finset.sum_filter]
  refine Finset.sum_congr rfl fun e _ => ?_
  simp only [resultIdx?_eq_some_iff d huw hiw hsd hivd idx e _ n j]
  by_cases h : (idx (ix2 e 0)).toInt = (n.val : Int)
  · simp only [h, true_and, if_true]
    rw [Finset.sum_ite_eq' Finset.univ j (fun j' => upd (ix2 e j'))]
    simp
  · simp only [h, false_and, if_false]
    exact Finset.sum_const_zero

/-- (S2) THE SCATTER-ADD COMMUTES WITH A CHOICE OF COLUMNS. If the table `x'` and the updates `upd'`, of width `W'`,
    are the columns `c 0, c 1, …` of `x` and `upd`, of width `W`, then the scatter-add of `upd'` into `x'` at (n, j')
    is the scatter-add of `upd` into `x` at (n, c j'), at the same row numbers. -/
theorem hostScatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : (⟨2, ![N, W]⟩ : Shape).Idx → EReal) (x' : (⟨2, ![N, W']⟩ : Shape).Idx → EReal)
    (hx : ∀ (n : Fin N) (j' : Fin W'), x' (ix2 n j') = x (ix2 n (c j')))
    (upd : (⟨2, ![E, W]⟩ : Shape).Idx → EReal) (upd' : (⟨2, ![E, W']⟩ : Shape).Idx → EReal)
    (hupd : ∀ (e : Fin E) (j' : Fin W'), upd' (ix2 e j') = upd (ix2 e (c j')))
    (idx : IVec ⟨2, ![E, 1]⟩ w) (n : Fin N) (j' : Fin W') :
    Ideal.hostScatterAdd d' x' idx upd' (ix2 n j') = Ideal.hostScatterAdd d x idx upd (ix2 n (c j')) := by
  rw [hostScatterAdd_apply d' huw' hiw' hsd' hivd' x' idx upd' n j',
    hostScatterAdd_apply d huw hiw hsd hivd x idx upd n (c j'), hx n j']
  congr 1
  exact Finset.sum_congr rfl fun e _ => hupd e j'

/-- (S2), the columns a contiguous run: if `x'[n, j'] = x[n, off + j']` and `upd'[e, j'] = upd[e, off + j']`, then the
    scatter-add of `upd'` into `x'` at (n, j') is the scatter-add of `upd` into `x` at (n, off + j'). -/
theorem hostScatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : (⟨2, ![N, W]⟩ : Shape).Idx → EReal) (x' : (⟨2, ![N, W']⟩ : Shape).Idx → EReal)
    (hx : ∀ (n : Fin N) (j' : Fin W'), x' (ix2 n j') = x (ix2 n ⟨off + j'.val, by omega⟩))
    (upd : (⟨2, ![E, W]⟩ : Shape).Idx → EReal) (upd' : (⟨2, ![E, W']⟩ : Shape).Idx → EReal)
    (hupd : ∀ (e : Fin E) (j' : Fin W'), upd' (ix2 e j') = upd (ix2 e ⟨off + j'.val, by omega⟩))
    (idx : IVec ⟨2, ![E, 1]⟩ w) (n : Fin N) (j' : Fin W') :
    Ideal.hostScatterAdd d' x' idx upd' (ix2 n j') = Ideal.hostScatterAdd d x idx upd (ix2 n ⟨off + j'.val, by omega⟩) :=
  hostScatterAdd_cols d huw hiw hsd hivd d' huw' hiw' hsd' hivd' (fun j' => ⟨off + j'.val, by omega⟩) x x' hx upd upd' hupd
    idx n j'

end Scatter

/-! ## The same, stated on the host operation `Host.scatterAdd` at the ideal instance -/

section HostForm
variable {N E W w : Nat} {φ : FTy}

/-- At the ideal instance the host's scatter-add is the exact sum `Ideal.hostScatterAdd`, by definition. -/
theorem scatterAdd_eq {s si u : Shape} (d : ScatterDims s si u) (x : FVec Ideal s φ) (idx : IVec si w)
    (upd : FVec Ideal u φ) : Host.scatterAdd d x idx upd = Ideal.hostScatterAdd d x idx upd := rfl

/-- (S1) on `Host.scatterAdd`: the element (n, j) of the result is the table's plus the sum of the updates' elements
    (e, j) over the update rows `e` whose row number `idx[e, 0]`, read signed, is `n`. -/
theorem scatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : FVec Ideal ⟨2, ![N, W]⟩ φ) (idx : IVec ⟨2, ![E, 1]⟩ w) (upd : FVec Ideal ⟨2, ![E, W]⟩ φ) (n : Fin N) (j : Fin W) :
    Host.scatterAdd d x idx upd (ix2 n j) =
      x (ix2 n j) + ∑ e ∈ Finset.univ.filter (fun e : Fin E => (idx (ix2 e 0)).toInt = (n.val : Int)), upd (ix2 e j) :=
  hostScatterAdd_apply d huw hiw hsd hivd x idx upd n j

/-- (S2) on `Host.scatterAdd`, any choice of columns `c`. -/
theorem scatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : FVec Ideal ⟨2, ![N, W]⟩ φ) (x' : FVec Ideal ⟨2, ![N, W']⟩ φ)
    (hx : ∀ (n : Fin N) (j' : Fin W'), x' (ix2 n j') = x (ix2 n (c j')))
    (upd : FVec Ideal ⟨2, ![E, W]⟩ φ) (upd' : FVec Ideal ⟨2, ![E, W']⟩ φ)
    (hupd : ∀ (e : Fin E) (j' : Fin W'), upd' (ix2 e j') = upd (ix2 e (c j')))
    (idx : IVec ⟨2, ![E, 1]⟩ w) (n : Fin N) (j' : Fin W') :
    Host.scatterAdd d' x' idx upd' (ix2 n j') = Host.scatterAdd d x idx upd (ix2 n (c j')) :=
  hostScatterAdd_cols d huw hiw hsd hivd d' huw' hiw' hsd' hivd' c x x' hx upd upd' hupd idx n j'

/-- (S2) on `Host.scatterAdd`, the columns the run that starts at `off`. -/
theorem scatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : FVec Ideal ⟨2, ![N, W]⟩ φ) (x' : FVec Ideal ⟨2, ![N, W']⟩ φ)
    (hx : ∀ (n : Fin N) (j' : Fin W'), x' (ix2 n j') = x (ix2 n ⟨off + j'.val, by omega⟩))
    (upd : FVec Ideal ⟨2, ![E, W]⟩ φ) (upd' : FVec Ideal ⟨2, ![E, W']⟩ φ)
    (hupd : ∀ (e : Fin E) (j' : Fin W'), upd' (ix2 e j') = upd (ix2 e ⟨off + j'.val, by omega⟩))
    (idx : IVec ⟨2, ![E, 1]⟩ w) (n : Fin N) (j' : Fin W') :
    Host.scatterAdd d' x' idx upd' (ix2 n j') = Host.scatterAdd d x idx upd (ix2 n ⟨off + j'.val, by omega⟩) :=
  hostScatterAdd_cols_offset d huw hiw hsd hivd d' huw' hiw' hsd' hivd' off hW x x' hx upd upd' hupd idx n j'

end HostForm

end Cert.Bridge.GS
-- ==== Proof.PreIdx.lean ====
/-
  The precondition, decoded into index ranges. The precondition is a conjunction of all-reductions; four of
  its conjuncts compare the two integer arrays (the source and the destination indices, 640000 words each)
  elementwise against the constants -40000 and 40000, signed. Hence every index word w has
  -40000 ≤ w < 40000 read as a signed integer. Both programs then wrap a negative index by adding 40000:
  the wrapped word lies in [0, 39999].
-/
import proofs.«409836_j4174708212115_3_alg».proof.Pre_finite_inputs
import proofs.«409836_j4174708212115_3_alg».proof.Proof.Gen.Pre_finite_inputs
import Idealize.ShloMosaic.Lib.ReduceAll
import Idealize.ShloMosaic.Lib.ValueIdx
import Idealize.ShloMosaic.Lib.WordArith
import Idealize.ShloMosaic.PureOps.Ideal
import proofs.«409836_j4174708212115_3_alg».proof.Proof.Spec

noncomputable section

namespace Cert.Bridge.PreIdx

open Idealize.ShloMosaic
open Cert.Pre_finite_inputs
open Cert.Bridge.Spec (wrapWord rowOf)

/-- The scalar shape has one index. -/
instance subsingleton_scalar_idx : Subsingleton S_.Idx := ⟨fun a b => funext fun d => d.elim0⟩

/-- The two constants of the range test, read signed. -/
theorem toInt_lo : (4294927296#32 : BitVec 32).toInt = -40000 := by decide
theorem toInt_hi : (40000#32 : BitVec 32).toInt = 40000 := by decide

section Decode

variable [Cert.Pre_finite_inputs.Facts]
variable {F : FTy → Type} [FloatOps F]
variable {a0 : FVec F S40000x64 .f32} {a1 : FVec F S40000x3 .f32} {a2 : FVec F S640000x16 .f32}
  {a3 : IVec S640000 32} {a4 : IVec S640000 32} {a5 : FVec F S2x145x64 .f32} {a6 : FVec F S2x64 .f32}
  {a7 : FVec F S2x64x64 .f32} {a8 : FVec F S2x64 .f32} {a9 : FVec F S2x64x64 .f32} {a10 : FVec F S2x64 .f32}
  {a11 : FVec F S2x64x1 .f32} {a12 : FVec F S2x128x64 .f32} {a13 : FVec F S2x64 .f32}
  {a14 : FVec F S2x64x64 .f32} {a15 : FVec F S2x64 .f32} {a16 : FVec F S2x64 .f32} {a17 : FVec F S2x64 .f32}

/-- One all-reduced lower-bound test, read at an element: the word is at least -40000. -/
theorem lo_of_all (a : IVec S640000 32)
    (h : Host.reduce IntOp.andi
        (cmpi CmpIPredicate.sge a (broadcastInDim S640000 ![] Facts.bcast_S_S640000 (constantI S_ 32 4294927296#32)))
        (constantI S_ 1 1#1) Facts.reducesTo_S640000_S_d0 Facts.h_S_ ValueIdx.ix0 = 1#1)
    (e : S640000.Idx) : (-40000 : Int) ≤ (a e).toInt := by
  have h1 := Host.reduce_andi_all _ _ _ _ _ h e
  simp only [cmpi, broadcastInDim, constantI, IntOp.cmpi_sge, toInt_lo] at h1
  exact h1

/-- One all-reduced upper-bound test, read at an element: the word is below 40000. -/
theorem hi_of_all (a : IVec S640000 32)
    (h : Host.reduce IntOp.andi
        (cmpi CmpIPredicate.slt a (broadcastInDim S640000 ![] Facts.bcast_S_S640000 (constantI S_ 32 40000#32)))
        (constantI S_ 1 1#1) Facts.reducesTo_S640000_S_d0 Facts.h_S_ ValueIdx.ix0 = 1#1)
    (e : S640000.Idx) : (a e).toInt < 40000 := by
  have h1 := Host.reduce_andi_all _ _ _ _ _ h e
  simp only [cmpi, broadcastInDim, constantI, IntOp.cmpi_slt, toInt_hi] at h1
  exact h1

/-- The precondition's four integer conjuncts, at every element: both index arrays lie in [-40000, 40000). -/
theorem ranges
    (h : Cert.Pre_finite_inputs.fn (F := F) a0 a1 a2 a3 a4 a5 a6 a7 a8 a9 a10 a11 a12 a13 a14 a15 a16 a17 = fun _ => 1#1)
    (e : S640000.Idx) :
    ((-40000 : Int) ≤ (a3 e).toInt ∧ (a3 e).toInt < 40000) ∧ ((-40000 : Int) ≤ (a4 e).toInt ∧ (a4 e).toInt < 40000) := by
  have c := congrFun h ValueIdx.ix0
  dsimp only [fn, fn_part1, fn_part2, fn_part3, fn_part4, fn_part5, andi] at c
  simp only [IntOp.andi_eq_one] at c
  obtain ⟨⟨⟨⟨-, hs0⟩, hs1⟩, hd0⟩, hd1⟩ := c
  exact ⟨⟨lo_of_all a3 hs0 e, hi_of_all a3 hs1 e⟩, ⟨lo_of_all a4 hd0 e, hi_of_all a4 hd1 e⟩⟩

/-- Every source index lies in [-40000, 40000), signed. -/
theorem src_range
    (h : Cert.Pre_finite_inputs.fn (F := F) a0 a1 a2 a3 a4 a5 a6 a7 a8 a9 a10 a11 a12 a13 a14 a15 a16 a17 = fun _ => 1#1)
    (e : Cert.Pre_finite_inputs.S640000.Idx) : (-40000 : Int) ≤ (a3 e).toInt ∧ (a3 e).toInt < 40000 :=
  (ranges h e).1

/-- Every destination index lies in [-40000, 40000), signed. -/
theorem dst_range
    (h : Cert.Pre_finite_inputs.fn (F := F) a0 a1 a2 a3 a4 a5 a6 a7 a8 a9 a10 a11 a12 a13 a14 a15 a16 a17 = fun _ => 1#1)
    (e : Cert.Pre_finite_inputs.S640000.Idx) : (-40000 : Int) ≤ (a4 e).toInt ∧ (a4 e).toInt < 40000 :=
  (ranges h e).2

end Decode

/-! ## The wrap of a negative index -/

/-- The wrapped word, read signed. -/
theorem wrapWord_toInt {v : BitVec 32} (hr : (-40000 : Int) ≤ v.toInt ∧ v.toInt < 40000) :
    (wrapWord v).toInt = if v.toInt < 0 then v.toInt + 40000 else v.toInt := by
  unfold wrapWord
  split
  · rw [WordArith.toInt_add_of_bounds v 40000#32 (by rw [toInt_hi]; omega) (by rw [toInt_hi]; omega), toInt_hi]
  · rfl

/-- A word in [-40000, 40000) wraps into [0, 39999]. -/
theorem wrap_range {v : BitVec 32} (hr : (-40000 : Int) ≤ v.toInt ∧ v.toInt < 40000) :
    0 ≤ (wrapWord v).toInt ∧ (wrapWord v).toInt ≤ 39999 := by
  rw [wrapWord_toInt hr]
  split <;> omega

/-- The wrapped word read unsigned is its signed reading, and is below 40000. -/
theorem wrap_toNat {v : BitVec 32} (hr : (-40000 : Int) ≤ v.toInt ∧ v.toInt < 40000) :
    ((wrapWord v).toNat : Int) = (wrapWord v).toInt ∧ (wrapWord v).toNat < 40000 := by
  obtain ⟨h0, h1⟩ := wrap_range hr
  have hc := BitVec.toInt_eq_toNat_cond (wrapWord v)
  have hl := (wrapWord v).isLt
  constructor
  · split at hc <;> omega
  · split at hc <;> omega

/-- The row a wrapped in-range index names is the wrapped word read unsigned. -/
theorem rowOf_val {v : BitVec 32} (hr : (-40000 : Int) ≤ v.toInt ∧ v.toInt < 40000) :
    (rowOf v (wrap_range hr)).val = (wrapWord v).toNat := by
  have h := (wrap_toNat hr).1
  show (wrapWord v).toInt.toNat = (wrapWord v).toNat
  omega

/-- The wrap as the programs print it — select (a < 0) (a + 40000) a, the constants broadcast scalars —
    read at an element. -/
theorem select_wrap {t : Shape} (hb0 hb1 : (⟨0, ![]⟩ : Shape).BroadcastsInDim t ![]) (a : IVec t 32) (e : t.Idx) :
    select (cmpi CmpIPredicate.slt a (broadcastInDim t ![] hb0 (constantI ⟨0, ![]⟩ 32 0#32)))
        (addi a (broadcastInDim t ![] hb1 (constantI ⟨0, ![]⟩ 32 40000#32))) a e = wrapWord (a e) := by
  have hz : (0#32 : BitVec 32).toInt = 0 := by decide
  have hc : IntOp.cmpi CmpIPredicate.slt (a e) 0#32 = 1#1 ↔ (a e).toInt < 0 := by rw [IntOp.cmpi_slt, hz]
  show Scalar.select (IntOp.cmpi CmpIPredicate.slt (a e) 0#32) (IntOp.addi (a e) 40000#32) (a e) = wrapWord (a e)
  unfold Scalar.select wrapWord IntOp.addi
  by_cases hneg : (a e).toInt < 0
  · have h1 : IntOp.cmpi CmpIPredicate.slt (a e) 0#32 = 1 := hc.2 hneg
    rw [if_pos hneg, if_pos h1]
  · have h1 : ¬IntOp.cmpi CmpIPredicate.slt (a e) 0#32 = 1 := fun h => hneg (hc.1 h)
    rw [if_neg hneg, if_neg h1]

end Cert.Bridge.PreIdx

end
-- ==== Proof.KRow.lean ====
/-
  What one block of edges leaves in a row of its 128-wide output, index by index over the extended reals.

  A block holds 6400 edges. Row `r` reads the source's and the destination's 64 features and 3 coordinates (two
  67-wide rows) and 16 edge attributes. Its first hidden layer is the sum of four partial products — source
  features, destination features, squared distance times one weight row, edge attributes — plus a bias; summing
  the 145 concatenated features against the 145 weight rows is the same number, because a sum over 145 places
  is the sum over its stretches 64 + 64 + 1 + 16. Two further 64-wide layers and a 64-to-1 product give the
  feature message and the coordinate coefficient; the row is [message (64) | coefficient · normalised
  difference (3) | zeros (61)]. Every block product accumulates from zero, so it is a plain sum of products;
  a change of float format is the identity here. No finiteness is used.
-/
import proofs.«409836_j4174708212115_3_alg».proof.Proof.Spec
import proofs.«409836_j4174708212115_3_alg».proof.Proof.Gen.KernelIdeal.Frame
import Idealize.ShloMosaic.Lib.ValueIdx
import Idealize.ShloMosaic.Lib.ValueLayout
import Idealize.ShloMosaic.Lib.StackMember
import Idealize.ShloMosaic.Lib.KernelVsHost
import Idealize.ShloMosaic.Lib.Pipeline.Value
import Idealize.ShloMosaic.PureOps.Ideal.Laws

noncomputable section

namespace Cert.Bridge.KRow

open Idealize.ShloMosaic Idealize.ShloMosaic.ValueIdx
open Cert.KernelIdeal Cert.KernelIdeal.Gen

/-! ## Loads of the two column stretches of a 67-wide block -/

/-- A load of the 64 feature columns of a 67-wide block reads the block there. -/
theorem ld_feat (x : Vec Ideal S6400x67 .f32) (r : Fin 6400) (k : Fin 64) :
    View.ld x r0_0 (ix2 r k) = x (ix2 r ⟨k.val, by omega⟩) := by
  show x (r0_0.idx (ix2 r k)) = _
  refine congrArg x (funext fun a => Fin.ext ?_)
  match a with
  | ⟨0, _⟩ => show 0 + 1 * r.val = r.val; omega
  | ⟨1, _⟩ => show 0 + 1 * k.val = k.val; omega

/-- A load of the 3 position columns of a 67-wide block reads the block 64 columns on. -/
theorem ld_pos (x : Vec Ideal S6400x67 .f32) (r : Fin 6400) (k : Fin 3) :
    View.ld x r0_1 (ix2 r k) = x (ix2 r ⟨64 + k.val, by omega⟩) := by
  show x (r0_1.idx (ix2 r k)) = _
  refine congrArg x (funext fun a => Fin.ext ?_)
  match a with
  | ⟨0, _⟩ => show 0 + 1 * r.val = r.val; omega
  | ⟨1, _⟩ => show 64 + 1 * k.val = 64 + k.val; omega

/-! ## The body's values at an entry -/

theorem pay1_apply (v2 v6 : Vec Ideal S6400x3 .f32) (r : Fin 6400) (k : Fin 3) :
    k0_pay1 (F := Ideal) v2 v6 (ix2 r k) = v2 (ix2 r k) - v6 (ix2 r k) := by
  unfold k0_pay1
  rw [shapeCast_self, shapeCast_self]
  rfl

/-- The squared distance of a row: the lane sum of the squared differences, kept as a column. -/
theorem pay2_apply (v2 v6 : Vec Ideal S6400x3 .f32) (r : Fin 6400) (z : Fin 1) :
    k0_pay2 (F := Ideal) v2 v6 (ix2 r z)
      = ∑ k : Fin 3, (v2 (ix2 r k) - v6 (ix2 r k)) * (v2 (ix2 r k) - v6 (ix2 r k)) := by
  unfold k0_pay2
  refine (shapeCast_apply _ _ (ix2 r z) (ix1 r) ?_).trans ?_
  · rw [Shape.rowMajor_val_one, Shape.rowMajor_val_two]
    show r.val = r.val * 1 + z.val
    omega
  · refine (Ideal.multiReduction_add_single _ 0x00000000#32 reduces_S6400x3_S6400 (.inl rfl) rfl (ix1 r)).trans ?_
    show ∑ k : Fin 3, (mulf (k0_pay1 (F := Ideal) v2 v6) (k0_pay1 (F := Ideal) v2 v6)) (reduces_S6400x3_S6400.lift (ix1 r) k) = _
    refine Finset.sum_congr rfl fun k _ => ?_
    have e : reduces_S6400x3_S6400.lift (ix1 r) k = ix2 r k := by
      funext a; apply Fin.ext
      match a with
      | ⟨0, _⟩ => rfl
      | ⟨1, _⟩ => rfl
    rw [e, mulf_apply, pay1_apply]

/-- A column broadcast along the lanes reads the column's entry of the row. -/
theorem bcast_col_apply {W : Nat} (v : FVec Ideal S6400x1 .f32) (h : S6400x1.Broadcasts ⟨2, ![6400, W]⟩)
    (r : Fin 6400) (j : Fin W) :
    broadcastTo ⟨2, ![6400, W]⟩ v h (ix2 r j) = v (ix2 r (0 : Fin 1)) := by
  refine broadcastTo_apply v h (ix2 r j) (ix2 r (0 : Fin 1)) fun a => ?_
  match a with
  | ⟨0, _⟩ => rfl
  | ⟨1, _⟩ => rfl

/-- The normalised difference of a row. -/
theorem pay3_apply (v2 v6 : Vec Ideal S6400x3 .f32) (r : Fin 6400) (k : Fin 3) :
    k0_pay3 (F := Ideal) v2 v6 (ix2 r k)
      = Ideal.div (v2 (ix2 r k) - v6 (ix2 r k))
          (Ideal.sqrt (∑ i : Fin 3, (v2 (ix2 r i) - v6 (ix2 r i)) * (v2 (ix2 r i) - v6 (ix2 r i)))
            + Ideal.ofBits .f32 0x0DA24260#32) := by
  unfold k0_pay3
  rw [divf_apply, pay1_apply]
  refine congrArg (Ideal.div _) ?_
  refine (bcast_col_apply (W := 3) _ broadcasts_S6400x1_S6400x3 r k).trans ?_
  rw [addf_apply]
  show Ideal.sqrt (k0_pay2 (F := Ideal) v2 v6 (ix2 r (0 : Fin 1))) + _ = _
  rw [pay2_apply]
  rfl

theorem pay4_eq (v30 : Vec Ideal S1x64 .f32) : k0_pay4 (F := Ideal) v30 = v30 := by
  unfold k0_pay4
  exact shapeCast_self _ _

/-- A block product into a zero accumulator, read at an entry: the sum over the contracted coordinate. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

theorem pay5_apply (v0 : Vec Ideal S6400x64 .f32) (v21 : Vec Ideal S64x64 .f32) (r : Fin 6400) (j : Fin 64) :
    k0_pay5 (F := Ideal) v0 v21 (ix2 r j) = ∑ c : Fin 64, v0 (ix2 r c) * v21 (ix2 c j) := by
  unfold k0_pay5
  rw [shapeCast_self, shapeCast_self]
  exact matmul_plain_zero_apply (m := 6400) (k := 64) (n := 64) none _ _ r j

theorem pay6_apply (v4 : Vec Ideal S6400x64 .f32) (v24 : Vec Ideal S64x64 .f32) (r : Fin 6400) (j : Fin 64) :
    k0_pay6 (F := Ideal) v4 v24 (ix2 r j) = ∑ c : Fin 64, v4 (ix2 r c) * v24 (ix2 c j) := by
  unfold k0_pay6
  rw [shapeCast_self, shapeCast_self]
  exact matmul_plain_zero_apply (m := 6400) (k := 64) (n := 64) none _ _ r j

theorem pay7_apply (v19 : Vec Ideal S6400x16 .bf16) (v27 : Vec Ideal S16x64 .f32) (r : Fin 6400) (j : Fin 64) :
    k0_pay7 (F := Ideal) v19 v27 (ix2 r j) = ∑ c : Fin 16, v19 (ix2 r c) * v27 (ix2 c j) := by
  unfold k0_pay7
  rw [shapeCast_self, shapeCast_self]
  exact matmul_plain_zero_apply (m := 6400) (k := 16) (n := 64) none _ _ r j

theorem pay8_apply (v2 v6 : Vec Ideal S6400x3 .f32) (r : Fin 6400) (j : Fin 64) :
    k0_pay8 (F := Ideal) v2 v6 (ix2 r j)
      = ∑ k : Fin 3, (v2 (ix2 r k) - v6 (ix2 r k)) * (v2 (ix2 r k) - v6 (ix2 r k)) := by
  unfold k0_pay8
  refine (bcast_col_apply (W := 64) _ broadcasts_S6400x1_S6400x64 r j).trans ?_
  exact pay2_apply v2 v6 r 0

/-! ## The layers of the block's network as whole vectors -/

/-- `silu` of a row's product with a weight column plus a bias. -/
def dense (x : Fin 64 → EReal) (w : Fin 64 → Fin 64 → EReal) (b : Fin 64 → EReal) (j : Fin 64) : EReal :=
  Spec.silu ((∑ k : Fin 64, x k * w k j) + b j)

/-- The first hidden layer from its four partial products. -/
def hidV (v31 : FVec Ideal S1x64 .f32) (v32 v33 v34 v35 : FVec Ideal S6400x64 .f32) (v41 : Vec Ideal S1x64 .f32) :
    FVec Ideal S6400x64 .f32 :=
  mulf (addf (addf (addf (addf v32 v33) (mulf v35 (broadcastTo S6400x64 v31 broadcasts_S1x64_S6400x64))) v34)
      (broadcastTo S6400x64 (shapeCast S1x64 v41 shapeCasts_S1x64_S1x64) broadcasts_S1x64_S6400x64))
    (logistic (addf (addf (addf (addf v32 v33) (mulf v35 (broadcastTo S6400x64 v31 broadcasts_S1x64_S6400x64))) v34)
      (broadcastTo S6400x64 (shapeCast S1x64 v41 shapeCasts_S1x64_S1x64) broadcasts_S1x64_S6400x64)))

/-- A 64-to-64 layer of the block. -/
def layerV (x : FVec Ideal S6400x64 .f32) (w : Vec Ideal S64x64 .f32) (b : Vec Ideal S1x64 .f32) : FVec Ideal S6400x64 .f32 :=
  mulf (addf (matmul dot_S6400x64_S64x64_S6400x64_1_0_0_1_n_n none (truncf .bf16 x bitsLt_bf16_f32)
        (truncf .bf16 (shapeCast S64x64 w shapeCasts_S64x64_S64x64) bitsLt_bf16_f32) (constant S6400x64 .f32 0x00000000#32))
      (broadcastTo S6400x64 (shapeCast S1x64 b shapeCasts_S1x64_S1x64) broadcasts_S1x64_S6400x64))
    (logistic (addf (matmul dot_S6400x64_S64x64_S6400x64_1_0_0_1_n_n none (truncf .bf16 x bitsLt_bf16_f32)
        (truncf .bf16 (shapeCast S64x64 w shapeCasts_S64x64_S64x64) bitsLt_bf16_f32) (constant S6400x64 .f32 0x00000000#32))
      (broadcastTo S6400x64 (shapeCast S1x64 b shapeCasts_S1x64_S1x64) broadcasts_S1x64_S6400x64)))

/-- The coordinate coefficient as a column. -/
def coefV (x : FVec Ideal S6400x64 .f32) (w : Vec Ideal S64x1 .f32) : FVec Ideal S6400x1 .f32 :=
  matmul dot_S6400x64_S64x1_S6400x1_1_0_0_1_n_n none (truncf .bf16 x bitsLt_bf16_f32)
    (truncf .bf16 (shapeCast S64x1 w shapeCasts_S64x1_S64x1) bitsLt_bf16_f32) (constant S6400x1 .f32 0x00000000#32)

theorem pay9_eq (v16 : FVec Ideal S6400x3 .f32) (v31 : FVec Ideal S1x64 .f32) (v32 v33 v34 v35 : FVec Ideal S6400x64 .f32)
    (v41 : Vec Ideal S1x64 .f32) (v48 : Vec Ideal S64x64 .f32) (v52 : Vec Ideal S1x64 .f32) (v59 : Vec Ideal S64x64 .f32)
    (v63 : Vec Ideal S1x64 .f32) (v70 : Vec Ideal S64x1 .f32) :
    k0_pay9 (F := Ideal) v16 v31 v32 v33 v34 v35 v41 v48 v52 v59 v63 v70
      = concatenate S6400x128 1
          [⟨S6400x64, layerV (hidV v31 v32 v33 v34 v35 v41) v48 v52⟩,
           ⟨S6400x3, mulf (broadcastTo S6400x3 (coefV (layerV (layerV (hidV v31 v32 v33 v34 v35 v41) v48 v52) v59 v63) v70)
              broadcasts_S6400x1_S6400x3) v16⟩,
           ⟨S6400x61, broadcast S6400x61 (Scalar.ofBits (F := Ideal) .f32 0x00000000#32)⟩]
          concatenates_S6400x64_S6400x3_S6400x61_S6400x128_d1 := rfl

theorem row_bcast_apply (v : Vec Ideal S1x64 .f32) (r : Fin 6400) (j : Fin 64) :
    broadcastTo S6400x64 (shapeCast S1x64 v shapeCasts_S1x64_S1x64) broadcasts_S1x64_S6400x64 (ix2 r j) = v (ix2 (0 : Fin 1) j) := by
  rw [shapeCast_self]
  exact broadcastTo_1b_ab_apply (a := 6400) (b := 64) v broadcasts_S1x64_S6400x64 r j

theorem layerV_apply (x : FVec Ideal S6400x64 .f32) (w : Vec Ideal S64x64 .f32) (b : Vec Ideal S1x64 .f32) (r : Fin 6400) (j : Fin 64) :
    layerV x w b (ix2 r j) = dense (fun k => x (ix2 r k)) (fun k j => w (ix2 k j)) (fun j => b (ix2 (0 : Fin 1) j)) j := by
  have hz : addf (matmul dot_S6400x64_S64x64_S6400x64_1_0_0_1_n_n none (truncf .bf16 x bitsLt_bf16_f32)
        (truncf .bf16 (shapeCast S64x64 w shapeCasts_S64x64_S64x64) bitsLt_bf16_f32) (constant (F := Ideal) S6400x64 .f32 0x00000000#32))
      (broadcastTo S6400x64 (shapeCast S1x64 b shapeCasts_S1x64_S1x64) broadcasts_S1x64_S6400x64) (ix2 r j)
      = (∑ k : Fin 64, x (ix2 r k) * w (ix2 k j)) + b (ix2 (0 : Fin 1) j) := by
    rw [addf_apply, row_bcast_apply, shapeCast_self]
    refine congrArg (· + _) ?_
    exact matmul_plain_zero_apply (m := 6400) (k := 64) (n := 64) none _ _ r j
  show _ * Ideal.logistic _ = _
  unfold dense Spec.silu
  rw [← hz]

/-- The first hidden layer at an entry. -/
theorem hidV_apply (v31 : FVec Ideal S1x64 .f32) (v32 v33 v34 v35 : FVec Ideal S6400x64 .f32) (v41 : Vec Ideal S1x64 .f32)
    (r : Fin 6400) (j : Fin 64) :
    hidV v31 v32 v33 v34 v35 v41 (ix2 r j)
      = Spec.silu (v32 (ix2 r j) + v33 (ix2 r j) + v35 (ix2 r j) * v31 (ix2 (0 : Fin 1) j) + v34 (ix2 r j)
          + v41 (ix2 (0 : Fin 1) j)) := by
  have hz : addf (addf (addf (addf v32 v33) (mulf v35 (broadcastTo S6400x64 v31 broadcasts_S1x64_S6400x64))) v34)
      (broadcastTo S6400x64 (shapeCast S1x64 v41 shapeCasts_S1x64_S1x64) broadcasts_S1x64_S6400x64) (ix2 r j)
      = v32 (ix2 r j) + v33 (ix2 r j) + v35 (ix2 r j) * v31 (ix2 (0 : Fin 1) j) + v34 (ix2 r j)
          + v41 (ix2 (0 : Fin 1) j) := by
    rw [addf_apply, row_bcast_apply, addf_apply, addf_apply, addf_apply, mulf_apply]
    rw [broadcastTo_1b_ab_apply (a := 6400) (b := 64) v31 broadcasts_S1x64_S6400x64 r j]
  show _ * Ideal.logistic _ = _
  unfold Spec.silu
  rw [← hz]

/-- The coefficient column at a row. -/
theorem coefV_apply (x : FVec Ideal S6400x64 .f32) (w : Vec Ideal S64x1 .f32) (r : Fin 6400) (z : Fin 1) :
    coefV x w (ix2 r z) = ∑ k : Fin 64, x (ix2 r k) * w (ix2 k z) := by
  unfold coefV
  rw [shapeCast_self]
  exact matmul_plain_zero_apply (m := 6400) (k := 64) (n := 1) none _ _ r z

/-- The output block at an entry of its first 64 columns: the feature message. -/
theorem pay9_apply_msg (v16 : FVec Ideal S6400x3 .f32) (v31 : FVec Ideal S1x64 .f32) (v32 v33 v34 v35 : FVec Ideal S6400x64 .f32)
    (v41 : Vec Ideal S1x64 .f32) (v48 : Vec Ideal S64x64 .f32) (v52 : Vec Ideal S1x64 .f32) (v59 : Vec Ideal S64x64 .f32)
    (v63 : Vec Ideal S1x64 .f32) (v70 : Vec Ideal S64x1 .f32) (r : Fin 6400) (j : Fin 128) (hj : j.val < 64) :
    k0_pay9 (F := Ideal) v16 v31 v32 v33 v34 v35 v41 v48 v52 v59 v63 v70 (ix2 r j)
      = layerV (hidV v31 v32 v33 v34 v35 v41) v48 v52 (ix2 r ⟨j.val, hj⟩) := by
  rw [pay9_eq]
  refine concatenate_apply_piece (1 : Fin S6400x128.rank) _ _ (ix2 r j) 0 (by show (0 : Nat) < 3; omega) S6400x64 _ rfl rfl 0 rfl
    (ix2 r ⟨j.val, hj⟩) (fun b hb => ?_) ?_
  · match b with
    | ⟨0, _⟩ => rfl
    | ⟨1, _⟩ => exact absurd rfl hb
  · show 0 + j.val = j.val
    omega

/-- … of its next 3 columns: the coordinate message. -/
theorem pay9_apply_pos (v16 : FVec Ideal S6400x3 .f32) (v31 : FVec Ideal S1x64 .f32) (v32 v33 v34 v35 : FVec Ideal S6400x64 .f32)
    (v41 : Vec Ideal S1x64 .f32) (v48 : Vec Ideal S64x64 .f32) (v52 : Vec Ideal S1x64 .f32) (v59 : Vec Ideal S64x64 .f32)
    (v63 : Vec Ideal S1x64 .f32) (v70 : Vec Ideal S64x1 .f32) (r : Fin 6400) (j : Fin 128) (hj : 64 ≤ j.val) (hj2 : j.val < 67) :
    k0_pay9 (F := Ideal) v16 v31 v32 v33 v34 v35 v41 v48 v52 v59 v63 v70 (ix2 r j)
      = coefV (layerV (layerV (hidV v31 v32 v33 v34 v35 v41) v48 v52) v59 v63) v70 (ix2 r (0 : Fin 1))
          * v16 (ix2 r ⟨j.val - 64, by omega⟩) := by
  rw [pay9_eq]
  refine (concatenate_apply_piece (1 : Fin S6400x128.rank) _ _ (ix2 r j) 1 (by show (1 : Nat) < 3; omega) S6400x3 _ rfl rfl 64 rfl
    (ix2 r ⟨j.val - 64, by omega⟩) (fun b hb => ?_) ?_).trans ?_
  · match b with
    | ⟨0, _⟩ => rfl
    | ⟨1, _⟩ => exact absurd rfl hb
  · show 64 + (j.val - 64) = j.val
    omega
  · rw [mulf_apply, bcast_col_apply (W := 3) _ broadcasts_S6400x1_S6400x3 r]

/-- … and of its last 61 columns: zero. -/
theorem pay9_apply_pad (v16 : FVec Ideal S6400x3 .f32) (v31 : FVec Ideal S1x64 .f32) (v32 v33 v34 v35 : FVec Ideal S6400x64 .f32)
    (v41 : Vec Ideal S1x64 .f32) (v48 : Vec Ideal S64x64 .f32) (v52 : Vec Ideal S1x64 .f32) (v59 : Vec Ideal S64x64 .f32)
    (v63 : Vec Ideal S1x64 .f32) (v70 : Vec Ideal S64x1 .f32) (r : Fin 6400) (j : Fin 128) (hj : 67 ≤ j.val) :
    k0_pay9 (F := Ideal) v16 v31 v32 v33 v34 v35 v41 v48 v52 v59 v63 v70 (ix2 r j) = 0 := by
  rw [pay9_eq]
  refine (concatenate_apply_piece (1 : Fin S6400x128.rank) _ _ (ix2 r j) 2 (by show (2 : Nat) < 3; omega) S6400x61 _ rfl rfl 67 rfl
    (ix2 r ⟨j.val - 67, by omega⟩) (fun b hb => ?_) ?_).trans ?_
  · match b with
    | ⟨0, _⟩ => rfl
    | ⟨1, _⟩ => exact absurd rfl hb
  · show 67 + (j.val - 67) = j.val
    omega
  · exact Ideal.ofBits_zero_f32

/-! ## The 145 features as four stretches -/

/-- A sum over 145 places is the sum over its four stretches 64 + 64 + 1 + 16. -/
theorem sum145 {M : Type} [AddCommMonoid M] (g : Fin 145 → M) :
    ∑ k, g k = (∑ k : Fin 64, g ⟨k.val, by omega⟩) + (∑ k : Fin 64, g ⟨64 + k.val, by omega⟩) + g ⟨128, by omega⟩
      + ∑ k : Fin 16, g ⟨129 + k.val, by omega⟩ := by
  have h : ∑ k : Fin 145, g k = ∑ k : Fin (64 + 64 + 1 + 16), g k := rfl
  rw [h, Fin.sum_univ_add, Fin.sum_univ_add, Fin.sum_univ_add, Fin.sum_univ_one]
  rfl

theorem feat_lo (hs ht : Fin 64 → EReal) (rad : EReal) (a : Fin 16 → EReal) (c : Fin 64) (h : c.val < 145) :
    Spec.feat hs ht rad a ⟨c.val, h⟩ = hs c := by
  unfold Spec.feat
  rw [dif_pos c.isLt]

theorem feat_mid (hs ht : Fin 64 → EReal) (rad : EReal) (a : Fin 16 → EReal) (c : Fin 64) (h : 64 + c.val < 145) :
    Spec.feat hs ht rad a ⟨64 + c.val, h⟩ = ht c := by
  unfold Spec.feat
  rw [dif_neg (show ¬ 64 + c.val < 64 by omega), dif_pos (show 64 + c.val < 128 by omega)]
  exact congrArg ht (Fin.ext (by show 64 + c.val - 64 = c.val; omega))

theorem feat_rad (hs ht : Fin 64 → EReal) (rad : EReal) (a : Fin 16 → EReal) (h : 128 < 145) :
    Spec.feat hs ht rad a ⟨128, h⟩ = rad := by
  unfold Spec.feat
  rw [dif_neg (show ¬ 128 < 64 by omega), dif_neg (show ¬ 128 < 128 by omega), dif_pos (show 128 < 129 by omega)]

theorem feat_hi (hs ht : Fin 64 → EReal) (rad : EReal) (a : Fin 16 → EReal) (c : Fin 16) (h : 129 + c.val < 145) :
    Spec.feat hs ht rad a ⟨129 + c.val, h⟩ = a c := by
  unfold Spec.feat
  rw [dif_neg (show ¬ 129 + c.val < 64 by omega), dif_neg (show ¬ 129 + c.val < 128 by omega),
    dif_neg (show ¬ 129 + c.val < 129 by omega)]
  exact congrArg a (Fin.ext (by show 129 + c.val - 129 = c.val; omega))

/-! ## The block's parameters and the packed row -/

/-- The edge network's parameters as the block's weight operands hold them: the first layer's 145 rows are the rows of
    the source-feature, destination-feature, squared-distance and edge-attribute weights, in that order. -/
def lpK (x3 x4 : Vec Ideal S64x64 .f32) (x5 : Vec Ideal S1x64 .f32) (x6 : Vec Ideal S16x64 .f32) (x7 : Vec Ideal S1x64 .f32)
    (x8 : Vec Ideal S64x64 .f32) (x9 : Vec Ideal S1x64 .f32) (x10 : Vec Ideal S64x64 .f32) (x11 : Vec Ideal S1x64 .f32)
    (x12 : Vec Ideal S64x1 .f32) : Spec.LP where
  w1 k j :=
    if h1 : k.val < 64 then x3 (ix2 (⟨k.val, h1⟩ : Fin 64) j)
    else if h2 : k.val < 128 then x4 (ix2 (⟨k.val - 64, by omega⟩ : Fin 64) j)
    else if h3 : k.val < 129 then x5 (ix2 (0 : Fin 1) j)
    else x6 (ix2 (⟨k.val - 129, by have := k.isLt; omega⟩ : Fin 16) j)
  b1 j := x7 (ix2 (0 : Fin 1) j)
  w2 k j := x8 (ix2 k j)
  b2 j := x9 (ix2 (0 : Fin 1) j)
  c1 k j := x10 (ix2 k j)
  cb1 j := x11 (ix2 (0 : Fin 1) j)
  c2 k := x12 (ix2 k (0 : Fin 1))

/-- A row of the output block: the feature message, the coordinate message, then zeros. -/
def packedRow (P : Spec.LP) (hs ht : Fin 64 → EReal) (xs xt : Fin 3 → EReal) (a : Fin 16 → EReal) (j : Fin 128) : EReal :=
  if h : j.val < 64 then Spec.msgH P hs ht xs xt a ⟨j.val, h⟩
  else if h2 : j.val < 67 then Spec.msgX P hs ht xs xt a ⟨j.val - 64, by omega⟩
  else 0

/-- The first layer's weight rows are the same four stretches. -/
theorem lpK_w1 (x3 x4 : Vec Ideal S64x64 .f32) (x5 : Vec Ideal S1x64 .f32) (x6 : Vec Ideal S16x64 .f32) (x7 : Vec Ideal S1x64 .f32)
    (x8 : Vec Ideal S64x64 .f32) (x9 : Vec Ideal S1x64 .f32) (x10 : Vec Ideal S64x64 .f32) (x11 : Vec Ideal S1x64 .f32)
    (x12 : Vec Ideal S64x1 .f32) (k : Fin 145) (j : Fin 64) :
    (lpK x3 x4 x5 x6 x7 x8 x9 x10 x11 x12).w1 k j
      = Spec.feat (fun c => x3 (ix2 c j)) (fun c => x4 (ix2 c j)) (x5 (ix2 (0 : Fin 1) j)) (fun c => x6 (ix2 c j)) k := rfl

private theorem hz2 : (![0, 0] : Fin 2 → ℕ) = fun _ => 0 := by
  funext a
  match a with
  | ⟨0, _⟩ => rfl
  | ⟨1, _⟩ => rfl

/-- The first hidden layer of a row, from the block's operands. -/
theorem hid_row (x0 x1 : Vec Ideal S6400x67 .f32) (x2 : Vec Ideal S6400x16 .bf16) (x3 x4 : Vec Ideal S64x64 .f32)
    (x5 : Vec Ideal S1x64 .f32) (x6 : Vec Ideal S16x64 .f32) (x7 : Vec Ideal S1x64 .f32) (P : Spec.LP)
    (hw : ∀ k j, P.w1 k j = Spec.feat (fun c => x3 (ix2 c j)) (fun c => x4 (ix2 c j)) (x5 (ix2 (0 : Fin 1) j)) (fun c => x6 (ix2 c j)) k)
    (hb : ∀ j, P.b1 j = x7 (ix2 (0 : Fin 1) j)) (r : Fin 6400) (j : Fin 64) :
    hidV (k0_pay4 (F := Ideal) x5) (k0_pay5 (F := Ideal) (View.ld x0 r0_0) x3) (k0_pay6 (F := Ideal) (View.ld x1 r0_0) x4)
        (k0_pay7 (F := Ideal) x2 x6) (k0_pay8 (F := Ideal) (View.ld x0 r0_1) (View.ld x1 r0_1)) x7 (ix2 r j)
      = Spec.hid1 P (fun k => x0 (ix2 r ⟨k.val, by omega⟩)) (fun k => x1 (ix2 r ⟨k.val, by omega⟩))
          (fun k => x0 (ix2 r ⟨64 + k.val, by omega⟩)) (fun k => x1 (ix2 r ⟨64 + k.val, by omega⟩)) (fun k => x2 (ix2 r k)) j := by
  rw [hidV_apply, pay4_eq, pay5_apply, pay6_apply, pay7_apply, pay8_apply]
  have e5 : ∑ c : Fin 64, View.ld x0 r0_0 (ix2 r c) * x3 (ix2 c j)
      = ∑ c : Fin 64, x0 (ix2 r ⟨c.val, by omega⟩) * x3 (ix2 c j) :=
    Finset.sum_congr rfl fun c _ => by rw [ld_feat]
  have e6 : ∑ c : Fin 64, View.ld x1 r0_0 (ix2 r c) * x4 (ix2 c j)
      = ∑ c : Fin 64, x1 (ix2 r ⟨c.val, by omega⟩) * x4 (ix2 c j) :=
    Finset.sum_congr rfl fun c _ => by rw [ld_feat]
  have e8 : ∑ k : Fin 3, (View.ld x0 r0_1 (ix2 r k) - View.ld x1 r0_1 (ix2 r k)) * (View.ld x0 r0_1 (ix2 r k) - View.ld x1 r0_1 (ix2 r k))
      = ∑ k : Fin 3, (x0 (ix2 r ⟨64 + k.val, by omega⟩) - x1 (ix2 r ⟨64 + k.val, by omega⟩))
          * (x0 (ix2 r ⟨64 + k.val, by omega⟩) - x1 (ix2 r ⟨64 + k.val, by omega⟩)) :=
    Finset.sum_congr rfl fun k _ => by rw [ld_pos, ld_pos]
  rw [e5, e6, e8]
  unfold Spec.hid1
  rw [sum145, hb]
  simp only [hw, feat_lo, feat_mid, feat_rad, feat_hi]
  rfl

/-- The squared distance of a row, from the two loaded position stretches. -/
theorem sq_ld (x0 x1 : Vec Ideal S6400x67 .f32) (r : Fin 6400) :
    ∑ k : Fin 3, (View.ld x0 r0_1 (ix2 r k) - View.ld x1 r0_1 (ix2 r k)) * (View.ld x0 r0_1 (ix2 r k) - View.ld x1 r0_1 (ix2 r k))
      = Spec.radial (fun k => x0 (ix2 r ⟨64 + k.val, by omega⟩)) (fun k => x1 (ix2 r ⟨64 + k.val, by omega⟩)) :=
  Finset.sum_congr rfl fun k _ => by rw [ld_pos, ld_pos]; rfl

/-- The output block's row, once its first hidden layer, its weights and its normalised difference are those of the
    specification. -/
theorem pay9_row (v16 : FVec Ideal S6400x3 .f32) (v31 : FVec Ideal S1x64 .f32) (v32 v33 v34 v35 : FVec Ideal S6400x64 .f32)
    (v41 : Vec Ideal S1x64 .f32) (v48 : Vec Ideal S64x64 .f32) (v52 : Vec Ideal S1x64 .f32) (v59 : Vec Ideal S64x64 .f32)
    (v63 : Vec Ideal S1x64 .f32) (v70 : Vec Ideal S64x1 .f32) (P : Spec.LP) (hs ht : Fin 64 → EReal) (xs xt : Fin 3 → EReal)
    (a : Fin 16 → EReal) (r : Fin 6400)
    (hH : ∀ k, hidV v31 v32 v33 v34 v35 v41 (ix2 r k) = Spec.hid1 P hs ht xs xt a k)
    (hw2 : ∀ k j, v48 (ix2 k j) = P.w2 k j) (hb2 : ∀ j, v52 (ix2 (0 : Fin 1) j) = P.b2 j)
    (hc1 : ∀ k j, v59 (ix2 k j) = P.c1 k j) (hcb1 : ∀ j, v63 (ix2 (0 : Fin 1) j) = P.cb1 j)
    (hc2 : ∀ k, v70 (ix2 k (0 : Fin 1)) = P.c2 k)
    (hu : ∀ k : Fin 3, v16 (ix2 r k) = Spec.unitDiff xs xt k) (j : Fin 128) :
    k0_pay9 (F := Ideal) v16 v31 v32 v33 v34 v35 v41 v48 v52 v59 v63 v70 (ix2 r j) = packedRow P hs ht xs xt a j := by
  have hM : ∀ k : Fin 64, layerV (hidV v31 v32 v33 v34 v35 v41) v48 v52 (ix2 r k) = Spec.msgH P hs ht xs xt a k := by
    intro k
    rw [layerV_apply]
    unfold dense Spec.msgH
    simp only [hH, hw2, hb2]
  have hH3 : ∀ k : Fin 64, layerV (layerV (hidV v31 v32 v33 v34 v35 v41) v48 v52) v59 v63 (ix2 r k)
      = Spec.hid3 P hs ht xs xt a k := by
    intro k
    rw [layerV_apply]
    unfold dense Spec.hid3
    simp only [hM, hc1, hcb1]
  have hC : coefV (layerV (layerV (hidV v31 v32 v33 v34 v35 v41) v48 v52) v59 v63) v70 (ix2 r (0 : Fin 1))
      = Spec.coef P hs ht xs xt a := by
    rw [coefV_apply]
    unfold Spec.coef
    simp only [hH3, hc2]
  unfold packedRow
  by_cases hj : j.val < 64
  · rw [dif_pos hj, pay9_apply_msg _ _ _ _ _ _ _ _ _ _ _ _ r j hj, hM]
  · by_cases hj2 : j.val < 67
    · rw [dif_neg hj, dif_pos hj2, pay9_apply_pos _ _ _ _ _ _ _ _ _ _ _ _ r j (by omega) hj2, hC, hu]
      rfl
    · rw [dif_neg hj, dif_neg hj2, pay9_apply_pad _ _ _ _ _ _ _ _ _ _ _ _ r j (by omega)]

/-- The normalised difference of a row, from the two loaded position stretches. -/
theorem unit_ld (x0 x1 : Vec Ideal S6400x67 .f32) (r : Fin 6400) (k : Fin 3) :
    k0_pay3 (F := Ideal) (View.ld x0 r0_1) (View.ld x1 r0_1) (ix2 r k)
      = Spec.unitDiff (fun k => x0 (ix2 r ⟨64 + k.val, by omega⟩)) (fun k => x1 (ix2 r ⟨64 + k.val, by omega⟩)) k := by
  rw [pay3_apply, sq_ld, ld_pos, ld_pos]
  rfl

/-- **A row of the first region's output block.** -/
theorem out0_13_row (x0 x1 : Vec Ideal S6400x67 .f32) (x2 : Vec Ideal S6400x16 .bf16) (x3 x4 : Vec Ideal S64x64 .f32)
    (x5 : Vec Ideal S1x64 .f32) (x6 : Vec Ideal S16x64 .f32) (x7 : Vec Ideal S1x64 .f32) (x8 : Vec Ideal S64x64 .f32)
    (x9 : Vec Ideal S1x64 .f32) (x10 : Vec Ideal S64x64 .f32) (x11 : Vec Ideal S1x64 .f32) (x12 : Vec Ideal S64x1 .f32)
    (r : Fin 6400) (j : Fin 128) :
    out0_13 (F := Ideal) x0 x1 x2 x3 x4 x5 x6 x7 x8 x9 x10 x11 x12 (ix2 r j)
      = packedRow (lpK x3 x4 x5 x6 x7 x8 x9 x10 x11 x12)
          (fun k => x0 (ix2 r ⟨k.val, by omega⟩)) (fun k => x1 (ix2 r ⟨k.val, by omega⟩))
          (fun k => x0 (ix2 r ⟨64 + k.val, by omega⟩)) (fun k => x1 (ix2 r ⟨64 + k.val, by omega⟩))
          (fun k => x2 (ix2 r k)) j := by
  unfold out0_13
  rw [View.canon_unit_zero hz2]
  rw [View.ld_unit_zero (S := S1x64) hz2 _ x5, View.ld_unit_zero (S := S64x64) hz2 _ x3, View.ld_unit_zero (S := S64x64) hz2 _ x4,
    View.ld_unit_zero (S := S6400x16) hz2 _ x2, View.ld_unit_zero (S := S16x64) hz2 _ x6, View.ld_unit_zero (S := S1x64) hz2 _ x7,
    View.ld_unit_zero (S := S64x64) hz2 _ x8, View.ld_unit_zero (S := S1x64) hz2 _ x9, View.ld_unit_zero (S := S64x64) hz2 _ x10,
    View.ld_unit_zero (S := S1x64) hz2 _ x11, View.ld_unit_zero (S := S64x1) hz2 _ x12]
  exact pay9_row _ _ _ _ _ _ _ _ _ _ _ _ (lpK x3 x4 x5 x6 x7 x8 x9 x10 x11 x12) _ _ _ _ _ r
    (hid_row x0 x1 x2 x3 x4 x5 x6 x7 _ (lpK_w1 x3 x4 x5 x6 x7 x8 x9 x10 x11 x12) (fun _ => rfl) r)
    (fun _ _ => rfl) (fun _ => rfl) (fun _ _ => rfl) (fun _ => rfl) (fun _ => rfl) (unit_ld x0 x1 r) j

/-- The second region's body is the first's. -/
theorem out1_13_eq : @out1_13 Ideal _ = @out0_13 Ideal _ := rfl

/-- **A row of the second region's output block.** -/
theorem out1_13_row (x0 x1 : Vec Ideal S6400x67 .f32) (x2 : Vec Ideal S6400x16 .bf16) (x3 x4 : Vec Ideal S64x64 .f32)
    (x5 : Vec Ideal S1x64 .f32) (x6 : Vec Ideal S16x64 .f32) (x7 : Vec Ideal S1x64 .f32) (x8 : Vec Ideal S64x64 .f32)
    (x9 : Vec Ideal S1x64 .f32) (x10 : Vec Ideal S64x64 .f32) (x11 : Vec Ideal S1x64 .f32) (x12 : Vec Ideal S64x1 .f32)
    (r : Fin 6400) (j : Fin 128) :
    out1_13 (F := Ideal) x0 x1 x2 x3 x4 x5 x6 x7 x8 x9 x10 x11 x12 (ix2 r j)
      = packedRow (lpK x3 x4 x5 x6 x7 x8 x9 x10 x11 x12)
          (fun k => x0 (ix2 r ⟨k.val, by omega⟩)) (fun k => x1 (ix2 r ⟨k.val, by omega⟩))
          (fun k => x0 (ix2 r ⟨64 + k.val, by omega⟩)) (fun k => x1 (ix2 r ⟨64 + k.val, by omega⟩))
          (fun k => x2 (ix2 r k)) j := by
  rw [out1_13_eq]
  exact out0_13_row x0 x1 x2 x3 x4 x5 x6 x7 x8 x9 x10 x11 x12 r j

end Cert.Bridge.KRow

end
-- ==== Proof.KEdge.lean ====
/-
  The program's edge stage, read at an element, is the specification's sums.

  Around the per-block edge computation the program does four things on whole arrays, and this file reads each
  at one element over the extended reals.
    * It builds the node table [h | x] and takes its rows at the source and at the destination index vectors,
      a negative index first moved up by 40000; when the moved word lies in 0 … 39999 the row taken is the
      table's row that word names, so its first 64 entries are that node's features and the next 3 its
      coordinates.
    * It adds the 128-wide packed per-edge rows into zeros at each edge's destination word and keeps the
      columns 0 … 63 and 64 … 66: at node n these are the sums, over the edges whose destination word read
      signed is n, of the edge's entries in those columns.
    * Given that every packed row is [feature message (64) | coordinate message (3) | zeros] of the gathered
      rows, the kept columns are the specification's sums of the feature messages and of the coordinate
      messages over the edges into n.
    * It slices each stacked parameter into the layer's pieces; put together index by index, the pieces are
      the layer's parameters as the specification reads them off the stacked arrays.
  No finiteness is used anywhere.
-/
import proofs.«409836_j4174708212115_3_alg».proof.Proof.Tail
import proofs.«409836_j4174708212115_3_alg».proof.Proof.Spec
import proofs.«409836_j4174708212115_3_alg».proof.Proof.SpecParams
import proofs.«409836_j4174708212115_3_alg».proof.Proof.LibGatherScatter
import proofs.«409836_j4174708212115_3_alg».proof.Proof.PreIdx
import proofs.«409836_j4174708212115_3_alg».proof.Proof.KRow
import Idealize.ShloMosaic.Lib.ValueIdx
import Idealize.ShloMosaic.Lib.ValueLayout
import Idealize.ShloMosaic.Lib.IdealHost
import Idealize.ShloMosaic.Lib.ReduceAll
import Idealize.ShloMosaic.Lib.Affine
import Idealize.ShloMosaic.Lib.Pipeline.Value
import Idealize.ShloMosaic.PureOps.Reduce
import Idealize.ShloMosaic.PureOps.Ideal.Laws

open scoped BigOperators

noncomputable section

namespace Cert.Bridge.KEdge

open Idealize.ShloMosaic Idealize.ShloMosaic.ValueIdx
open Cert.Bridge
open Cert.Bridge.Tail

/-! # The summed packed messages -/

/-- A vector of words spread into a one-column array reads, at row `e`, the vector's word `e`. -/
theorem idxCol_apply {w : ℕ} (v : IVec S640000 w) (e : Fin 640000) (u : Fin 1) :
    broadcastInDim S640000x1 ![0] bcast_S640000_S640000x1_0 v (ix2 e u) = v (ix1 e) :=
  broadcastInDim_apply _ _ v _ (ix1 e) (fun a => by
    match a with
    | ⟨0, _⟩ =>
      show e.val = if (640000 : ℕ) = 1 then 0 else e.val
      rw [if_neg (by decide)])

/-- The summed packed messages at node `n`, column `c`: the sum of the edges' entries in column `c` over the edges
    whose destination word, read signed, is `n`. -/
theorem sumPacked_at (dst : IVec S640000 32) (p : FVec Ideal S640000x128 .f32) (n : Fin 40000) (c : Fin 128) :
    sumPacked (F := Ideal) dst p (ix2 n c)
      = ∑ e ∈ Finset.univ.filter (fun e : Fin 640000 => (dst (ix1 e)).toInt = (n.val : Int)), p (ix2 e c) := by
  unfold sumPacked
  dsimp only
  rw [GS.scatterAdd_apply _ rfl rfl rfl rfl]
  rw [broadcastInDim_scalar_apply, constant_apply, Ideal.ofBits_zero_f32, zero_add]
  exact Finset.sum_congr (Finset.filter_congr fun e _ => by rw [idxCol_apply dst e 0]) (fun _ _ => rfl)

/-- The feature part of the summed packed messages is the specification's sum of the first 64 columns. -/
theorem featPart_sumPacked_at (dst : IVec S640000 32) (p : FVec Ideal S640000x128 .f32) (n : Fin 40000) (j : Fin 64) :
    featPart (sumPacked (F := Ideal) dst p) (ix2 n j)
      = Spec.agg (fun e => dst (ix1 e)) (fun e (j : Fin 64) => p (ix2 e ⟨j.val, by omega⟩)) n j := by
  unfold featPart
  rw [slice2_axis1_apply 0 _ _ n j ⟨j.val, by omega⟩ (by simp)]
  exact sumPacked_at dst p n _

/-- The coordinate part of the summed packed messages is the specification's sum of the columns 64 … 66. -/
theorem coordPart_sumPacked_at (dst : IVec S640000 32) (p : FVec Ideal S640000x128 .f32) (n : Fin 40000) (k : Fin 3) :
    coordPart (sumPacked (F := Ideal) dst p) (ix2 n k)
      = Spec.agg (fun e => dst (ix1 e)) (fun e (k : Fin 3) => p (ix2 e ⟨64 + k.val, by omega⟩)) n k := by
  unfold coordPart
  rw [slice2_axis1_apply 64 _ _ n k ⟨64 + k.val, by omega⟩ rfl]
  exact sumPacked_at dst p n _

/-! # The row gather and the node table -/

/-! ## The pieces of the row gather -/

/-- The index vector with every negative word moved up by 40000, as a column. -/
def wrapCol (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 40000#32))) idx)

/-- The row test of a column of words: one where the word lies in 0 … 39999, read signed. -/
def inRows (col : IVec S640000x1 32) : IVec S640000 1 :=
  Host.reduce IntOp.andi
    (andi (cmpi .sge col (broadcastInDim S640000x1 ![] bcast_S_S640000x1 (constantI S_ 32 0#32)))
      (cmpi .sle col (broadcastInDim S640000x1 ![0, 1] bcast_S1x1_S640000x1_0_1
        (broadcastInDim S1x1 ![1] bcast_S1_S1x1_1 (constantI S1 32 39999#32)))))
    (constantI S_ 1 1#1) reducesTo_S640000x1_S640000_d1 h_S_

/-- The row gather is: the gathered rows where the row test holds, the constant elsewhere. -/
theorem takeK_eq (tbl : FVec Ideal S40000x67 .f32) (idx : IVec S640000 32) :
    takeK (F := Ideal) tbl idx
      = select (broadcastInDim S640000x67 ![0] bcast_S640000_S640000x67_0 (inRows (wrapCol idx)))
          (Host.gather gather_S40000x67_S640000x1_S640000x67_1_0_n_n_0_1_167 tbl (wrapCol idx))
          (broadcastInDim S640000x67 ![] bcast_S_S640000x67 (constant S_ .f32 0x7FC00000#32)) := rfl

/-- The moved index column at row `e` is the wrapped word of edge `e`. -/
theorem wrapCol_at (idx : IVec S640000 32) (e : Fin 640000) (u : Fin 1) :
    wrapCol idx (ix2 e u) = Spec.wrapWord (idx (ix1 e)) := by
  unfold wrapCol
  rw [idxCol_apply]
  exact PreIdx.select_wrap _ _ idx (ix1 e)

/-- A vector spread over 67 columns reads, at `(e, k)`, its entry `e`. -/
theorem rowSpread_apply {α : Type} (v : S640000.Idx → α) (e : Fin 640000) (k : Fin 67) :
    broadcastInDim S640000x67 ![0] bcast_S640000_S640000x67_0 v (ix2 e k) = v (ix1 e) :=
  broadcastInDim_apply _ _ v _ (ix1 e) (fun a => by
    match a with
    | ⟨0, _⟩ =>
      show e.val = if (640000 : ℕ) = 1 then 0 else e.val
      rw [if_neg (by decide)])

/-- A left fold by "and" from one over words that are all one is one. -/
theorem foldl_andi_one {ι : Type} (x : ι → BitVec 1) :
    ∀ (l : List ι), (∀ i ∈ l, x i = 1#1) → l.foldl (fun r i => IntOp.andi r (x i)) 1#1 = 1#1
  | [], _ => rfl
  | a :: l, h => by
    rw [List.foldl_cons, h a (List.mem_cons_self), show IntOp.andi 1#1 1#1 = 1#1 from by decide]
    exact foldl_andi_one x l (fun i hi => h i (List.mem_cons_of_mem _ hi))

/-- The row test is one at a row whose word lies in 0 … 39999. -/
theorem inRows_at (col : IVec S640000x1 32) (e : Fin 640000)
    (h0 : 0 ≤ (col (ix2 e (0 : Fin 1))).toInt) (h1 : (col (ix2 e (0 : Fin 1))).toInt ≤ 39999) :
    inRows col (ix1 e) = 1#1 := by
  unfold inRows
  rw [Host.reduce_eq_foldl]
  refine foldl_andi_one _ _ (fun i hi => ?_)
  have hd : reducesTo_S640000x1_S640000_d1.drop i = ix1 e := of_decide_eq_true (List.mem_filter.1 hi).2
  have h00 : (i 0).val = e.val := by
    have := Shape.ReducesTo.drop_apply_val_of_eq reducesTo_S640000x1_S640000_d1 i 0 0
    rw [hd] at this
    exact this.symm
  have hi1 : (i 1).val = 0 := by have := idx2_lt1 i; omega
  have hie : i = ix2 e (0 : Fin 1) := by
    rw [eq_ix2 i]
    exact GS.ix2_inj.2 ⟨Fin.ext h00, Fin.ext hi1⟩
  subst hie
  have z0 : (0#32 : BitVec 32).toInt = 0 := by decide
  have z1 : (39999#32 : BitVec 32).toInt = 39999 := by decide
  show IntOp.andi (IntOp.cmpi .sge (col (ix2 e 0)) 0#32) (IntOp.cmpi .sle (col (ix2 e 0)) 39999#32) = 1#1
  rw [IntOp.andi_eq_one, IntOp.cmpi_sge, IntOp.cmpi_sle, z0, z1]
  exact ⟨h0, h1⟩

/-! ## The row gather at an element -/

/-- The rows of a 67-wide table at an index vector: at edge `e`, whose wrapped word lies in 0 … 39999, the table's
    row that word names. -/
theorem takeK_at (tbl : FVec Ideal S40000x67 .f32) (idx : IVec S640000 32) (e : Fin 640000)
    (hr : 0 ≤ (Spec.wrapWord (idx (ix1 e))).toInt ∧ (Spec.wrapWord (idx (ix1 e))).toInt ≤ 39999) (k : Fin 67) :
    takeK (F := Ideal) tbl idx (ix2 e k) = tbl (ix2 (Spec.rowOf (idx (ix1 e)) hr) k) := by
  have hw := wrapCol_at idx e (0 : Fin 1)
  rw [takeK_eq, select_apply, rowSpread_apply,
    inRows_at (wrapCol idx) e (by rw [hw]; exact hr.1) (by rw [hw]; exact hr.2), select_one,
    GS.gather_apply_of_inRange _ rfl rfl rfl rfl rfl tbl (wrapCol idx) e k (by rw [hw]; exact hr.1)
      (by rw [hw]; have := hr.2; omega)]
  refine congrArg tbl (GS.ix2_inj.2 ⟨Fin.ext ?_, rfl⟩)
  show (wrapCol idx (ix2 e 0)).toInt.toNat = (Spec.wrapWord (idx (ix1 e))).toInt.toNat
  rw [hw]

/-! ## The node table at an element -/

/-- The node table [h | x] at `(n, k)`: feature `k` below 64, coordinate `k - 64` from 64 on. -/
theorem tableOf_at (h : FVec Ideal S40000x64 .f32) (x : FVec Ideal S40000x3 .f32) (n : Fin 40000) (k : Fin 67) :
    tableOf (F := Ideal) h x (ix2 n k)
      = if hk : k.val < 64 then h (ix2 n ⟨k.val, hk⟩) else x (ix2 n ⟨k.val - 64, by omega⟩) := by
  unfold tableOf
  split
  · next hk =>
    exact concatenate_pair_apply_left 1 h x _ (ix2 n k) rfl (ix2 n ⟨k.val, hk⟩) (fun b => by
      match b with
      | ⟨0, _⟩ => rfl
      | ⟨1, _⟩ => rfl)
  · next hk =>
    refine concatenate_pair_apply_right 1 h x _ (ix2 n k) rfl rfl (ix2 n ⟨k.val - 64, by omega⟩) (fun b hb => ?_) ?_
    · match b with
      | ⟨0, _⟩ => rfl
      | ⟨1, _⟩ => exact absurd rfl hb
    · show (k.val - 64) + 64 = k.val
      omega

/-! ## The gathered table rows are the endpoint's features and coordinates -/

/-- Column `k` below 64 of the gathered row of edge `e` is feature `k` of the node the wrapped index names. -/
theorem takeFeat_at (h : FVec Ideal S40000x64 .f32) (x : FVec Ideal S40000x3 .f32) (idx : IVec S640000 32)
    (e : Fin 640000)
    (hr : 0 ≤ (Spec.wrapWord (idx (ix1 e))).toInt ∧ (Spec.wrapWord (idx (ix1 e))).toInt ≤ 39999) (k : Fin 64) :
    takeK (F := Ideal) (tableOf h x) idx (ix2 e ⟨k.val, by omega⟩) = h (ix2 (Spec.rowOf (idx (ix1 e)) hr) k) := by
  rw [takeK_at _ _ e hr, tableOf_at, dif_pos k.isLt]

/-- Column `64 + k` of the gathered row of edge `e` is coordinate `k` of the node the wrapped index names. -/
theorem takeCoord_at (h : FVec Ideal S40000x64 .f32) (x : FVec Ideal S40000x3 .f32) (idx : IVec S640000 32)
    (e : Fin 640000)
    (hr : 0 ≤ (Spec.wrapWord (idx (ix1 e))).toInt ∧ (Spec.wrapWord (idx (ix1 e))).toInt ≤ 39999) (k : Fin 3) :
    takeK (F := Ideal) (tableOf h x) idx (ix2 e ⟨64 + k.val, by omega⟩) = x (ix2 (Spec.rowOf (idx (ix1 e)) hr) k) := by
  rw [takeK_at _ _ e hr, tableOf_at, dif_neg (show ¬ 64 + k.val < 64 by omega)]
  refine congrArg x (GS.ix2_inj.2 ⟨rfl, Fin.ext ?_⟩)
  show 64 + k.val - 64 = k.val
  omega

/-! ## The edge stage: the summed packed rows are the specification's sums -/

section Edge

variable (h : FVec Ideal S40000x64 .f32) (x : FVec Ideal S40000x3 .f32) (src dst : IVec S640000 32)
  (ef : FVec Ideal S640000x16 .f32) (P : Spec.LP) (pk : FVec Ideal S640000x128 .f32)
  (hs : ∀ e : Fin 640000, 0 ≤ (Spec.wrapWord (src (ix1 e))).toInt ∧ (Spec.wrapWord (src (ix1 e))).toInt ≤ 39999)
  (hd : ∀ e : Fin 640000, 0 ≤ (Spec.wrapWord (dst (ix1 e))).toInt ∧ (Spec.wrapWord (dst (ix1 e))).toInt ≤ 39999)

/-- A packed row built from the gathered table rows is the packed row of the endpoints' features and coordinates. -/
theorem packed_at
    (hpk : ∀ (e : Fin 640000) (j : Fin 128), pk (ix2 e j) = KRow.packedRow P
      (fun k : Fin 64 => takeK (tableOf h x) src (ix2 e ⟨k.val, by omega⟩))
      (fun k : Fin 64 => takeK (tableOf h x) dst (ix2 e ⟨k.val, by omega⟩))
      (fun k : Fin 3 => takeK (tableOf h x) src (ix2 e ⟨64 + k.val, by omega⟩))
      (fun k : Fin 3 => takeK (tableOf h x) dst (ix2 e ⟨64 + k.val, by omega⟩))
      (fun k => ef (ix2 e k)) j)
    (e : Fin 640000) (c : Fin 128) :
    pk (ix2 e c) = KRow.packedRow P
      (fun k => h (ix2 (Spec.rowOf (src (ix1 e)) (hs e)) k)) (fun k => h (ix2 (Spec.rowOf (dst (ix1 e)) (hd e)) k))
      (fun k => x (ix2 (Spec.rowOf (src (ix1 e)) (hs e)) k)) (fun k => x (ix2 (Spec.rowOf (dst (ix1 e)) (hd e)) k))
      (fun k => ef (ix2 e k)) c := by
  rw [hpk e c,
    show (fun k : Fin 64 => takeK (tableOf h x) src (ix2 e ⟨k.val, by omega⟩))
        = fun k => h (ix2 (Spec.rowOf (src (ix1 e)) (hs e)) k) from funext (takeFeat_at h x src e (hs e)),
    show (fun k : Fin 64 => takeK (tableOf h x) dst (ix2 e ⟨k.val, by omega⟩))
        = fun k => h (ix2 (Spec.rowOf (dst (ix1 e)) (hd e)) k) from funext (takeFeat_at h x dst e (hd e)),
    show (fun k : Fin 3 => takeK (tableOf h x) src (ix2 e ⟨64 + k.val, by omega⟩))
        = fun k => x (ix2 (Spec.rowOf (src (ix1 e)) (hs e)) k) from funext (takeCoord_at h x src e (hs e)),
    show (fun k : Fin 3 => takeK (tableOf h x) dst (ix2 e ⟨64 + k.val, by omega⟩))
        = fun k => x (ix2 (Spec.rowOf (dst (ix1 e)) (hd e)) k) from funext (takeCoord_at h x dst e (hd e))]

/-- The feature part of the summed packed rows: at node `n`, the sum of the feature messages of the edges into `n`. -/
theorem edgeH_K
    (hpk : ∀ (e : Fin 640000) (j : Fin 128), pk (ix2 e j) = KRow.packedRow P
      (fun k : Fin 64 => takeK (tableOf h x) src (ix2 e ⟨k.val, by omega⟩))
      (fun k : Fin 64 => takeK (tableOf h x) dst (ix2 e ⟨k.val, by omega⟩))
      (fun k : Fin 3 => takeK (tableOf h x) src (ix2 e ⟨64 + k.val, by omega⟩))
      (fun k : Fin 3 => takeK (tableOf h x) dst (ix2 e ⟨64 + k.val, by omega⟩))
      (fun k => ef (ix2 e k)) j)
    (n : Fin 40000) (j : Fin 64) :
    featPart (sumPacked dst pk) (ix2 n j)
      = Spec.agg (fun e => dst (ix1 e))
          (fun e (j : Fin 64) => Spec.msgH P
            (fun k => h (ix2 (Spec.rowOf (src (ix1 e)) (hs e)) k)) (fun k => h (ix2 (Spec.rowOf (dst (ix1 e)) (hd e)) k))
            (fun k => x (ix2 (Spec.rowOf (src (ix1 e)) (hs e)) k)) (fun k => x (ix2 (Spec.rowOf (dst (ix1 e)) (hd e)) k))
            (fun k => ef (ix2 e k)) j) n j := by
  rw [featPart_sumPacked_at]
  unfold Spec.agg
  refine Finset.sum_congr rfl (fun e _ => ?_)
  beta_reduce
  rw [packed_at h x src dst ef P pk hs hd hpk e]
  unfold KRow.packedRow
  rw [dif_pos j.isLt]

/-- The coordinate part of the summed packed rows: at node `n`, the sum of the coordinate messages of the edges
    into `n`. -/
theorem edgeX_K
    (hpk : ∀ (e : Fin 640000) (j : Fin 128), pk (ix2 e j) = KRow.packedRow P
      (fun k : Fin 64 => takeK (tableOf h x) src (ix2 e ⟨k.val, by omega⟩))
      (fun k : Fin 64 => takeK (tableOf h x) dst (ix2 e ⟨k.val, by omega⟩))
      (fun k : Fin 3 => takeK (tableOf h x) src (ix2 e ⟨64 + k.val, by omega⟩))
      (fun k : Fin 3 => takeK (tableOf h x) dst (ix2 e ⟨64 + k.val, by omega⟩))
      (fun k => ef (ix2 e k)) j)
    (n : Fin 40000) (k : Fin 3) :
    coordPart (sumPacked dst pk) (ix2 n k)
      = Spec.agg (fun e => dst (ix1 e))
          (fun e (k : Fin 3) => Spec.msgX P
            (fun k => h (ix2 (Spec.rowOf (src (ix1 e)) (hs e)) k)) (fun k => h (ix2 (Spec.rowOf (dst (ix1 e)) (hd e)) k))
            (fun k => x (ix2 (Spec.rowOf (src (ix1 e)) (hs e)) k)) (fun k => x (ix2 (Spec.rowOf (dst (ix1 e)) (hd e)) k))
            (fun k => ef (ix2 e k)) k) n k := by
  rw [coordPart_sumPacked_at]
  unfold Spec.agg
  refine Finset.sum_congr rfl (fun e _ => ?_)
  beta_reduce
  rw [packed_at h x src dst ef P pk hs hd hpk e]
  unfold KRow.packedRow
  rw [dif_neg (show ¬ 64 + k.val < 64 by omega), dif_pos (show 64 + k.val < 67 by omega)]
  refine congrArg (Spec.msgX P _ _ _ _ _) (Fin.ext ?_)
  show 64 + k.val - 64 = k.val
  omega

end Edge

/-! # The per-layer parameter slices -/

/-! ## Two generic reads: a layer of a stack -/

section Reads
variable {α : Type}

/-- Layer `o` of a stack `[2, a, b]`, its unit axis dropped, read at `(i, j)`: the stack at `(o, i, j)`. -/
theorem layer_apply {a b : ℕ} (o : ℕ) (ho : o < 2) (X : (⟨3, ![2, a, b]⟩ : Shape).Idx → α)
    (hs : (⟨3, ![2, a, b]⟩ : Shape).Slices ![o, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![o, 0, 0] X hs) hc (ix2 i j) = X (ix3 ⟨o, ho⟩ i j) := by
  rw [shapeCast_1ab_ab_apply]
  exact extractStridedSlice_apply _ _ _ _ _ (fun ax => by
    match ax with
    | ⟨0, _⟩ => exact (Nat.add_zero _).symm
    | ⟨1, _⟩ => exact (Nat.zero_add _).symm
    | ⟨2, _⟩ => exact (Nat.zero_add _).symm)

/-- Row `o` of a stack `[2, b]`, kept as a `[1, b]` row, read at `(u, j)`: the stack at `(o, j)`. -/
theorem row_apply {b : ℕ} (o : ℕ) (ho : o < 2) (X : (⟨2, ![2, b]⟩ : Shape).Idx → α)
    (hs : (⟨2, ![2, b]⟩ : Shape).Slices ![o, 0] ⟨2, ![1, b]⟩) (u : Fin 1) (j : Fin b) :
    extractStridedSlice ⟨2, ![1, b]⟩ ![o, 0] X hs (ix2 u j) = X (ix2 ⟨o, ho⟩ j) :=
  slice2_axis0_apply o X hs u j ⟨o, ho⟩ (by have := u.isLt; show o = o + u.val; omega)

/-- The same row cast to a vector `[b]` and back to a row `[1, b]`. -/
theorem row_cast_apply {b : ℕ} (o : ℕ) (ho : o < 2) (X : (⟨2, ![2, b]⟩ : Shape).Idx → α)
    (hs : (⟨2, ![2, b]⟩ : Shape).Slices ![o, 0] ⟨2, ![1, b]⟩)
    (hc : (⟨2, ![1, b]⟩ : Shape).ShapeCasts ⟨1, ![b]⟩) (hc' : (⟨1, ![b]⟩ : Shape).ShapeCasts ⟨2, ![1, b]⟩)
    (u : Fin 1) (j : Fin b) :
    shapeCast ⟨2, ![1, b]⟩ (shapeCast ⟨1, ![b]⟩ (extractStridedSlice ⟨2, ![1, b]⟩ ![o, 0] X hs) hc) hc' (ix2 u j)
      = X (ix2 ⟨o, ho⟩ j) := by
  rw [shapeCast_shapeCast]
  exact row_apply o ho X hs u j

end Reads

/-! ## Two parameter records with the same entries are equal -/

theorem lp_ext {P Q : Spec.LP} (h1 : ∀ k j, P.w1 k j = Q.w1 k j) (h2 : ∀ j, P.b1 j = Q.b1 j)
    (h3 : ∀ k j, P.w2 k j = Q.w2 k j) (h4 : ∀ j, P.b2 j = Q.b2 j) (h5 : ∀ k j, P.c1 k j = Q.c1 k j)
    (h6 : ∀ j, P.cb1 j = Q.cb1 j) (h7 : ∀ k, P.c2 k = Q.c2 k) : P = Q := by
  cases P; cases Q
  simp only [Spec.LP.mk.injEq]
  exact ⟨funext fun k => funext (h1 k), funext h2, funext fun k => funext (h3 k), funext h4,
    funext fun k => funext (h5 k), funext h6, funext h7⟩

/-! ## Layer 0 -/

section Layer0

/-- Rows 0 … 63 of layer 0's first weight. -/
theorem ew1hs0_at (a5 : FVec Ideal S2x145x64 .f32) (k : Fin 64) (j : Fin 64) (r : Fin 145) (hr : r.val = k.val) :
    ew1hs0 (F := Ideal) a5 (ix2 k j) = a5 (ix3 (0 : Fin 2) r j) := by
  unfold ew1hs0
  refine (slice2_axis0_apply 0 _ _ k j r (by rw [hr, Nat.zero_add])).trans ?_
  exact layer_apply 0 (by omega) a5 _ _ r j

/-- Rows 64 … 127 of layer 0's first weight. -/
theorem ew1hd0_at (a5 : FVec Ideal S2x145x64 .f32) (k : Fin 64) (j : Fin 64) (r : Fin 145) (hr : r.val = 64 + k.val) :
    ew1hd0 (F := Ideal) a5 (ix2 k j) = a5 (ix3 (0 : Fin 2) r j) := by
  unfold ew1hd0
  refine (slice2_axis0_apply 64 _ _ k j r hr).trans ?_
  exact layer_apply 0 (by omega) a5 _ _ r j

/-- Row 128 of layer 0's first weight. -/
theorem ew1rad0_at (a5 : FVec Ideal S2x145x64 .f32) (u : Fin 1) (j : Fin 64) (r : Fin 145) (hr : r.val = 128) :
    ew1rad0 (F := Ideal) a5 (ix2 u j) = a5 (ix3 (0 : Fin 2) r j) := by
  unfold ew1rad0
  refine (slice2_axis0_apply 128 _ _ u j r (by have := u.isLt; omega)).trans ?_
  exact layer_apply 0 (by omega) a5 _ _ r j

/-- Rows 129 … 144 of layer 0's first weight. -/
theorem ew1ef0_at (a5 : FVec Ideal S2x145x64 .f32) (k : Fin 16) (j : Fin 64) (r : Fin 145) (hr : r.val = 129 + k.val) :
    ew1ef0 (F := Ideal) a5 (ix2 k j) = a5 (ix3 (0 : Fin 2) r j) := by
  unfold ew1ef0
  refine (slice2_axis0_apply 129 _ _ k j r hr).trans ?_
  exact layer_apply 0 (by omega) a5 _ _ r j

/-- Layer 0's first bias, a row. -/
theorem eb1_0_at (a6 : FVec Ideal S2x64 .f32) (u : Fin 1) (j : Fin 64) :
    eb1_0 (F := Ideal) a6 (ix2 u j) = a6 (ix2 (0 : Fin 2) j) :=
  row_cast_apply 0 (by omega) a6 _ _ _ u j

/-- Layer 0's second weight. -/
theorem ew2_0_at (a7 : FVec Ideal S2x64x64 .f32) (k j : Fin 64) :
    ew2_0 (F := Ideal) a7 (ix2 k j) = a7 (ix3 (0 : Fin 2) k j) :=
  layer_apply 0 (by omega) a7 _ _ k j

/-- Layer 0's second bias, a row. -/
theorem eb2_0_at (a8 : FVec Ideal S2x64 .f32) (u : Fin 1) (j : Fin 64) :
    eb2_0 (F := Ideal) a8 (ix2 u j) = a8 (ix2 (0 : Fin 2) j) :=
  row_cast_apply 0 (by omega) a8 _ _ _ u j

/-- Layer 0's first coordinate weight. -/
theorem cw1_0_at (a9 : FVec Ideal S2x64x64 .f32) (k j : Fin 64) :
    cw1_0 (F := Ideal) a9 (ix2 k j) = a9 (ix3 (0 : Fin 2) k j) :=
  layer_apply 0 (by omega) a9 _ _ k j

/-- Layer 0's coordinate bias, a row. -/
theorem cb1_0_at (a10 : FVec Ideal S2x64 .f32) (u : Fin 1) (j : Fin 64) :
    cb1_0 (F := Ideal) a10 (ix2 u j) = a10 (ix2 (0 : Fin 2) j) :=
  row_cast_apply 0 (by omega) a10 _ _ _ u j

/-- Layer 0's coordinate read-out, a column. -/
theorem cw2_0_at (a11 : FVec Ideal S2x64x1 .f32) (k : Fin 64) (u : Fin 1) :
    cw2_0 (F := Ideal) a11 (ix2 k u) = a11 (ix3 (0 : Fin 2) k u) :=
  layer_apply 0 (by omega) a11 _ _ k u

/-- The slices of layer 0, put together, are layer 0's parameters read off the stacked arrays. -/
theorem lpK_slices0 (a5 : FVec Ideal S2x145x64 .f32) (a6 : FVec Ideal S2x64 .f32) (a7 : FVec Ideal S2x64x64 .f32)
    (a8 : FVec Ideal S2x64 .f32) (a9 : FVec Ideal S2x64x64 .f32) (a10 : FVec Ideal S2x64 .f32)
    (a11 : FVec Ideal S2x64x1 .f32) :
    KRow.lpK (ew1hs0 a5) (ew1hd0 a5) (ew1rad0 a5) (ew1ef0 a5) (eb1_0 a6) (ew2_0 a7) (eb2_0 a8)
        (cw1_0 a9) (cb1_0 a10) (cw2_0 a11)
      = Spec.lpOf 0 a5 a6 a7 a8 a9 a10 a11 := by
  refine lp_ext ?_ ?_ ?_ ?_ ?_ ?_ ?_
  · intro k j
    show (if h1 : k.val < 64 then ew1hs0 a5 (ix2 (⟨k.val, h1⟩ : Fin 64) j)
      else if h2 : k.val < 128 then ew1hd0 a5 (ix2 (⟨k.val - 64, by omega⟩ : Fin 64) j)
      else if h3 : k.val < 129 then ew1rad0 a5 (ix2 (0 : Fin 1) j)
      else ew1ef0 a5 (ix2 (⟨k.val - 129, by have := k.isLt; omega⟩ : Fin 16) j)) = a5 (ix3 (0 : Fin 2) k j)
    split
    · exact ew1hs0_at a5 _ j k rfl
    · split
      · exact ew1hd0_at a5 _ j k (by show k.val = 64 + (k.val - 64); omega)
      · split
        · exact ew1rad0_at a5 _ j k (by omega)
        · exact ew1ef0_at a5 _ j k (by show k.val = 129 + (k.val - 129); omega)
  · intro j; exact eb1_0_at a6 _ j
  · intro k j; exact ew2_0_at a7 k j
  · intro j; exact eb2_0_at a8 _ j
  · intro k j; exact cw1_0_at a9 k j
  · intro j; exact cb1_0_at a10 _ j
  · intro k; exact cw2_0_at a11 k _

end Layer0

/-! ## Layer 1 -/

section Layer1

/-- Rows 0 … 63 of layer 1's first weight. -/
theorem ew1hs1_at (a5 : FVec Ideal S2x145x64 .f32) (k : Fin 64) (j : Fin 64) (r : Fin 145) (hr : r.val = k.val) :
    ew1hs1 (F := Ideal) a5 (ix2 k j) = a5 (ix3 (1 : Fin 2) r j) := by
  unfold ew1hs1
  refine (slice2_axis0_apply 0 _ _ k j r (by rw [hr, Nat.zero_add])).trans ?_
  exact layer_apply 1 (by omega) a5 _ _ r j

/-- Rows 64 … 127 of layer 1's first weight. -/
theorem ew1hd1_at (a5 : FVec Ideal S2x145x64 .f32) (k : Fin 64) (j : Fin 64) (r : Fin 145) (hr : r.val = 64 + k.val) :
    ew1hd1 (F := Ideal) a5 (ix2 k j) = a5 (ix3 (1 : Fin 2) r j) := by
  unfold ew1hd1
  refine (slice2_axis0_apply 64 _ _ k j r hr).trans ?_
  exact layer_apply 1 (by omega) a5 _ _ r j

/-- Row 128 of layer 1's first weight. -/
theorem ew1rad1_at (a5 : FVec Ideal S2x145x64 .f32) (u : Fin 1) (j : Fin 64) (r : Fin 145) (hr : r.val = 128) :
    ew1rad1 (F := Ideal) a5 (ix2 u j) = a5 (ix3 (1 : Fin 2) r j) := by
  unfold ew1rad1
  refine (slice2_axis0_apply 128 _ _ u j r (by have := u.isLt; omega)).trans ?_
  exact layer_apply 1 (by omega) a5 _ _ r j

/-- Rows 129 … 144 of layer 1's first weight. -/
theorem ew1ef1_at (a5 : FVec Ideal S2x145x64 .f32) (k : Fin 16) (j : Fin 64) (r : Fin 145) (hr : r.val = 129 + k.val) :
    ew1ef1 (F := Ideal) a5 (ix2 k j) = a5 (ix3 (1 : Fin 2) r j) := by
  unfold ew1ef1
  refine (slice2_axis0_apply 129 _ _ k j r hr).trans ?_
  exact layer_apply 1 (by omega) a5 _ _ r j

/-- Layer 1's first bias, a row. -/
theorem eb1_1_at (a6 : FVec Ideal S2x64 .f32) (u : Fin 1) (j : Fin 64) :
    eb1_1 (F := Ideal) a6 (ix2 u j) = a6 (ix2 (1 : Fin 2) j) :=
  row_cast_apply 1 (by omega) a6 _ _ _ u j

/-- Layer 1's second weight. -/
theorem ew2_1_at (a7 : FVec Ideal S2x64x64 .f32) (k j : Fin 64) :
    ew2_1 (F := Ideal) a7 (ix2 k j) = a7 (ix3 (1 : Fin 2) k j) :=
  layer_apply 1 (by omega) a7 _ _ k j

/-- Layer 1's second bias, a row. -/
theorem eb2_1_at (a8 : FVec Ideal S2x64 .f32) (u : Fin 1) (j : Fin 64) :
    eb2_1 (F := Ideal) a8 (ix2 u j) = a8 (ix2 (1 : Fin 2) j) :=
  row_cast_apply 1 (by omega) a8 _ _ _ u j

/-- Layer 1's first coordinate weight. -/
theorem cw1_1_at (a9 : FVec Ideal S2x64x64 .f32) (k j : Fin 64) :
    cw1_1 (F := Ideal) a9 (ix2 k j) = a9 (ix3 (1 : Fin 2) k j) :=
  layer_apply 1 (by omega) a9 _ _ k j

/-- Layer 1's coordinate bias, a row. -/
theorem cb1_1_at (a10 : FVec Ideal S2x64 .f32) (u : Fin 1) (j : Fin 64) :
    cb1_1 (F := Ideal) a10 (ix2 u j) = a10 (ix2 (1 : Fin 2) j) :=
  row_cast_apply 1 (by omega) a10 _ _ _ u j

/-- Layer 1's coordinate read-out, a column. -/
theorem cw2_1_at (a11 : FVec Ideal S2x64x1 .f32) (k : Fin 64) (u : Fin 1) :
    cw2_1 (F := Ideal) a11 (ix2 k u) = a11 (ix3 (1 : Fin 2) k u) :=
  layer_apply 1 (by omega) a11 _ _ k u

/-- The slices of layer 1, put together, are layer 1's parameters read off the stacked arrays. -/
theorem lpK_slices1 (a5 : FVec Ideal S2x145x64 .f32) (a6 : FVec Ideal S2x64 .f32) (a7 : FVec Ideal S2x64x64 .f32)
    (a8 : FVec Ideal S2x64 .f32) (a9 : FVec Ideal S2x64x64 .f32) (a10 : FVec Ideal S2x64 .f32)
    (a11 : FVec Ideal S2x64x1 .f32) :
    KRow.lpK (ew1hs1 a5) (ew1hd1 a5) (ew1rad1 a5) (ew1ef1 a5) (eb1_1 a6) (ew2_1 a7) (eb2_1 a8)
        (cw1_1 a9) (cb1_1 a10) (cw2_1 a11)
      = Spec.lpOf 1 a5 a6 a7 a8 a9 a10 a11 := by
  refine lp_ext ?_ ?_ ?_ ?_ ?_ ?_ ?_
  · intro k j
    show (if h1 : k.val < 64 then ew1hs1 a5 (ix2 (⟨k.val, h1⟩ : Fin 64) j)
      else if h2 : k.val < 128 then ew1hd1 a5 (ix2 (⟨k.val - 64, by omega⟩ : Fin 64) j)
      else if h3 : k.val < 129 then ew1rad1 a5 (ix2 (0 : Fin 1) j)
      else ew1ef1 a5 (ix2 (⟨k.val - 129, by have := k.isLt; omega⟩ : Fin 16) j)) = a5 (ix3 (1 : Fin 2) k j)
    split
    · exact ew1hs1_at a5 _ j k rfl
    · split
      · exact ew1hd1_at a5 _ j k (by show k.val = 64 + (k.val - 64); omega)
      · split
        · exact ew1rad1_at a5 _ j k (by omega)
        · exact ew1ef1_at a5 _ j k (by show k.val = 129 + (k.val - 129); omega)
  · intro j; exact eb1_1_at a6 _ j
  · intro k j; exact ew2_1_at a7 k j
  · intro j; exact eb2_1_at a8 _ j
  · intro k j; exact cw1_1_at a9 k j
  · intro j; exact cb1_1_at a10 _ j
  · intro k; exact cw2_1_at a11 k _

end Layer1

end Cert.Bridge.KEdge

end
-- ==== Proof.REdgeDefs.lean ====
/-
  One message-passing layer's edge stage of the reference program, as functions of the layer's inputs: the
  operations the reference applies, each written as the reference writes it, in its order and under its own side
  conditions, from the wrap of a negative index to a per-node sum. The chain is cut where a value is used more than
  once, each piece a function of the inputs, its intermediate values named as the reference names them.

  For node features h : [40000, 64], positions x : [40000, 3], index arrays src, dst : [640000], edge attributes
  ef : [640000, 16] and one layer's parameters (w1, b1, w2, b2 of the feature network; c1, cb1, c2 of the coordinate
  network), with i' the index i + 40000 where i < 0 and i otherwise:
    wrapCol i = i' as a column           diffV   d = x[src'] - x[dst']            radialV ρ = Σ over the 3 lanes of d · d
    unitV   u = d / (√ρ + 1e-30)         featV   f = [h[src'] | h[dst'] | ρ | ef]  siluV t = t · (1 / (1 + e^(-t)))
    hid1V   siluV (f · w1 + b1)          msgHV   m = siluV (hid1V · w2 + b2)
    hid3V   siluV (m · c1 + cb1)         msgXV   p = (hid3V · c2) · u
  edgeH is m and edgeX is p, each summed into zeros at the rows the words of dst name (unwrapped: a word outside
  [0, 40000) adds nothing).
-/
import proofs.«409836_j4174708212115_3_alg».proof.ReferenceIdeal
import proofs.«409836_j4174708212115_3_alg».proof.Proof.Gen.ReferenceIdeal
import proofs.«409836_j4174708212115_3_alg».proof.Proof.Spec
import Idealize.ShloMosaic.PureOps.Ideal
import Idealize.ShloMosaic.Lib.ValueIdx

noncomputable section

namespace Cert.Bridge.REdge

open Idealize.ShloMosaic
open Cert.ReferenceIdeal
open Cert.ReferenceIdeal.Facts₀

/-- The index column a gather reads: a negative index counts from the end (the reference's %2 … %7; its %9 … %14,
    %25 … %30 and %32 … %37 are the same operations on src or dst). -/
def wrapCol (a : IVec S640000 32) : IVec S640000x1 32 :=
  let main_c : IVec S_ 32 := constantI S_ 32 0#32
  let main_v2 : IVec S640000 32 := broadcastInDim S640000 ![] bcast_S_S640000 main_c
  let main_v3 : IVec S640000 1 := cmpi .slt a main_v2
  let main_c_1 : IVec S_ 32 := constantI S_ 32 40000#32
  let main_v4 : IVec S640000 32 := broadcastInDim S640000 ![] bcast_S_S640000 main_c_1
  let main_v5 : IVec S640000 32 := addi a main_v4
  let main_v6 : IVec S640000 32 := select main_v3 main_v5 a
  broadcastInDim S640000x1 ![0] bcast_S640000_S640000x1_0 main_v6

/-- The coordinate difference of every edge's endpoints (%16). -/
def diffV (x : FVec Ideal S40000x3 .f32) (src dst : IVec S640000 32) : FVec Ideal S640000x3 .f32 :=
  let main_v7 : IVec S640000x1 32 := wrapCol src
  let main_v8 : FVec Ideal S640000x3 .f32 := (fun x i => Host.gather gather_S40000x3_S640000x1_S640000x3_1_0_n_n_0_1_13 x i) x main_v7
  let main_v14 : IVec S640000x1 32 := wrapCol dst
  let main_v15 : FVec Ideal S640000x3 .f32 := (fun x i => Host.gather gather_S40000x3_S640000x1_S640000x3_1_0_n_n_0_1_13 x i) x main_v14
  subf main_v8 main_v15

/-- The squared distance of every edge's endpoints, as a column (%19). -/
def radialV (x : FVec Ideal S40000x3 .f32) (src dst : IVec S640000 32) : FVec Ideal S640000x1 .f32 :=
  let main_v16 : FVec Ideal S640000x3 .f32 := diffV x src dst
  let main_v17 : FVec Ideal S640000x3 .f32 := mulf main_v16 main_v16
  let main_cst_4 : FVec Ideal S_ .f32 := constant S_ .f32 0x00000000#32
  let main_v18 : FVec Ideal S640000 .f32 := (fun x v => Host.reduceAdd x v reducesTo_S640000x3_S640000_d1 h_S_) main_v17 main_cst_4
  broadcastInDim S640000x1 ![0] bcast_S640000_S640000x1_0 main_v18

/-- The difference divided by the distance plus the literal 1e-30 (%24). -/
def unitV (x : FVec Ideal S40000x3 .f32) (src dst : IVec S640000 32) : FVec Ideal S640000x3 .f32 :=
  let main_v16 : FVec Ideal S640000x3 .f32 := diffV x src dst
  let main_v19 : FVec Ideal S640000x1 .f32 := radialV x src dst
  let main_v20 : FVec Ideal S640000x1 .f32 := Host.sqrt main_v19
  let main_cst_5 : FVec Ideal S_ .f32 := constant S_ .f32 0x0DA24260#32
  let main_v21 : FVec Ideal S640000x1 .f32 := broadcastInDim S640000x1 ![] bcast_S_S640000x1 main_cst_5
  let main_v22 : FVec Ideal S640000x1 .f32 := addf main_v20 main_v21
  let main_v23 : FVec Ideal S640000x3 .f32 := broadcastInDim S640000x3 ![0, 1] bcast_S640000x1_S640000x3_0_1 main_v22
  Host.divf main_v16 main_v23

/-- The 145 features of every edge (%39). -/
def featV (h : FVec Ideal S40000x64 .f32) (x : FVec Ideal S40000x3 .f32) (src dst : IVec S640000 32) (ef : FVec Ideal S640000x16 .f32) : FVec Ideal S640000x145 .f32 :=
  let main_v19 : FVec Ideal S640000x1 .f32 := radialV x src dst
  let main_v30 : IVec S640000x1 32 := wrapCol src
  let main_v31 : FVec Ideal S640000x64 .f32 := (fun x i => Host.gather gather_S40000x64_S640000x1_S640000x64_1_0_n_n_0_1_164 x i) h main_v30
  let main_v37 : IVec S640000x1 32 := wrapCol dst
  let main_v38 : FVec Ideal S640000x64 .f32 := (fun x i => Host.gather gather_S40000x64_S640000x1_S640000x64_1_0_n_n_0_1_164 x i) h main_v37
  concatenate S640000x145 1 [⟨S640000x64, main_v31⟩, ⟨S640000x64, main_v38⟩, ⟨S640000x1, main_v19⟩, ⟨S640000x16, ef⟩] concatenates_S640000x64_S640000x64_S640000x1_S640000x16_S640000x145_d1

/-- The activation as the reference spells it, t · (1 / (1 + e^(-t))): its function @silu, %0 … %6. -/
def siluV (arg0 : FVec Ideal S640000x64 .f32) : FVec Ideal S640000x64 .f32 :=
  let v0 : FVec Ideal S640000x64 .f32 := Host.negf arg0
  let v1 : FVec Ideal S640000x64 .f32 := Host.exp v0
  let cst : FVec Ideal S_ .f32 := constant S_ .f32 0x3F800000#32
  let v2 : FVec Ideal S640000x64 .f32 := broadcastInDim S640000x64 ![] bcast_S_S640000x64 cst
  let v3 : FVec Ideal S640000x64 .f32 := addf v2 v1
  let cst_0 : FVec Ideal S_ .f32 := constant S_ .f32 0x3F800000#32
  let v4 : FVec Ideal S640000x64 .f32 := broadcastInDim S640000x64 ![] bcast_S_S640000x64 cst_0
  let v5 : FVec Ideal S640000x64 .f32 := Host.divf v4 v3
  mulf arg0 v5

/-- A bias row added to every edge's row (%45 and %46; %54, %55 and %63, %64 are the same operations). -/
def biasV (b : FVec Ideal S64 .f32) : FVec Ideal S640000x64 .f32 :=
  let main_v45 : FVec Ideal S1x64 .f32 := broadcastInDim S1x64 ![1] bcast_S64_S1x64_1 b
  broadcastInDim S640000x64 ![0, 1] bcast_S1x64_S640000x64_0_1 main_v45

/-- The feature network's first layer (%48). -/
def hid1V (h : FVec Ideal S40000x64 .f32) (x : FVec Ideal S40000x3 .f32) (src dst : IVec S640000 32) (ef : FVec Ideal S640000x16 .f32)
    (w1 : FVec Ideal S145x64 .f32) (b1 : FVec Ideal S64 .f32) : FVec Ideal S640000x64 .f32 :=
  let main_v39 : FVec Ideal S640000x145 .f32 := featV h x src dst ef
  let main_v42 : FVec Ideal S640000x64 .f32 := (fun l r => Host.dotGeneral dot_S640000x145_S145x64_S640000x64_1_0_0_1_n_n none l r) main_v39 w1
  let main_v46 : FVec Ideal S640000x64 .f32 := biasV b1
  let main_v47 : FVec Ideal S640000x64 .f32 := addf main_v42 main_v46
  siluV main_v47

/-- The feature message of every edge (%57). -/
def msgHV (h : FVec Ideal S40000x64 .f32) (x : FVec Ideal S40000x3 .f32) (src dst : IVec S640000 32) (ef : FVec Ideal S640000x16 .f32)
    (w1 : FVec Ideal S145x64 .f32) (b1 : FVec Ideal S64 .f32) (w2 : FVec Ideal S64x64 .f32) (b2 : FVec Ideal S64 .f32) : FVec Ideal S640000x64 .f32 :=
  let main_v48 : FVec Ideal S640000x64 .f32 := hid1V h x src dst ef w1 b1
  let main_v51 : FVec Ideal S640000x64 .f32 := (fun l r => Host.dotGeneral dot_S640000x64_S64x64_S640000x64_1_0_0_1_n_n none l r) main_v48 w2
  let main_v55 : FVec Ideal S640000x64 .f32 := biasV b2
  let main_v56 : FVec Ideal S640000x64 .f32 := addf main_v51 main_v55
  siluV main_v56

/-- The coordinate network's hidden layer (%66). -/
def hid3V (h : FVec Ideal S40000x64 .f32) (x : FVec Ideal S40000x3 .f32) (src dst : IVec S640000 32) (ef : FVec Ideal S640000x16 .f32)
    (w1 : FVec Ideal S145x64 .f32) (b1 : FVec Ideal S64 .f32) (w2 : FVec Ideal S64x64 .f32) (b2 : FVec Ideal S64 .f32) (c1 : FVec Ideal S64x64 .f32) (cb1 : FVec Ideal S64 .f32) : FVec Ideal S640000x64 .f32 :=
  let main_v57 : FVec Ideal S640000x64 .f32 := msgHV h x src dst ef w1 b1 w2 b2
  let main_v60 : FVec Ideal S640000x64 .f32 := (fun l r => Host.dotGeneral dot_S640000x64_S64x64_S640000x64_1_0_0_1_n_n none l r) main_v57 c1
  let main_v64 : FVec Ideal S640000x64 .f32 := biasV cb1
  let main_v65 : FVec Ideal S640000x64 .f32 := addf main_v60 main_v64
  siluV main_v65

/-- The coordinate message of every edge (%71). -/
def msgXV (h : FVec Ideal S40000x64 .f32) (x : FVec Ideal S40000x3 .f32) (src dst : IVec S640000 32) (ef : FVec Ideal S640000x16 .f32)
    (w1 : FVec Ideal S145x64 .f32) (b1 : FVec Ideal S64 .f32) (w2 : FVec Ideal S64x64 .f32) (b2 : FVec Ideal S64 .f32) (c1 : FVec Ideal S64x64 .f32) (cb1 : FVec Ideal S64 .f32) (c2 : FVec Ideal S64x1 .f32) : FVec Ideal S640000x3 .f32 :=
  let main_v24 : FVec Ideal S640000x3 .f32 := unitV x src dst
  let main_v66 : FVec Ideal S640000x64 .f32 := hid3V h x src dst ef w1 b1 w2 b2 c1 cb1
  let main_v69 : FVec Ideal S640000x1 .f32 := (fun l r => Host.dotGeneral dot_S640000x64_S64x1_S640000x1_1_0_0_1_n_n none l r) main_v66 c2
  let main_v70 : FVec Ideal S640000x3 .f32 := broadcastInDim S640000x3 ![0, 1] bcast_S640000x1_S640000x3_0_1 main_v69
  mulf main_v70 main_v24

/-- The feature messages summed per destination node: the reference's %74 as a function of %arg0, %arg1, %arg3,
    %arg4, %arg2 and the layer's %41, %44, %50, %53 (the coordinate network's parameters do not enter it). -/
def edgeH (h : FVec Ideal S40000x64 .f32) (x : FVec Ideal S40000x3 .f32) (src dst : IVec S640000 32) (ef : FVec Ideal S640000x16 .f32)
    (w1 : FVec Ideal S145x64 .f32) (b1 : FVec Ideal S64 .f32) (w2 : FVec Ideal S64x64 .f32) (b2 : FVec Ideal S64 .f32) (c1 : FVec Ideal S64x64 .f32) (cb1 : FVec Ideal S64 .f32) (c2 : FVec Ideal S64x1 .f32) : FVec Ideal S40000x64 .f32 :=
  let main_v57 : FVec Ideal S640000x64 .f32 := msgHV h x src dst ef w1 b1 w2 b2
  let main_cst_10 : FVec Ideal S_ .f32 := constant S_ .f32 0x00000000#32
  let main_v72 : FVec Ideal S40000x64 .f32 := broadcastInDim S40000x64 ![] bcast_S_S40000x64 main_cst_10
  let main_v73 : IVec S640000x1 32 := broadcastInDim S640000x1 ![0] bcast_S640000_S640000x1_0 dst
  (fun x i u => Host.scatterAdd scatter_S40000x64_S640000x1_S640000x64_1_0_0_1 x i u) main_v72 main_v73 main_v57

/-- The coordinate messages summed per destination node: the reference's %77 as a function of the same inputs and
    the layer's %41, %44, %50, %53, %59, %62, %68. -/
def edgeX (h : FVec Ideal S40000x64 .f32) (x : FVec Ideal S40000x3 .f32) (src dst : IVec S640000 32) (ef : FVec Ideal S640000x16 .f32)
    (w1 : FVec Ideal S145x64 .f32) (b1 : FVec Ideal S64 .f32) (w2 : FVec Ideal S64x64 .f32) (b2 : FVec Ideal S64 .f32) (c1 : FVec Ideal S64x64 .f32) (cb1 : FVec Ideal S64 .f32) (c2 : FVec Ideal S64x1 .f32) : FVec Ideal S40000x3 .f32 :=
  let main_v71 : FVec Ideal S640000x3 .f32 := msgXV h x src dst ef w1 b1 w2 b2 c1 cb1 c2
  let main_cst_11 : FVec Ideal S_ .f32 := constant S_ .f32 0x00000000#32
  let main_v75 : FVec Ideal S40000x3 .f32 := broadcastInDim S40000x3 ![] bcast_S_S40000x3 main_cst_11
  let main_v76 : IVec S640000x1 32 := broadcastInDim S640000x1 ![0] bcast_S640000_S640000x1_0 dst
  (fun x i u => Host.scatterAdd scatter_S40000x3_S640000x1_S640000x3_1_0_0_1 x i u) main_v75 main_v76 main_v71

open Idealize.ShloMosaic.ValueIdx in
/-- One layer's parameters read at indices. -/
def lpR (w1 : FVec Ideal S145x64 .f32) (b1 : FVec Ideal S64 .f32) (w2 : FVec Ideal S64x64 .f32) (b2 : FVec Ideal S64 .f32)
    (c1 : FVec Ideal S64x64 .f32) (cb1 : FVec Ideal S64 .f32) (c2 : FVec Ideal S64x1 .f32) : Cert.Bridge.Spec.LP :=
  { w1 := fun k j => w1 (ix2 k j), b1 := fun j => b1 (ix1 j), w2 := fun k j => w2 (ix2 k j), b2 := fun j => b2 (ix1 j),
    c1 := fun k j => c1 (ix2 k j), cb1 := fun j => cb1 (ix1 j), c2 := fun k => c2 (ix2 k 0) }

end Cert.Bridge.REdge

end
-- ==== Proof.REdge.lean ====
/-
  The reference's edge stage is the sums the shared statement names.

  Read at one index, each operation of the stage is its textbook value over the extended reals:
    * the index column a gather reads holds, at edge e, the edge's index word wrapped (a negative word plus 40000), and
      a gather of a table at an in-range wrapped word reads the table's row of that number;
    * a difference, a product and a quotient are taken element by element; the sum over the three lanes starts from the
      zero word, which is 0, so it is the plain sum of three terms;
    * the 145-wide concatenation read at column k is the piece whose span holds k: source features below 64,
      destination features below 128, the squared distance at 128, the edge attributes from 129 on;
    * a product of an [E, K] array with a [K, W] array at (e, j) is the sum over k of the products, and the bias added
      to it is the bias at j, whatever the edge;
    * t · (1 / (1 + e^(-t))) with the two literal ones read as 1 is t · logistic t;
    * the sum into zeros at the rows the destination words name, read at (n, j), is 0 plus the sum of the summand at
      (e, j) over the edges e whose destination word, read signed, equals n.
  Composing these in the reference's order gives, edge by edge, the feature message and the coordinate message of the
  shared statement, and node by node their sums. No finiteness is used: the extended reals are a commutative monoid
  under addition, and every step is an equation between sums of the same terms.
-/
import proofs.«409836_j4174708212115_3_alg».proof.Proof.REdgeDefs
import proofs.«409836_j4174708212115_3_alg».proof.Proof.LibGatherScatter
import proofs.«409836_j4174708212115_3_alg».proof.Proof.PreIdx
import Idealize.ShloMosaic.Lib.IdealHost
import Idealize.ShloMosaic.Lib.Pipeline.Value
import Idealize.ShloMosaic.PureOps.Ideal.Laws

noncomputable section

open scoped BigOperators

namespace Cert.Bridge.REdge

open Idealize.ShloMosaic Idealize.ShloMosaic.ValueIdx
open Cert.ReferenceIdeal
open Cert.ReferenceIdeal.Facts₀

section Generic
variable {α : Type}

/-- A vector laid down a column: element (e, c) of the [E, 1] array is element e of the vector. -/
theorem bcast_col {E : Nat} (hE : E ≠ 1) (h : (⟨1, ![E]⟩ : Shape).BroadcastsInDim ⟨2, ![E, 1]⟩ ![0])
    (v : (⟨1, ![E]⟩ : Shape).Idx → α) (e : Fin E) (c : Fin 1) :
    broadcastInDim ⟨2, ![E, 1]⟩ ![0] h v (ix2 e c) = v (ix1 e) := by
  refine broadcastInDim_apply _ h v _ (ix1 e) fun a => ?_
  match a with
  | ⟨0, _⟩ =>
    show e.val = if E = 1 then 0 else e.val
    rw [if_neg hE]

/-- A column copied across W lanes: element (e, k) of the [E, W] array is element (e, 0) of the column. -/
theorem bcast_lanes {E W : Nat} (hE : E ≠ 1) (h : (⟨2, ![E, 1]⟩ : Shape).BroadcastsInDim ⟨2, ![E, W]⟩ ![0, 1])
    (v : (⟨2, ![E, 1]⟩ : Shape).Idx → α) (e : Fin E) (k : Fin W) :
    broadcastInDim ⟨2, ![E, W]⟩ ![0, 1] h v (ix2 e k) = v (ix2 e 0) := by
  refine broadcastInDim_apply _ h v _ (ix2 e 0) fun a => ?_
  match a with
  | ⟨0, _⟩ =>
    show e.val = if E = 1 then 0 else e.val
    rw [if_neg hE]
  | ⟨1, _⟩ => rfl

/-- A row of W entries copied down E rows, through the [1, W] array the reference makes of it first. -/
theorem bcast_rows {E W : Nat} (hW : W ≠ 1) (h1 : (⟨1, ![W]⟩ : Shape).BroadcastsInDim ⟨2, ![1, W]⟩ ![1])
    (h2 : (⟨2, ![1, W]⟩ : Shape).BroadcastsInDim ⟨2, ![E, W]⟩ ![0, 1])
    (b : (⟨1, ![W]⟩ : Shape).Idx → α) (e : Fin E) (j : Fin W) :
    broadcastInDim ⟨2, ![E, W]⟩ ![0, 1] h2 (broadcastInDim ⟨2, ![1, W]⟩ ![1] h1 b) (ix2 e j) = b (ix1 j) := by
  refine (broadcastInDim_apply _ h2 _ _ (ix2 0 j) fun a => ?_).trans ?_
  · match a with
    | ⟨0, _⟩ => rfl
    | ⟨1, _⟩ =>
      show j.val = if W = 1 then 0 else j.val
      rw [if_neg hW]
  · refine broadcastInDim_apply _ h1 b _ (ix1 j) fun a => ?_
    match a with
    | ⟨0, _⟩ =>
      show j.val = if W = 1 then 0 else j.val
      rw [if_neg hW]

end Generic

/-- A product of an [E, K] array by a [K, W] array, read at (e, j): the sum over k of the products. -/
theorem dot_apply {E K W : Nat} {φ₁ φ₂ : FTy} (D : DotDims ⟨2, ![E, K]⟩ ⟨2, ![K, W]⟩ ⟨2, ![E, W]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![E, K]⟩ φ₁) (r : FVec Ideal ⟨2, ![K, W]⟩ φ₂) (e : Fin E) (j : Fin W) :
    Host.dotGeneral D prec l r (ix2 e j) = ∑ k : Fin K, l (ix2 e k) * r (ix2 k j) := by
  obtain ⟨lc, rc, ln, rn, lb, rb, wf⟩ := D
  dsimp only at hlc hrc hln hrn hlb hrb
  subst hlc hrc hln hrn hlb hrb
  simp only [Host.dotGeneral]
  rw [Ideal.dotGeneral_apply]
  have hr : (DotDims.mk [1] [0] [0] [1] [] [] wf : DotDims ⟨2, ![E, K]⟩ ⟨2, ![K, W]⟩ ⟨2, ![E, W]⟩).contr.rank = 1 := rfl
  have hs : (DotDims.mk [1] [0] [0] [1] [] [] wf : DotDims ⟨2, ![E, K]⟩ ⟨2, ![K, W]⟩ ⟨2, ![E, W]⟩).contr.size ⟨0, by omega⟩ = K := rfl
  rw [← Equiv.sum_comp (contrEquiv1 _ K hr hs).symm]
  refine Finset.sum_congr rfl fun k _ => ?_
  congr 2
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- The index column read at an edge: the edge's index word, wrapped. -/
theorem wrapCol_apply (a : IVec S640000 32) (e : Fin 640000) (c : Fin 1) :
    wrapCol a (ix2 e c) = Spec.wrapWord (a (ix1 e)) := by
  unfold wrapCol
  rw [bcast_col (by decide) _ _ e c]
  exact Cert.Bridge.PreIdx.select_wrap _ _ a (ix1 e)

/-- A gather of a [40000, W] table at the wrapped index column, read at (e, j): the table's row the wrapped word
    names, when that word is in range. -/
theorem gather_wrap_apply {α : Type} {W : Nat} (d : GatherDims ⟨2, ![40000, W]⟩ ⟨2, ![640000, 1]⟩ ⟨2, ![640000, W]⟩)
    (hoff : d.offsetDims = [1]) (hcoll : d.collapsedSliceDims = [0]) (hob : d.operandBatchingDims = [])
    (hsim : d.startIndexMap = [0]) (hivd : d.indexVectorDim = 1)
    (x : (⟨2, ![40000, W]⟩ : Shape).Idx → α) (a : IVec S640000 32) (e : Fin 640000) (j : Fin W)
    (hr : 0 ≤ (Spec.wrapWord (a (ix1 e))).toInt ∧ (Spec.wrapWord (a (ix1 e))).toInt ≤ 39999) :
    Host.gather d x (wrapCol a) (ix2 e j) = x (ix2 (Spec.rowOf (a (ix1 e)) hr) j) := by
  have hw := wrapCol_apply a e 0
  rw [Cert.Bridge.GS.gather_apply_of_inRange d hoff hcoll hob hsim hivd x (wrapCol a) e j
    (by rw [hw]; exact hr.1) (by rw [hw]; have := hr.2; omega)]
  refine congrArg (fun r : Fin 40000 => x (ix2 r j)) (Fin.ext ?_)
  show (wrapCol a (ix2 e 0)).toInt.toNat = (Spec.wrapWord (a (ix1 e))).toInt.toNat
  rw [hw]

section Stages

variable (h : FVec Ideal S40000x64 .f32) (x : FVec Ideal S40000x3 .f32) (src dst : IVec S640000 32)
  (ef : FVec Ideal S640000x16 .f32) (w1 : FVec Ideal S145x64 .f32) (b1 : FVec Ideal S64 .f32)
  (w2 : FVec Ideal S64x64 .f32) (b2 : FVec Ideal S64 .f32) (c1 : FVec Ideal S64x64 .f32) (cb1 : FVec Ideal S64 .f32)
  (c2 : FVec Ideal S64x1 .f32)
  (hs : ∀ e : Fin 640000, 0 ≤ (Spec.wrapWord (src (ix1 e))).toInt ∧ (Spec.wrapWord (src (ix1 e))).toInt ≤ 39999)
  (hd : ∀ e : Fin 640000, 0 ≤ (Spec.wrapWord (dst (ix1 e))).toInt ∧ (Spec.wrapWord (dst (ix1 e))).toInt ≤ 39999)

/-- The coordinate difference at an edge and a lane. -/
theorem diffV_apply (e : Fin 640000) (k : Fin 3) :
    diffV x src dst (ix2 e k) = Spec.diff (fun k => x (ix2 (Spec.rowOf (src (ix1 e)) (hs e)) k)) (fun k => x (ix2 (Spec.rowOf (dst (ix1 e)) (hd e)) k)) k := by
  show Host.gather gather_S40000x3_S640000x1_S640000x3_1_0_n_n_0_1_13 x (wrapCol src) (ix2 e k) - Host.gather gather_S40000x3_S640000x1_S640000x3_1_0_n_n_0_1_13 x (wrapCol dst) (ix2 e k) = _
  rw [gather_wrap_apply _ rfl rfl rfl rfl rfl x src e k (hs e), gather_wrap_apply _ rfl rfl rfl rfl rfl x dst e k (hd e)]
  rfl

/-- The squared distance at an edge: the sum over the three lanes, the zero it starts from absorbed. -/
theorem radialV_apply (e : Fin 640000) (c : Fin 1) :
    radialV x src dst (ix2 e c) = Spec.radial (fun k => x (ix2 (Spec.rowOf (src (ix1 e)) (hs e)) k)) (fun k => x (ix2 (Spec.rowOf (dst (ix1 e)) (hd e)) k)) := by
  have hR : Shape.Reduces S640000x3 [1] S640000 := by decide
  show broadcastInDim S640000x1 ![0] bcast_S640000_S640000x1_0
      (Host.reduceAdd (mulf (diffV x src dst) (diffV x src dst)) (constant (F := Ideal) S_ .f32 0x00000000#32)
        reducesTo_S640000x3_S640000_d1 h_S_) (ix2 e c) = _
  rw [bcast_col (by decide) _ _ e c, hostReduceAdd_apply, Ideal.hostReduceAdd_single _ hR]
  show Ideal.ofBits .f32 0x00000000#32
      + ∑ k : Fin 3, diffV x src dst (hR.lift (ix1 e) k) * diffV x src dst (hR.lift (ix1 e) k) = _
  rw [Ideal.ofBits_zero_f32, zero_add]
  refine Finset.sum_congr rfl fun k _ => ?_
  have hl : hR.lift (ix1 e) k = ix2 e k := by
    funext a
    match a with
    | ⟨0, _⟩ => exact Fin.ext rfl
    | ⟨1, _⟩ => exact Fin.ext rfl
  rw [hl, diffV_apply x src dst hs hd e k]

/-- The normalised difference at an edge and a lane. -/
theorem unitV_apply (e : Fin 640000) (k : Fin 3) :
    unitV x src dst (ix2 e k) = Spec.unitDiff (fun k => x (ix2 (Spec.rowOf (src (ix1 e)) (hs e)) k)) (fun k => x (ix2 (Spec.rowOf (dst (ix1 e)) (hd e)) k)) k := by
  have h0 : unitV x src dst = Host.divf (diffV x src dst)
      (broadcastInDim S640000x3 ![0, 1] bcast_S640000x1_S640000x3_0_1
        (addf (Host.sqrt (radialV x src dst))
          (broadcastInDim S640000x1 ![] bcast_S_S640000x1 (constant (F := Ideal) S_ .f32 0x0DA24260#32)))) := rfl
  have hsq : ∀ (v : FVec Ideal S640000x1 .f32) (i : S640000x1.Idx), Host.sqrt v i = Ideal.sqrt (v i) := fun _ _ => rfl
  rw [h0, hostDivf_apply, bcast_lanes (by decide) _ _ e k, addf_apply, broadcastInDim_scalar_apply, hsq,
    diffV_apply x src dst hs hd e k, radialV_apply x src dst hs hd e 0]
  rfl

/-- The 145 features at an edge, by the four ranges of the feature number. -/
theorem featV_apply (e : Fin 640000) (k : Fin 145) :
    featV h x src dst ef (ix2 e k) = Spec.feat (fun k => h (ix2 (Spec.rowOf (src (ix1 e)) (hs e)) k)) (fun k => h (ix2 (Spec.rowOf (dst (ix1 e)) (hd e)) k)) (Spec.radial (fun k => x (ix2 (Spec.rowOf (src (ix1 e)) (hs e)) k)) (fun k => x (ix2 (Spec.rowOf (dst (ix1 e)) (hd e)) k))) (fun k => ef (ix2 e k)) k := by
  show concatenate S640000x145 1
      [⟨S640000x64, Host.gather gather_S40000x64_S640000x1_S640000x64_1_0_n_n_0_1_164 h (wrapCol src)⟩, ⟨S640000x64, Host.gather gather_S40000x64_S640000x1_S640000x64_1_0_n_n_0_1_164 h (wrapCol dst)⟩,
        ⟨S640000x1, radialV x src dst⟩, ⟨S640000x16, ef⟩]
      concatenates_S640000x64_S640000x64_S640000x1_S640000x16_S640000x145_d1 (ix2 e k) = _
  have hk := k.isLt
  unfold Spec.feat
  split
  · next h1 =>
    refine (concatenate_apply_piece 1 _ _ (ix2 e k) 0 (by show (0 : Nat) < 4; omega) S640000x64 _ rfl rfl 0 rfl (ix2 e ⟨k.val, h1⟩)
      (fun b hb => ?_) ?_).trans ?_
    · match b with
      | ⟨0, _⟩ => rfl
      | ⟨1, _⟩ => exact absurd rfl hb
    · show 0 + k.val = k.val
      omega
    · exact gather_wrap_apply _ rfl rfl rfl rfl rfl h src e _ (hs e)
  · next h1 =>
    split
    · next h2 =>
      refine (concatenate_apply_piece 1 _ _ (ix2 e k) 1 (by show (1 : Nat) < 4; omega) S640000x64 _ rfl rfl 64 rfl (ix2 e ⟨k.val - 64, by omega⟩)
        (fun b hb => ?_) ?_).trans ?_
      · match b with
        | ⟨0, _⟩ => rfl
        | ⟨1, _⟩ => exact absurd rfl hb
      · show 64 + (k.val - 64) = k.val
        omega
      · exact gather_wrap_apply _ rfl rfl rfl rfl rfl h dst e _ (hd e)
    · next h2 =>
      split
      · next h3 =>
        refine (concatenate_apply_piece 1 _ _ (ix2 e k) 2 (by show (2 : Nat) < 4; omega) S640000x1 _ rfl rfl 128 rfl (ix2 e 0)
          (fun b hb => ?_) ?_).trans ?_
        · match b with
          | ⟨0, _⟩ => rfl
          | ⟨1, _⟩ => exact absurd rfl hb
        · show 128 + 0 = k.val
          omega
        · exact radialV_apply x src dst hs hd e 0
      · next h3 =>
        refine concatenate_apply_piece 1 _ _ (ix2 e k) 3 (by show (3 : Nat) < 4; omega) S640000x16 _ rfl rfl 129 rfl (ix2 e ⟨k.val - 129, by omega⟩)
          (fun b hb => ?_) ?_
        · match b with
          | ⟨0, _⟩ => rfl
          | ⟨1, _⟩ => exact absurd rfl hb
        · show 129 + (k.val - 129) = k.val
          omega

/-- The activation at an element: t · logistic t, the two literal ones read as 1. -/
theorem siluV_apply (t : FVec Ideal S640000x64 .f32) (i : S640000x64.Idx) : siluV t i = Spec.silu (t i) := by
  show t i * Ideal.div (broadcastInDim S640000x64 ![] bcast_S_S640000x64 (constant (F := Ideal) S_ .f32 0x3F800000#32) i)
      (broadcastInDim S640000x64 ![] bcast_S_S640000x64 (constant (F := Ideal) S_ .f32 0x3F800000#32) i + Ideal.exp (-(t i))) = _
  rw [broadcastInDim_scalar_apply]
  show t i * Ideal.div (Ideal.ofBits .f32 0x3F800000#32) (Ideal.ofBits .f32 0x3F800000#32 + Ideal.exp (-(t i))) = _
  rw [Ideal.ofBits_one_f32]
  rfl

/-- The bias row at an edge and a column. -/
theorem biasV_apply (b : FVec Ideal S64 .f32) (e : Fin 640000) (j : Fin 64) : biasV b (ix2 e j) = b (ix1 j) :=
  bcast_rows (by decide) bcast_S64_S1x64_1 bcast_S1x64_S640000x64_0_1 b e j

/-- The feature network's first layer at an edge. -/
theorem hid1V_apply (e : Fin 640000) (j : Fin 64) :
    hid1V h x src dst ef w1 b1 (ix2 e j) = Spec.hid1 (lpR w1 b1 w2 b2 c1 cb1 c2) (fun k => h (ix2 (Spec.rowOf (src (ix1 e)) (hs e)) k)) (fun k => h (ix2 (Spec.rowOf (dst (ix1 e)) (hd e)) k)) (fun k => x (ix2 (Spec.rowOf (src (ix1 e)) (hs e)) k)) (fun k => x (ix2 (Spec.rowOf (dst (ix1 e)) (hd e)) k)) (fun k => ef (ix2 e k)) j := by
  rw [show hid1V h x src dst ef w1 b1
      = siluV (addf (Host.dotGeneral dot_S640000x145_S145x64_S640000x64_1_0_0_1_n_n none (featV h x src dst ef) w1) (biasV b1)) from rfl, siluV_apply]
  show Spec.silu (Host.dotGeneral dot_S640000x145_S145x64_S640000x64_1_0_0_1_n_n none (featV h x src dst ef) w1 (ix2 e j) + biasV b1 (ix2 e j)) = _
  rw [dot_apply _ rfl rfl rfl rfl rfl rfl, biasV_apply]
  unfold Spec.hid1
  refine congrArg (fun s => Spec.silu (s + b1 (ix1 j))) (Finset.sum_congr rfl fun k _ => ?_)
  rw [featV_apply h x src dst ef hs hd e k]
  rfl

/-- The feature message at an edge. -/
theorem msgHV_apply (e : Fin 640000) (j : Fin 64) :
    msgHV h x src dst ef w1 b1 w2 b2 (ix2 e j) = Spec.msgH (lpR w1 b1 w2 b2 c1 cb1 c2) (fun k => h (ix2 (Spec.rowOf (src (ix1 e)) (hs e)) k)) (fun k => h (ix2 (Spec.rowOf (dst (ix1 e)) (hd e)) k)) (fun k => x (ix2 (Spec.rowOf (src (ix1 e)) (hs e)) k)) (fun k => x (ix2 (Spec.rowOf (dst (ix1 e)) (hd e)) k)) (fun k => ef (ix2 e k)) j := by
  rw [show msgHV h x src dst ef w1 b1 w2 b2
      = siluV (addf (Host.dotGeneral dot_S640000x64_S64x64_S640000x64_1_0_0_1_n_n none (hid1V h x src dst ef w1 b1) w2) (biasV b2)) from rfl, siluV_apply]
  show Spec.silu (Host.dotGeneral dot_S640000x64_S64x64_S640000x64_1_0_0_1_n_n none (hid1V h x src dst ef w1 b1) w2 (ix2 e j) + biasV b2 (ix2 e j)) = _
  rw [dot_apply _ rfl rfl rfl rfl rfl rfl, biasV_apply]
  unfold Spec.msgH
  refine congrArg (fun s => Spec.silu (s + b2 (ix1 j))) (Finset.sum_congr rfl fun k _ => ?_)
  rw [hid1V_apply h x src dst ef w1 b1 w2 b2 c1 cb1 c2 hs hd e k]
  rfl

/-- The coordinate network's hidden layer at an edge. -/
theorem hid3V_apply (e : Fin 640000) (j : Fin 64) :
    hid3V h x src dst ef w1 b1 w2 b2 c1 cb1 (ix2 e j) = Spec.hid3 (lpR w1 b1 w2 b2 c1 cb1 c2) (fun k => h (ix2 (Spec.rowOf (src (ix1 e)) (hs e)) k)) (fun k => h (ix2 (Spec.rowOf (dst (ix1 e)) (hd e)) k)) (fun k => x (ix2 (Spec.rowOf (src (ix1 e)) (hs e)) k)) (fun k => x (ix2 (Spec.rowOf (dst (ix1 e)) (hd e)) k)) (fun k => ef (ix2 e k)) j := by
  rw [show hid3V h x src dst ef w1 b1 w2 b2 c1 cb1
      = siluV (addf (Host.dotGeneral dot_S640000x64_S64x64_S640000x64_1_0_0_1_n_n none (msgHV h x src dst ef w1 b1 w2 b2) c1) (biasV cb1)) from rfl, siluV_apply]
  show Spec.silu (Host.dotGeneral dot_S640000x64_S64x64_S640000x64_1_0_0_1_n_n none (msgHV h x src dst ef w1 b1 w2 b2) c1 (ix2 e j) + biasV cb1 (ix2 e j)) = _
  rw [dot_apply _ rfl rfl rfl rfl rfl rfl, biasV_apply]
  unfold Spec.hid3
  refine congrArg (fun s => Spec.silu (s + cb1 (ix1 j))) (Finset.sum_congr rfl fun k _ => ?_)
  rw [msgHV_apply h x src dst ef w1 b1 w2 b2 c1 cb1 c2 hs hd e k]
  rfl

/-- The coordinate message at an edge and a lane. -/
theorem msgXV_apply (e : Fin 640000) (k : Fin 3) :
    msgXV h x src dst ef w1 b1 w2 b2 c1 cb1 c2 (ix2 e k) = Spec.msgX (lpR w1 b1 w2 b2 c1 cb1 c2) (fun k => h (ix2 (Spec.rowOf (src (ix1 e)) (hs e)) k)) (fun k => h (ix2 (Spec.rowOf (dst (ix1 e)) (hd e)) k)) (fun k => x (ix2 (Spec.rowOf (src (ix1 e)) (hs e)) k)) (fun k => x (ix2 (Spec.rowOf (dst (ix1 e)) (hd e)) k)) (fun k => ef (ix2 e k)) k := by
  show broadcastInDim S640000x3 ![0, 1] bcast_S640000x1_S640000x3_0_1
      (Host.dotGeneral dot_S640000x64_S64x1_S640000x1_1_0_0_1_n_n none (hid3V h x src dst ef w1 b1 w2 b2 c1 cb1) c2) (ix2 e k) * unitV x src dst (ix2 e k) = _
  rw [bcast_lanes (by decide) _ _ e k, dot_apply _ rfl rfl rfl rfl rfl rfl, unitV_apply x src dst hs hd e k]
  unfold Spec.msgX Spec.coef
  refine congrArg (fun s => s * Spec.unitDiff (fun k => x (ix2 (Spec.rowOf (src (ix1 e)) (hs e)) k)) (fun k => x (ix2 (Spec.rowOf (dst (ix1 e)) (hd e)) k)) k) (Finset.sum_congr rfl fun i _ => ?_)
  rw [hid3V_apply h x src dst ef w1 b1 w2 b2 c1 cb1 c2 hs hd e i]
  rfl

/-- The index column the sums are taken at: the destination words themselves. -/
theorem dstCol_apply (e : Fin 640000) (c : Fin 1) :
    broadcastInDim S640000x1 ![0] bcast_S640000_S640000x1_0 dst (ix2 e c) = dst (ix1 e) :=
  bcast_col (by decide) _ dst e c

end Stages

/-- **The summed feature messages.** Node n receives, at column j, the sum of the feature message over the edges whose
    destination word, read signed, is n; the zero the sum starts from is absorbed. -/
theorem edgeH_eq {h : FVec Ideal S40000x64 .f32} {x : FVec Ideal S40000x3 .f32} {src dst : IVec S640000 32}
    {ef : FVec Ideal S640000x16 .f32} {w1 : FVec Ideal S145x64 .f32} {b1 : FVec Ideal S64 .f32}
    {w2 : FVec Ideal S64x64 .f32} {b2 : FVec Ideal S64 .f32} {c1 : FVec Ideal S64x64 .f32} {cb1 : FVec Ideal S64 .f32}
    {c2 : FVec Ideal S64x1 .f32}
    (hs : ∀ e : Fin 640000, 0 ≤ (Spec.wrapWord (src (ix1 e))).toInt ∧ (Spec.wrapWord (src (ix1 e))).toInt ≤ 39999)
    (hd : ∀ e : Fin 640000, 0 ≤ (Spec.wrapWord (dst (ix1 e))).toInt ∧ (Spec.wrapWord (dst (ix1 e))).toInt ≤ 39999)
    (n : Fin 40000) (j : Fin 64) :
    edgeH h x src dst ef w1 b1 w2 b2 c1 cb1 c2 (ix2 n j)
      = Spec.agg (fun e => dst (ix1 e)) (fun e j => Spec.msgH (lpR w1 b1 w2 b2 c1 cb1 c2) (fun k => h (ix2 (Spec.rowOf (src (ix1 e)) (hs e)) k)) (fun k => h (ix2 (Spec.rowOf (dst (ix1 e)) (hd e)) k)) (fun k => x (ix2 (Spec.rowOf (src (ix1 e)) (hs e)) k)) (fun k => x (ix2 (Spec.rowOf (dst (ix1 e)) (hd e)) k)) (fun k => ef (ix2 e k)) j) n j := by
  show Host.scatterAdd scatter_S40000x64_S640000x1_S640000x64_1_0_0_1
      (broadcastInDim S40000x64 ![] bcast_S_S40000x64 (constant (F := Ideal) S_ .f32 0x00000000#32))
      (broadcastInDim S640000x1 ![0] bcast_S640000_S640000x1_0 dst) (msgHV h x src dst ef w1 b1 w2 b2) (ix2 n j) = _
  rw [Cert.Bridge.GS.scatterAdd_apply _ rfl rfl rfl rfl, broadcastInDim_scalar_apply]
  show Ideal.ofBits .f32 0x00000000#32 + _ = _
  rw [Ideal.ofBits_zero_f32, zero_add]
  unfold Spec.agg
  exact Finset.sum_congr (Finset.filter_congr fun e _ => by rw [dstCol_apply dst e 0])
    fun e _ => msgHV_apply h x src dst ef w1 b1 w2 b2 c1 cb1 c2 hs hd e j

/-- **The summed coordinate messages.** Node n receives, at lane k, the sum of the coordinate message over the edges
    whose destination word, read signed, is n. -/
theorem edgeX_eq {h : FVec Ideal S40000x64 .f32} {x : FVec Ideal S40000x3 .f32} {src dst : IVec S640000 32}
    {ef : FVec Ideal S640000x16 .f32} {w1 : FVec Ideal S145x64 .f32} {b1 : FVec Ideal S64 .f32}
    {w2 : FVec Ideal S64x64 .f32} {b2 : FVec Ideal S64 .f32} {c1 : FVec Ideal S64x64 .f32} {cb1 : FVec Ideal S64 .f32}
    {c2 : FVec Ideal S64x1 .f32}
    (hs : ∀ e : Fin 640000, 0 ≤ (Spec.wrapWord (src (ix1 e))).toInt ∧ (Spec.wrapWord (src (ix1 e))).toInt ≤ 39999)
    (hd : ∀ e : Fin 640000, 0 ≤ (Spec.wrapWord (dst (ix1 e))).toInt ∧ (Spec.wrapWord (dst (ix1 e))).toInt ≤ 39999)
    (n : Fin 40000) (k : Fin 3) :
    edgeX h x src dst ef w1 b1 w2 b2 c1 cb1 c2 (ix2 n k)
      = Spec.agg (fun e => dst (ix1 e)) (fun e k => Spec.msgX (lpR w1 b1 w2 b2 c1 cb1 c2) (fun k => h (ix2 (Spec.rowOf (src (ix1 e)) (hs e)) k)) (fun k => h (ix2 (Spec.rowOf (dst (ix1 e)) (hd e)) k)) (fun k => x (ix2 (Spec.rowOf (src (ix1 e)) (hs e)) k)) (fun k => x (ix2 (Spec.rowOf (dst (ix1 e)) (hd e)) k)) (fun k => ef (ix2 e k)) k) n k := by
  show Host.scatterAdd scatter_S40000x3_S640000x1_S640000x3_1_0_0_1
      (broadcastInDim S40000x3 ![] bcast_S_S40000x3 (constant (F := Ideal) S_ .f32 0x00000000#32))
      (broadcastInDim S640000x1 ![0] bcast_S640000_S640000x1_0 dst) (msgXV h x src dst ef w1 b1 w2 b2 c1 cb1 c2) (ix2 n k) = _
  rw [Cert.Bridge.GS.scatterAdd_apply _ rfl rfl rfl rfl, broadcastInDim_scalar_apply]
  show Ideal.ofBits .f32 0x00000000#32 + _ = _
  rw [Ideal.ofBits_zero_f32, zero_add]
  unfold Spec.agg
  exact Finset.sum_congr (Finset.filter_congr fun e _ => by rw [dstCol_apply dst e 0])
    fun e _ => msgXV_apply h x src dst ef w1 b1 w2 b2 c1 cb1 c2 hs hd e k

end Cert.Bridge.REdge

end
-- ==== Proof.Join.lean ====
/-
  One layer's edge stage, kernel program against reference, as whole arrays. If the packed [640000,128] array reads,
  row by row, as the body's row formula of the gathered rows of the table [h | x] (the first region's or the second's
  result array does), then its per-node sum, cut into its feature columns and its coordinate columns, is the
  reference's summed feature messages and summed coordinate messages of the same h, x, indices, edge attributes and
  layer parameters. Both sides are the specification's sums over the edges into a node; the two programs' parameter
  slices meet as one parameter record.
-/
import proofs.«409836_j4174708212115_3_alg».proof.Proof.KEdge
import proofs.«409836_j4174708212115_3_alg».proof.Proof.REdge

noncomputable section

namespace Cert.Bridge.Join

open Idealize.ShloMosaic Idealize.ShloMosaic.ValueIdx
open Cert.Bridge
open Cert.Bridge.Tail

variable (h : FVec Ideal S40000x64 .f32) (x : FVec Ideal S40000x3 .f32) (src dst : IVec S640000 32)
  (ef : FVec Ideal S640000x16 .f32) (PK : Spec.LP) (pk : FVec Ideal S640000x128 .f32)
  (w1 : FVec Ideal S145x64 .f32) (b1 : FVec Ideal S64 .f32) (w2 : FVec Ideal S64x64 .f32) (b2 : FVec Ideal S64 .f32)
  (c1 : FVec Ideal S64x64 .f32) (cb1 : FVec Ideal S64 .f32) (c2 : FVec Ideal S64x1 .f32)
  (hs : ∀ e : Fin 640000, 0 ≤ (Spec.wrapWord (src (ix1 e))).toInt ∧ (Spec.wrapWord (src (ix1 e))).toInt ≤ 39999)
  (hd : ∀ e : Fin 640000, 0 ≤ (Spec.wrapWord (dst (ix1 e))).toInt ∧ (Spec.wrapWord (dst (ix1 e))).toInt ≤ 39999)
  (hpk : ∀ (e : Fin 640000) (j : Fin 128), pk (ix2 e j) = KRow.packedRow PK
      (fun k : Fin 64 => takeK (tableOf h x) src (ix2 e ⟨k.val, by omega⟩))
      (fun k : Fin 64 => takeK (tableOf h x) dst (ix2 e ⟨k.val, by omega⟩))
      (fun k : Fin 3 => takeK (tableOf h x) src (ix2 e ⟨64 + k.val, by omega⟩))
      (fun k : Fin 3 => takeK (tableOf h x) dst (ix2 e ⟨64 + k.val, by omega⟩))
      (fun k => ef (ix2 e k)) j)
  (hP : PK = REdge.lpR w1 b1 w2 b2 c1 cb1 c2)

include hs hd hpk hP in
/-- The feature columns of the summed packed rows are the reference's summed feature messages. -/
theorem featPart_eq :
    featPart (sumPacked dst pk) = REdge.edgeH h x src dst ef w1 b1 w2 b2 c1 cb1 c2 := by
  funext i
  obtain ⟨n, j, rfl⟩ : ∃ (n : Fin 40000) (j : Fin 64), i = ix2 n j := ⟨i 0, i 1, eq_ix2 i⟩
  rw [KEdge.edgeH_K h x src dst ef PK pk hs hd hpk n j, REdge.edgeH_eq hs hd n j, hP]

include hs hd hpk hP in
/-- The coordinate columns of the summed packed rows are the reference's summed coordinate messages. -/
theorem coordPart_eq :
    coordPart (sumPacked dst pk) = REdge.edgeX h x src dst ef w1 b1 w2 b2 c1 cb1 c2 := by
  funext i
  obtain ⟨n, k, rfl⟩ : ∃ (n : Fin 40000) (k : Fin 3), i = ix2 n k := ⟨i 0, i 1, eq_ix2 i⟩
  rw [KEdge.edgeX_K h x src dst ef PK pk hs hd hpk n k, REdge.edgeX_eq hs hd n k, hP]

end Cert.Bridge.Join

end
-- ==== Proof.Final.lean ====
/-
  Two layers, kernel program against reference, as one equation between result terms. Layer 0 turns (h, x) = (the node
  features, the positions) into (h₁, x₁); layer 1 turns (h₁, x₁) into h₂; the result is (0 + h₁) + h₂. In each layer
  the two programs differ only in how the per-node sums of the edge messages are produced; the join of one layer
  applied twice, the second time at the first layer's outputs, makes the two result terms one.
-/
import proofs.«409836_j4174708212115_3_alg».proof.Proof.Join

noncomputable section

namespace Cert.Bridge.Final

open Idealize.ShloMosaic Idealize.ShloMosaic.ValueIdx
open Cert.Bridge
open Cert.Bridge.Tail

variable (a0 : FVec Ideal S40000x64 .f32) (a1 : FVec Ideal S40000x3 .f32) (a2 : FVec Ideal S640000x16 .f32)
  (a3 a4 : IVec S640000 32)
  (a5 : FVec Ideal S2x145x64 .f32) (a6 : FVec Ideal S2x64 .f32) (a7 : FVec Ideal S2x64x64 .f32) (a8 : FVec Ideal S2x64 .f32)
  (a9 : FVec Ideal S2x64x64 .f32) (a10 : FVec Ideal S2x64 .f32) (a11 : FVec Ideal S2x64x1 .f32)
  (a12 : FVec Ideal S2x128x64 .f32) (a13 : FVec Ideal S2x64 .f32) (a14 : FVec Ideal S2x64x64 .f32) (a15 : FVec Ideal S2x64 .f32)
  (a16 a17 : FVec Ideal S2x64 .f32)
  (z : FVec Ideal S40000x64 .f32)
  (P0 P1 : FVec Ideal S640000x128 .f32)

/-- The kernel program's node features after layer 0, from the first region's result array. -/
abbrev h1K : FVec Ideal S40000x64 .f32 :=
  nodeNet a0 (featPart (sumPacked a4 P0)) (nw1_0 a12) (nb1_0 a13) (nw2_0 a14) (nb2_0 a15) (gamma_0 a16) (beta_0 a17)
/-- The kernel program's positions after layer 0. -/
abbrev x1K : FVec Ideal S40000x3 .f32 := newX a1 (coordPart (sumPacked a4 P0)) (degOf a4)
/-- The kernel program's result term. -/
abbrev outK : FVec Ideal S40000x64 .f32 :=
  addf (addf z (h1K a0 a4 a12 a13 a14 a15 a16 a17 P0))
    (nodeNet (h1K a0 a4 a12 a13 a14 a15 a16 a17 P0) (featPart (sumPacked a4 P1)) (nw1_1 a12) (nb1_1 a13) (nw2_1 a14) (nb2_1 a15)
      (gamma_1 a16) (beta_1 a17))

variable (w1_0 : FVec Ideal S145x64 .f32) (b1_0 : FVec Ideal S64 .f32) (w2_0 : FVec Ideal S64x64 .f32) (b2_0 : FVec Ideal S64 .f32)
  (c1_0 : FVec Ideal S64x64 .f32) (cb1_0' : FVec Ideal S64 .f32) (c2_0 : FVec Ideal S64x1 .f32)
  (w1_1 : FVec Ideal S145x64 .f32) (b1_1 : FVec Ideal S64 .f32) (w2_1 : FVec Ideal S64x64 .f32) (b2_1 : FVec Ideal S64 .f32)
  (c1_1 : FVec Ideal S64x64 .f32) (cb1_1' : FVec Ideal S64 .f32) (c2_1 : FVec Ideal S64x1 .f32)

/-- The reference's node features after layer 0. -/
abbrev h1R : FVec Ideal S40000x64 .f32 :=
  nodeNet a0 (REdge.edgeH a0 a1 a3 a4 a2 w1_0 b1_0 w2_0 b2_0 c1_0 cb1_0' c2_0) (nw1_0 a12) (nb1_0 a13) (nw2_0 a14) (nb2_0 a15)
    (gamma_0 a16) (beta_0 a17)
/-- The reference's positions after layer 0. -/
abbrev x1R : FVec Ideal S40000x3 .f32 :=
  newX a1 (REdge.edgeX a0 a1 a3 a4 a2 w1_0 b1_0 w2_0 b2_0 c1_0 cb1_0' c2_0) (degOf a4)
/-- The reference's result term. -/
abbrev outR : FVec Ideal S40000x64 .f32 :=
  addf (addf z (h1R a0 a1 a2 a3 a4 a12 a13 a14 a15 a16 a17 w1_0 b1_0 w2_0 b2_0 c1_0 cb1_0' c2_0))
    (nodeNet (h1R a0 a1 a2 a3 a4 a12 a13 a14 a15 a16 a17 w1_0 b1_0 w2_0 b2_0 c1_0 cb1_0' c2_0)
      (REdge.edgeH (h1R a0 a1 a2 a3 a4 a12 a13 a14 a15 a16 a17 w1_0 b1_0 w2_0 b2_0 c1_0 cb1_0' c2_0)
        (x1R a0 a1 a2 a3 a4 w1_0 b1_0 w2_0 b2_0 c1_0 cb1_0' c2_0) a3 a4 a2 w1_1 b1_1 w2_1 b2_1 c1_1 cb1_1' c2_1)
      (nw1_1 a12) (nb1_1 a13) (nw2_1 a14) (nb2_1 a15) (gamma_1 a16) (beta_1 a17))

/-- If both regions' result arrays read row by row as the body's row formula of the rows gathered from the table of
    the layer's inputs, and the reference's parameter slices read as the stacked parameters' layers, the two programs'
    result terms are equal. -/
theorem out_eq
    (hs : ∀ e : Fin 640000, 0 ≤ (Spec.wrapWord (a3 (ix1 e))).toInt ∧ (Spec.wrapWord (a3 (ix1 e))).toInt ≤ 39999)
    (hd : ∀ e : Fin 640000, 0 ≤ (Spec.wrapWord (a4 (ix1 e))).toInt ∧ (Spec.wrapWord (a4 (ix1 e))).toInt ≤ 39999)
    (hP0 : ∀ (e : Fin 640000) (j : Fin 128), P0 (ix2 e j) = KRow.packedRow
      (KRow.lpK (ew1hs0 a5) (ew1hd0 a5) (ew1rad0 a5) (ew1ef0 a5) (eb1_0 a6) (ew2_0 a7) (eb2_0 a8) (cw1_0 a9) (cb1_0 a10) (cw2_0 a11))
      (fun k : Fin 64 => takeK (tableOf a0 a1) a3 (ix2 e ⟨k.val, by omega⟩))
      (fun k : Fin 64 => takeK (tableOf a0 a1) a4 (ix2 e ⟨k.val, by omega⟩))
      (fun k : Fin 3 => takeK (tableOf a0 a1) a3 (ix2 e ⟨64 + k.val, by omega⟩))
      (fun k : Fin 3 => takeK (tableOf a0 a1) a4 (ix2 e ⟨64 + k.val, by omega⟩))
      (fun k => a2 (ix2 e k)) j)
    (hP1 : ∀ (e : Fin 640000) (j : Fin 128), P1 (ix2 e j) = KRow.packedRow
      (KRow.lpK (ew1hs1 a5) (ew1hd1 a5) (ew1rad1 a5) (ew1ef1 a5) (eb1_1 a6) (ew2_1 a7) (eb2_1 a8) (cw1_1 a9) (cb1_1 a10) (cw2_1 a11))
      (fun k : Fin 64 => takeK (tableOf (h1K a0 a4 a12 a13 a14 a15 a16 a17 P0) (x1K a1 a4 P0)) a3 (ix2 e ⟨k.val, by omega⟩))
      (fun k : Fin 64 => takeK (tableOf (h1K a0 a4 a12 a13 a14 a15 a16 a17 P0) (x1K a1 a4 P0)) a4 (ix2 e ⟨k.val, by omega⟩))
      (fun k : Fin 3 => takeK (tableOf (h1K a0 a4 a12 a13 a14 a15 a16 a17 P0) (x1K a1 a4 P0)) a3 (ix2 e ⟨64 + k.val, by omega⟩))
      (fun k : Fin 3 => takeK (tableOf (h1K a0 a4 a12 a13 a14 a15 a16 a17 P0) (x1K a1 a4 P0)) a4 (ix2 e ⟨64 + k.val, by omega⟩))
      (fun k => a2 (ix2 e k)) j)
    (hR0 : REdge.lpR w1_0 b1_0 w2_0 b2_0 c1_0 cb1_0' c2_0 = Spec.lpOf 0 a5 a6 a7 a8 a9 a10 a11)
    (hR1 : REdge.lpR w1_1 b1_1 w2_1 b2_1 c1_1 cb1_1' c2_1 = Spec.lpOf 1 a5 a6 a7 a8 a9 a10 a11) :
    outK a0 a4 a12 a13 a14 a15 a16 a17 z P0 P1
      = outR a0 a1 a2 a3 a4 a12 a13 a14 a15 a16 a17 z w1_0 b1_0 w2_0 b2_0 c1_0 cb1_0' c2_0 w1_1 b1_1 w2_1 b2_1 c1_1 cb1_1' c2_1 := by
  have e0H := Join.featPart_eq a0 a1 a3 a4 a2 _ P0 w1_0 b1_0 w2_0 b2_0 c1_0 cb1_0' c2_0 hs hd hP0
    ((KEdge.lpK_slices0 a5 a6 a7 a8 a9 a10 a11).trans hR0.symm)
  have e0X := Join.coordPart_eq a0 a1 a3 a4 a2 _ P0 w1_0 b1_0 w2_0 b2_0 c1_0 cb1_0' c2_0 hs hd hP0
    ((KEdge.lpK_slices0 a5 a6 a7 a8 a9 a10 a11).trans hR0.symm)
  have e1H := Join.featPart_eq (h1K a0 a4 a12 a13 a14 a15 a16 a17 P0) (x1K a1 a4 P0) a3 a4 a2 _ P1
    w1_1 b1_1 w2_1 b2_1 c1_1 cb1_1' c2_1 hs hd hP1 ((KEdge.lpK_slices1 a5 a6 a7 a8 a9 a10 a11).trans hR1.symm)
  show addf (addf z (h1K a0 a4 a12 a13 a14 a15 a16 a17 P0)) (nodeNet (h1K a0 a4 a12 a13 a14 a15 a16 a17 P0) (featPart (sumPacked a4 P1)) _ _ _ _ _ _) = _
  rw [e1H]
  have hh : h1K a0 a4 a12 a13 a14 a15 a16 a17 P0
      = h1R a0 a1 a2 a3 a4 a12 a13 a14 a15 a16 a17 w1_0 b1_0 w2_0 b2_0 c1_0 cb1_0' c2_0 := by
    show nodeNet a0 (featPart (sumPacked a4 P0)) _ _ _ _ _ _ = _
    rw [e0H]
  have hx : x1K a1 a4 P0 = x1R a0 a1 a2 a3 a4 w1_0 b1_0 w2_0 b2_0 c1_0 cb1_0' c2_0 := by
    show newX a1 (coordPart (sumPacked a4 P0)) _ = _
    rw [e0X]
  rw [hh, hx]

end Cert.Bridge.Final

end
-- ==== Proof.KVal.lean ====
/-
  The dataflow facts of `KRead` at the ideal reals, in the shapes the two-layer join of `Final` takes them:
  the result array is `Final.outK` of the launch contents, the zero array and the two edge stages' outputs; each
  edge stage's operands at its entry are `Tail`'s functions of the launch contents (the second stage's through
  `Final.h1K` and `Final.x1K`). Nothing is proved here beyond naming: each statement is `KRead`'s, its
  abbreviations being the same terms.
-/
import proofs.«409836_j4174708212115_3_alg».proof.Proof.KRead
import proofs.«409836_j4174708212115_3_alg».proof.Proof.Final

set_option maxRecDepth 16384

noncomputable section

namespace Cert.Bridge.KVal

open Idealize.ShloMosaic Idealize.ShloMosaic.TcCoe
open Idealize.SL.Sem
open Cert.KernelIdeal Cert.KernelIdeal.Gen
open Cert.Bridge

variable (m : (ℓ : Loc nD τ sig) → Buf (Elt Ideal) ℓ) (ρ : Dev nD → PrngReg)

/-! ## The first edge stage's operands at its entry -/

theorem v7_eq (c : Dev nD) : V4 m ρ c main_v7 = Tail.takeK (Tail.tableOf (KRead.a0 m c) (KRead.a1 m c)) (KRead.a3 m c) := KRead.W4_v7 m ρ c
theorem v8_eq (c : Dev nD) : V4 m ρ c main_v8 = Tail.takeK (Tail.tableOf (KRead.a0 m c) (KRead.a1 m c)) (KRead.a4 m c) := KRead.W4_v8 m ρ c
theorem v5_eq (c : Dev nD) : V4 m ρ c main_v5 = KOps.efBf (KRead.a2 m c) := KRead.W4_v5 m ρ c
theorem v11_eq (c : Dev nD) : V4 m ρ c main_v11 = Tail.ew1hs0 (KRead.a5 m c) := KRead.W4_v11 m ρ c
theorem v12_eq (c : Dev nD) : V4 m ρ c main_v12 = Tail.ew1hd0 (KRead.a5 m c) := KRead.W4_v12 m ρ c
theorem v13_eq (c : Dev nD) : V4 m ρ c main_v13 = Tail.ew1rad0 (KRead.a5 m c) := KRead.W4_v13 m ρ c
theorem v14_eq (c : Dev nD) : V4 m ρ c main_v14 = Tail.ew1ef0 (KRead.a5 m c) := KRead.W4_v14 m ρ c
theorem v17_eq (c : Dev nD) : V4 m ρ c main_v17 = Tail.eb1_0 (KRead.a6 m c) := KRead.W4_v17 m ρ c
theorem v19_eq (c : Dev nD) : V4 m ρ c main_v19 = Tail.ew2_0 (KRead.a7 m c) := KRead.W4_v19 m ρ c
theorem v22_eq (c : Dev nD) : V4 m ρ c main_v22 = Tail.eb2_0 (KRead.a8 m c) := KRead.W4_v22 m ρ c
theorem v24_eq (c : Dev nD) : V4 m ρ c main_v24 = Tail.cw1_0 (KRead.a9 m c) := KRead.W4_v24 m ρ c
theorem v27_eq (c : Dev nD) : V4 m ρ c main_v27 = Tail.cb1_0 (KRead.a10 m c) := KRead.W4_v27 m ρ c
theorem v29_eq (c : Dev nD) : V4 m ρ c main_v29 = Tail.cw2_0 (KRead.a11 m c) := KRead.W4_v29 m ρ c

/-! ## The second edge stage's operands at its entry -/

theorem v85_eq (c : Dev nD) : V15 m ρ c main_v85 = Tail.takeK (Tail.tableOf (Final.h1K (KRead.a0 m c) (KRead.a4 m c) (KRead.a12 m c) (KRead.a13 m c) (KRead.a14 m c) (KRead.a15 m c) (KRead.a16 m c) (KRead.a17 m c) (KRead.P0 m ρ c)) (Final.x1K (KRead.a1 m c) (KRead.a4 m c) (KRead.P0 m ρ c))) (KRead.a3 m c) := KRead.W15_v85 m ρ c
theorem v86_eq (c : Dev nD) : V15 m ρ c main_v86 = Tail.takeK (Tail.tableOf (Final.h1K (KRead.a0 m c) (KRead.a4 m c) (KRead.a12 m c) (KRead.a13 m c) (KRead.a14 m c) (KRead.a15 m c) (KRead.a16 m c) (KRead.a17 m c) (KRead.P0 m ρ c)) (Final.x1K (KRead.a1 m c) (KRead.a4 m c) (KRead.P0 m ρ c))) (KRead.a4 m c) := KRead.W15_v86 m ρ c
theorem v5_eq1 (c : Dev nD) : V15 m ρ c main_v5 = KOps.efBf (KRead.a2 m c) := KRead.W15_v5 m ρ c
theorem v89_eq (c : Dev nD) : V15 m ρ c main_v89 = Tail.ew1hs1 (KRead.a5 m c) := KRead.W15_v89 m ρ c
theorem v90_eq (c : Dev nD) : V15 m ρ c main_v90 = Tail.ew1hd1 (KRead.a5 m c) := KRead.W15_v90 m ρ c
theorem v91_eq (c : Dev nD) : V15 m ρ c main_v91 = Tail.ew1rad1 (KRead.a5 m c) := KRead.W15_v91 m ρ c
theorem v92_eq (c : Dev nD) : V15 m ρ c main_v92 = Tail.ew1ef1 (KRead.a5 m c) := KRead.W15_v92 m ρ c
theorem v95_eq (c : Dev nD) : V15 m ρ c main_v95 = Tail.eb1_1 (KRead.a6 m c) := KRead.W15_v95 m ρ c
theorem v97_eq (c : Dev nD) : V15 m ρ c main_v97 = Tail.ew2_1 (KRead.a7 m c) := KRead.W15_v97 m ρ c
theorem v100_eq (c : Dev nD) : V15 m ρ c main_v100 = Tail.eb2_1 (KRead.a8 m c) := KRead.W15_v100 m ρ c
theorem v102_eq (c : Dev nD) : V15 m ρ c main_v102 = Tail.cw1_1 (KRead.a9 m c) := KRead.W15_v102 m ρ c
theorem v105_eq (c : Dev nD) : V15 m ρ c main_v105 = Tail.cb1_1 (KRead.a10 m c) := KRead.W15_v105 m ρ c
theorem v107_eq (c : Dev nD) : V15 m ρ c main_v107 = Tail.cw2_1 (KRead.a11 m c) := KRead.W15_v107 m ρ c

/-! ## The result -/

/-- The result array at the end is the kernel program's result term. -/
theorem kval (c : Dev nD) : W23 m ρ c (Proc.devRef .tc main_v161)
    = Final.outK (KRead.a0 m c) (KRead.a4 m c) (KRead.a12 m c) (KRead.a13 m c) (KRead.a14 m c) (KRead.a15 m c) (KRead.a16 m c) (KRead.a17 m c) KOps.zerosH (KRead.P0 m ρ c) (KRead.P1 m ρ c) :=
  KRead.W23_v161 m ρ c

end Cert.Bridge.KVal
-- ==== Proof.Region.lean ====
import proofs.«409836_j4174708212115_3_alg».proof.Proof.Gen.KernelIdeal.Frame
import Idealize.ShloMosaic.Lib.Pipeline.Value
import Idealize.ShloMosaic.Lib.ValueIdx

/-! # The first edge-kernel call, element by element

The call's grid has 100 points. Point `s` reads rows `6400·s … 6400·s + 6399` of the three edge arrays (two
[640000,67] arrays of gathered node rows and the [640000,16] edge features), the ten weight arrays whole, and writes rows
`6400·s … 6400·s + 6399` of the [640000,128] result. So after the call, row `e` of the result is what point `e / 6400`
computes at row `e % 6400` of its block, from blocks that are rows of the arrays the call found. -/

noncomputable section

namespace Cert.Bridge.Region

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)
variable (V : (c : Dev nD) → (b : Ref sig .tc) → Buf (Elt F) ((c : Thread nD τ).loc b))

/-! ## The grid and the index maps -/

/-- A point of the grid from its number. -/
abbrev gp0 (t : Fin 100) : Fin cfg0.N := ⟨t.val, by rw [show cfg0.N = 100 from N_0]; exact t.isLt⟩

/-- A point's number is below 100. -/
theorem gp0_lt (s : Fin cfg0.N) : s.val < 100 := Nat.lt_of_lt_of_le s.isLt (show cfg0.N = 100 from N_0).le

/-- Row `r` of point `s`'s block is a row of the 640000. -/
theorem row0_lt (s : Fin cfg0.N) (r : Fin 6400) : 6400 * s.val + r.val < 640000 := by
  have := gp0_lt s; omega

/-- The printed index maps, decided over the grid: the three edge inputs and the result sit at block `(s, 0)`, -/
theorem idx0_0 : ∀ s : Fin cfg0.N, win0_0.index s (0 : Fin 2) = s.val ∧ win0_0.index s (1 : Fin 2) = 0 :=
  (by decide +kernel : ∀ s : Fin grid0.N, _)
theorem idx0_1 : ∀ s : Fin cfg0.N, win0_1.index s (0 : Fin 2) = s.val ∧ win0_1.index s (1 : Fin 2) = 0 :=
  (by decide +kernel : ∀ s : Fin grid0.N, _)
theorem idx0_2 : ∀ s : Fin cfg0.N, win0_2.index s (0 : Fin 2) = s.val ∧ win0_2.index s (1 : Fin 2) = 0 :=
  (by decide +kernel : ∀ s : Fin grid0.N, _)
theorem idx0_13 : ∀ s : Fin cfg0.N, win0_13.index s (0 : Fin 2) = s.val ∧ win0_13.index s (1 : Fin 2) = 0 :=
  (by decide +kernel : ∀ s : Fin grid0.N, _)
/-- and the ten weight windows at block `(0, 0)`. -/
theorem idx0_3 : ∀ s : Fin cfg0.N, win0_3.index s (0 : Fin 2) = 0 ∧ win0_3.index s (1 : Fin 2) = 0 :=
  (by decide +kernel : ∀ s : Fin grid0.N, _)
theorem idx0_4 : ∀ s : Fin cfg0.N, win0_4.index s (0 : Fin 2) = 0 ∧ win0_4.index s (1 : Fin 2) = 0 :=
  (by decide +kernel : ∀ s : Fin grid0.N, _)
theorem idx0_5 : ∀ s : Fin cfg0.N, win0_5.index s (0 : Fin 2) = 0 ∧ win0_5.index s (1 : Fin 2) = 0 :=
  (by decide +kernel : ∀ s : Fin grid0.N, _)
theorem idx0_6 : ∀ s : Fin cfg0.N, win0_6.index s (0 : Fin 2) = 0 ∧ win0_6.index s (1 : Fin 2) = 0 :=
  (by decide +kernel : ∀ s : Fin grid0.N, _)
theorem idx0_7 : ∀ s : Fin cfg0.N, win0_7.index s (0 : Fin 2) = 0 ∧ win0_7.index s (1 : Fin 2) = 0 :=
  (by decide +kernel : ∀ s : Fin grid0.N, _)
theorem idx0_8 : ∀ s : Fin cfg0.N, win0_8.index s (0 : Fin 2) = 0 ∧ win0_8.index s (1 : Fin 2) = 0 :=
  (by decide +kernel : ∀ s : Fin grid0.N, _)
theorem idx0_9 : ∀ s : Fin cfg0.N, win0_9.index s (0 : Fin 2) = 0 ∧ win0_9.index s (1 : Fin 2) = 0 :=
  (by decide +kernel : ∀ s : Fin grid0.N, _)
theorem idx0_10 : ∀ s : Fin cfg0.N, win0_10.index s (0 : Fin 2) = 0 ∧ win0_10.index s (1 : Fin 2) = 0 :=
  (by decide +kernel : ∀ s : Fin grid0.N, _)
theorem idx0_11 : ∀ s : Fin cfg0.N, win0_11.index s (0 : Fin 2) = 0 ∧ win0_11.index s (1 : Fin 2) = 0 :=
  (by decide +kernel : ∀ s : Fin grid0.N, _)
theorem idx0_12 : ∀ s : Fin cfg0.N, win0_12.index s (0 : Fin 2) = 0 ∧ win0_12.index s (1 : Fin 2) = 0 :=
  (by decide +kernel : ∀ s : Fin grid0.N, _)

/-! ## The result array as one function of the arrays the call found -/

/-- What point `s` leaves in the result's staging buffer: the body's function of the thirteen input blocks at `s`. -/
def blockVal0 (c : Dev nD) (s : Fin cfg0.N) : Vec F S6400x128 .f32 :=
  out0_13 (iblk0 V c 0 s) (iblk0 V c 1 s) (iblk0 V c 2 s) (iblk0 V c 3 s) (iblk0 V c 4 s) (iblk0 V c 5 s) (iblk0 V c 6 s)
    (iblk0 V c 7 s) (iblk0 V c 8 s) (iblk0 V c 9 s) (iblk0 V c 10 s) (iblk0 V c 11 s) (iblk0 V c 12 s)

/-- The point whose block holds row `i 0` of the result: `i 0 / 6400`. -/
def pt0 (i : S640000x128.Idx) : Fin cfg0.N :=
  ⟨(i 0).val / 6400, by rw [show cfg0.N = 100 from N_0]; have := idx2_lt0 i; omega⟩

/-- The place of an index of the result inside its block: row `i 0 % 6400`, the same column. -/
def inBlk0 (i : S640000x128.Idx) : S6400x128.Idx :=
  ix2 ⟨(i 0).val % 6400, Nat.mod_lt _ (by decide)⟩ ⟨(i 1).val, idx2_lt1 i⟩

/-- The result array: at row `e`, what point `e / 6400` computes at row `e % 6400` of its block. -/
def G0 (c : Dev nD) : S640000x128.Idx → Elt F .f32 := fun i => blockVal0 V c (pt0 i) (inBlk0 i)

/-- `G0` at the index that sits at place `y` of point `s`'s block. -/
theorem G0_at (c : Dev nD) (s : Fin cfg0.N) (y : S6400x128.Idx) (i : S640000x128.Idx)
    (h0 : (i 0).val = 6400 * s.val + (y 0).val) (h1 : (i 1).val = (y 1).val) :
    G0 V c i = blockVal0 V c s y := by
  have hy0 : (y 0).val < 6400 := idx2_lt0 y
  have hp : pt0 i = s := Fin.ext (by show (i 0).val / 6400 = s.val; omega)
  have hb : inBlk0 i = y := by
    funext a
    match a with
    | ⟨0, _⟩ => exact Fin.ext (by show (i 0).val % 6400 = (y 0).val; omega)
    | ⟨1, _⟩ => exact Fin.ext (by show (i 1).val = (y 1).val; exact h1)
  show blockVal0 V c (pt0 i) (inBlk0 i) = blockVal0 V c s y
  rw [hp, hb]

/-- Reading block `s` of a function on the result's index set: the function at the block's embedded index. -/
theorem read_out0 (g : S640000x128.Idx → Elt F .f32) (s : Fin cfg0.N) (y : ((cfg0.win 13).xblock (grid0.coords s)).Idx) :
    ((cfg0.win 13).blk s).view.read (Elt F) g y = g (((cfg0.win 13).blk s).view.emb y) := rfl

/-- WHAT POINT `s` WRITES BACK is block `s` of `G0`: an element of the block sits in the array at block index times
    block size plus its own coordinate. -/
theorem flushed0_eq (c : Dev nD) (s : Fin cfg0.N) :
    (dat0 V c).flushed 13 s = ((cfg0.win 13).blk s).view.read (Elt F) (G0 V c) := by
  show (cfg0.win 13).cut (grid0.coords s) ((dat0 V c).after 13 s) = _
  rw [after0_13]
  obtain ⟨e0, e1⟩ := idx0_13 s
  funext y
  rw [read_out0]
  change blockVal0 V c s ((cfg0.win 13).xinj (grid0.coords s) y) = _
  refine (G0_at V c s _ _ ?_ ?_).symm
  · show win0_13.index s (0 : Fin 2) * 6400 + 1 * (y 0).val = 6400 * s.val + (y 0).val
    rw [e0]; omega
  · show win0_13.index s (1 : Fin 2) * 128 + 1 * (y 1).val = (y 1).val
    rw [e1]; omega

/-- An index of the result is in point `s`'s block iff each coordinate is in the block's range on its axis. -/
theorem mem_blk0 (s : Fin cfg0.N) (i : S640000x128.Idx) :
    i ∈ ((cfg0.win 13).blk s).view.set ↔ ∀ a : Fin 2, win0_13.index s a * S6400x128.size a ≤ (i a).val ∧ (i a).val < win0_13.index s a * S6400x128.size a + S6400x128.size a := by
  show i ∈ ((View.whole main_v30).slice (win0_13.rect s)).set ↔ _
  rw [View.set_slice_whole, Rect.mem_set_unit]
  exact Iff.rfl

/-- Every index of the result is in the block of the point `pt0` names. -/
theorem cover0 (i : S640000x128.Idx) :
    ∃ s : Fin cfg0.N, (cfg0.win 13).flush s = true ∧ i ∈ ((cfg0.win 13).blk s).view.set := by
  refine ⟨pt0 i, flush0_13 _, ?_⟩
  rw [mem_blk0]
  obtain ⟨e0, e1⟩ := idx0_13 (pt0 i)
  have hs : (pt0 i).val = (i 0).val / 6400 := rfl
  have hi1 : (i 1).val < 128 := idx2_lt1 i
  intro a
  match a with
  | ⟨0, _⟩ =>
    show win0_13.index (pt0 i) (0 : Fin 2) * 6400 ≤ (i 0).val ∧ (i 0).val < win0_13.index (pt0 i) (0 : Fin 2) * 6400 + 6400
    rw [e0, hs]; omega
  | ⟨1, _⟩ =>
    show win0_13.index (pt0 i) (1 : Fin 2) * 128 ≤ (i 1).val ∧ (i 1).val < win0_13.index (pt0 i) (1 : Fin 2) * 128 + 128
    rw [e1]; omega

/-- THE RESULT ARRAY after the call is `G0` of the arrays it found. -/
theorem final0 (c : Dev nD) : (dat0 V c).arrAt 13 cfg0.N = G0 V c :=
  (dat0 V c).arrAt_eq_of_cover 13 (G0 V c) (fun s _ => flushed0_eq V c s) cover0

/-- The result array's element at row `r` of block `s`, column `j`. -/
theorem arrAt0_at (c : Dev nD) (s : Fin cfg0.N) (r : Fin 6400) (j : Fin 128) :
    ((dat0 V c).arrAt 13 cfg0.N : S640000x128.Idx → Elt F .f32) (ix2 ⟨6400 * s.val + r.val, row0_lt s r⟩ j)
      = out0_13 (iblk0 V c 0 s) (iblk0 V c 1 s) (iblk0 V c 2 s) (iblk0 V c 3 s) (iblk0 V c 4 s) (iblk0 V c 5 s) (iblk0 V c 6 s)
          (iblk0 V c 7 s) (iblk0 V c 8 s) (iblk0 V c 9 s) (iblk0 V c 10 s) (iblk0 V c 11 s) (iblk0 V c 12 s) (ix2 r j) := by
  rw [final0]
  exact G0_at V c s (ix2 r j) _ rfl rfl

/-! ## The input blocks as rows of their arrays -/

/-- Window 0's block at point `s` is rows `6400·s … 6400·s + 6399` of its array. -/
theorem iblk0_0_at (c : Dev nD) (s : Fin cfg0.N) (x : S6400x67.Idx) (k : S640000x67.Idx)
    (h0 : (k 0).val = 6400 * s.val + (x 0).val) (h1 : (k 1).val = (x 1).val) :
    (iblk0 V c 0 s : Vec F S6400x67 .f32) x = (V c main_v7 : S640000x67.Idx → Elt F .f32) k := by
  obtain ⟨e0, e1⟩ := idx0_0 s
  unfold iblk0
  rw [View.read_apply]
  show V c main_v7 _ = V c main_v7 k
  refine congrArg _ ?_
  funext a
  apply Fin.ext
  match a with
  | ⟨0, _⟩ => show win0_0.index s (0 : Fin 2) * 6400 + 1 * (x 0).val = (k 0).val; rw [e0, h0]; omega
  | ⟨1, _⟩ => show win0_0.index s (1 : Fin 2) * 67 + 1 * (x 1).val = (k 1).val; rw [e1, h1]; omega

/-- Window 1's block at point `s` is rows `6400·s … 6400·s + 6399` of its array. -/
theorem iblk0_1_at (c : Dev nD) (s : Fin cfg0.N) (x : S6400x67.Idx) (k : S640000x67.Idx)
    (h0 : (k 0).val = 6400 * s.val + (x 0).val) (h1 : (k 1).val = (x 1).val) :
    (iblk0 V c 1 s : Vec F S6400x67 .f32) x = (V c main_v8 : S640000x67.Idx → Elt F .f32) k := by
  obtain ⟨e0, e1⟩ := idx0_1 s
  unfold iblk0
  rw [View.read_apply]
  show V c main_v8 _ = V c main_v8 k
  refine congrArg _ ?_
  funext a
  apply Fin.ext
  match a with
  | ⟨0, _⟩ => show win0_1.index s (0 : Fin 2) * 6400 + 1 * (x 0).val = (k 0).val; rw [e0, h0]; omega
  | ⟨1, _⟩ => show win0_1.index s (1 : Fin 2) * 67 + 1 * (x 1).val = (k 1).val; rw [e1, h1]; omega

/-- Window 2's block at point `s` is rows `6400·s … 6400·s + 6399` of its array. -/
theorem iblk0_2_at (c : Dev nD) (s : Fin cfg0.N) (x : S6400x16.Idx) (k : S640000x16.Idx)
    (h0 : (k 0).val = 6400 * s.val + (x 0).val) (h1 : (k 1).val = (x 1).val) :
    (iblk0 V c 2 s : Vec F S6400x16 .bf16) x = (V c main_v5 : S640000x16.Idx → Elt F .bf16) k := by
  obtain ⟨e0, e1⟩ := idx0_2 s
  unfold iblk0
  rw [View.read_apply]
  show V c main_v5 _ = V c main_v5 k
  refine congrArg _ ?_
  funext a
  apply Fin.ext
  match a with
  | ⟨0, _⟩ => show win0_2.index s (0 : Fin 2) * 6400 + 1 * (x 0).val = (k 0).val; rw [e0, h0]; omega
  | ⟨1, _⟩ => show win0_2.index s (1 : Fin 2) * 16 + 1 * (x 1).val = (k 1).val; rw [e1, h1]; omega

/-- Window 3's block at every point is its whole array. -/
theorem iblk0_3_eq (c : Dev nD) (s : Fin cfg0.N) :
    (iblk0 V c 3 s : Vec F S64x64 .f32) = (V c main_v11 : S64x64.Idx → Elt F .f32) := by
  obtain ⟨e0, e1⟩ := idx0_3 s
  funext x
  unfold iblk0
  rw [View.read_apply]
  show V c main_v11 _ = V c main_v11 x
  refine congrArg _ ?_
  funext a
  apply Fin.ext
  match a with
  | ⟨0, _⟩ => show win0_3.index s (0 : Fin 2) * 64 + 1 * (x 0).val = (x 0).val; rw [e0]; omega
  | ⟨1, _⟩ => show win0_3.index s (1 : Fin 2) * 64 + 1 * (x 1).val = (x 1).val; rw [e1]; omega

/-- Window 4's block at every point is its whole array. -/
theorem iblk0_4_eq (c : Dev nD) (s : Fin cfg0.N) :
    (iblk0 V c 4 s : Vec F S64x64 .f32) = (V c main_v12 : S64x64.Idx → Elt F .f32) := by
  obtain ⟨e0, e1⟩ := idx0_4 s
  funext x
  unfold iblk0
  rw [View.read_apply]
  show V c main_v12 _ = V c main_v12 x
  refine congrArg _ ?_
  funext a
  apply Fin.ext
  match a with
  | ⟨0, _⟩ => show win0_4.index s (0 : Fin 2) * 64 + 1 * (x 0).val = (x 0).val; rw [e0]; omega
  | ⟨1, _⟩ => show win0_4.index s (1 : Fin 2) * 64 + 1 * (x 1).val = (x 1).val; rw [e1]; omega

/-- Window 5's block at every point is its whole array. -/
theorem iblk0_5_eq (c : Dev nD) (s : Fin cfg0.N) :
    (iblk0 V c 5 s : Vec F S1x64 .f32) = (V c main_v13 : S1x64.Idx → Elt F .f32) := by
  obtain ⟨e0, e1⟩ := idx0_5 s
  funext x
  unfold iblk0
  rw [View.read_apply]
  show V c main_v13 _ = V c main_v13 x
  refine congrArg _ ?_
  funext a
  apply Fin.ext
  match a with
  | ⟨0, _⟩ => show win0_5.index s (0 : Fin 2) * 1 + 1 * (x 0).val = (x 0).val; rw [e0]; omega
  | ⟨1, _⟩ => show win0_5.index s (1 : Fin 2) * 64 + 1 * (x 1).val = (x 1).val; rw [e1]; omega

/-- Window 6's block at every point is its whole array. -/
theorem iblk0_6_eq (c : Dev nD) (s : Fin cfg0.N) :
    (iblk0 V c 6 s : Vec F S16x64 .f32) = (V c main_v14 : S16x64.Idx → Elt F .f32) := by
  obtain ⟨e0, e1⟩ := idx0_6 s
  funext x
  unfold iblk0
  rw [View.read_apply]
  show V c main_v14 _ = V c main_v14 x
  refine congrArg _ ?_
  funext a
  apply Fin.ext
  match a with
  | ⟨0, _⟩ => show win0_6.index s (0 : Fin 2) * 16 + 1 * (x 0).val = (x 0).val; rw [e0]; omega
  | ⟨1, _⟩ => show win0_6.index s (1 : Fin 2) * 64 + 1 * (x 1).val = (x 1).val; rw [e1]; omega

/-- Window 7's block at every point is its whole array. -/
theorem iblk0_7_eq (c : Dev nD) (s : Fin cfg0.N) :
    (iblk0 V c 7 s : Vec F S1x64 .f32) = (V c main_v17 : S1x64.Idx → Elt F .f32) := by
  obtain ⟨e0, e1⟩ := idx0_7 s
  funext x
  unfold iblk0
  rw [View.read_apply]
  show V c main_v17 _ = V c main_v17 x
  refine congrArg _ ?_
  funext a
  apply Fin.ext
  match a with
  | ⟨0, _⟩ => show win0_7.index s (0 : Fin 2) * 1 + 1 * (x 0).val = (x 0).val; rw [e0]; omega
  | ⟨1, _⟩ => show win0_7.index s (1 : Fin 2) * 64 + 1 * (x 1).val = (x 1).val; rw [e1]; omega

/-- Window 8's block at every point is its whole array. -/
theorem iblk0_8_eq (c : Dev nD) (s : Fin cfg0.N) :
    (iblk0 V c 8 s : Vec F S64x64 .f32) = (V c main_v19 : S64x64.Idx → Elt F .f32) := by
  obtain ⟨e0, e1⟩ := idx0_8 s
  funext x
  unfold iblk0
  rw [View.read_apply]
  show V c main_v19 _ = V c main_v19 x
  refine congrArg _ ?_
  funext a
  apply Fin.ext
  match a with
  | ⟨0, _⟩ => show win0_8.index s (0 : Fin 2) * 64 + 1 * (x 0).val = (x 0).val; rw [e0]; omega
  | ⟨1, _⟩ => show win0_8.index s (1 : Fin 2) * 64 + 1 * (x 1).val = (x 1).val; rw [e1]; omega

/-- Window 9's block at every point is its whole array. -/
theorem iblk0_9_eq (c : Dev nD) (s : Fin cfg0.N) :
    (iblk0 V c 9 s : Vec F S1x64 .f32) = (V c main_v22 : S1x64.Idx → Elt F .f32) := by
  obtain ⟨e0, e1⟩ := idx0_9 s
  funext x
  unfold iblk0
  rw [View.read_apply]
  show V c main_v22 _ = V c main_v22 x
  refine congrArg _ ?_
  funext a
  apply Fin.ext
  match a with
  | ⟨0, _⟩ => show win0_9.index s (0 : Fin 2) * 1 + 1 * (x 0).val = (x 0).val; rw [e0]; omega
  | ⟨1, _⟩ => show win0_9.index s (1 : Fin 2) * 64 + 1 * (x 1).val = (x 1).val; rw [e1]; omega

/-- Window 10's block at every point is its whole array. -/
theorem iblk0_10_eq (c : Dev nD) (s : Fin cfg0.N) :
    (iblk0 V c 10 s : Vec F S64x64 .f32) = (V c main_v24 : S64x64.Idx → Elt F .f32) := by
  obtain ⟨e0, e1⟩ := idx0_10 s
  funext x
  unfold iblk0
  rw [View.read_apply]
  show V c main_v24 _ = V c main_v24 x
  refine congrArg _ ?_
  funext a
  apply Fin.ext
  match a with
  | ⟨0, _⟩ => show win0_10.index s (0 : Fin 2) * 64 + 1 * (x 0).val = (x 0).val; rw [e0]; omega
  | ⟨1, _⟩ => show win0_10.index s (1 : Fin 2) * 64 + 1 * (x 1).val = (x 1).val; rw [e1]; omega

/-- Window 11's block at every point is its whole array. -/
theorem iblk0_11_eq (c : Dev nD) (s : Fin cfg0.N) :
    (iblk0 V c 11 s : Vec F S1x64 .f32) = (V c main_v27 : S1x64.Idx → Elt F .f32) := by
  obtain ⟨e0, e1⟩ := idx0_11 s
  funext x
  unfold iblk0
  rw [View.read_apply]
  show V c main_v27 _ = V c main_v27 x
  refine congrArg _ ?_
  funext a
  apply Fin.ext
  match a with
  | ⟨0, _⟩ => show win0_11.index s (0 : Fin 2) * 1 + 1 * (x 0).val = (x 0).val; rw [e0]; omega
  | ⟨1, _⟩ => show win0_11.index s (1 : Fin 2) * 64 + 1 * (x 1).val = (x 1).val; rw [e1]; omega

/-- Window 12's block at every point is its whole array. -/
theorem iblk0_12_eq (c : Dev nD) (s : Fin cfg0.N) :
    (iblk0 V c 12 s : Vec F S64x1 .f32) = (V c main_v29 : S64x1.Idx → Elt F .f32) := by
  obtain ⟨e0, e1⟩ := idx0_12 s
  funext x
  unfold iblk0
  rw [View.read_apply]
  show V c main_v29 _ = V c main_v29 x
  refine congrArg _ ?_
  funext a
  apply Fin.ext
  match a with
  | ⟨0, _⟩ => show win0_12.index s (0 : Fin 2) * 64 + 1 * (x 0).val = (x 0).val; rw [e0]; omega
  | ⟨1, _⟩ => show win0_12.index s (1 : Fin 2) * 1 + 1 * (x 1).val = (x 1).val; rw [e1]; omega

/-! ## The call inside the run: the arrays it found are the run's contents at its entry -/

/-- The result array after the call, element by element: row `6400·t + r`, column `j` is the body's function of the
    thirteen input blocks of point `t`, at row `r`, column `j` of the block. -/
theorem region0_at (c : Dev nD) (t : Fin 100) (r : Fin 6400) (j : Fin 128) :
    (W5 m ρ c (Proc.devRef .tc main_v30) : S640000x128.Idx → Elt F .f32) (ix2 ⟨6400 * t.val + r.val, by omega⟩ j)
      = out0_13 (iblk0 (V4 m ρ) c 0 (gp0 t)) (iblk0 (V4 m ρ) c 1 (gp0 t)) (iblk0 (V4 m ρ) c 2 (gp0 t))
          (iblk0 (V4 m ρ) c 3 (gp0 t)) (iblk0 (V4 m ρ) c 4 (gp0 t)) (iblk0 (V4 m ρ) c 5 (gp0 t)) (iblk0 (V4 m ρ) c 6 (gp0 t))
          (iblk0 (V4 m ρ) c 7 (gp0 t)) (iblk0 (V4 m ρ) c 8 (gp0 t)) (iblk0 (V4 m ρ) c 9 (gp0 t)) (iblk0 (V4 m ρ) c 10 (gp0 t))
          (iblk0 (V4 m ρ) c 11 (gp0 t)) (iblk0 (V4 m ρ) c 12 (gp0 t)) (ix2 r j) := by
  have h : (W5 m ρ c (Proc.devRef .tc main_v30) : S640000x128.Idx → Elt F .f32) = (dat0 (V4 m ρ) c).arrAt 13 cfg0.N :=
    W5_arr m ρ c 13
  rw [h]
  exact arrAt0_at (V4 m ρ) c (gp0 t) r j

/-- The edge-blocked input windows' blocks of point `t`: rows `6400·t … 6400·t + 6399` of the arrays the call found. -/
theorem iblk0_rows_0 (c : Dev nD) (t : Fin 100) (r : Fin 6400) (k : Fin 67) :
    (iblk0 (V4 m ρ) c 0 (gp0 t) : Vec F S6400x67 .f32) (ix2 r k)
      = (V4 m ρ c main_v7 : S640000x67.Idx → Elt F .f32) (ix2 ⟨6400 * t.val + r.val, by omega⟩ k) :=
  iblk0_0_at (V4 m ρ) c (gp0 t) (ix2 r k) _ rfl rfl
theorem iblk0_rows_1 (c : Dev nD) (t : Fin 100) (r : Fin 6400) (k : Fin 67) :
    (iblk0 (V4 m ρ) c 1 (gp0 t) : Vec F S6400x67 .f32) (ix2 r k)
      = (V4 m ρ c main_v8 : S640000x67.Idx → Elt F .f32) (ix2 ⟨6400 * t.val + r.val, by omega⟩ k) :=
  iblk0_1_at (V4 m ρ) c (gp0 t) (ix2 r k) _ rfl rfl
theorem iblk0_rows_2 (c : Dev nD) (t : Fin 100) (r : Fin 6400) (k : Fin 16) :
    (iblk0 (V4 m ρ) c 2 (gp0 t) : Vec F S6400x16 .bf16) (ix2 r k)
      = (V4 m ρ c main_v5 : S640000x16.Idx → Elt F .bf16) (ix2 ⟨6400 * t.val + r.val, by omega⟩ k) :=
  iblk0_2_at (V4 m ρ) c (gp0 t) (ix2 r k) _ rfl rfl

/-- The weight windows' blocks of point `t`: the whole arrays the call found. -/
theorem iblk0_whole_3 (c : Dev nD) (t : Fin 100) :
    (iblk0 (V4 m ρ) c 3 (gp0 t) : Vec F S64x64 .f32) = (V4 m ρ c main_v11 : S64x64.Idx → Elt F .f32) := iblk0_3_eq (V4 m ρ) c (gp0 t)
theorem iblk0_whole_4 (c : Dev nD) (t : Fin 100) :
    (iblk0 (V4 m ρ) c 4 (gp0 t) : Vec F S64x64 .f32) = (V4 m ρ c main_v12 : S64x64.Idx → Elt F .f32) := iblk0_4_eq (V4 m ρ) c (gp0 t)
theorem iblk0_whole_5 (c : Dev nD) (t : Fin 100) :
    (iblk0 (V4 m ρ) c 5 (gp0 t) : Vec F S1x64 .f32) = (V4 m ρ c main_v13 : S1x64.Idx → Elt F .f32) := iblk0_5_eq (V4 m ρ) c (gp0 t)
theorem iblk0_whole_6 (c : Dev nD) (t : Fin 100) :
    (iblk0 (V4 m ρ) c 6 (gp0 t) : Vec F S16x64 .f32) = (V4 m ρ c main_v14 : S16x64.Idx → Elt F .f32) := iblk0_6_eq (V4 m ρ) c (gp0 t)
theorem iblk0_whole_7 (c : Dev nD) (t : Fin 100) :
    (iblk0 (V4 m ρ) c 7 (gp0 t) : Vec F S1x64 .f32) = (V4 m ρ c main_v17 : S1x64.Idx → Elt F .f32) := iblk0_7_eq (V4 m ρ) c (gp0 t)
theorem iblk0_whole_8 (c : Dev nD) (t : Fin 100) :
    (iblk0 (V4 m ρ) c 8 (gp0 t) : Vec F S64x64 .f32) = (V4 m ρ c main_v19 : S64x64.Idx → Elt F .f32) := iblk0_8_eq (V4 m ρ) c (gp0 t)
theorem iblk0_whole_9 (c : Dev nD) (t : Fin 100) :
    (iblk0 (V4 m ρ) c 9 (gp0 t) : Vec F S1x64 .f32) = (V4 m ρ c main_v22 : S1x64.Idx → Elt F .f32) := iblk0_9_eq (V4 m ρ) c (gp0 t)
theorem iblk0_whole_10 (c : Dev nD) (t : Fin 100) :
    (iblk0 (V4 m ρ) c 10 (gp0 t) : Vec F S64x64 .f32) = (V4 m ρ c main_v24 : S64x64.Idx → Elt F .f32) := iblk0_10_eq (V4 m ρ) c (gp0 t)
theorem iblk0_whole_11 (c : Dev nD) (t : Fin 100) :
    (iblk0 (V4 m ρ) c 11 (gp0 t) : Vec F S1x64 .f32) = (V4 m ρ c main_v27 : S1x64.Idx → Elt F .f32) := iblk0_11_eq (V4 m ρ) c (gp0 t)
theorem iblk0_whole_12 (c : Dev nD) (t : Fin 100) :
    (iblk0 (V4 m ρ) c 12 (gp0 t) : Vec F S64x1 .f32) = (V4 m ρ c main_v29 : S64x1.Idx → Elt F .f32) := iblk0_12_eq (V4 m ρ) c (gp0 t)

end Cert.Bridge.Region

end
-- ==== Proof.Packed.lean ====
/-
  The first edge-kernel call's result array, row by row, in the specification's words: row `e` holds the feature message
  (columns 0–63), the coordinate message (columns 64–66) and zeros, computed from row `e` of the call's edge-indexed
  operands and from its weight operands. An edge number `e` is row `e % 6400` of grid point `e / 6400`.
-/
import proofs.«409836_j4174708212115_3_alg».proof.Proof.Region
import proofs.«409836_j4174708212115_3_alg».proof.Proof.KRow

noncomputable section

namespace Cert.Bridge.Packed

open Cert.KernelIdeal Cert.KernelIdeal.Gen Idealize.ShloMosaic Idealize.ShloMosaic.TcCoe Idealize.SL.Sem
open Idealize.ShloMosaic.ValueIdx
open Cert.Bridge

variable (m : (ℓ : Loc nD τ sig) → Buf (Elt Ideal) ℓ) (ρ : Dev nD → PrngReg)

/-- An edge number is a grid point's number times 6400 plus a row of its block. -/
theorem edge_split (e : Fin 640000) :
    ∃ (t : Fin 100) (r : Fin 6400), e = (⟨6400 * t.val + r.val, by omega⟩ : Fin 640000) :=
  ⟨⟨e.val / 6400, by have := e.isLt; omega⟩, ⟨e.val % 6400, by omega⟩, Fin.ext (by show e.val = 6400 * (e.val / 6400) + e.val % 6400; omega)⟩

/-- Row `e` of call 0's result array after the call: the body's row formula of row `e` of the two gathered
    arrays and of the edge attributes, and of the weight arrays, all as the call found them. -/
theorem packed0_at (c : Dev nD) (e : Fin 640000) (j : Fin 128) :
    (W5 m ρ c (Proc.devRef .tc main_v30) : S640000x128.Idx → Elt Ideal .f32) (ix2 e j)
      = KRow.packedRow (KRow.lpK (V4 m ρ c main_v11 : S64x64.Idx → Elt Ideal .f32) (V4 m ρ c main_v12 : S64x64.Idx → Elt Ideal .f32) (V4 m ρ c main_v13 : S1x64.Idx → Elt Ideal .f32) (V4 m ρ c main_v14 : S16x64.Idx → Elt Ideal .f32)
            (V4 m ρ c main_v17 : S1x64.Idx → Elt Ideal .f32) (V4 m ρ c main_v19 : S64x64.Idx → Elt Ideal .f32) (V4 m ρ c main_v22 : S1x64.Idx → Elt Ideal .f32) (V4 m ρ c main_v24 : S64x64.Idx → Elt Ideal .f32) (V4 m ρ c main_v27 : S1x64.Idx → Elt Ideal .f32) (V4 m ρ c main_v29 : S64x1.Idx → Elt Ideal .f32))
          (fun k => (V4 m ρ c main_v7 : S640000x67.Idx → Elt Ideal .f32) (ix2 e ⟨k.val, by omega⟩))
          (fun k => (V4 m ρ c main_v8 : S640000x67.Idx → Elt Ideal .f32) (ix2 e ⟨k.val, by omega⟩))
          (fun k => (V4 m ρ c main_v7 : S640000x67.Idx → Elt Ideal .f32) (ix2 e ⟨64 + k.val, by omega⟩))
          (fun k => (V4 m ρ c main_v8 : S640000x67.Idx → Elt Ideal .f32) (ix2 e ⟨64 + k.val, by omega⟩))
          (fun k => (V4 m ρ c main_v5 : S640000x16.Idx → Elt Ideal .bf16) (ix2 e k)) j := by
  obtain ⟨t, r, rfl⟩ := edge_split e
  rw [Region.region0_at, KRow.out0_13_row]
  simp only [Region.iblk0_rows_0, Region.iblk0_rows_1, Region.iblk0_rows_2, Region.iblk0_whole_3, Region.iblk0_whole_4,
    Region.iblk0_whole_5, Region.iblk0_whole_6, Region.iblk0_whole_7, Region.iblk0_whole_8, Region.iblk0_whole_9,
    Region.iblk0_whole_10, Region.iblk0_whole_11, Region.iblk0_whole_12]

end Cert.Bridge.Packed

end
-- ==== Proof.KSide.lean ====
/-
  The first edge stage's result array of the kernel program, row by row, as a function of the launch contents: row `e`
  is the body's row formula of row `e` of the two tables gathered from [node features | positions] at the source and
  destination indices, of row `e` of the edge attributes and of layer 0's parameters. Carrying the edge attributes in
  the narrower float format changes nothing over the reals.
-/
import proofs.«409836_j4174708212115_3_alg».proof.Proof.KVal
import proofs.«409836_j4174708212115_3_alg».proof.Proof.Packed

set_option maxRecDepth 16384

noncomputable section

namespace Cert.Bridge.KSide

open Idealize.ShloMosaic Idealize.ShloMosaic.TcCoe Idealize.ShloMosaic.ValueIdx
open Idealize.SL.Sem
open Cert.KernelIdeal Cert.KernelIdeal.Gen
open Cert.Bridge

variable (m : (ℓ : Loc nD τ sig) → Buf (Elt Ideal) ℓ) (ρ : Dev nD → PrngReg)

/-- The first edge stage's result array at row `e`, column `j`. -/
theorem hP0 (c : Dev nD) (e : Fin 640000) (j : Fin 128) :
    (KRead.P0 m ρ c : Tail.S640000x128.Idx → EReal) (ix2 e j) = KRow.packedRow
      (KRow.lpK (Tail.ew1hs0 (KRead.a5 m c)) (Tail.ew1hd0 (KRead.a5 m c)) (Tail.ew1rad0 (KRead.a5 m c)) (Tail.ew1ef0 (KRead.a5 m c)) (Tail.eb1_0 (KRead.a6 m c)) (Tail.ew2_0 (KRead.a7 m c)) (Tail.eb2_0 (KRead.a8 m c)) (Tail.cw1_0 (KRead.a9 m c)) (Tail.cb1_0 (KRead.a10 m c)) (Tail.cw2_0 (KRead.a11 m c)))
      (fun k : Fin 64 => Tail.takeK (Tail.tableOf (KRead.a0 m c) (KRead.a1 m c)) (KRead.a3 m c) (ix2 e ⟨k.val, by omega⟩))
      (fun k : Fin 64 => Tail.takeK (Tail.tableOf (KRead.a0 m c) (KRead.a1 m c)) (KRead.a4 m c) (ix2 e ⟨k.val, by omega⟩))
      (fun k : Fin 3 => Tail.takeK (Tail.tableOf (KRead.a0 m c) (KRead.a1 m c)) (KRead.a3 m c) (ix2 e ⟨64 + k.val, by omega⟩))
      (fun k : Fin 3 => Tail.takeK (Tail.tableOf (KRead.a0 m c) (KRead.a1 m c)) (KRead.a4 m c) (ix2 e ⟨64 + k.val, by omega⟩))
      (fun k => (KRead.a2 m c) (ix2 e k)) j := by
  show (W5 m ρ c (Proc.devRef .tc main_v30) : S640000x128.Idx → Elt Ideal .f32) (ix2 e j) = _
  rw [Packed.packed0_at m ρ c e j, KVal.v7_eq m ρ c, KVal.v8_eq m ρ c, KVal.v5_eq m ρ c, KVal.v11_eq m ρ c, KVal.v12_eq m ρ c,
    KVal.v13_eq m ρ c, KVal.v14_eq m ρ c, KVal.v17_eq m ρ c, KVal.v19_eq m ρ c, KVal.v22_eq m ρ c, KVal.v24_eq m ρ c,
    KVal.v27_eq m ρ c, KVal.v29_eq m ρ c]
  rfl

end Cert.Bridge.KSide

end
-- ==== Proof.Region1.lean ====
import proofs.«409836_j4174708212115_3_alg».proof.Proof.Gen.KernelIdeal.Frame
import Idealize.ShloMosaic.Lib.Pipeline.Value
import Idealize.ShloMosaic.Lib.ValueIdx

/-! # The second edge-kernel call, element by element

The call's grid has 100 points. Point `s` reads rows `6400·s … 6400·s + 6399` of the three edge arrays (two
[640000,67] arrays of gathered node rows and the [640000,16] edge features), the ten weight arrays whole, and writes rows
`6400·s … 6400·s + 6399` of the [640000,128] result. So after the call, row `e` of the result is what point `e / 6400`
computes at row `e % 6400` of its block, from blocks that are rows of the arrays the call found. -/

noncomputable section

namespace Cert.Bridge.Region

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)
variable (V : (c : Dev nD) → (b : Ref sig .tc) → Buf (Elt F) ((c : Thread nD τ).loc b))

/-! ## The grid and the index maps -/

/-- A point of the grid from its number. -/
abbrev gp1 (t : Fin 100) : Fin cfg1.N := ⟨t.val, by rw [show cfg1.N = 100 from N_1]; exact t.isLt⟩

/-- A point's number is below 100. -/
theorem gp1_lt (s : Fin cfg1.N) : s.val < 100 := Nat.lt_of_lt_of_le s.isLt (show cfg1.N = 100 from N_1).le

/-- Row `r` of point `s`'s block is a row of the 640000. -/
theorem row1_lt (s : Fin cfg1.N) (r : Fin 6400) : 6400 * s.val + r.val < 640000 := by
  have := gp1_lt s; omega

/-- The printed index maps, decided over the grid: the three edge inputs and the result sit at block `(s, 0)`, -/
theorem idx1_0 : ∀ s : Fin cfg1.N, win1_0.index s (0 : Fin 2) = s.val ∧ win1_0.index s (1 : Fin 2) = 0 :=
  (by decide +kernel : ∀ s : Fin grid1.N, _)
theorem idx1_1 : ∀ s : Fin cfg1.N, win1_1.index s (0 : Fin 2) = s.val ∧ win1_1.index s (1 : Fin 2) = 0 :=
  (by decide +kernel : ∀ s : Fin grid1.N, _)
theorem idx1_2 : ∀ s : Fin cfg1.N, win1_2.index s (0 : Fin 2) = s.val ∧ win1_2.index s (1 : Fin 2) = 0 :=
  (by decide +kernel : ∀ s : Fin grid1.N, _)
theorem idx1_13 : ∀ s : Fin cfg1.N, win1_13.index s (0 : Fin 2) = s.val ∧ win1_13.index s (1 : Fin 2) = 0 :=
  (by decide +kernel : ∀ s : Fin grid1.N, _)
/-- and the ten weight windows at block `(0, 0)`. -/
theorem idx1_3 : ∀ s : Fin cfg1.N, win1_3.index s (0 : Fin 2) = 0 ∧ win1_3.index s (1 : Fin 2) = 0 :=
  (by decide +kernel : ∀ s : Fin grid1.N, _)
theorem idx1_4 : ∀ s : Fin cfg1.N, win1_4.index s (0 : Fin 2) = 0 ∧ win1_4.index s (1 : Fin 2) = 0 :=
  (by decide +kernel : ∀ s : Fin grid1.N, _)
theorem idx1_5 : ∀ s : Fin cfg1.N, win1_5.index s (0 : Fin 2) = 0 ∧ win1_5.index s (1 : Fin 2) = 0 :=
  (by decide +kernel : ∀ s : Fin grid1.N, _)
theorem idx1_6 : ∀ s : Fin cfg1.N, win1_6.index s (0 : Fin 2) = 0 ∧ win1_6.index s (1 : Fin 2) = 0 :=
  (by decide +kernel : ∀ s : Fin grid1.N, _)
theorem idx1_7 : ∀ s : Fin cfg1.N, win1_7.index s (0 : Fin 2) = 0 ∧ win1_7.index s (1 : Fin 2) = 0 :=
  (by decide +kernel : ∀ s : Fin grid1.N, _)
theorem idx1_8 : ∀ s : Fin cfg1.N, win1_8.index s (0 : Fin 2) = 0 ∧ win1_8.index s (1 : Fin 2) = 0 :=
  (by decide +kernel : ∀ s : Fin grid1.N, _)
theorem idx1_9 : ∀ s : Fin cfg1.N, win1_9.index s (0 : Fin 2) = 0 ∧ win1_9.index s (1 : Fin 2) = 0 :=
  (by decide +kernel : ∀ s : Fin grid1.N, _)
theorem idx1_10 : ∀ s : Fin cfg1.N, win1_10.index s (0 : Fin 2) = 0 ∧ win1_10.index s (1 : Fin 2) = 0 :=
  (by decide +kernel : ∀ s : Fin grid1.N, _)
theorem idx1_11 : ∀ s : Fin cfg1.N, win1_11.index s (0 : Fin 2) = 0 ∧ win1_11.index s (1 : Fin 2) = 0 :=
  (by decide +kernel : ∀ s : Fin grid1.N, _)
theorem idx1_12 : ∀ s : Fin cfg1.N, win1_12.index s (0 : Fin 2) = 0 ∧ win1_12.index s (1 : Fin 2) = 0 :=
  (by decide +kernel : ∀ s : Fin grid1.N, _)

/-! ## The result array as one function of the arrays the call found -/

/-- What point `s` leaves in the result's staging buffer: the body's function of the thirteen input blocks at `s`. -/
def blockVal1 (c : Dev nD) (s : Fin cfg1.N) : Vec F S6400x128 .f32 :=
  out1_13 (iblk1 V c 0 s) (iblk1 V c 1 s) (iblk1 V c 2 s) (iblk1 V c 3 s) (iblk1 V c 4 s) (iblk1 V c 5 s) (iblk1 V c 6 s)
    (iblk1 V c 7 s) (iblk1 V c 8 s) (iblk1 V c 9 s) (iblk1 V c 10 s) (iblk1 V c 11 s) (iblk1 V c 12 s)

/-- The point whose block holds row `i 0` of the result: `i 0 / 6400`. -/
def pt1 (i : S640000x128.Idx) : Fin cfg1.N :=
  ⟨(i 0).val / 6400, by rw [show cfg1.N = 100 from N_1]; have := idx2_lt0 i; omega⟩

/-- The place of an index of the result inside its block: row `i 0 % 6400`, the same column. -/
def inBlk1 (i : S640000x128.Idx) : S6400x128.Idx :=
  ix2 ⟨(i 0).val % 6400, Nat.mod_lt _ (by decide)⟩ ⟨(i 1).val, idx2_lt1 i⟩

/-- The result array: at row `e`, what point `e / 6400` computes at row `e % 6400` of its block. -/
def G1 (c : Dev nD) : S640000x128.Idx → Elt F .f32 := fun i => blockVal1 V c (pt1 i) (inBlk1 i)

/-- `G1` at the index that sits at place `y` of point `s`'s block. -/
theorem G1_at (c : Dev nD) (s : Fin cfg1.N) (y : S6400x128.Idx) (i : S640000x128.Idx)
    (h0 : (i 0).val = 6400 * s.val + (y 0).val) (h1 : (i 1).val = (y 1).val) :
    G1 V c i = blockVal1 V c s y := by
  have hy0 : (y 0).val < 6400 := idx2_lt0 y
  have hp : pt1 i = s := Fin.ext (by show (i 0).val / 6400 = s.val; omega)
  have hb : inBlk1 i = y := by
    funext a
    match a with
    | ⟨0, _⟩ => exact Fin.ext (by show (i 0).val % 6400 = (y 0).val; omega)
    | ⟨1, _⟩ => exact Fin.ext (by show (i 1).val = (y 1).val; exact h1)
  show blockVal1 V c (pt1 i) (inBlk1 i) = blockVal1 V c s y
  rw [hp, hb]

/-- Reading block `s` of a function on the result's index set: the function at the block's embedded index. -/
theorem read_out1 (g : S640000x128.Idx → Elt F .f32) (s : Fin cfg1.N) (y : ((cfg1.win 13).xblock (grid1.coords s)).Idx) :
    ((cfg1.win 13).blk s).view.read (Elt F) g y = g (((cfg1.win 13).blk s).view.emb y) := rfl

/-- WHAT POINT `s` WRITES BACK is block `s` of `G1`: an element of the block sits in the array at block index times
    block size plus its own coordinate. -/
theorem flushed1_eq (c : Dev nD) (s : Fin cfg1.N) :
    (dat1 V c).flushed 13 s = ((cfg1.win 13).blk s).view.read (Elt F) (G1 V c) := by
  show (cfg1.win 13).cut (grid1.coords s) ((dat1 V c).after 13 s) = _
  rw [after1_13]
  obtain ⟨e0, e1⟩ := idx1_13 s
  funext y
  rw [read_out1]
  change blockVal1 V c s ((cfg1.win 13).xinj (grid1.coords s) y) = _
  refine (G1_at V c s _ _ ?_ ?_).symm
  · show win1_13.index s (0 : Fin 2) * 6400 + 1 * (y 0).val = 6400 * s.val + (y 0).val
    rw [e0]; omega
  · show win1_13.index s (1 : Fin 2) * 128 + 1 * (y 1).val = (y 1).val
    rw [e1]; omega

/-- An index of the result is in point `s`'s block iff each coordinate is in the block's range on its axis. -/
theorem mem_blk1 (s : Fin cfg1.N) (i : S640000x128.Idx) :
    i ∈ ((cfg1.win 13).blk s).view.set ↔ ∀ a : Fin 2, win1_13.index s a * S6400x128.size a ≤ (i a).val ∧ (i a).val < win1_13.index s a * S6400x128.size a + S6400x128.size a := by
  show i ∈ ((View.whole main_v108).slice (win1_13.rect s)).set ↔ _
  rw [View.set_slice_whole, Rect.mem_set_unit]
  exact Iff.rfl

/-- Every index of the result is in the block of the point `pt1` names. -/
theorem cover1 (i : S640000x128.Idx) :
    ∃ s : Fin cfg1.N, (cfg1.win 13).flush s = true ∧ i ∈ ((cfg1.win 13).blk s).view.set := by
  refine ⟨pt1 i, flush1_13 _, ?_⟩
  rw [mem_blk1]
  obtain ⟨e0, e1⟩ := idx1_13 (pt1 i)
  have hs : (pt1 i).val = (i 0).val / 6400 := rfl
  have hi1 : (i 1).val < 128 := idx2_lt1 i
  intro a
  match a with
  | ⟨0, _⟩ =>
    show win1_13.index (pt1 i) (0 : Fin 2) * 6400 ≤ (i 0).val ∧ (i 0).val < win1_13.index (pt1 i) (0 : Fin 2) * 6400 + 6400
    rw [e0, hs]; omega
  | ⟨1, _⟩ =>
    show win1_13.index (pt1 i) (1 : Fin 2) * 128 ≤ (i 1).val ∧ (i 1).val < win1_13.index (pt1 i) (1 : Fin 2) * 128 + 128
    rw [e1]; omega

/-- THE RESULT ARRAY after the call is `G1` of the arrays it found. -/
theorem final1 (c : Dev nD) : (dat1 V c).arrAt 13 cfg1.N = G1 V c :=
  (dat1 V c).arrAt_eq_of_cover 13 (G1 V c) (fun s _ => flushed1_eq V c s) cover1

/-- The result array's element at row `r` of block `s`, column `j`. -/
theorem arrAt1_at (c : Dev nD) (s : Fin cfg1.N) (r : Fin 6400) (j : Fin 128) :
    ((dat1 V c).arrAt 13 cfg1.N : S640000x128.Idx → Elt F .f32) (ix2 ⟨6400 * s.val + r.val, row1_lt s r⟩ j)
      = out1_13 (iblk1 V c 0 s) (iblk1 V c 1 s) (iblk1 V c 2 s) (iblk1 V c 3 s) (iblk1 V c 4 s) (iblk1 V c 5 s) (iblk1 V c 6 s)
          (iblk1 V c 7 s) (iblk1 V c 8 s) (iblk1 V c 9 s) (iblk1 V c 10 s) (iblk1 V c 11 s) (iblk1 V c 12 s) (ix2 r j) := by
  rw [final1]
  exact G1_at V c s (ix2 r j) _ rfl rfl

/-! ## The input blocks as rows of their arrays -/

/-- Window 0's block at point `s` is rows `6400·s … 6400·s + 6399` of its array. -/
theorem iblk1_0_at (c : Dev nD) (s : Fin cfg1.N) (x : S6400x67.Idx) (k : S640000x67.Idx)
    (h0 : (k 0).val = 6400 * s.val + (x 0).val) (h1 : (k 1).val = (x 1).val) :
    (iblk1 V c 0 s : Vec F S6400x67 .f32) x = (V c main_v85 : S640000x67.Idx → Elt F .f32) k := by
  obtain ⟨e0, e1⟩ := idx1_0 s
  unfold iblk1
  rw [View.read_apply]
  show V c main_v85 _ = V c main_v85 k
  refine congrArg _ ?_
  funext a
  apply Fin.ext
  match a with
  | ⟨0, _⟩ => show win1_0.index s (0 : Fin 2) * 6400 + 1 * (x 0).val = (k 0).val; rw [e0, h0]; omega
  | ⟨1, _⟩ => show win1_0.index s (1 : Fin 2) * 67 + 1 * (x 1).val = (k 1).val; rw [e1, h1]; omega

/-- Window 1's block at point `s` is rows `6400·s … 6400·s + 6399` of its array. -/
theorem iblk1_1_at (c : Dev nD) (s : Fin cfg1.N) (x : S6400x67.Idx) (k : S640000x67.Idx)
    (h0 : (k 0).val = 6400 * s.val + (x 0).val) (h1 : (k 1).val = (x 1).val) :
    (iblk1 V c 1 s : Vec F S6400x67 .f32) x = (V c main_v86 : S640000x67.Idx → Elt F .f32) k := by
  obtain ⟨e0, e1⟩ := idx1_1 s
  unfold iblk1
  rw [View.read_apply]
  show V c main_v86 _ = V c main_v86 k
  refine congrArg _ ?_
  funext a
  apply Fin.ext
  match a with
  | ⟨0, _⟩ => show win1_1.index s (0 : Fin 2) * 6400 + 1 * (x 0).val = (k 0).val; rw [e0, h0]; omega
  | ⟨1, _⟩ => show win1_1.index s (1 : Fin 2) * 67 + 1 * (x 1).val = (k 1).val; rw [e1, h1]; omega

/-- Window 2's block at point `s` is rows `6400·s … 6400·s + 6399` of its array. -/
theorem iblk1_2_at (c : Dev nD) (s : Fin cfg1.N) (x : S6400x16.Idx) (k : S640000x16.Idx)
    (h0 : (k 0).val = 6400 * s.val + (x 0).val) (h1 : (k 1).val = (x 1).val) :
    (iblk1 V c 2 s : Vec F S6400x16 .bf16) x = (V c main_v5 : S640000x16.Idx → Elt F .bf16) k := by
  obtain ⟨e0, e1⟩ := idx1_2 s
  unfold iblk1
  rw [View.read_apply]
  show V c main_v5 _ = V c main_v5 k
  refine congrArg _ ?_
  funext a
  apply Fin.ext
  match a with
  | ⟨0, _⟩ => show win1_2.index s (0 : Fin 2) * 6400 + 1 * (x 0).val = (k 0).val; rw [e0, h0]; omega
  | ⟨1, _⟩ => show win1_2.index s (1 : Fin 2) * 16 + 1 * (x 1).val = (k 1).val; rw [e1, h1]; omega

/-- Window 3's block at every point is its whole array. -/
theorem iblk1_3_eq (c : Dev nD) (s : Fin cfg1.N) :
    (iblk1 V c 3 s : Vec F S64x64 .f32) = (V c main_v89 : S64x64.Idx → Elt F .f32) := by
  obtain ⟨e0, e1⟩ := idx1_3 s
  funext x
  unfold iblk1
  rw [View.read_apply]
  show V c main_v89 _ = V c main_v89 x
  refine congrArg _ ?_
  funext a
  apply Fin.ext
  match a with
  | ⟨0, _⟩ => show win1_3.index s (0 : Fin 2) * 64 + 1 * (x 0).val = (x 0).val; rw [e0]; omega
  | ⟨1, _⟩ => show win1_3.index s (1 : Fin 2) * 64 + 1 * (x 1).val = (x 1).val; rw [e1]; omega

/-- Window 4's block at every point is its whole array. -/
theorem iblk1_4_eq (c : Dev nD) (s : Fin cfg1.N) :
    (iblk1 V c 4 s : Vec F S64x64 .f32) = (V c main_v90 : S64x64.Idx → Elt F .f32) := by
  obtain ⟨e0, e1⟩ := idx1_4 s
  funext x
  unfold iblk1
  rw [View.read_apply]
  show V c main_v90 _ = V c main_v90 x
  refine congrArg _ ?_
  funext a
  apply Fin.ext
  match a with
  | ⟨0, _⟩ => show win1_4.index s (0 : Fin 2) * 64 + 1 * (x 0).val = (x 0).val; rw [e0]; omega
  | ⟨1, _⟩ => show win1_4.index s (1 : Fin 2) * 64 + 1 * (x 1).val = (x 1).val; rw [e1]; omega

/-- Window 5's block at every point is its whole array. -/
theorem iblk1_5_eq (c : Dev nD) (s : Fin cfg1.N) :
    (iblk1 V c 5 s : Vec F S1x64 .f32) = (V c main_v91 : S1x64.Idx → Elt F .f32) := by
  obtain ⟨e0, e1⟩ := idx1_5 s
  funext x
  unfold iblk1
  rw [View.read_apply]
  show V c main_v91 _ = V c main_v91 x
  refine congrArg _ ?_
  funext a
  apply Fin.ext
  match a with
  | ⟨0, _⟩ => show win1_5.index s (0 : Fin 2) * 1 + 1 * (x 0).val = (x 0).val; rw [e0]; omega
  | ⟨1, _⟩ => show win1_5.index s (1 : Fin 2) * 64 + 1 * (x 1).val = (x 1).val; rw [e1]; omega

/-- Window 6's block at every point is its whole array. -/
theorem iblk1_6_eq (c : Dev nD) (s : Fin cfg1.N) :
    (iblk1 V c 6 s : Vec F S16x64 .f32) = (V c main_v92 : S16x64.Idx → Elt F .f32) := by
  obtain ⟨e0, e1⟩ := idx1_6 s
  funext x
  unfold iblk1
  rw [View.read_apply]
  show V c main_v92 _ = V c main_v92 x
  refine congrArg _ ?_
  funext a
  apply Fin.ext
  match a with
  | ⟨0, _⟩ => show win1_6.index s (0 : Fin 2) * 16 + 1 * (x 0).val = (x 0).val; rw [e0]; omega
  | ⟨1, _⟩ => show win1_6.index s (1 : Fin 2) * 64 + 1 * (x 1).val = (x 1).val; rw [e1]; omega

/-- Window 7's block at every point is its whole array. -/
theorem iblk1_7_eq (c : Dev nD) (s : Fin cfg1.N) :
    (iblk1 V c 7 s : Vec F S1x64 .f32) = (V c main_v95 : S1x64.Idx → Elt F .f32) := by
  obtain ⟨e0, e1⟩ := idx1_7 s
  funext x
  unfold iblk1
  rw [View.read_apply]
  show V c main_v95 _ = V c main_v95 x
  refine congrArg _ ?_
  funext a
  apply Fin.ext
  match a with
  | ⟨0, _⟩ => show win1_7.index s (0 : Fin 2) * 1 + 1 * (x 0).val = (x 0).val; rw [e0]; omega
  | ⟨1, _⟩ => show win1_7.index s (1 : Fin 2) * 64 + 1 * (x 1).val = (x 1).val; rw [e1]; omega

/-- Window 8's block at every point is its whole array. -/
theorem iblk1_8_eq (c : Dev nD) (s : Fin cfg1.N) :
    (iblk1 V c 8 s : Vec F S64x64 .f32) = (V c main_v97 : S64x64.Idx → Elt F .f32) := by
  obtain ⟨e0, e1⟩ := idx1_8 s
  funext x
  unfold iblk1
  rw [View.read_apply]
  show V c main_v97 _ = V c main_v97 x
  refine congrArg _ ?_
  funext a
  apply Fin.ext
  match a with
  | ⟨0, _⟩ => show win1_8.index s (0 : Fin 2) * 64 + 1 * (x 0).val = (x 0).val; rw [e0]; omega
  | ⟨1, _⟩ => show win1_8.index s (1 : Fin 2) * 64 + 1 * (x 1).val = (x 1).val; rw [e1]; omega

/-- Window 9's block at every point is its whole array. -/
theorem iblk1_9_eq (c : Dev nD) (s : Fin cfg1.N) :
    (iblk1 V c 9 s : Vec F S1x64 .f32) = (V c main_v100 : S1x64.Idx → Elt F .f32) := by
  obtain ⟨e0, e1⟩ := idx1_9 s
  funext x
  unfold iblk1
  rw [View.read_apply]
  show V c main_v100 _ = V c main_v100 x
  refine congrArg _ ?_
  funext a
  apply Fin.ext
  match a with
  | ⟨0, _⟩ => show win1_9.index s (0 : Fin 2) * 1 + 1 * (x 0).val = (x 0).val; rw [e0]; omega
  | ⟨1, _⟩ => show win1_9.index s (1 : Fin 2) * 64 + 1 * (x 1).val = (x 1).val; rw [e1]; omega

/-- Window 10's block at every point is its whole array. -/
theorem iblk1_10_eq (c : Dev nD) (s : Fin cfg1.N) :
    (iblk1 V c 10 s : Vec F S64x64 .f32) = (V c main_v102 : S64x64.Idx → Elt F .f32) := by
  obtain ⟨e0, e1⟩ := idx1_10 s
  funext x
  unfold iblk1
  rw [View.read_apply]
  show V c main_v102 _ = V c main_v102 x
  refine congrArg _ ?_
  funext a
  apply Fin.ext
  match a with
  | ⟨0, _⟩ => show win1_10.index s (0 : Fin 2) * 64 + 1 * (x 0).val = (x 0).val; rw [e0]; omega
  | ⟨1, _⟩ => show win1_10.index s (1 : Fin 2) * 64 + 1 * (x 1).val = (x 1).val; rw [e1]; omega

/-- Window 11's block at every point is its whole array. -/
theorem iblk1_11_eq (c : Dev nD) (s : Fin cfg1.N) :
    (iblk1 V c 11 s : Vec F S1x64 .f32) = (V c main_v105 : S1x64.Idx → Elt F .f32) := by
  obtain ⟨e0, e1⟩ := idx1_11 s
  funext x
  unfold iblk1
  rw [View.read_apply]
  show V c main_v105 _ = V c main_v105 x
  refine congrArg _ ?_
  funext a
  apply Fin.ext
  match a with
  | ⟨0, _⟩ => show win1_11.index s (0 : Fin 2) * 1 + 1 * (x 0).val = (x 0).val; rw [e0]; omega
  | ⟨1, _⟩ => show win1_11.index s (1 : Fin 2) * 64 + 1 * (x 1).val = (x 1).val; rw [e1]; omega

/-- Window 12's block at every point is its whole array. -/
theorem iblk1_12_eq (c : Dev nD) (s : Fin cfg1.N) :
    (iblk1 V c 12 s : Vec F S64x1 .f32) = (V c main_v107 : S64x1.Idx → Elt F .f32) := by
  obtain ⟨e0, e1⟩ := idx1_12 s
  funext x
  unfold iblk1
  rw [View.read_apply]
  show V c main_v107 _ = V c main_v107 x
  refine congrArg _ ?_
  funext a
  apply Fin.ext
  match a with
  | ⟨0, _⟩ => show win1_12.index s (0 : Fin 2) * 64 + 1 * (x 0).val = (x 0).val; rw [e0]; omega
  | ⟨1, _⟩ => show win1_12.index s (1 : Fin 2) * 1 + 1 * (x 1).val = (x 1).val; rw [e1]; omega

/-! ## The call inside the run: the arrays it found are the run's contents at its entry -/

/-- The result array after the call, element by element: row `6400·t + r`, column `j` is the body's function of the
    thirteen input blocks of point `t`, at row `r`, column `j` of the block. -/
theorem region1_at (c : Dev nD) (t : Fin 100) (r : Fin 6400) (j : Fin 128) :
    (W16 m ρ c (Proc.devRef .tc main_v108) : S640000x128.Idx → Elt F .f32) (ix2 ⟨6400 * t.val + r.val, by omega⟩ j)
      = out1_13 (iblk1 (V15 m ρ) c 0 (gp1 t)) (iblk1 (V15 m ρ) c 1 (gp1 t)) (iblk1 (V15 m ρ) c 2 (gp1 t))
          (iblk1 (V15 m ρ) c 3 (gp1 t)) (iblk1 (V15 m ρ) c 4 (gp1 t)) (iblk1 (V15 m ρ) c 5 (gp1 t)) (iblk1 (V15 m ρ) c 6 (gp1 t))
          (iblk1 (V15 m ρ) c 7 (gp1 t)) (iblk1 (V15 m ρ) c 8 (gp1 t)) (iblk1 (V15 m ρ) c 9 (gp1 t)) (iblk1 (V15 m ρ) c 10 (gp1 t))
          (iblk1 (V15 m ρ) c 11 (gp1 t)) (iblk1 (V15 m ρ) c 12 (gp1 t)) (ix2 r j) := by
  have h : (W16 m ρ c (Proc.devRef .tc main_v108) : S640000x128.Idx → Elt F .f32) = (dat1 (V15 m ρ) c).arrAt 13 cfg1.N :=
    W16_arr m ρ c 13
  rw [h]
  exact arrAt1_at (V15 m ρ) c (gp1 t) r j

/-- The edge-blocked input windows' blocks of point `t`: rows `6400·t … 6400·t + 6399` of the arrays the call found. -/
theorem iblk1_rows_0 (c : Dev nD) (t : Fin 100) (r : Fin 6400) (k : Fin 67) :
    (iblk1 (V15 m ρ) c 0 (gp1 t) : Vec F S6400x67 .f32) (ix2 r k)
      = (V15 m ρ c main_v85 : S640000x67.Idx → Elt F .f32) (ix2 ⟨6400 * t.val + r.val, by omega⟩ k) :=
  iblk1_0_at (V15 m ρ) c (gp1 t) (ix2 r k) _ rfl rfl
theorem iblk1_rows_1 (c : Dev nD) (t : Fin 100) (r : Fin 6400) (k : Fin 67) :
    (iblk1 (V15 m ρ) c 1 (gp1 t) : Vec F S6400x67 .f32) (ix2 r k)
      = (V15 m ρ c main_v86 : S640000x67.Idx → Elt F .f32) (ix2 ⟨6400 * t.val + r.val, by omega⟩ k) :=
  iblk1_1_at (V15 m ρ) c (gp1 t) (ix2 r k) _ rfl rfl
theorem iblk1_rows_2 (c : Dev nD) (t : Fin 100) (r : Fin 6400) (k : Fin 16) :
    (iblk1 (V15 m ρ) c 2 (gp1 t) : Vec F S6400x16 .bf16) (ix2 r k)
      = (V15 m ρ c main_v5 : S640000x16.Idx → Elt F .bf16) (ix2 ⟨6400 * t.val + r.val, by omega⟩ k) :=
  iblk1_2_at (V15 m ρ) c (gp1 t) (ix2 r k) _ rfl rfl

/-- The weight windows' blocks of point `t`: the whole arrays the call found. -/
theorem iblk1_whole_3 (c : Dev nD) (t : Fin 100) :
    (iblk1 (V15 m ρ) c 3 (gp1 t) : Vec F S64x64 .f32) = (V15 m ρ c main_v89 : S64x64.Idx → Elt F .f32) := iblk1_3_eq (V15 m ρ) c (gp1 t)
theorem iblk1_whole_4 (c : Dev nD) (t : Fin 100) :
    (iblk1 (V15 m ρ) c 4 (gp1 t) : Vec F S64x64 .f32) = (V15 m ρ c main_v90 : S64x64.Idx → Elt F .f32) := iblk1_4_eq (V15 m ρ) c (gp1 t)
theorem iblk1_whole_5 (c : Dev nD) (t : Fin 100) :
    (iblk1 (V15 m ρ) c 5 (gp1 t) : Vec F S1x64 .f32) = (V15 m ρ c main_v91 : S1x64.Idx → Elt F .f32) := iblk1_5_eq (V15 m ρ) c (gp1 t)
theorem iblk1_whole_6 (c : Dev nD) (t : Fin 100) :
    (iblk1 (V15 m ρ) c 6 (gp1 t) : Vec F S16x64 .f32) = (V15 m ρ c main_v92 : S16x64.Idx → Elt F .f32) := iblk1_6_eq (V15 m ρ) c (gp1 t)
theorem iblk1_whole_7 (c : Dev nD) (t : Fin 100) :
    (iblk1 (V15 m ρ) c 7 (gp1 t) : Vec F S1x64 .f32) = (V15 m ρ c main_v95 : S1x64.Idx → Elt F .f32) := iblk1_7_eq (V15 m ρ) c (gp1 t)
theorem iblk1_whole_8 (c : Dev nD) (t : Fin 100) :
    (iblk1 (V15 m ρ) c 8 (gp1 t) : Vec F S64x64 .f32) = (V15 m ρ c main_v97 : S64x64.Idx → Elt F .f32) := iblk1_8_eq (V15 m ρ) c (gp1 t)
theorem iblk1_whole_9 (c : Dev nD) (t : Fin 100) :
    (iblk1 (V15 m ρ) c 9 (gp1 t) : Vec F S1x64 .f32) = (V15 m ρ c main_v100 : S1x64.Idx → Elt F .f32) := iblk1_9_eq (V15 m ρ) c (gp1 t)
theorem iblk1_whole_10 (c : Dev nD) (t : Fin 100) :
    (iblk1 (V15 m ρ) c 10 (gp1 t) : Vec F S64x64 .f32) = (V15 m ρ c main_v102 : S64x64.Idx → Elt F .f32) := iblk1_10_eq (V15 m ρ) c (gp1 t)
theorem iblk1_whole_11 (c : Dev nD) (t : Fin 100) :
    (iblk1 (V15 m ρ) c 11 (gp1 t) : Vec F S1x64 .f32) = (V15 m ρ c main_v105 : S1x64.Idx → Elt F .f32) := iblk1_11_eq (V15 m ρ) c (gp1 t)
theorem iblk1_whole_12 (c : Dev nD) (t : Fin 100) :
    (iblk1 (V15 m ρ) c 12 (gp1 t) : Vec F S64x1 .f32) = (V15 m ρ c main_v107 : S64x1.Idx → Elt F .f32) := iblk1_12_eq (V15 m ρ) c (gp1 t)

end Cert.Bridge.Region

end
-- ==== Proof.Packed1.lean ====
/- The second edge-kernel call's result array, row by row: the first call's statement and proof with the second
   call's arrays in place of the first's (the two calls run one kernel body on different operands). -/
import proofs.«409836_j4174708212115_3_alg».proof.Proof.Packed
import proofs.«409836_j4174708212115_3_alg».proof.Proof.Region1
import proofs.«409836_j4174708212115_3_alg».proof.Proof.KRow

noncomputable section

namespace Cert.Bridge.Packed1

open Cert.KernelIdeal Cert.KernelIdeal.Gen Idealize.ShloMosaic Idealize.ShloMosaic.TcCoe Idealize.SL.Sem
open Idealize.ShloMosaic.ValueIdx
open Cert.Bridge

variable (m : (ℓ : Loc nD τ sig) → Buf (Elt Ideal) ℓ) (ρ : Dev nD → PrngReg)

/-- Row `e` of call 1's result array after the call: the body's row formula of row `e` of the two gathered
    arrays and of the edge attributes, and of the weight arrays, all as the call found them. -/
theorem packed1_at (c : Dev nD) (e : Fin 640000) (j : Fin 128) :
    (W16 m ρ c (Proc.devRef .tc main_v108) : S640000x128.Idx → Elt Ideal .f32) (ix2 e j)
      = KRow.packedRow (KRow.lpK (V15 m ρ c main_v89 : S64x64.Idx → Elt Ideal .f32) (V15 m ρ c main_v90 : S64x64.Idx → Elt Ideal .f32) (V15 m ρ c main_v91 : S1x64.Idx → Elt Ideal .f32) (V15 m ρ c main_v92 : S16x64.Idx → Elt Ideal .f32)
            (V15 m ρ c main_v95 : S1x64.Idx → Elt Ideal .f32) (V15 m ρ c main_v97 : S64x64.Idx → Elt Ideal .f32) (V15 m ρ c main_v100 : S1x64.Idx → Elt Ideal .f32) (V15 m ρ c main_v102 : S64x64.Idx → Elt Ideal .f32) (V15 m ρ c main_v105 : S1x64.Idx → Elt Ideal .f32) (V15 m ρ c main_v107 : S64x1.Idx → Elt Ideal .f32))
          (fun k => (V15 m ρ c main_v85 : S640000x67.Idx → Elt Ideal .f32) (ix2 e ⟨k.val, by omega⟩))
          (fun k => (V15 m ρ c main_v86 : S640000x67.Idx → Elt Ideal .f32) (ix2 e ⟨k.val, by omega⟩))
          (fun k => (V15 m ρ c main_v85 : S640000x67.Idx → Elt Ideal .f32) (ix2 e ⟨64 + k.val, by omega⟩))
          (fun k => (V15 m ρ c main_v86 : S640000x67.Idx → Elt Ideal .f32) (ix2 e ⟨64 + k.val, by omega⟩))
          (fun k => (V15 m ρ c main_v5 : S640000x16.Idx → Elt Ideal .bf16) (ix2 e k)) j := by
  obtain ⟨t, r, rfl⟩ := Packed.edge_split e
  rw [Region.region1_at, KRow.out1_13_row]
  simp only [Region.iblk1_rows_0, Region.iblk1_rows_1, Region.iblk1_rows_2, Region.iblk1_whole_3, Region.iblk1_whole_4,
    Region.iblk1_whole_5, Region.iblk1_whole_6, Region.iblk1_whole_7, Region.iblk1_whole_8, Region.iblk1_whole_9,
    Region.iblk1_whole_10, Region.iblk1_whole_11, Region.iblk1_whole_12]

end Cert.Bridge.Packed1

end
-- ==== Proof.KSide1.lean ====
/- The second edge stage's result array of the kernel program, row by row: the first stage's statement and proof with
   the second call's arrays and layer 1's parameters, the rows gathered from the first layer's outputs [h₁ | x₁]. -/
import proofs.«409836_j4174708212115_3_alg».proof.Proof.KVal
import proofs.«409836_j4174708212115_3_alg».proof.Proof.Packed1

set_option maxRecDepth 16384

noncomputable section

namespace Cert.Bridge.KSide1

open Idealize.ShloMosaic Idealize.ShloMosaic.TcCoe Idealize.ShloMosaic.ValueIdx
open Idealize.SL.Sem
open Cert.KernelIdeal Cert.KernelIdeal.Gen
open Cert.Bridge

variable (m : (ℓ : Loc nD τ sig) → Buf (Elt Ideal) ℓ) (ρ : Dev nD → PrngReg)

/-- The second edge stage's result array at row `e`, column `j`. -/
theorem hP1 (c : Dev nD) (e : Fin 640000) (j : Fin 128) :
    (KRead.P1 m ρ c : Tail.S640000x128.Idx → EReal) (ix2 e j) = KRow.packedRow
      (KRow.lpK (Tail.ew1hs1 (KRead.a5 m c)) (Tail.ew1hd1 (KRead.a5 m c)) (Tail.ew1rad1 (KRead.a5 m c)) (Tail.ew1ef1 (KRead.a5 m c)) (Tail.eb1_1 (KRead.a6 m c)) (Tail.ew2_1 (KRead.a7 m c)) (Tail.eb2_1 (KRead.a8 m c)) (Tail.cw1_1 (KRead.a9 m c)) (Tail.cb1_1 (KRead.a10 m c)) (Tail.cw2_1 (KRead.a11 m c)))
      (fun k : Fin 64 => Tail.takeK (Tail.tableOf (Final.h1K (KRead.a0 m c) (KRead.a4 m c) (KRead.a12 m c) (KRead.a13 m c) (KRead.a14 m c) (KRead.a15 m c) (KRead.a16 m c) (KRead.a17 m c) (KRead.P0 m ρ c)) (Final.x1K (KRead.a1 m c) (KRead.a4 m c) (KRead.P0 m ρ c))) (KRead.a3 m c) (ix2 e ⟨k.val, by omega⟩))
      (fun k : Fin 64 => Tail.takeK (Tail.tableOf (Final.h1K (KRead.a0 m c) (KRead.a4 m c) (KRead.a12 m c) (KRead.a13 m c) (KRead.a14 m c) (KRead.a15 m c) (KRead.a16 m c) (KRead.a17 m c) (KRead.P0 m ρ c)) (Final.x1K (KRead.a1 m c) (KRead.a4 m c) (KRead.P0 m ρ c))) (KRead.a4 m c) (ix2 e ⟨k.val, by omega⟩))
      (fun k : Fin 3 => Tail.takeK (Tail.tableOf (Final.h1K (KRead.a0 m c) (KRead.a4 m c) (KRead.a12 m c) (KRead.a13 m c) (KRead.a14 m c) (KRead.a15 m c) (KRead.a16 m c) (KRead.a17 m c) (KRead.P0 m ρ c)) (Final.x1K (KRead.a1 m c) (KRead.a4 m c) (KRead.P0 m ρ c))) (KRead.a3 m c) (ix2 e ⟨64 + k.val, by omega⟩))
      (fun k : Fin 3 => Tail.takeK (Tail.tableOf (Final.h1K (KRead.a0 m c) (KRead.a4 m c) (KRead.a12 m c) (KRead.a13 m c) (KRead.a14 m c) (KRead.a15 m c) (KRead.a16 m c) (KRead.a17 m c) (KRead.P0 m ρ c)) (Final.x1K (KRead.a1 m c) (KRead.a4 m c) (KRead.P0 m ρ c))) (KRead.a4 m c) (ix2 e ⟨64 + k.val, by omega⟩))
      (fun k => (KRead.a2 m c) (ix2 e k)) j := by
  show (W16 m ρ c (Proc.devRef .tc main_v108) : S640000x128.Idx → Elt Ideal .f32) (ix2 e j) = _
  rw [Packed1.packed1_at m ρ c e j, KVal.v85_eq m ρ c, KVal.v86_eq m ρ c, KVal.v5_eq1 m ρ c, KVal.v89_eq m ρ c, KVal.v90_eq m ρ c,
    KVal.v91_eq m ρ c, KVal.v92_eq m ρ c, KVal.v95_eq m ρ c, KVal.v97_eq m ρ c, KVal.v100_eq m ρ c, KVal.v102_eq m ρ c,
    KVal.v105_eq m ρ c, KVal.v107_eq m ρ c]
  rfl

end Cert.Bridge.KSide1

end
-- ==== Proof.RefSeg.lean ====
/- The reference program's 404 host operations cut into 6 consecutive segments (a new one begins at
   operation 60, 120, 204, 260, 320, counting from 0), each a list of its own; the whole list is their concatenation;
   and per segment the references its operations write. -/
import proofs.«409836_j4174708212115_3_alg».proof.Proof.RefRun

noncomputable section

namespace Cert.Bridge.RefSeg

open Cert.ReferenceIdeal Cert.ReferenceIdeal.Gen Idealize.ShloMosaic Idealize.ShloMosaic.TcCoe Idealize.SL.Sem Idealize.ShloMosaic.StableHlo

variable {F : FTy → Type} [FloatOps F]

/-- Operations 0 … 59 of the 404, in order. -/
abbrev seg0 : List (HloOp τ sig (Elt F)) :=
  [ StableHlo.nullary main_cst (constant S_ .f32 0x00000000#32),
    StableHlo.unary main_cst main_v0 (broadcastInDim S40000x64 ![] bcast_S_S40000x64 : (⟨S_, .f32⟩ : BufTy).Contents (Elt F) → (⟨S40000x64, .f32⟩ : BufTy).Contents (Elt F)),
    StableHlo.nullary main_cst_0 (constant S_ .f32 0x3F800000#32),
    StableHlo.unary main_cst_0 main_v1 (broadcastInDim S640000x1 ![] bcast_S_S640000x1 : (⟨S_, .f32⟩ : BufTy).Contents (Elt F) → (⟨S640000x1, .f32⟩ : BufTy).Contents (Elt F)),
    StableHlo.nullary main_c (constantI S_ 32 0#32),
    StableHlo.unary main_c main_v2 (broadcastInDim S640000 ![] bcast_S_S640000 : (⟨S_, .i32⟩ : BufTy).Contents (Elt F) → (⟨S640000, .i32⟩ : BufTy).Contents (Elt F)),
    StableHlo.binary main_arg3 main_v2 main_v3 (cmpi .slt : (⟨S640000, .i32⟩ : BufTy).Contents (Elt F) → (⟨S640000, .i32⟩ : BufTy).Contents (Elt F) → (⟨S640000, .i1⟩ : BufTy).Contents (Elt F)),
    StableHlo.nullary main_c_1 (constantI S_ 32 40000#32),
    StableHlo.unary main_c_1 main_v4 (broadcastInDim S640000 ![] bcast_S_S640000 : (⟨S_, .i32⟩ : BufTy).Contents (Elt F) → (⟨S640000, .i32⟩ : BufTy).Contents (Elt F)),
    StableHlo.binary main_arg3 main_v4 main_v5 (addi : (⟨S640000, .i32⟩ : BufTy).Contents (Elt F) → (⟨S640000, .i32⟩ : BufTy).Contents (Elt F) → (⟨S640000, .i32⟩ : BufTy).Contents (Elt F)),
    StableHlo.ternary main_v3 main_v5 main_arg3 main_v6 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v6 main_v7 (broadcastInDim S640000x1 ![0] bcast_S640000_S640000x1_0 : (⟨S640000, .i32⟩ : BufTy).Contents (Elt F) → (⟨S640000x1, .i32⟩ : BufTy).Contents (Elt F)),
    StableHlo.binary main_arg1 main_v7 main_v8 ((fun x i => Host.gather gather_S40000x3_S640000x1_S640000x3_1_0_n_n_0_1_13 x i) : (⟨S40000x3, .f32⟩ : BufTy).Contents (Elt F) → (⟨S640000x1, .i32⟩ : BufTy).Contents (Elt F) → (⟨S640000x3, .f32⟩ : BufTy).Contents (Elt F)),
    StableHlo.nullary main_c_2 (constantI S_ 32 0#32),
    StableHlo.unary main_c_2 main_v9 (broadcastInDim S640000 ![] bcast_S_S640000 : (⟨S_, .i32⟩ : BufTy).Contents (Elt F) → (⟨S640000, .i32⟩ : BufTy).Contents (Elt F)),
    StableHlo.binary main_arg4 main_v9 main_v10 (cmpi .slt : (⟨S640000, .i32⟩ : BufTy).Contents (Elt F) → (⟨S640000, .i32⟩ : BufTy).Contents (Elt F) → (⟨S640000, .i1⟩ : BufTy).Contents (Elt F)),
    StableHlo.nullary main_c_3 (constantI S_ 32 40000#32),
    StableHlo.unary main_c_3 main_v11 (broadcastInDim S640000 ![] bcast_S_S640000 : (⟨S_, .i32⟩ : BufTy).Contents (Elt F) → (⟨S640000, .i32⟩ : BufTy).Contents (Elt F)),
    StableHlo.binary main_arg4 main_v11 main_v12 (addi : (⟨S640000, .i32⟩ : BufTy).Contents (Elt F) → (⟨S640000, .i32⟩ : BufTy).Contents (Elt F) → (⟨S640000, .i32⟩ : BufTy).Contents (Elt F)),
    StableHlo.ternary main_v10 main_v12 main_arg4 main_v13 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v13 main_v14 (broadcastInDim S640000x1 ![0] bcast_S640000_S640000x1_0 : (⟨S640000, .i32⟩ : BufTy).Contents (Elt F) → (⟨S640000x1, .i32⟩ : BufTy).Contents (Elt F)),
    StableHlo.binary main_arg1 main_v14 main_v15 ((fun x i => Host.gather gather_S40000x3_S640000x1_S640000x3_1_0_n_n_0_1_13 x i) : (⟨S40000x3, .f32⟩ : BufTy).Contents (Elt F) → (⟨S640000x1, .i32⟩ : BufTy).Contents (Elt F) → (⟨S640000x3, .f32⟩ : BufTy).Contents (Elt F)),
    StableHlo.binary main_v8 main_v15 main_v16 (subf : (⟨S640000x3, .f32⟩ : BufTy).Contents (Elt F) → (⟨S640000x3, .f32⟩ : BufTy).Contents (Elt F) → (⟨S640000x3, .f32⟩ : BufTy).Contents (Elt F)),
    StableHlo.binary main_v16 main_v16 main_v17 (mulf : (⟨S640000x3, .f32⟩ : BufTy).Contents (Elt F) → (⟨S640000x3, .f32⟩ : BufTy).Contents (Elt F) → (⟨S640000x3, .f32⟩ : BufTy).Contents (Elt F)),
    StableHlo.nullary main_cst_4 (constant S_ .f32 0x00000000#32),
    StableHlo.binary main_v17 main_cst_4 main_v18 ((fun x v => Host.reduceAdd x v reducesTo_S640000x3_S640000_d1 h_S_) : (⟨S640000x3, .f32⟩ : BufTy).Contents (Elt F) → (⟨S_, .f32⟩ : BufTy).Contents (Elt F) → (⟨S640000, .f32⟩ : BufTy).Contents (Elt F)),
    StableHlo.unary main_v18 main_v19 (broadcastInDim S640000x1 ![0] bcast_S640000_S640000x1_0 : (⟨S640000, .f32⟩ : BufTy).Contents (Elt F) → (⟨S640000x1, .f32⟩ : BufTy).Contents (Elt F)),
    StableHlo.unary main_v19 main_v20 (Host.sqrt : (⟨S640000x1, .f32⟩ : BufTy).Contents (Elt F) → (⟨S640000x1, .f32⟩ : BufTy).Contents (Elt F)),
    StableHlo.nullary main_cst_5 (constant S_ .f32 0x0DA24260#32),
    StableHlo.unary main_cst_5 main_v21 (broadcastInDim S640000x1 ![] bcast_S_S640000x1 : (⟨S_, .f32⟩ : BufTy).Contents (Elt F) → (⟨S640000x1, .f32⟩ : BufTy).Contents (Elt F)),
    StableHlo.binary main_v20 main_v21 main_v22 (addf : (⟨S640000x1, .f32⟩ : BufTy).Contents (Elt F) → (⟨S640000x1, .f32⟩ : BufTy).Contents (Elt F) → (⟨S640000x1, .f32⟩ : BufTy).Contents (Elt F)),
    StableHlo.unary main_v22 main_v23 (broadcastInDim S640000x3 ![0, 1] bcast_S640000x1_S640000x3_0_1 : (⟨S640000x1, .f32⟩ : BufTy).Contents (Elt F) → (⟨S640000x3, .f32⟩ : BufTy).Contents (Elt F)),
    StableHlo.binary main_v16 main_v23 main_v24 (Host.divf : (⟨S640000x3, .f32⟩ : BufTy).Contents (Elt F) → (⟨S640000x3, .f32⟩ : BufTy).Contents (Elt F) → (⟨S640000x3, .f32⟩ : BufTy).Contents (Elt F)),
    StableHlo.nullary main_c_6 (constantI S_ 32 0#32),
    StableHlo.unary main_c_6 main_v25 (broadcastInDim S640000 ![] bcast_S_S640000 : (⟨S_, .i32⟩ : BufTy).Contents (Elt F) → (⟨S640000, .i32⟩ : BufTy).Contents (Elt F)),
    StableHlo.binary main_arg3 main_v25 main_v26 (cmpi .slt : (⟨S640000, .i32⟩ : BufTy).Contents (Elt F) → (⟨S640000, .i32⟩ : BufTy).Contents (Elt F) → (⟨S640000, .i1⟩ : BufTy).Contents (Elt F)),
    StableHlo.nullary main_c_7 (constantI S_ 32 40000#32),
    StableHlo.unary main_c_7 main_v27 (broadcastInDim S640000 ![] bcast_S_S640000 : (⟨S_, .i32⟩ : BufTy).Contents (Elt F) → (⟨S640000, .i32⟩ : BufTy).Contents (Elt F)),
    StableHlo.binary main_arg3 main_v27 main_v28 (addi : (⟨S640000, .i32⟩ : BufTy).Contents (Elt F) → (⟨S640000, .i32⟩ : BufTy).Contents (Elt F) → (⟨S640000, .i32⟩ : BufTy).Contents (Elt F)),
    StableHlo.ternary main_v26 main_v28 main_arg3 main_v29 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v29 main_v30 (broadcastInDim S640000x1 ![0] bcast_S640000_S640000x1_0 : (⟨S640000, .i32⟩ : BufTy).Contents (Elt F) → (⟨S640000x1, .i32⟩ : BufTy).Contents (Elt F)),
    StableHlo.binary main_arg0 main_v30 main_v31 ((fun x i => Host.gather gather_S40000x64_S640000x1_S640000x64_1_0_n_n_0_1_164 x i) : (⟨S40000x64, .f32⟩ : BufTy).Contents (Elt F) → (⟨S640000x1, .i32⟩ : BufTy).Contents (Elt F) → (⟨S640000x64, .f32⟩ : BufTy).Contents (Elt F)),
    StableHlo.nullary main_c_8 (constantI S_ 32 0#32),
    StableHlo.unary main_c_8 main_v32 (broadcastInDim S640000 ![] bcast_S_S640000 : (⟨S_, .i32⟩ : BufTy).Contents (Elt F) → (⟨S640000, .i32⟩ : BufTy).Contents (Elt F)),
    StableHlo.binary main_arg4 main_v32 main_v33 (cmpi .slt : (⟨S640000, .i32⟩ : BufTy).Contents (Elt F) → (⟨S640000, .i32⟩ : BufTy).Contents (Elt F) → (⟨S640000, .i1⟩ : BufTy).Contents (Elt F)),
    StableHlo.nullary main_c_9 (constantI S_ 32 40000#32),
    StableHlo.unary main_c_9 main_v34 (broadcastInDim S640000 ![] bcast_S_S640000 : (⟨S_, .i32⟩ : BufTy).Contents (Elt F) → (⟨S640000, .i32⟩ : BufTy).Contents (Elt F)),
    StableHlo.binary main_arg4 main_v34 main_v35 (addi : (⟨S640000, .i32⟩ : BufTy).Contents (Elt F) → (⟨S640000, .i32⟩ : BufTy).Contents (Elt F) → (⟨S640000, .i32⟩ : BufTy).Contents (Elt F)),
    StableHlo.ternary main_v33 main_v35 main_arg4 main_v36 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v36 main_v37 (broadcastInDim S640000x1 ![0] bcast_S640000_S640000x1_0 : (⟨S640000, .i32⟩ : BufTy).Contents (Elt F) → (⟨S640000x1, .i32⟩ : BufTy).Contents (Elt F)),
    StableHlo.binary main_arg0 main_v37 main_v38 ((fun x i => Host.gather gather_S40000x64_S640000x1_S640000x64_1_0_n_n_0_1_164 x i) : (⟨S40000x64, .f32⟩ : BufTy).Contents (Elt F) → (⟨S640000x1, .i32⟩ : BufTy).Contents (Elt F) → (⟨S640000x64, .f32⟩ : BufTy).Contents (Elt F)),
    StableHlo.nary ![main_v31, main_v38, main_v19, main_arg2] main_v39 (fun u => concatenate S640000x145 1 [⟨S640000x64, u 0⟩, ⟨S640000x64, u 1⟩, ⟨S640000x1, u 2⟩, ⟨S640000x16, u 3⟩] concatenates_S640000x64_S640000x64_S640000x1_S640000x16_S640000x145_d1),
    StableHlo.unary main_arg5 main_v40 ((extractStridedSlice S1x145x64 ![0, 0, 0] · slices_S2x145x64_S1x145x64_0_0_0) : (⟨S2x145x64, .f32⟩ : BufTy).Contents (Elt F) → (⟨S1x145x64, .f32⟩ : BufTy).Contents (Elt F)),
    StableHlo.reshape main_v40 main_v41 rfl shapeCasts_S1x145x64_S145x64,
    StableHlo.binary main_v39 main_v41 main_v42 ((fun l r => Host.dotGeneral dot_S640000x145_S145x64_S640000x64_1_0_0_1_n_n none l r) : (⟨S640000x145, .f32⟩ : BufTy).Contents (Elt F) → (⟨S145x64, .f32⟩ : BufTy).Contents (Elt F) → (⟨S640000x64, .f32⟩ : BufTy).Contents (Elt F)),
    StableHlo.unary main_arg6 main_v43 ((extractStridedSlice S1x64 ![0, 0] · slices_S2x64_S1x64_0_0) : (⟨S2x64, .f32⟩ : BufTy).Contents (Elt F) → (⟨S1x64, .f32⟩ : BufTy).Contents (Elt F)),
    StableHlo.reshape main_v43 main_v44 rfl shapeCasts_S1x64_S64,
    StableHlo.unary main_v44 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S640000x64 ![0, 1] bcast_S1x64_S640000x64_0_1 : (⟨S1x64, .f32⟩ : BufTy).Contents (Elt F) → (⟨S640000x64, .f32⟩ : BufTy).Contents (Elt F)),
    StableHlo.binary main_v42 main_v46 main_v47 (addf : (⟨S640000x64, .f32⟩ : BufTy).Contents (Elt F) → (⟨S640000x64, .f32⟩ : BufTy).Contents (Elt F) → (⟨S640000x64, .f32⟩ : BufTy).Contents (Elt F)) ]

/-- Operations 60 … 119 of the 404, in order. -/
abbrev seg1 : List (HloOp τ sig (Elt F)) :=
  [ StableHlo.TRef.unary (.of main_v47 : StableHlo.TRef sig ⟨S640000x64, .f32⟩) main_call0.v0 Host.negf,
    StableHlo.TRef.unary main_call0.v0 main_call0.v1 Host.exp,
    StableHlo.TRef.nullary main_call0.cst (constant S_ .f32 0x3F800000#32),
    StableHlo.TRef.unary main_call0.cst main_call0.v2 (broadcastInDim S640000x64 ![] bcast_S_S640000x64),
    StableHlo.TRef.binary main_call0.v2 main_call0.v1 main_call0.v3 addf,
    StableHlo.TRef.nullary main_call0.cst_0 (constant S_ .f32 0x3F800000#32),
    StableHlo.TRef.unary main_call0.cst_0 main_call0.v4 (broadcastInDim S640000x64 ![] bcast_S_S640000x64),
    StableHlo.TRef.binary main_call0.v4 main_call0.v3 main_call0.v5 Host.divf,
    StableHlo.TRef.binary (.of main_v47 : StableHlo.TRef sig ⟨S640000x64, .f32⟩) main_call0.v5 main_call0.v6 mulf,
    StableHlo.unary main_arg7 main_v49 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v49 main_v50 rfl shapeCasts_S1x64x64_S64x64,
    StableHlo.binary main_v48 main_v50 main_v51 ((fun l r => Host.dotGeneral dot_S640000x64_S64x64_S640000x64_1_0_0_1_n_n none l r) : (⟨S640000x64, .f32⟩ : BufTy).Contents (Elt F) → (⟨S64x64, .f32⟩ : BufTy).Contents (Elt F) → (⟨S640000x64, .f32⟩ : BufTy).Contents (Elt F)),
    StableHlo.unary main_arg8 main_v52 ((extractStridedSlice S1x64 ![0, 0] · slices_S2x64_S1x64_0_0) : (⟨S2x64, .f32⟩ : BufTy).Contents (Elt F) → (⟨S1x64, .f32⟩ : BufTy).Contents (Elt F)),
    StableHlo.reshape main_v52 main_v53 rfl shapeCasts_S1x64_S64,
    StableHlo.unary main_v53 main_v54 (broadcastInDim S1x64 ![1] bcast_S64_S1x64_1 : (⟨S64, .f32⟩ : BufTy).Contents (Elt F) → (⟨S1x64, .f32⟩ : BufTy).Contents (Elt F)),
    StableHlo.unary main_v54 main_v55 (broadcastInDim S640000x64 ![0, 1] bcast_S1x64_S640000x64_0_1 : (⟨S1x64, .f32⟩ : BufTy).Contents (Elt F) → (⟨S640000x64, .f32⟩ : BufTy).Contents (Elt F)),
    StableHlo.binary main_v51 main_v55 main_v56 (addf : (⟨S640000x64, .f32⟩ : BufTy).Contents (Elt F) → (⟨S640000x64, .f32⟩ : BufTy).Contents (Elt F) → (⟨S640000x64, .f32⟩ : BufTy).Contents (Elt F)),
    StableHlo.TRef.unary (.of main_v56 : StableHlo.TRef sig ⟨S640000x64, .f32⟩) main_call1.v0 Host.negf,
    StableHlo.TRef.unary main_call1.v0 main_call1.v1 Host.exp,
    StableHlo.TRef.nullary main_call1.cst (constant S_ .f32 0x3F800000#32),
    StableHlo.TRef.unary main_call1.cst main_call1.v2 (broadcastInDim S640000x64 ![] bcast_S_S640000x64),
    StableHlo.TRef.binary main_call1.v2 main_call1.v1 main_call1.v3 addf,
    StableHlo.TRef.nullary main_call1.cst_0 (constant S_ .f32 0x3F800000#32),
    StableHlo.TRef.unary main_call1.cst_0 main_call1.v4 (broadcastInDim S640000x64 ![] bcast_S_S640000x64),
    StableHlo.TRef.binary main_call1.v4 main_call1.v3 main_call1.v5 Host.divf,
    StableHlo.TRef.binary (.of main_v56 : StableHlo.TRef sig ⟨S640000x64, .f32⟩) main_call1.v5 main_call1.v6 mulf,
    StableHlo.unary main_arg9 main_v58 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v58 main_v59 rfl shapeCasts_S1x64x64_S64x64,
    StableHlo.binary main_v57 main_v59 main_v60 ((fun l r => Host.dotGeneral dot_S640000x64_S64x64_S640000x64_1_0_0_1_n_n none l r) : (⟨S640000x64, .f32⟩ : BufTy).Contents (Elt F) → (⟨S64x64, .f32⟩ : BufTy).Contents (Elt F) → (⟨S640000x64, .f32⟩ : BufTy).Contents (Elt F)),
    StableHlo.unary main_arg10 main_v61 ((extractStridedSlice S1x64 ![0, 0] · slices_S2x64_S1x64_0_0) : (⟨S2x64, .f32⟩ : BufTy).Contents (Elt F) → (⟨S1x64, .f32⟩ : BufTy).Contents (Elt F)),
    StableHlo.reshape main_v61 main_v62 rfl shapeCasts_S1x64_S64,
    StableHlo.unary main_v62 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S640000x64 ![0, 1] bcast_S1x64_S640000x64_0_1 : (⟨S1x64, .f32⟩ : BufTy).Contents (Elt F) → (⟨S640000x64, .f32⟩ : BufTy).Contents (Elt F)),
    StableHlo.binary main_v60 main_v64 main_v65 (addf : (⟨S640000x64, .f32⟩ : BufTy).Contents (Elt F) → (⟨S640000x64, .f32⟩ : BufTy).Contents (Elt F) → (⟨S640000x64, .f32⟩ : BufTy).Contents (Elt F)),
    StableHlo.TRef.unary (.of main_v65 : StableHlo.TRef sig ⟨S640000x64, .f32⟩) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S640000x64 ![] bcast_S_S640000x64),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S640000x64 ![] bcast_S_S640000x64),
    StableHlo.TRef.binary main_call2.v4 main_call2.v3 main_call2.v5 Host.divf,
    StableHlo.TRef.binary (.of main_v65 : StableHlo.TRef sig ⟨S640000x64, .f32⟩) main_call2.v5 main_call2.v6 mulf,
    StableHlo.unary main_arg11 main_v67 ((extractStridedSlice S1x64x1 ![0, 0, 0] · slices_S2x64x1_S1x64x1_0_0_0) : (⟨S2x64x1, .f32⟩ : BufTy).Contents (Elt F) → (⟨S1x64x1, .f32⟩ : BufTy).Contents (Elt F)),
    StableHlo.reshape main_v67 main_v68 rfl shapeCasts_S1x64x1_S64x1,
    StableHlo.binary main_v66 main_v68 main_v69 ((fun l r => Host.dotGeneral dot_S640000x64_S64x1_S640000x1_1_0_0_1_n_n none l r) : (⟨S640000x64, .f32⟩ : BufTy).Contents (Elt F) → (⟨S64x1, .f32⟩ : BufTy).Contents (Elt F) → (⟨S640000x1, .f32⟩ : BufTy).Contents (Elt F)),
    StableHlo.unary main_v69 main_v70 (broadcastInDim S640000x3 ![0, 1] bcast_S640000x1_S640000x3_0_1 : (⟨S640000x1, .f32⟩ : BufTy).Contents (Elt F) → (⟨S640000x3, .f32⟩ : BufTy).Contents (Elt F)),
    StableHlo.binary main_v70 main_v24 main_v71 (mulf : (⟨S640000x3, .f32⟩ : BufTy).Contents (Elt F) → (⟨S640000x3, .f32⟩ : BufTy).Contents (Elt F) → (⟨S640000x3, .f32⟩ : BufTy).Contents (Elt F)),
    StableHlo.nullary main_cst_10 (constant S_ .f32 0x00000000#32),
    StableHlo.unary main_cst_10 main_v72 (broadcastInDim S40000x64 ![] bcast_S_S40000x64 : (⟨S_, .f32⟩ : BufTy).Contents (Elt F) → (⟨S40000x64, .f32⟩ : BufTy).Contents (Elt F)),
    StableHlo.unary main_arg4 main_v73 (broadcastInDim S640000x1 ![0] bcast_S640000_S640000x1_0 : (⟨S640000, .i32⟩ : BufTy).Contents (Elt F) → (⟨S640000x1, .i32⟩ : BufTy).Contents (Elt F)),
    StableHlo.ternary main_v72 main_v73 main_v57 main_v74 ((fun x i u => Host.scatterAdd scatter_S40000x64_S640000x1_S640000x64_1_0_0_1 x i u) : (⟨S40000x64, .f32⟩ : BufTy).Contents (Elt F) → (⟨S640000x1, .i32⟩ : BufTy).Contents (Elt F) → (⟨S640000x64, .f32⟩ : BufTy).Contents (Elt F) → (⟨S40000x64, .f32⟩ : BufTy).Contents (Elt F)),
    StableHlo.nullary main_cst_11 (constant S_ .f32 0x00000000#32),
    StableHlo.unary main_cst_11 main_v75 (broadcastInDim S40000x3 ![] bcast_S_S40000x3 : (⟨S_, .f32⟩ : BufTy).Contents (Elt F) → (⟨S40000x3, .f32⟩ : BufTy).Contents (Elt F)),
    StableHlo.unary main_arg4 main_v76 (broadcastInDim S640000x1 ![0] bcast_S640000_S640000x1_0 : (⟨S640000, .i32⟩ : BufTy).Contents (Elt F) → (⟨S640000x1, .i32⟩ : BufTy).Contents (Elt F)),
    StableHlo.ternary main_v75 main_v76 main_v71 main_v77 ((fun x i u => Host.scatterAdd scatter_S40000x3_S640000x1_S640000x3_1_0_0_1 x i u) : (⟨S40000x3, .f32⟩ : BufTy).Contents (Elt F) → (⟨S640000x1, .i32⟩ : BufTy).Contents (Elt F) → (⟨S640000x3, .f32⟩ : BufTy).Contents (Elt F) → (⟨S40000x3, .f32⟩ : BufTy).Contents (Elt F)),
    StableHlo.nullary main_cst_12 (constant S_ .f32 0x00000000#32),
    StableHlo.unary main_cst_12 main_v78 (broadcastInDim S40000x1 ![] bcast_S_S40000x1 : (⟨S_, .f32⟩ : BufTy).Contents (Elt F) → (⟨S40000x1, .f32⟩ : BufTy).Contents (Elt F)),
    StableHlo.unary main_arg4 main_v79 (broadcastInDim S640000x1 ![0] bcast_S640000_S640000x1_0 : (⟨S640000, .i32⟩ : BufTy).Contents (Elt F) → (⟨S640000x1, .i32⟩ : BufTy).Contents (Elt F)),
    StableHlo.ternary main_v78 main_v79 main_v1 main_v80 ((fun x i u => Host.scatterAdd scatter_S40000x1_S640000x1_S640000x1_1_0_0_1 x i u) : (⟨S40000x1, .f32⟩ : BufTy).Contents (Elt F) → (⟨S640000x1, .i32⟩ : BufTy).Contents (Elt F) → (⟨S640000x1, .f32⟩ : BufTy).Contents (Elt F) → (⟨S40000x1, .f32⟩ : BufTy).Contents (Elt F)) ]

/-- Operations 120 … 203 of the 404, in order. -/
abbrev seg2 : List (HloOp τ sig (Elt F)) :=
  [ StableHlo.nullary main_cst_13 (constant S_ .f32 0x3F800000#32),
    StableHlo.unary main_cst_13 main_v81 (broadcastInDim S40000x1 ![] bcast_S_S40000x1 : (⟨S_, .f32⟩ : BufTy).Contents (Elt F) → (⟨S40000x1, .f32⟩ : BufTy).Contents (Elt F)),
    StableHlo.binary main_v80 main_v81 main_v82 (maximumf : (⟨S40000x1, .f32⟩ : BufTy).Contents (Elt F) → (⟨S40000x1, .f32⟩ : BufTy).Contents (Elt F) → (⟨S40000x1, .f32⟩ : BufTy).Contents (Elt F)),
    StableHlo.unary main_v82 main_v83 (broadcastInDim S40000x3 ![0, 1] bcast_S40000x1_S40000x3_0_1 : (⟨S40000x1, .f32⟩ : BufTy).Contents (Elt F) → (⟨S40000x3, .f32⟩ : BufTy).Contents (Elt F)),
    StableHlo.binary main_v77 main_v83 main_v84 (Host.divf : (⟨S40000x3, .f32⟩ : BufTy).Contents (Elt F) → (⟨S40000x3, .f32⟩ : BufTy).Contents (Elt F) → (⟨S40000x3, .f32⟩ : BufTy).Contents (Elt F)),
    StableHlo.binary main_arg0 main_v74 main_v85 ((fun a b => concatenate S40000x128 1 [⟨S40000x64, a⟩, ⟨S40000x64, b⟩] concatenates_S40000x64_S40000x64_S40000x128_d1) : (⟨S40000x64, .f32⟩ : BufTy).Contents (Elt F) → (⟨S40000x64, .f32⟩ : BufTy).Contents (Elt F) → (⟨S40000x128, .f32⟩ : BufTy).Contents (Elt F)),
    StableHlo.unary main_arg12 main_v86 ((extractStridedSlice S1x128x64 ![0, 0, 0] · slices_S2x128x64_S1x128x64_0_0_0) : (⟨S2x128x64, .f32⟩ : BufTy).Contents (Elt F) → (⟨S1x128x64, .f32⟩ : BufTy).Contents (Elt F)),
    StableHlo.reshape main_v86 main_v87 rfl shapeCasts_S1x128x64_S128x64,
    StableHlo.binary main_v85 main_v87 main_v88 ((fun l r => Host.dotGeneral dot_S40000x128_S128x64_S40000x64_1_0_0_1_n_n none l r) : (⟨S40000x128, .f32⟩ : BufTy).Contents (Elt F) → (⟨S128x64, .f32⟩ : BufTy).Contents (Elt F) → (⟨S40000x64, .f32⟩ : BufTy).Contents (Elt F)),
    StableHlo.unary main_arg13 main_v89 ((extractStridedSlice S1x64 ![0, 0] · slices_S2x64_S1x64_0_0) : (⟨S2x64, .f32⟩ : BufTy).Contents (Elt F) → (⟨S1x64, .f32⟩ : BufTy).Contents (Elt F)),
    StableHlo.reshape main_v89 main_v90 rfl shapeCasts_S1x64_S64,
    StableHlo.unary main_v90 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S40000x64 ![0, 1] bcast_S1x64_S40000x64_0_1 : (⟨S1x64, .f32⟩ : BufTy).Contents (Elt F) → (⟨S40000x64, .f32⟩ : BufTy).Contents (Elt F)),
    StableHlo.binary main_v88 main_v92 main_v93 (addf : (⟨S40000x64, .f32⟩ : BufTy).Contents (Elt F) → (⟨S40000x64, .f32⟩ : BufTy).Contents (Elt F) → (⟨S40000x64, .f32⟩ : BufTy).Contents (Elt F)),
    StableHlo.TRef.unary (.of main_v93 : StableHlo.TRef sig ⟨S40000x64, .f32⟩) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S40000x64 ![] bcast_S_S40000x64),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S40000x64 ![] bcast_S_S40000x64),
    StableHlo.TRef.binary main_call3.v4 main_call3.v3 main_call3.v5 Host.divf,
    StableHlo.TRef.binary (.of main_v93 : StableHlo.TRef sig ⟨S40000x64, .f32⟩) main_call3.v5 main_call3.v6 mulf,
    StableHlo.unary main_arg14 main_v95 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v95 main_v96 rfl shapeCasts_S1x64x64_S64x64,
    StableHlo.binary main_v94 main_v96 main_v97 ((fun l r => Host.dotGeneral dot_S40000x64_S64x64_S40000x64_1_0_0_1_n_n none l r) : (⟨S40000x64, .f32⟩ : BufTy).Contents (Elt F) → (⟨S64x64, .f32⟩ : BufTy).Contents (Elt F) → (⟨S40000x64, .f32⟩ : BufTy).Contents (Elt F)),
    StableHlo.unary main_arg15 main_v98 ((extractStridedSlice S1x64 ![0, 0] · slices_S2x64_S1x64_0_0) : (⟨S2x64, .f32⟩ : BufTy).Contents (Elt F) → (⟨S1x64, .f32⟩ : BufTy).Contents (Elt F)),
    StableHlo.reshape main_v98 main_v99 rfl shapeCasts_S1x64_S64,
    StableHlo.unary main_v99 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S40000x64 ![0, 1] bcast_S1x64_S40000x64_0_1 : (⟨S1x64, .f32⟩ : BufTy).Contents (Elt F) → (⟨S40000x64, .f32⟩ : BufTy).Contents (Elt F)),
    StableHlo.binary main_v97 main_v101 main_v102 (addf : (⟨S40000x64, .f32⟩ : BufTy).Contents (Elt F) → (⟨S40000x64, .f32⟩ : BufTy).Contents (Elt F) → (⟨S40000x64, .f32⟩ : BufTy).Contents (Elt F)),
    StableHlo.binary main_arg1 main_v84 main_v103 (addf : (⟨S40000x3, .f32⟩ : BufTy).Contents (Elt F) → (⟨S40000x3, .f32⟩ : BufTy).Contents (Elt F) → (⟨S40000x3, .f32⟩ : BufTy).Contents (Elt F)),
    StableHlo.nullary main_cst_14 (constant S_ .f32 0x00000000#32),
    StableHlo.binary main_v102 main_cst_14 main_v104 ((fun x v => Host.reduceAdd x v reducesTo_S40000x64_S64_d0 h_S_) : (⟨S40000x64, .f32⟩ : BufTy).Contents (Elt F) → (⟨S_, .f32⟩ : BufTy).Contents (Elt F) → (⟨S64, .f32⟩ : BufTy).Contents (Elt F)),
    StableHlo.nullary main_cst_15 (constant S_ .f32 0x471C4000#32),
    StableHlo.unary main_cst_15 main_v105 (broadcastInDim S64 ![] bcast_S_S64 : (⟨S_, .f32⟩ : BufTy).Contents (Elt F) → (⟨S64, .f32⟩ : BufTy).Contents (Elt F)),
    StableHlo.binary main_v104 main_v105 main_v106 (Host.divf : (⟨S64, .f32⟩ : BufTy).Contents (Elt F) → (⟨S64, .f32⟩ : BufTy).Contents (Elt F) → (⟨S64, .f32⟩ : BufTy).Contents (Elt F)),
    StableHlo.nullary main_c_16 (constantI S_ 32 0#32),
    StableHlo.TRef.nullary main_call4.cst (constant S_ .f32 0x00000000#32),
    StableHlo.TRef.binary (.of main_v102 : StableHlo.TRef sig ⟨S40000x64, .f32⟩) main_call4.cst main_call4.v0 (fun x v => Host.reduceAdd x v reducesTo_S40000x64_S64_d0 h_S_),
    StableHlo.TRef.unary main_call4.v0 main_call4.v1 (broadcastInDim S1x64 ![1] bcast_S64_S1x64_1),
    StableHlo.TRef.nullary main_call4.cst_0 (constant S_ .f32 0x471C4000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S40000x64 ![0, 1] bcast_S1x64_S40000x64_0_1),
    StableHlo.TRef.binary (.of main_v102 : StableHlo.TRef sig ⟨S40000x64, .f32⟩) main_call4.v4 main_call4.v5 subf,
    StableHlo.TRef.binary main_call4.v5 main_call4.v5 main_call4.v6 mulf,
    StableHlo.TRef.unary (.of main_c_16 : StableHlo.TRef sig ⟨S_, .i32⟩) main_call4.v7 (sitofp .f32),
    StableHlo.TRef.nullary main_call4.cst_1 (constant S_ .f32 0x471C4000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S40000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v106 main_v108 (broadcastInDim S1x64 ![1] bcast_S64_S1x64_1 : (⟨S64, .f32⟩ : BufTy).Contents (Elt F) → (⟨S1x64, .f32⟩ : BufTy).Contents (Elt F)),
    StableHlo.unary main_v108 main_v109 (broadcastInDim S40000x64 ![0, 1] bcast_S1x64_S40000x64_0_1 : (⟨S1x64, .f32⟩ : BufTy).Contents (Elt F) → (⟨S40000x64, .f32⟩ : BufTy).Contents (Elt F)),
    StableHlo.binary main_v102 main_v109 main_v110 (subf : (⟨S40000x64, .f32⟩ : BufTy).Contents (Elt F) → (⟨S40000x64, .f32⟩ : BufTy).Contents (Elt F) → (⟨S40000x64, .f32⟩ : BufTy).Contents (Elt F)),
    StableHlo.nullary main_cst_17 (constant S_ .f32 0x3727C5AC#32),
    StableHlo.unary main_cst_17 main_v111 (broadcastInDim S64 ![] bcast_S_S64 : (⟨S_, .f32⟩ : BufTy).Contents (Elt F) → (⟨S64, .f32⟩ : BufTy).Contents (Elt F)),
    StableHlo.binary main_v107 main_v111 main_v112 (addf : (⟨S64, .f32⟩ : BufTy).Contents (Elt F) → (⟨S64, .f32⟩ : BufTy).Contents (Elt F) → (⟨S64, .f32⟩ : BufTy).Contents (Elt F)),
    StableHlo.unary main_v112 main_v113 (Host.sqrt : (⟨S64, .f32⟩ : BufTy).Contents (Elt F) → (⟨S64, .f32⟩ : BufTy).Contents (Elt F)),
    StableHlo.unary main_v113 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S40000x64 ![0, 1] bcast_S1x64_S40000x64_0_1 : (⟨S1x64, .f32⟩ : BufTy).Contents (Elt F) → (⟨S40000x64, .f32⟩ : BufTy).Contents (Elt F)),
    StableHlo.binary main_v110 main_v115 main_v116 (Host.divf : (⟨S40000x64, .f32⟩ : BufTy).Contents (Elt F) → (⟨S40000x64, .f32⟩ : BufTy).Contents (Elt F) → (⟨S40000x64, .f32⟩ : BufTy).Contents (Elt F)),
    StableHlo.unary main_arg16 main_v117 ((extractStridedSlice S1x64 ![0, 0] · slices_S2x64_S1x64_0_0) : (⟨S2x64, .f32⟩ : BufTy).Contents (Elt F) → (⟨S1x64, .f32⟩ : BufTy).Contents (Elt F)),
    StableHlo.reshape main_v117 main_v118 rfl shapeCasts_S1x64_S64,
    StableHlo.unary main_v118 main_v119 (broadcastInDim S1x64 ![1] bcast_S64_S1x64_1 : (⟨S64, .f32⟩ : BufTy).Contents (Elt F) → (⟨S1x64, .f32⟩ : BufTy).Contents (Elt F)),
    StableHlo.unary main_v119 main_v120 (broadcastInDim S40000x64 ![0, 1] bcast_S1x64_S40000x64_0_1 : (⟨S1x64, .f32⟩ : BufTy).Contents (Elt F) → (⟨S40000x64, .f32⟩ : BufTy).Contents (Elt F)),
    StableHlo.binary main_v116 main_v120 main_v121 (mulf : (⟨S40000x64, .f32⟩ : BufTy).Contents (Elt F) → (⟨S40000x64, .f32⟩ : BufTy).Contents (Elt F) → (⟨S40000x64, .f32⟩ : BufTy).Contents (Elt F)),
    StableHlo.unary main_arg17 main_v122 ((extractStridedSlice S1x64 ![0, 0] · slices_S2x64_S1x64_0_0) : (⟨S2x64, .f32⟩ : BufTy).Contents (Elt F) → (⟨S1x64, .f32⟩ : BufTy).Contents (Elt F)),
    StableHlo.reshape main_v122 main_v123 rfl shapeCasts_S1x64_S64,
    StableHlo.unary main_v123 main_v124 (broadcastInDim S1x64 ![1] bcast_S64_S1x64_1 : (⟨S64, .f32⟩ : BufTy).Contents (Elt F) → (⟨S1x64, .f32⟩ : BufTy).Contents (Elt F)),
    StableHlo.unary main_v124 main_v125 (broadcastInDim S40000x64 ![0, 1] bcast_S1x64_S40000x64_0_1 : (⟨S1x64, .f32⟩ : BufTy).Contents (Elt F) → (⟨S40000x64, .f32⟩ : BufTy).Contents (Elt F)),
    StableHlo.binary main_v121 main_v125 main_v126 (addf : (⟨S40000x64, .f32⟩ : BufTy).Contents (Elt F) → (⟨S40000x64, .f32⟩ : BufTy).Contents (Elt F) → (⟨S40000x64, .f32⟩ : BufTy).Contents (Elt F)),
    StableHlo.TRef.nullary main_call5.cst (constant S_ .f32 0x00000000#32),
    StableHlo.TRef.unary main_call5.cst main_call5.v0 (broadcastInDim S40000x64 ![] bcast_S_S40000x64),
    StableHlo.TRef.binary (.of main_v126 : StableHlo.TRef sig ⟨S40000x64, .f32⟩) main_call5.v0 main_call5.v1 maximumf,
    StableHlo.binary main_v0 main_v127 main_v128 (addf : (⟨S40000x64, .f32⟩ : BufTy).Contents (Elt F) → (⟨S40000x64, .f32⟩ : BufTy).Contents (Elt F) → (⟨S40000x64, .f32⟩ : BufTy).Contents (Elt F)) ]

/-- Operations 204 … 259 of the 404, in order. -/
abbrev seg3 : List (HloOp τ sig (Elt F)) :=
  [ StableHlo.nullary main_c_18 (constantI S_ 32 0#32),
    StableHlo.unary main_c_18 main_v129 (broadcastInDim S640000 ![] bcast_S_S640000 : (⟨S_, .i32⟩ : BufTy).Contents (Elt F) → (⟨S640000, .i32⟩ : BufTy).Contents (Elt F)),
    StableHlo.binary main_arg3 main_v129 main_v130 (cmpi .slt : (⟨S640000, .i32⟩ : BufTy).Contents (Elt F) → (⟨S640000, .i32⟩ : BufTy).Contents (Elt F) → (⟨S640000, .i1⟩ : BufTy).Contents (Elt F)),
    StableHlo.nullary main_c_19 (constantI S_ 32 40000#32),
    StableHlo.unary main_c_19 main_v131 (broadcastInDim S640000 ![] bcast_S_S640000 : (⟨S_, .i32⟩ : BufTy).Contents (Elt F) → (⟨S640000, .i32⟩ : BufTy).Contents (Elt F)),
    StableHlo.binary main_arg3 main_v131 main_v132 (addi : (⟨S640000, .i32⟩ : BufTy).Contents (Elt F) → (⟨S640000, .i32⟩ : BufTy).Contents (Elt F) → (⟨S640000, .i32⟩ : BufTy).Contents (Elt F)),
    StableHlo.ternary main_v130 main_v132 main_arg3 main_v133 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v133 main_v134 (broadcastInDim S640000x1 ![0] bcast_S640000_S640000x1_0 : (⟨S640000, .i32⟩ : BufTy).Contents (Elt F) → (⟨S640000x1, .i32⟩ : BufTy).Contents (Elt F)),
    StableHlo.binary main_v103 main_v134 main_v135 ((fun x i => Host.gather gather_S40000x3_S640000x1_S640000x3_1_0_n_n_0_1_13 x i) : (⟨S40000x3, .f32⟩ : BufTy).Contents (Elt F) → (⟨S640000x1, .i32⟩ : BufTy).Contents (Elt F) → (⟨S640000x3, .f32⟩ : BufTy).Contents (Elt F)),
    StableHlo.nullary main_c_20 (constantI S_ 32 0#32),
    StableHlo.unary main_c_20 main_v136 (broadcastInDim S640000 ![] bcast_S_S640000 : (⟨S_, .i32⟩ : BufTy).Contents (Elt F) → (⟨S640000, .i32⟩ : BufTy).Contents (Elt F)),
    StableHlo.binary main_arg4 main_v136 main_v137 (cmpi .slt : (⟨S640000, .i32⟩ : BufTy).Contents (Elt F) → (⟨S640000, .i32⟩ : BufTy).Contents (Elt F) → (⟨S640000, .i1⟩ : BufTy).Contents (Elt F)),
    StableHlo.nullary main_c_21 (constantI S_ 32 40000#32),
    StableHlo.unary main_c_21 main_v138 (broadcastInDim S640000 ![] bcast_S_S640000 : (⟨S_, .i32⟩ : BufTy).Contents (Elt F) → (⟨S640000, .i32⟩ : BufTy).Contents (Elt F)),
    StableHlo.binary main_arg4 main_v138 main_v139 (addi : (⟨S640000, .i32⟩ : BufTy).Contents (Elt F) → (⟨S640000, .i32⟩ : BufTy).Contents (Elt F) → (⟨S640000, .i32⟩ : BufTy).Contents (Elt F)),
    StableHlo.ternary main_v137 main_v139 main_arg4 main_v140 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v140 main_v141 (broadcastInDim S640000x1 ![0] bcast_S640000_S640000x1_0 : (⟨S640000, .i32⟩ : BufTy).Contents (Elt F) → (⟨S640000x1, .i32⟩ : BufTy).Contents (Elt F)),
    StableHlo.binary main_v103 main_v141 main_v142 ((fun x i => Host.gather gather_S40000x3_S640000x1_S640000x3_1_0_n_n_0_1_13 x i) : (⟨S40000x3, .f32⟩ : BufTy).Contents (Elt F) → (⟨S640000x1, .i32⟩ : BufTy).Contents (Elt F) → (⟨S640000x3, .f32⟩ : BufTy).Contents (Elt F)),
    StableHlo.binary main_v135 main_v142 main_v143 (subf : (⟨S640000x3, .f32⟩ : BufTy).Contents (Elt F) → (⟨S640000x3, .f32⟩ : BufTy).Contents (Elt F) → (⟨S640000x3, .f32⟩ : BufTy).Contents (Elt F)),
    StableHlo.binary main_v143 main_v143 main_v144 (mulf : (⟨S640000x3, .f32⟩ : BufTy).Contents (Elt F) → (⟨S640000x3, .f32⟩ : BufTy).Contents (Elt F) → (⟨S640000x3, .f32⟩ : BufTy).Contents (Elt F)),
    StableHlo.nullary main_cst_22 (constant S_ .f32 0x00000000#32),
    StableHlo.binary main_v144 main_cst_22 main_v145 ((fun x v => Host.reduceAdd x v reducesTo_S640000x3_S640000_d1 h_S_) : (⟨S640000x3, .f32⟩ : BufTy).Contents (Elt F) → (⟨S_, .f32⟩ : BufTy).Contents (Elt F) → (⟨S640000, .f32⟩ : BufTy).Contents (Elt F)),
    StableHlo.unary main_v145 main_v146 (broadcastInDim S640000x1 ![0] bcast_S640000_S640000x1_0 : (⟨S640000, .f32⟩ : BufTy).Contents (Elt F) → (⟨S640000x1, .f32⟩ : BufTy).Contents (Elt F)),
    StableHlo.unary main_v146 main_v147 (Host.sqrt : (⟨S640000x1, .f32⟩ : BufTy).Contents (Elt F) → (⟨S640000x1, .f32⟩ : BufTy).Contents (Elt F)),
    StableHlo.nullary main_cst_23 (constant S_ .f32 0x0DA24260#32),
    StableHlo.unary main_cst_23 main_v148 (broadcastInDim S640000x1 ![] bcast_S_S640000x1 : (⟨S_, .f32⟩ : BufTy).Contents (Elt F) → (⟨S640000x1, .f32⟩ : BufTy).Contents (Elt F)),
    StableHlo.binary main_v147 main_v148 main_v149 (addf : (⟨S640000x1, .f32⟩ : BufTy).Contents (Elt F) → (⟨S640000x1, .f32⟩ : BufTy).Contents (Elt F) → (⟨S640000x1, .f32⟩ : BufTy).Contents (Elt F)),
    StableHlo.unary main_v149 main_v150 (broadcastInDim S640000x3 ![0, 1] bcast_S640000x1_S640000x3_0_1 : (⟨S640000x1, .f32⟩ : BufTy).Contents (Elt F) → (⟨S640000x3, .f32⟩ : BufTy).Contents (Elt F)),
    StableHlo.binary main_v143 main_v150 main_v151 (Host.divf : (⟨S640000x3, .f32⟩ : BufTy).Contents (Elt F) → (⟨S640000x3, .f32⟩ : BufTy).Contents (Elt F) → (⟨S640000x3, .f32⟩ : BufTy).Contents (Elt F)),
    StableHlo.nullary main_c_24 (constantI S_ 32 0#32),
    StableHlo.unary main_c_24 main_v152 (broadcastInDim S640000 ![] bcast_S_S640000 : (⟨S_, .i32⟩ : BufTy).Contents (Elt F) → (⟨S640000, .i32⟩ : BufTy).Contents (Elt F)),
    StableHlo.binary main_arg3 main_v152 main_v153 (cmpi .slt : (⟨S640000, .i32⟩ : BufTy).Contents (Elt F) → (⟨S640000, .i32⟩ : BufTy).Contents (Elt F) → (⟨S640000, .i1⟩ : BufTy).Contents (Elt F)),
    StableHlo.nullary main_c_25 (constantI S_ 32 40000#32),
    StableHlo.unary main_c_25 main_v154 (broadcastInDim S640000 ![] bcast_S_S640000 : (⟨S_, .i32⟩ : BufTy).Contents (Elt F) → (⟨S640000, .i32⟩ : BufTy).Contents (Elt F)),
    StableHlo.binary main_arg3 main_v154 main_v155 (addi : (⟨S640000, .i32⟩ : BufTy).Contents (Elt F) → (⟨S640000, .i32⟩ : BufTy).Contents (Elt F) → (⟨S640000, .i32⟩ : BufTy).Contents (Elt F)),
    StableHlo.ternary main_v153 main_v155 main_arg3 main_v156 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v156 main_v157 (broadcastInDim S640000x1 ![0] bcast_S640000_S640000x1_0 : (⟨S640000, .i32⟩ : BufTy).Contents (Elt F) → (⟨S640000x1, .i32⟩ : BufTy).Contents (Elt F)),
    StableHlo.binary main_v127 main_v157 main_v158 ((fun x i => Host.gather gather_S40000x64_S640000x1_S640000x64_1_0_n_n_0_1_164 x i) : (⟨S40000x64, .f32⟩ : BufTy).Contents (Elt F) → (⟨S640000x1, .i32⟩ : BufTy).Contents (Elt F) → (⟨S640000x64, .f32⟩ : BufTy).Contents (Elt F)),
    StableHlo.nullary main_c_26 (constantI S_ 32 0#32),
    StableHlo.unary main_c_26 main_v159 (broadcastInDim S640000 ![] bcast_S_S640000 : (⟨S_, .i32⟩ : BufTy).Contents (Elt F) → (⟨S640000, .i32⟩ : BufTy).Contents (Elt F)),
    StableHlo.binary main_arg4 main_v159 main_v160 (cmpi .slt : (⟨S640000, .i32⟩ : BufTy).Contents (Elt F) → (⟨S640000, .i32⟩ : BufTy).Contents (Elt F) → (⟨S640000, .i1⟩ : BufTy).Contents (Elt F)),
    StableHlo.nullary main_c_27 (constantI S_ 32 40000#32),
    StableHlo.unary main_c_27 main_v161 (broadcastInDim S640000 ![] bcast_S_S640000 : (⟨S_, .i32⟩ : BufTy).Contents (Elt F) → (⟨S640000, .i32⟩ : BufTy).Contents (Elt F)),
    StableHlo.binary main_arg4 main_v161 main_v162 (addi : (⟨S640000, .i32⟩ : BufTy).Contents (Elt F) → (⟨S640000, .i32⟩ : BufTy).Contents (Elt F) → (⟨S640000, .i32⟩ : BufTy).Contents (Elt F)),
    StableHlo.ternary main_v160 main_v162 main_arg4 main_v163 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v163 main_v164 (broadcastInDim S640000x1 ![0] bcast_S640000_S640000x1_0 : (⟨S640000, .i32⟩ : BufTy).Contents (Elt F) → (⟨S640000x1, .i32⟩ : BufTy).Contents (Elt F)),
    StableHlo.binary main_v127 main_v164 main_v165 ((fun x i => Host.gather gather_S40000x64_S640000x1_S640000x64_1_0_n_n_0_1_164 x i) : (⟨S40000x64, .f32⟩ : BufTy).Contents (Elt F) → (⟨S640000x1, .i32⟩ : BufTy).Contents (Elt F) → (⟨S640000x64, .f32⟩ : BufTy).Contents (Elt F)),
    StableHlo.nary ![main_v158, main_v165, main_v146, main_arg2] main_v166 (fun u => concatenate S640000x145 1 [⟨S640000x64, u 0⟩, ⟨S640000x64, u 1⟩, ⟨S640000x1, u 2⟩, ⟨S640000x16, u 3⟩] concatenates_S640000x64_S640000x64_S640000x1_S640000x16_S640000x145_d1),
    StableHlo.unary main_arg5 main_v167 ((extractStridedSlice S1x145x64 ![1, 0, 0] · slices_S2x145x64_S1x145x64_1_0_0) : (⟨S2x145x64, .f32⟩ : BufTy).Contents (Elt F) → (⟨S1x145x64, .f32⟩ : BufTy).Contents (Elt F)),
    StableHlo.reshape main_v167 main_v168 rfl shapeCasts_S1x145x64_S145x64,
    StableHlo.binary main_v166 main_v168 main_v169 ((fun l r => Host.dotGeneral dot_S640000x145_S145x64_S640000x64_1_0_0_1_n_n none l r) : (⟨S640000x145, .f32⟩ : BufTy).Contents (Elt F) → (⟨S145x64, .f32⟩ : BufTy).Contents (Elt F) → (⟨S640000x64, .f32⟩ : BufTy).Contents (Elt F)),
    StableHlo.unary main_arg6 main_v170 ((extractStridedSlice S1x64 ![1, 0] · slices_S2x64_S1x64_1_0) : (⟨S2x64, .f32⟩ : BufTy).Contents (Elt F) → (⟨S1x64, .f32⟩ : BufTy).Contents (Elt F)),
    StableHlo.reshape main_v170 main_v171 rfl shapeCasts_S1x64_S64,
    StableHlo.unary main_v171 main_v172 (broadcastInDim S1x64 ![1] bcast_S64_S1x64_1 : (⟨S64, .f32⟩ : BufTy).Contents (Elt F) → (⟨S1x64, .f32⟩ : BufTy).Contents (Elt F)),
    StableHlo.unary main_v172 main_v173 (broadcastInDim S640000x64 ![0, 1] bcast_S1x64_S640000x64_0_1 : (⟨S1x64, .f32⟩ : BufTy).Contents (Elt F) → (⟨S640000x64, .f32⟩ : BufTy).Contents (Elt F)),
    StableHlo.binary main_v169 main_v173 main_v174 (addf : (⟨S640000x64, .f32⟩ : BufTy).Contents (Elt F) → (⟨S640000x64, .f32⟩ : BufTy).Contents (Elt F) → (⟨S640000x64, .f32⟩ : BufTy).Contents (Elt F)) ]

/-- Operations 260 … 319 of the 404, in order. -/
abbrev seg4 : List (HloOp τ sig (Elt F)) :=
  [ StableHlo.TRef.unary (.of main_v174 : StableHlo.TRef sig ⟨S640000x64, .f32⟩) main_call6.v0 Host.negf,
    StableHlo.TRef.unary main_call6.v0 main_call6.v1 Host.exp,
    StableHlo.TRef.nullary main_call6.cst (constant S_ .f32 0x3F800000#32),
    StableHlo.TRef.unary main_call6.cst main_call6.v2 (broadcastInDim S640000x64 ![] bcast_S_S640000x64),
    StableHlo.TRef.binary main_call6.v2 main_call6.v1 main_call6.v3 addf,
    StableHlo.TRef.nullary main_call6.cst_0 (constant S_ .f32 0x3F800000#32),
    StableHlo.TRef.unary main_call6.cst_0 main_call6.v4 (broadcastInDim S640000x64 ![] bcast_S_S640000x64),
    StableHlo.TRef.binary main_call6.v4 main_call6.v3 main_call6.v5 Host.divf,
    StableHlo.TRef.binary (.of main_v174 : StableHlo.TRef sig ⟨S640000x64, .f32⟩) main_call6.v5 main_call6.v6 mulf,
    StableHlo.unary main_arg7 main_v176 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v176 main_v177 rfl shapeCasts_S1x64x64_S64x64,
    StableHlo.binary main_v175 main_v177 main_v178 ((fun l r => Host.dotGeneral dot_S640000x64_S64x64_S640000x64_1_0_0_1_n_n none l r) : (⟨S640000x64, .f32⟩ : BufTy).Contents (Elt F) → (⟨S64x64, .f32⟩ : BufTy).Contents (Elt F) → (⟨S640000x64, .f32⟩ : BufTy).Contents (Elt F)),
    StableHlo.unary main_arg8 main_v179 ((extractStridedSlice S1x64 ![1, 0] · slices_S2x64_S1x64_1_0) : (⟨S2x64, .f32⟩ : BufTy).Contents (Elt F) → (⟨S1x64, .f32⟩ : BufTy).Contents (Elt F)),
    StableHlo.reshape main_v179 main_v180 rfl shapeCasts_S1x64_S64,
    StableHlo.unary main_v180 main_v181 (broadcastInDim S1x64 ![1] bcast_S64_S1x64_1 : (⟨S64, .f32⟩ : BufTy).Contents (Elt F) → (⟨S1x64, .f32⟩ : BufTy).Contents (Elt F)),
    StableHlo.unary main_v181 main_v182 (broadcastInDim S640000x64 ![0, 1] bcast_S1x64_S640000x64_0_1 : (⟨S1x64, .f32⟩ : BufTy).Contents (Elt F) → (⟨S640000x64, .f32⟩ : BufTy).Contents (Elt F)),
    StableHlo.binary main_v178 main_v182 main_v183 (addf : (⟨S640000x64, .f32⟩ : BufTy).Contents (Elt F) → (⟨S640000x64, .f32⟩ : BufTy).Contents (Elt F) → (⟨S640000x64, .f32⟩ : BufTy).Contents (Elt F)),
    StableHlo.TRef.unary (.of main_v183 : StableHlo.TRef sig ⟨S640000x64, .f32⟩) main_call7.v0 Host.negf,
    StableHlo.TRef.unary main_call7.v0 main_call7.v1 Host.exp,
    StableHlo.TRef.nullary main_call7.cst (constant S_ .f32 0x3F800000#32),
    StableHlo.TRef.unary main_call7.cst main_call7.v2 (broadcastInDim S640000x64 ![] bcast_S_S640000x64),
    StableHlo.TRef.binary main_call7.v2 main_call7.v1 main_call7.v3 addf,
    StableHlo.TRef.nullary main_call7.cst_0 (constant S_ .f32 0x3F800000#32),
    StableHlo.TRef.unary main_call7.cst_0 main_call7.v4 (broadcastInDim S640000x64 ![] bcast_S_S640000x64),
    StableHlo.TRef.binary main_call7.v4 main_call7.v3 main_call7.v5 Host.divf,
    StableHlo.TRef.binary (.of main_v183 : StableHlo.TRef sig ⟨S640000x64, .f32⟩) main_call7.v5 main_call7.v6 mulf,
    StableHlo.unary main_arg9 main_v185 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v185 main_v186 rfl shapeCasts_S1x64x64_S64x64,
    StableHlo.binary main_v184 main_v186 main_v187 ((fun l r => Host.dotGeneral dot_S640000x64_S64x64_S640000x64_1_0_0_1_n_n none l r) : (⟨S640000x64, .f32⟩ : BufTy).Contents (Elt F) → (⟨S64x64, .f32⟩ : BufTy).Contents (Elt F) → (⟨S640000x64, .f32⟩ : BufTy).Contents (Elt F)),
    StableHlo.unary main_arg10 main_v188 ((extractStridedSlice S1x64 ![1, 0] · slices_S2x64_S1x64_1_0) : (⟨S2x64, .f32⟩ : BufTy).Contents (Elt F) → (⟨S1x64, .f32⟩ : BufTy).Contents (Elt F)),
    StableHlo.reshape main_v188 main_v189 rfl shapeCasts_S1x64_S64,
    StableHlo.unary main_v189 main_v190 (broadcastInDim S1x64 ![1] bcast_S64_S1x64_1 : (⟨S64, .f32⟩ : BufTy).Contents (Elt F) → (⟨S1x64, .f32⟩ : BufTy).Contents (Elt F)),
    StableHlo.unary main_v190 main_v191 (broadcastInDim S640000x64 ![0, 1] bcast_S1x64_S640000x64_0_1 : (⟨S1x64, .f32⟩ : BufTy).Contents (Elt F) → (⟨S640000x64, .f32⟩ : BufTy).Contents (Elt F)),
    StableHlo.binary main_v187 main_v191 main_v192 (addf : (⟨S640000x64, .f32⟩ : BufTy).Contents (Elt F) → (⟨S640000x64, .f32⟩ : BufTy).Contents (Elt F) → (⟨S640000x64, .f32⟩ : BufTy).Contents (Elt F)),
    StableHlo.TRef.unary (.of main_v192 : StableHlo.TRef sig ⟨S640000x64, .f32⟩) main_call8.v0 Host.negf,
    StableHlo.TRef.unary main_call8.v0 main_call8.v1 Host.exp,
    StableHlo.TRef.nullary main_call8.cst (constant S_ .f32 0x3F800000#32),
    StableHlo.TRef.unary main_call8.cst main_call8.v2 (broadcastInDim S640000x64 ![] bcast_S_S640000x64),
    StableHlo.TRef.binary main_call8.v2 main_call8.v1 main_call8.v3 addf,
    StableHlo.TRef.nullary main_call8.cst_0 (constant S_ .f32 0x3F800000#32),
    StableHlo.TRef.unary main_call8.cst_0 main_call8.v4 (broadcastInDim S640000x64 ![] bcast_S_S640000x64),
    StableHlo.TRef.binary main_call8.v4 main_call8.v3 main_call8.v5 Host.divf,
    StableHlo.TRef.binary (.of main_v192 : StableHlo.TRef sig ⟨S640000x64, .f32⟩) main_call8.v5 main_call8.v6 mulf,
    StableHlo.unary main_arg11 main_v194 ((extractStridedSlice S1x64x1 ![1, 0, 0] · slices_S2x64x1_S1x64x1_1_0_0) : (⟨S2x64x1, .f32⟩ : BufTy).Contents (Elt F) → (⟨S1x64x1, .f32⟩ : BufTy).Contents (Elt F)),
    StableHlo.reshape main_v194 main_v195 rfl shapeCasts_S1x64x1_S64x1,
    StableHlo.binary main_v193 main_v195 main_v196 ((fun l r => Host.dotGeneral dot_S640000x64_S64x1_S640000x1_1_0_0_1_n_n none l r) : (⟨S640000x64, .f32⟩ : BufTy).Contents (Elt F) → (⟨S64x1, .f32⟩ : BufTy).Contents (Elt F) → (⟨S640000x1, .f32⟩ : BufTy).Contents (Elt F)),
    StableHlo.unary main_v196 main_v197 (broadcastInDim S640000x3 ![0, 1] bcast_S640000x1_S640000x3_0_1 : (⟨S640000x1, .f32⟩ : BufTy).Contents (Elt F) → (⟨S640000x3, .f32⟩ : BufTy).Contents (Elt F)),
    StableHlo.binary main_v197 main_v151 main_v198 (mulf : (⟨S640000x3, .f32⟩ : BufTy).Contents (Elt F) → (⟨S640000x3, .f32⟩ : BufTy).Contents (Elt F) → (⟨S640000x3, .f32⟩ : BufTy).Contents (Elt F)),
    StableHlo.nullary main_cst_28 (constant S_ .f32 0x00000000#32),
    StableHlo.unary main_cst_28 main_v199 (broadcastInDim S40000x64 ![] bcast_S_S40000x64 : (⟨S_, .f32⟩ : BufTy).Contents (Elt F) → (⟨S40000x64, .f32⟩ : BufTy).Contents (Elt F)),
    StableHlo.unary main_arg4 main_v200 (broadcastInDim S640000x1 ![0] bcast_S640000_S640000x1_0 : (⟨S640000, .i32⟩ : BufTy).Contents (Elt F) → (⟨S640000x1, .i32⟩ : BufTy).Contents (Elt F)),
    StableHlo.ternary main_v199 main_v200 main_v184 main_v201 ((fun x i u => Host.scatterAdd scatter_S40000x64_S640000x1_S640000x64_1_0_0_1 x i u) : (⟨S40000x64, .f32⟩ : BufTy).Contents (Elt F) → (⟨S640000x1, .i32⟩ : BufTy).Contents (Elt F) → (⟨S640000x64, .f32⟩ : BufTy).Contents (Elt F) → (⟨S40000x64, .f32⟩ : BufTy).Contents (Elt F)),
    StableHlo.nullary main_cst_29 (constant S_ .f32 0x00000000#32),
    StableHlo.unary main_cst_29 main_v202 (broadcastInDim S40000x3 ![] bcast_S_S40000x3 : (⟨S_, .f32⟩ : BufTy).Contents (Elt F) → (⟨S40000x3, .f32⟩ : BufTy).Contents (Elt F)),
    StableHlo.unary main_arg4 main_v203 (broadcastInDim S640000x1 ![0] bcast_S640000_S640000x1_0 : (⟨S640000, .i32⟩ : BufTy).Contents (Elt F) → (⟨S640000x1, .i32⟩ : BufTy).Contents (Elt F)),
    StableHlo.ternary main_v202 main_v203 main_v198 main_v204 ((fun x i u => Host.scatterAdd scatter_S40000x3_S640000x1_S640000x3_1_0_0_1 x i u) : (⟨S40000x3, .f32⟩ : BufTy).Contents (Elt F) → (⟨S640000x1, .i32⟩ : BufTy).Contents (Elt F) → (⟨S640000x3, .f32⟩ : BufTy).Contents (Elt F) → (⟨S40000x3, .f32⟩ : BufTy).Contents (Elt F)),
    StableHlo.nullary main_cst_30 (constant S_ .f32 0x00000000#32),
    StableHlo.unary main_cst_30 main_v205 (broadcastInDim S40000x1 ![] bcast_S_S40000x1 : (⟨S_, .f32⟩ : BufTy).Contents (Elt F) → (⟨S40000x1, .f32⟩ : BufTy).Contents (Elt F)),
    StableHlo.unary main_arg4 main_v206 (broadcastInDim S640000x1 ![0] bcast_S640000_S640000x1_0 : (⟨S640000, .i32⟩ : BufTy).Contents (Elt F) → (⟨S640000x1, .i32⟩ : BufTy).Contents (Elt F)),
    StableHlo.ternary main_v205 main_v206 main_v1 main_v207 ((fun x i u => Host.scatterAdd scatter_S40000x1_S640000x1_S640000x1_1_0_0_1 x i u) : (⟨S40000x1, .f32⟩ : BufTy).Contents (Elt F) → (⟨S640000x1, .i32⟩ : BufTy).Contents (Elt F) → (⟨S640000x1, .f32⟩ : BufTy).Contents (Elt F) → (⟨S40000x1, .f32⟩ : BufTy).Contents (Elt F)) ]

/-- Operations 320 … 403 of the 404, in order. -/
abbrev seg5 : List (HloOp τ sig (Elt F)) :=
  [ StableHlo.nullary main_cst_31 (constant S_ .f32 0x3F800000#32),
    StableHlo.unary main_cst_31 main_v208 (broadcastInDim S40000x1 ![] bcast_S_S40000x1 : (⟨S_, .f32⟩ : BufTy).Contents (Elt F) → (⟨S40000x1, .f32⟩ : BufTy).Contents (Elt F)),
    StableHlo.binary main_v207 main_v208 main_v209 (maximumf : (⟨S40000x1, .f32⟩ : BufTy).Contents (Elt F) → (⟨S40000x1, .f32⟩ : BufTy).Contents (Elt F) → (⟨S40000x1, .f32⟩ : BufTy).Contents (Elt F)),
    StableHlo.unary main_v209 main_v210 (broadcastInDim S40000x3 ![0, 1] bcast_S40000x1_S40000x3_0_1 : (⟨S40000x1, .f32⟩ : BufTy).Contents (Elt F) → (⟨S40000x3, .f32⟩ : BufTy).Contents (Elt F)),
    StableHlo.binary main_v204 main_v210 main_v211 (Host.divf : (⟨S40000x3, .f32⟩ : BufTy).Contents (Elt F) → (⟨S40000x3, .f32⟩ : BufTy).Contents (Elt F) → (⟨S40000x3, .f32⟩ : BufTy).Contents (Elt F)),
    StableHlo.binary main_v127 main_v201 main_v212 ((fun a b => concatenate S40000x128 1 [⟨S40000x64, a⟩, ⟨S40000x64, b⟩] concatenates_S40000x64_S40000x64_S40000x128_d1) : (⟨S40000x64, .f32⟩ : BufTy).Contents (Elt F) → (⟨S40000x64, .f32⟩ : BufTy).Contents (Elt F) → (⟨S40000x128, .f32⟩ : BufTy).Contents (Elt F)),
    StableHlo.unary main_arg12 main_v213 ((extractStridedSlice S1x128x64 ![1, 0, 0] · slices_S2x128x64_S1x128x64_1_0_0) : (⟨S2x128x64, .f32⟩ : BufTy).Contents (Elt F) → (⟨S1x128x64, .f32⟩ : BufTy).Contents (Elt F)),
    StableHlo.reshape main_v213 main_v214 rfl shapeCasts_S1x128x64_S128x64,
    StableHlo.binary main_v212 main_v214 main_v215 ((fun l r => Host.dotGeneral dot_S40000x128_S128x64_S40000x64_1_0_0_1_n_n none l r) : (⟨S40000x128, .f32⟩ : BufTy).Contents (Elt F) → (⟨S128x64, .f32⟩ : BufTy).Contents (Elt F) → (⟨S40000x64, .f32⟩ : BufTy).Contents (Elt F)),
    StableHlo.unary main_arg13 main_v216 ((extractStridedSlice S1x64 ![1, 0] · slices_S2x64_S1x64_1_0) : (⟨S2x64, .f32⟩ : BufTy).Contents (Elt F) → (⟨S1x64, .f32⟩ : BufTy).Contents (Elt F)),
    StableHlo.reshape main_v216 main_v217 rfl shapeCasts_S1x64_S64,
    StableHlo.unary main_v217 main_v218 (broadcastInDim S1x64 ![1] bcast_S64_S1x64_1 : (⟨S64, .f32⟩ : BufTy).Contents (Elt F) → (⟨S1x64, .f32⟩ : BufTy).Contents (Elt F)),
    StableHlo.unary main_v218 main_v219 (broadcastInDim S40000x64 ![0, 1] bcast_S1x64_S40000x64_0_1 : (⟨S1x64, .f32⟩ : BufTy).Contents (Elt F) → (⟨S40000x64, .f32⟩ : BufTy).Contents (Elt F)),
    StableHlo.binary main_v215 main_v219 main_v220 (addf : (⟨S40000x64, .f32⟩ : BufTy).Contents (Elt F) → (⟨S40000x64, .f32⟩ : BufTy).Contents (Elt F) → (⟨S40000x64, .f32⟩ : BufTy).Contents (Elt F)),
    StableHlo.TRef.unary (.of main_v220 : StableHlo.TRef sig ⟨S40000x64, .f32⟩) main_call9.v0 Host.negf,
    StableHlo.TRef.unary main_call9.v0 main_call9.v1 Host.exp,
    StableHlo.TRef.nullary main_call9.cst (constant S_ .f32 0x3F800000#32),
    StableHlo.TRef.unary main_call9.cst main_call9.v2 (broadcastInDim S40000x64 ![] bcast_S_S40000x64),
    StableHlo.TRef.binary main_call9.v2 main_call9.v1 main_call9.v3 addf,
    StableHlo.TRef.nullary main_call9.cst_0 (constant S_ .f32 0x3F800000#32),
    StableHlo.TRef.unary main_call9.cst_0 main_call9.v4 (broadcastInDim S40000x64 ![] bcast_S_S40000x64),
    StableHlo.TRef.binary main_call9.v4 main_call9.v3 main_call9.v5 Host.divf,
    StableHlo.TRef.binary (.of main_v220 : StableHlo.TRef sig ⟨S40000x64, .f32⟩) main_call9.v5 main_call9.v6 mulf,
    StableHlo.unary main_arg14 main_v222 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v222 main_v223 rfl shapeCasts_S1x64x64_S64x64,
    StableHlo.binary main_v221 main_v223 main_v224 ((fun l r => Host.dotGeneral dot_S40000x64_S64x64_S40000x64_1_0_0_1_n_n none l r) : (⟨S40000x64, .f32⟩ : BufTy).Contents (Elt F) → (⟨S64x64, .f32⟩ : BufTy).Contents (Elt F) → (⟨S40000x64, .f32⟩ : BufTy).Contents (Elt F)),
    StableHlo.unary main_arg15 main_v225 ((extractStridedSlice S1x64 ![1, 0] · slices_S2x64_S1x64_1_0) : (⟨S2x64, .f32⟩ : BufTy).Contents (Elt F) → (⟨S1x64, .f32⟩ : BufTy).Contents (Elt F)),
    StableHlo.reshape main_v225 main_v226 rfl shapeCasts_S1x64_S64,
    StableHlo.unary main_v226 main_v227 (broadcastInDim S1x64 ![1] bcast_S64_S1x64_1 : (⟨S64, .f32⟩ : BufTy).Contents (Elt F) → (⟨S1x64, .f32⟩ : BufTy).Contents (Elt F)),
    StableHlo.unary main_v227 main_v228 (broadcastInDim S40000x64 ![0, 1] bcast_S1x64_S40000x64_0_1 : (⟨S1x64, .f32⟩ : BufTy).Contents (Elt F) → (⟨S40000x64, .f32⟩ : BufTy).Contents (Elt F)),
    StableHlo.binary main_v224 main_v228 main_v229 (addf : (⟨S40000x64, .f32⟩ : BufTy).Contents (Elt F) → (⟨S40000x64, .f32⟩ : BufTy).Contents (Elt F) → (⟨S40000x64, .f32⟩ : BufTy).Contents (Elt F)),
    StableHlo.binary main_v103 main_v211 main_v230 (addf : (⟨S40000x3, .f32⟩ : BufTy).Contents (Elt F) → (⟨S40000x3, .f32⟩ : BufTy).Contents (Elt F) → (⟨S40000x3, .f32⟩ : BufTy).Contents (Elt F)),
    StableHlo.nullary main_cst_32 (constant S_ .f32 0x00000000#32),
    StableHlo.binary main_v229 main_cst_32 main_v231 ((fun x v => Host.reduceAdd x v reducesTo_S40000x64_S64_d0 h_S_) : (⟨S40000x64, .f32⟩ : BufTy).Contents (Elt F) → (⟨S_, .f32⟩ : BufTy).Contents (Elt F) → (⟨S64, .f32⟩ : BufTy).Contents (Elt F)),
    StableHlo.nullary main_cst_33 (constant S_ .f32 0x471C4000#32),
    StableHlo.unary main_cst_33 main_v232 (broadcastInDim S64 ![] bcast_S_S64 : (⟨S_, .f32⟩ : BufTy).Contents (Elt F) → (⟨S64, .f32⟩ : BufTy).Contents (Elt F)),
    StableHlo.binary main_v231 main_v232 main_v233 (Host.divf : (⟨S64, .f32⟩ : BufTy).Contents (Elt F) → (⟨S64, .f32⟩ : BufTy).Contents (Elt F) → (⟨S64, .f32⟩ : BufTy).Contents (Elt F)),
    StableHlo.nullary main_c_34 (constantI S_ 32 0#32),
    StableHlo.TRef.nullary main_call10.cst (constant S_ .f32 0x00000000#32),
    StableHlo.TRef.binary (.of main_v229 : StableHlo.TRef sig ⟨S40000x64, .f32⟩) main_call10.cst main_call10.v0 (fun x v => Host.reduceAdd x v reducesTo_S40000x64_S64_d0 h_S_),
    StableHlo.TRef.unary main_call10.v0 main_call10.v1 (broadcastInDim S1x64 ![1] bcast_S64_S1x64_1),
    StableHlo.TRef.nullary main_call10.cst_0 (constant S_ .f32 0x471C4000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S40000x64 ![0, 1] bcast_S1x64_S40000x64_0_1),
    StableHlo.TRef.binary (.of main_v229 : StableHlo.TRef sig ⟨S40000x64, .f32⟩) main_call10.v4 main_call10.v5 subf,
    StableHlo.TRef.binary main_call10.v5 main_call10.v5 main_call10.v6 mulf,
    StableHlo.TRef.unary (.of main_c_34 : StableHlo.TRef sig ⟨S_, .i32⟩) main_call10.v7 (sitofp .f32),
    StableHlo.TRef.nullary main_call10.cst_1 (constant S_ .f32 0x471C4000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S40000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v233 main_v235 (broadcastInDim S1x64 ![1] bcast_S64_S1x64_1 : (⟨S64, .f32⟩ : BufTy).Contents (Elt F) → (⟨S1x64, .f32⟩ : BufTy).Contents (Elt F)),
    StableHlo.unary main_v235 main_v236 (broadcastInDim S40000x64 ![0, 1] bcast_S1x64_S40000x64_0_1 : (⟨S1x64, .f32⟩ : BufTy).Contents (Elt F) → (⟨S40000x64, .f32⟩ : BufTy).Contents (Elt F)),
    StableHlo.binary main_v229 main_v236 main_v237 (subf : (⟨S40000x64, .f32⟩ : BufTy).Contents (Elt F) → (⟨S40000x64, .f32⟩ : BufTy).Contents (Elt F) → (⟨S40000x64, .f32⟩ : BufTy).Contents (Elt F)),
    StableHlo.nullary main_cst_35 (constant S_ .f32 0x3727C5AC#32),
    StableHlo.unary main_cst_35 main_v238 (broadcastInDim S64 ![] bcast_S_S64 : (⟨S_, .f32⟩ : BufTy).Contents (Elt F) → (⟨S64, .f32⟩ : BufTy).Contents (Elt F)),
    StableHlo.binary main_v234 main_v238 main_v239 (addf : (⟨S64, .f32⟩ : BufTy).Contents (Elt F) → (⟨S64, .f32⟩ : BufTy).Contents (Elt F) → (⟨S64, .f32⟩ : BufTy).Contents (Elt F)),
    StableHlo.unary main_v239 main_v240 (Host.sqrt : (⟨S64, .f32⟩ : BufTy).Contents (Elt F) → (⟨S64, .f32⟩ : BufTy).Contents (Elt F)),
    StableHlo.unary main_v240 main_v241 (broadcastInDim S1x64 ![1] bcast_S64_S1x64_1 : (⟨S64, .f32⟩ : BufTy).Contents (Elt F) → (⟨S1x64, .f32⟩ : BufTy).Contents (Elt F)),
    StableHlo.unary main_v241 main_v242 (broadcastInDim S40000x64 ![0, 1] bcast_S1x64_S40000x64_0_1 : (⟨S1x64, .f32⟩ : BufTy).Contents (Elt F) → (⟨S40000x64, .f32⟩ : BufTy).Contents (Elt F)),
    StableHlo.binary main_v237 main_v242 main_v243 (Host.divf : (⟨S40000x64, .f32⟩ : BufTy).Contents (Elt F) → (⟨S40000x64, .f32⟩ : BufTy).Contents (Elt F) → (⟨S40000x64, .f32⟩ : BufTy).Contents (Elt F)),
    StableHlo.unary main_arg16 main_v244 ((extractStridedSlice S1x64 ![1, 0] · slices_S2x64_S1x64_1_0) : (⟨S2x64, .f32⟩ : BufTy).Contents (Elt F) → (⟨S1x64, .f32⟩ : BufTy).Contents (Elt F)),
    StableHlo.reshape main_v244 main_v245 rfl shapeCasts_S1x64_S64,
    StableHlo.unary main_v245 main_v246 (broadcastInDim S1x64 ![1] bcast_S64_S1x64_1 : (⟨S64, .f32⟩ : BufTy).Contents (Elt F) → (⟨S1x64, .f32⟩ : BufTy).Contents (Elt F)),
    StableHlo.unary main_v246 main_v247 (broadcastInDim S40000x64 ![0, 1] bcast_S1x64_S40000x64_0_1 : (⟨S1x64, .f32⟩ : BufTy).Contents (Elt F) → (⟨S40000x64, .f32⟩ : BufTy).Contents (Elt F)),
    StableHlo.binary main_v243 main_v247 main_v248 (mulf : (⟨S40000x64, .f32⟩ : BufTy).Contents (Elt F) → (⟨S40000x64, .f32⟩ : BufTy).Contents (Elt F) → (⟨S40000x64, .f32⟩ : BufTy).Contents (Elt F)),
    StableHlo.unary main_arg17 main_v249 ((extractStridedSlice S1x64 ![1, 0] · slices_S2x64_S1x64_1_0) : (⟨S2x64, .f32⟩ : BufTy).Contents (Elt F) → (⟨S1x64, .f32⟩ : BufTy).Contents (Elt F)),
    StableHlo.reshape main_v249 main_v250 rfl shapeCasts_S1x64_S64,
    StableHlo.unary main_v250 main_v251 (broadcastInDim S1x64 ![1] bcast_S64_S1x64_1 : (⟨S64, .f32⟩ : BufTy).Contents (Elt F) → (⟨S1x64, .f32⟩ : BufTy).Contents (Elt F)),
    StableHlo.unary main_v251 main_v252 (broadcastInDim S40000x64 ![0, 1] bcast_S1x64_S40000x64_0_1 : (⟨S1x64, .f32⟩ : BufTy).Contents (Elt F) → (⟨S40000x64, .f32⟩ : BufTy).Contents (Elt F)),
    StableHlo.binary main_v248 main_v252 main_v253 (addf : (⟨S40000x64, .f32⟩ : BufTy).Contents (Elt F) → (⟨S40000x64, .f32⟩ : BufTy).Contents (Elt F) → (⟨S40000x64, .f32⟩ : BufTy).Contents (Elt F)),
    StableHlo.TRef.nullary main_call11.cst (constant S_ .f32 0x00000000#32),
    StableHlo.TRef.unary main_call11.cst main_call11.v0 (broadcastInDim S40000x64 ![] bcast_S_S40000x64),
    StableHlo.TRef.binary (.of main_v253 : StableHlo.TRef sig ⟨S40000x64, .f32⟩) main_call11.v0 main_call11.v1 maximumf,
    StableHlo.binary main_v128 main_v254 main_v255 (addf : (⟨S40000x64, .f32⟩ : BufTy).Contents (Elt F) → (⟨S40000x64, .f32⟩ : BufTy).Contents (Elt F) → (⟨S40000x64, .f32⟩ : BufTy).Contents (Elt F)) ]

set_option maxRecDepth 16384 in
/-- The whole list is the segments in turn. -/
theorem ops_eq : (Cert.Bridge.RefRun.ops : List (HloOp τ sig (Elt F))) = seg0 ++ (seg1 ++ (seg2 ++ (seg3 ++ (seg4 ++ (seg5))))) := rfl

/-- The references that the operations of `seg0` write, in order. -/
abbrev seg0_W : List (Ref sig .tc) := [main_cst, main_v0, main_cst_0, main_v1, main_c, main_v2, main_v3, main_c_1, main_v4, main_v5, main_v6, main_v7, main_v8, main_c_2, main_v9, main_v10, main_c_3, main_v11, main_v12, main_v13, main_v14, main_v15, main_v16, main_v17, main_cst_4, main_v18, main_v19, main_v20, main_cst_5, main_v21, main_v22, main_v23, main_v24, main_c_6, main_v25, main_v26, main_c_7, main_v27, main_v28, main_v29, main_v30, main_v31, main_c_8, main_v32, main_v33, main_c_9, main_v34, main_v35, main_v36, main_v37, main_v38, main_v39, main_v40, main_v41, main_v42, main_v43, main_v44, main_v45, main_v46, main_v47]
set_option maxRecDepth 16384 in
theorem seg0_writes : (seg0 : List (HloOp τ sig (Elt F))).Forall fun op => op.writes ⊆ (seg0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references that the operations of `seg1` write, in order. -/
abbrev seg1_W : List (Ref sig .tc) := [main_call0_v0, main_call0_v1, main_call0_cst, main_call0_v2, main_call0_v3, main_call0_cst_0, main_call0_v4, main_call0_v5, main_v48, main_v49, main_v50, main_v51, main_v52, main_v53, main_v54, main_v55, main_v56, main_call1_v0, main_call1_v1, main_call1_cst, main_call1_v2, main_call1_v3, main_call1_cst_0, main_call1_v4, main_call1_v5, main_v57, main_v58, main_v59, main_v60, main_v61, main_v62, main_v63, main_v64, main_v65, main_call2_v0, main_call2_v1, main_call2_cst, main_call2_v2, main_call2_v3, main_call2_cst_0, main_call2_v4, main_call2_v5, main_v66, main_v67, main_v68, main_v69, main_v70, main_v71, main_cst_10, main_v72, main_v73, main_v74, main_cst_11, main_v75, main_v76, main_v77, main_cst_12, main_v78, main_v79, main_v80]
set_option maxRecDepth 16384 in
theorem seg1_writes : (seg1 : List (HloOp τ sig (Elt F))).Forall fun op => op.writes ⊆ (seg1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references that the operations of `seg2` write, in order. -/
abbrev seg2_W : List (Ref sig .tc) := [main_cst_13, main_v81, main_v82, main_v83, main_v84, main_v85, main_v86, main_v87, main_v88, main_v89, main_v90, main_v91, main_v92, main_v93, main_call3_v0, main_call3_v1, main_call3_cst, main_call3_v2, main_call3_v3, main_call3_cst_0, main_call3_v4, main_call3_v5, main_v94, main_v95, main_v96, main_v97, main_v98, main_v99, main_v100, main_v101, main_v102, main_v103, main_cst_14, main_v104, main_cst_15, main_v105, main_v106, main_c_16, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v107, main_v108, main_v109, main_v110, main_cst_17, main_v111, main_v112, main_v113, main_v114, main_v115, main_v116, main_v117, main_v118, main_v119, main_v120, main_v121, main_v122, main_v123, main_v124, main_v125, main_v126, main_call5_cst, main_call5_v0, main_v127, main_v128]
set_option maxRecDepth 16384 in
theorem seg2_writes : (seg2 : List (HloOp τ sig (Elt F))).Forall fun op => op.writes ⊆ (seg2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references that the operations of `seg3` write, in order. -/
abbrev seg3_W : List (Ref sig .tc) := [main_c_18, main_v129, main_v130, main_c_19, main_v131, main_v132, main_v133, main_v134, main_v135, main_c_20, main_v136, main_v137, main_c_21, main_v138, main_v139, main_v140, main_v141, main_v142, main_v143, main_v144, main_cst_22, main_v145, main_v146, main_v147, main_cst_23, main_v148, main_v149, main_v150, main_v151, main_c_24, main_v152, main_v153, main_c_25, main_v154, main_v155, main_v156, main_v157, main_v158, main_c_26, main_v159, main_v160, main_c_27, main_v161, main_v162, main_v163, main_v164, main_v165, main_v166, main_v167, main_v168, main_v169, main_v170, main_v171, main_v172, main_v173, main_v174]
set_option maxRecDepth 16384 in
theorem seg3_writes : (seg3 : List (HloOp τ sig (Elt F))).Forall fun op => op.writes ⊆ (seg3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references that the operations of `seg4` write, in order. -/
abbrev seg4_W : List (Ref sig .tc) := [main_call6_v0, main_call6_v1, main_call6_cst, main_call6_v2, main_call6_v3, main_call6_cst_0, main_call6_v4, main_call6_v5, main_v175, main_v176, main_v177, main_v178, main_v179, main_v180, main_v181, main_v182, main_v183, main_call7_v0, main_call7_v1, main_call7_cst, main_call7_v2, main_call7_v3, main_call7_cst_0, main_call7_v4, main_call7_v5, main_v184, main_v185, main_v186, main_v187, main_v188, main_v189, main_v190, main_v191, main_v192, main_call8_v0, main_call8_v1, main_call8_cst, main_call8_v2, main_call8_v3, main_call8_cst_0, main_call8_v4, main_call8_v5, main_v193, main_v194, main_v195, main_v196, main_v197, main_v198, main_cst_28, main_v199, main_v200, main_v201, main_cst_29, main_v202, main_v203, main_v204, main_cst_30, main_v205, main_v206, main_v207]
set_option maxRecDepth 16384 in
theorem seg4_writes : (seg4 : List (HloOp τ sig (Elt F))).Forall fun op => op.writes ⊆ (seg4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The references that the operations of `seg5` write, in order. -/
abbrev seg5_W : List (Ref sig .tc) := [main_cst_31, main_v208, main_v209, main_v210, main_v211, main_v212, main_v213, main_v214, main_v215, main_v216, main_v217, main_v218, main_v219, main_v220, main_call9_v0, main_call9_v1, main_call9_cst, main_call9_v2, main_call9_v3, main_call9_cst_0, main_call9_v4, main_call9_v5, main_v221, main_v222, main_v223, main_v224, main_v225, main_v226, main_v227, main_v228, main_v229, main_v230, main_cst_32, main_v231, main_cst_33, main_v232, main_v233, main_c_34, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v234, main_v235, main_v236, main_v237, main_cst_35, main_v238, main_v239, main_v240, main_v241, main_v242, main_v243, main_v244, main_v245, main_v246, main_v247, main_v248, main_v249, main_v250, main_v251, main_v252, main_v253, main_call11_cst, main_call11_v0, main_v254, main_v255]
set_option maxRecDepth 16384 in
theorem seg5_writes : (seg5 : List (HloOp τ sig (Elt F))).Forall fun op => op.writes ⊆ (seg5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.Bridge.RefSeg

end
-- ==== Proof.RRead.lean ====
/- The reference program's result read back as a function of its arguments.

   The stacked parameter arrays are cut per layer (a slice along the first axis, the unit axis dropped). The run is
   read segment by segment: what a segment does not write it keeps, so no operation changes an argument; and what
   each buffer that a later segment reads holds after a segment is a pure function of the contents the segment
   starts from: the edge stage's first sum and unit difference, then the two per-node sums and the in-degree; the
   coordinate update and the node network; the same again for the second layer; the output sum last. Joined, the
   result is the two layers composed. -/
import proofs.«409836_j4174708212115_3_alg».proof.Proof.RefSeg
import proofs.«409836_j4174708212115_3_alg».proof.Proof.Tail
import proofs.«409836_j4174708212115_3_alg».proof.Proof.REdgeDefs
import proofs.«409836_j4174708212115_3_alg».proof.Proof.SpecParams
import proofs.«409836_j4174708212115_3_alg».proof.Proof.Final
import Idealize.ShloMosaic.Lib.Pipeline.Frame
import Idealize.ShloMosaic.Lib.Pipeline.Value
import Idealize.ShloMosaic.Lib.ValueLayout

set_option Elab.async false

noncomputable section

namespace Cert.Bridge.RRead

open Cert.ReferenceIdeal Cert.ReferenceIdeal.Gen Idealize.ShloMosaic Idealize.ShloMosaic.TcCoe Idealize.SL.Sem Idealize.ShloMosaic.StableHlo
open Cert.Bridge.RefSeg

variable {F : FTy → Type} [FloatOps F]

/-! ## The edge networks' parameters

Each parameter array stacks the two layers along its first axis; layer l reads row l of it, the unit axis dropped. -/

/-- Layer 0's first weight matrix of the message network. -/
def rw1_0 (a : FVec F S2x145x64 .f32) : FVec F S145x64 .f32 :=
  shapeCast S145x64 (extractStridedSlice S1x145x64 ![0, 0, 0] a slices_S2x145x64_S1x145x64_0_0_0) shapeCasts_S1x145x64_S145x64

/-- Layer 1's first weight matrix of the message network. -/
def rw1_1 (a : FVec F S2x145x64 .f32) : FVec F S145x64 .f32 :=
  shapeCast S145x64 (extractStridedSlice S1x145x64 ![1, 0, 0] a slices_S2x145x64_S1x145x64_1_0_0) shapeCasts_S1x145x64_S145x64

/-- Layer 0's first bias of the message network. -/
def rb1_0 (a : FVec F S2x64 .f32) : FVec F S64 .f32 :=
  shapeCast S64 (extractStridedSlice S1x64 ![0, 0] a slices_S2x64_S1x64_0_0) shapeCasts_S1x64_S64

/-- Layer 1's first bias of the message network. -/
def rb1_1 (a : FVec F S2x64 .f32) : FVec F S64 .f32 :=
  shapeCast S64 (extractStridedSlice S1x64 ![1, 0] a slices_S2x64_S1x64_1_0) shapeCasts_S1x64_S64

/-- Layer 0's second weight matrix of the message network. -/
def rw2_0 (a : FVec F S2x64x64 .f32) : FVec F S64x64 .f32 :=
  shapeCast S64x64 (extractStridedSlice S1x64x64 ![0, 0, 0] a slices_S2x64x64_S1x64x64_0_0_0) shapeCasts_S1x64x64_S64x64

/-- Layer 1's second weight matrix of the message network. -/
def rw2_1 (a : FVec F S2x64x64 .f32) : FVec F S64x64 .f32 :=
  shapeCast S64x64 (extractStridedSlice S1x64x64 ![1, 0, 0] a slices_S2x64x64_S1x64x64_1_0_0) shapeCasts_S1x64x64_S64x64

/-- Layer 0's second bias of the message network. -/
def rb2_0 (a : FVec F S2x64 .f32) : FVec F S64 .f32 :=
  shapeCast S64 (extractStridedSlice S1x64 ![0, 0] a slices_S2x64_S1x64_0_0) shapeCasts_S1x64_S64

/-- Layer 1's second bias of the message network. -/
def rb2_1 (a : FVec F S2x64 .f32) : FVec F S64 .f32 :=
  shapeCast S64 (extractStridedSlice S1x64 ![1, 0] a slices_S2x64_S1x64_1_0) shapeCasts_S1x64_S64

/-- Layer 0's first weight matrix of the coordinate network. -/
def rc1_0 (a : FVec F S2x64x64 .f32) : FVec F S64x64 .f32 :=
  shapeCast S64x64 (extractStridedSlice S1x64x64 ![0, 0, 0] a slices_S2x64x64_S1x64x64_0_0_0) shapeCasts_S1x64x64_S64x64

/-- Layer 1's first weight matrix of the coordinate network. -/
def rc1_1 (a : FVec F S2x64x64 .f32) : FVec F S64x64 .f32 :=
  shapeCast S64x64 (extractStridedSlice S1x64x64 ![1, 0, 0] a slices_S2x64x64_S1x64x64_1_0_0) shapeCasts_S1x64x64_S64x64

/-- Layer 0's first bias of the coordinate network. -/
def rcb1_0 (a : FVec F S2x64 .f32) : FVec F S64 .f32 :=
  shapeCast S64 (extractStridedSlice S1x64 ![0, 0] a slices_S2x64_S1x64_0_0) shapeCasts_S1x64_S64

/-- Layer 1's first bias of the coordinate network. -/
def rcb1_1 (a : FVec F S2x64 .f32) : FVec F S64 .f32 :=
  shapeCast S64 (extractStridedSlice S1x64 ![1, 0] a slices_S2x64_S1x64_1_0) shapeCasts_S1x64_S64

/-- Layer 0's read-out column of the coordinate network. -/
def rc2_0 (a : FVec F S2x64x1 .f32) : FVec F S64x1 .f32 :=
  shapeCast S64x1 (extractStridedSlice S1x64x1 ![0, 0, 0] a slices_S2x64x1_S1x64x1_0_0_0) shapeCasts_S1x64x1_S64x1

/-- Layer 1's read-out column of the coordinate network. -/
def rc2_1 (a : FVec F S2x64x1 .f32) : FVec F S64x1 .f32 :=
  shapeCast S64x1 (extractStridedSlice S1x64x1 ![1, 0, 0] a slices_S2x64x1_S1x64x1_1_0_0) shapeCasts_S1x64x1_S64x1

/-! ## The slices read at an index -/

section Rows
open Idealize.ShloMosaic.ValueIdx
variable {α : Type}

/-- Row l of a stack of matrices, its unit axis dropped, reads at (k, j) the stack at (l, k, j). -/
theorem stackRow3_apply {n a b : ℕ} (o : ℕ) (x : (⟨3, ![n, a, b]⟩ : Shape).Idx → α)
    (h₁ : (⟨3, ![n, a, b]⟩ : Shape).Slices ![o, 0, 0] ⟨3, ![1, a, b]⟩)
    (h₂ : (⟨3, ![1, a, b]⟩ : Shape).ShapeCasts ⟨2, ![a, b]⟩) (l : Fin n) (hl : l.val = o) (k : Fin a) (j : Fin b) :
    shapeCast ⟨2, ![a, b]⟩ (extractStridedSlice ⟨3, ![1, a, b]⟩ ![o, 0, 0] x h₁) h₂ (ix2 k j) = x (ix3 l k j) := by
  rw [shapeCast_1ab_ab_apply]
  exact extractStridedSlice_apply _ _ _ _ _ (fun ax => match ax with
    | ⟨0, _⟩ => hl.trans (Nat.add_zero o).symm
    | ⟨1, _⟩ => (Nat.zero_add _).symm
    | ⟨2, _⟩ => (Nat.zero_add _).symm)

/-- Row l of a stack of vectors, its unit axis dropped, reads at j the stack at (l, j). -/
theorem stackRow2_apply {n a : ℕ} (o : ℕ) (x : (⟨2, ![n, a]⟩ : Shape).Idx → α)
    (h₁ : (⟨2, ![n, a]⟩ : Shape).Slices ![o, 0] ⟨2, ![1, a]⟩)
    (h₂ : (⟨2, ![1, a]⟩ : Shape).ShapeCasts ⟨1, ![a]⟩) (l : Fin n) (hl : l.val = o) (j : Fin a) :
    shapeCast ⟨1, ![a]⟩ (extractStridedSlice ⟨2, ![1, a]⟩ ![o, 0] x h₁) h₂ (ix1 j) = x (ix2 l j) := by
  rw [shapeCast_1a_a_apply]
  exact slice2_axis0_apply o x h₁ (0 : Fin 1) j l (hl.trans (Nat.add_zero o).symm)

end Rows

/-- Layer 0's parameters, sliced and reshaped as the reference does, are the stacked arrays read at first coordinate 0. -/
theorem lpR_slices0 (a5 : FVec Ideal S2x145x64 .f32) (a6 : FVec Ideal S2x64 .f32) (a7 : FVec Ideal S2x64x64 .f32)
    (a8 : FVec Ideal S2x64 .f32) (a9 : FVec Ideal S2x64x64 .f32) (a10 : FVec Ideal S2x64 .f32) (a11 : FVec Ideal S2x64x1 .f32) :
    REdge.lpR (rw1_0 a5) (rb1_0 a6) (rw2_0 a7) (rb2_0 a8) (rc1_0 a9) (rcb1_0 a10) (rc2_0 a11)
      = Spec.lpOf 0 a5 a6 a7 a8 a9 a10 a11 := by
  unfold REdge.lpR Spec.lpOf rw1_0 rb1_0 rw2_0 rb2_0 rc1_0 rcb1_0 rc2_0
  simp only [Spec.LP.mk.injEq]
  refine ⟨?_, ?_, ?_, ?_, ?_, ?_, ?_⟩
  · funext k j; exact stackRow3_apply 0 a5 _ _ 0 rfl k j
  · funext j; exact stackRow2_apply 0 a6 _ _ 0 rfl j
  · funext k j; exact stackRow3_apply 0 a7 _ _ 0 rfl k j
  · funext j; exact stackRow2_apply 0 a8 _ _ 0 rfl j
  · funext k j; exact stackRow3_apply 0 a9 _ _ 0 rfl k j
  · funext j; exact stackRow2_apply 0 a10 _ _ 0 rfl j
  · funext k; exact stackRow3_apply 0 a11 _ _ 0 rfl k 0

/-- Layer 1's parameters likewise are the stacked arrays read at first coordinate 1. -/
theorem lpR_slices1 (a5 : FVec Ideal S2x145x64 .f32) (a6 : FVec Ideal S2x64 .f32) (a7 : FVec Ideal S2x64x64 .f32)
    (a8 : FVec Ideal S2x64 .f32) (a9 : FVec Ideal S2x64x64 .f32) (a10 : FVec Ideal S2x64 .f32) (a11 : FVec Ideal S2x64x1 .f32) :
    REdge.lpR (rw1_1 a5) (rb1_1 a6) (rw2_1 a7) (rb2_1 a8) (rc1_1 a9) (rcb1_1 a10) (rc2_1 a11)
      = Spec.lpOf 1 a5 a6 a7 a8 a9 a10 a11 := by
  unfold REdge.lpR Spec.lpOf rw1_1 rb1_1 rw2_1 rb2_1 rc1_1 rcb1_1 rc2_1
  simp only [Spec.LP.mk.injEq]
  refine ⟨?_, ?_, ?_, ?_, ?_, ?_, ?_⟩
  · funext k j; exact stackRow3_apply 1 a5 _ _ 1 rfl k j
  · funext j; exact stackRow2_apply 1 a6 _ _ 1 rfl j
  · funext k j; exact stackRow3_apply 1 a7 _ _ 1 rfl k j
  · funext j; exact stackRow2_apply 1 a8 _ _ 1 rfl j
  · funext k j; exact stackRow3_apply 1 a9 _ _ 1 rfl k j
  · funext j; exact stackRow2_apply 1 a10 _ _ 1 rfl j
  · funext k; exact stackRow3_apply 1 a11 _ _ 1 rfl k 0

/-! ## What a segment does not write, it keeps -/

theorem keep0 (V : Valuation τ sig (Elt F)) {r : Ref sig .tc} (h : r ∉ seg0_W) :
    after seg0 V (no_index (Proc.devRef .tc r)) = V (Proc.devRef .tc r) :=
  after_of_writes_sub seg0 V seg0_writes h

theorem keep1 (V : Valuation τ sig (Elt F)) {r : Ref sig .tc} (h : r ∉ seg1_W) :
    after seg1 V (no_index (Proc.devRef .tc r)) = V (Proc.devRef .tc r) :=
  after_of_writes_sub seg1 V seg1_writes h

theorem keep2 (V : Valuation τ sig (Elt F)) {r : Ref sig .tc} (h : r ∉ seg2_W) :
    after seg2 V (no_index (Proc.devRef .tc r)) = V (Proc.devRef .tc r) :=
  after_of_writes_sub seg2 V seg2_writes h

theorem keep3 (V : Valuation τ sig (Elt F)) {r : Ref sig .tc} (h : r ∉ seg3_W) :
    after seg3 V (no_index (Proc.devRef .tc r)) = V (Proc.devRef .tc r) :=
  after_of_writes_sub seg3 V seg3_writes h

theorem keep4 (V : Valuation τ sig (Elt F)) {r : Ref sig .tc} (h : r ∉ seg4_W) :
    after seg4 V (no_index (Proc.devRef .tc r)) = V (Proc.devRef .tc r) :=
  after_of_writes_sub seg4 V seg4_writes h

theorem keep5 (V : Valuation τ sig (Elt F)) {r : Ref sig .tc} (h : r ∉ seg5_W) :
    after seg5 V (no_index (Proc.devRef .tc r)) = V (Proc.devRef .tc r) :=
  after_of_writes_sub seg5 V seg5_writes h

/-- The whole run is the six segments' runs in turn. -/
theorem after_ops (V : Valuation τ sig (Elt F)) :
    after RefRun.ops V = after seg5 (after seg4 (after seg3 (after seg2 (after seg1 (after seg0 V))))) := by
  rw [ops_eq]
  simp only [after_append]

/-- A reference no segment writes ends as it began. -/
theorem after_ops_keep (V : Valuation τ sig (Elt F)) {r : Ref sig .tc} (h0 : r ∉ seg0_W) (h1 : r ∉ seg1_W)
    (h2 : r ∉ seg2_W) (h3 : r ∉ seg3_W) (h4 : r ∉ seg4_W) (h5 : r ∉ seg5_W) :
    after RefRun.ops V (Proc.devRef .tc r) = V (Proc.devRef .tc r) := by
  rw [after_ops]
  exact (keep5 _ h5).trans ((keep4 _ h4).trans ((keep3 _ h3).trans ((keep2 _ h2).trans ((keep1 _ h1).trans (keep0 _ h0)))))

/-! ## No operation writes an argument -/

theorem rarg0 (V : Valuation τ sig (Elt F)) :
    after RefRun.ops V (main_arg0 : DevRef τ sig) = V (main_arg0 : DevRef τ sig) :=
  after_ops_keep V (by decide) (by decide) (by decide) (by decide) (by decide) (by decide)

theorem rarg1 (V : Valuation τ sig (Elt F)) :
    after RefRun.ops V (main_arg1 : DevRef τ sig) = V (main_arg1 : DevRef τ sig) :=
  after_ops_keep V (by decide) (by decide) (by decide) (by decide) (by decide) (by decide)

theorem rarg2 (V : Valuation τ sig (Elt F)) :
    after RefRun.ops V (main_arg2 : DevRef τ sig) = V (main_arg2 : DevRef τ sig) :=
  after_ops_keep V (by decide) (by decide) (by decide) (by decide) (by decide) (by decide)

theorem rarg3 (V : Valuation τ sig (Elt F)) :
    after RefRun.ops V (main_arg3 : DevRef τ sig) = V (main_arg3 : DevRef τ sig) :=
  after_ops_keep V (by decide) (by decide) (by decide) (by decide) (by decide) (by decide)

theorem rarg4 (V : Valuation τ sig (Elt F)) :
    after RefRun.ops V (main_arg4 : DevRef τ sig) = V (main_arg4 : DevRef τ sig) :=
  after_ops_keep V (by decide) (by decide) (by decide) (by decide) (by decide) (by decide)

theorem rarg5 (V : Valuation τ sig (Elt F)) :
    after RefRun.ops V (main_arg5 : DevRef τ sig) = V (main_arg5 : DevRef τ sig) :=
  after_ops_keep V (by decide) (by decide) (by decide) (by decide) (by decide) (by decide)

theorem rarg6 (V : Valuation τ sig (Elt F)) :
    after RefRun.ops V (main_arg6 : DevRef τ sig) = V (main_arg6 : DevRef τ sig) :=
  after_ops_keep V (by decide) (by decide) (by decide) (by decide) (by decide) (by decide)

theorem rarg7 (V : Valuation τ sig (Elt F)) :
    after RefRun.ops V (main_arg7 : DevRef τ sig) = V (main_arg7 : DevRef τ sig) :=
  after_ops_keep V (by decide) (by decide) (by decide) (by decide) (by decide) (by decide)

theorem rarg8 (V : Valuation τ sig (Elt F)) :
    after RefRun.ops V (main_arg8 : DevRef τ sig) = V (main_arg8 : DevRef τ sig) :=
  after_ops_keep V (by decide) (by decide) (by decide) (by decide) (by decide) (by decide)

theorem rarg9 (V : Valuation τ sig (Elt F)) :
    after RefRun.ops V (main_arg9 : DevRef τ sig) = V (main_arg9 : DevRef τ sig) :=
  after_ops_keep V (by decide) (by decide) (by decide) (by decide) (by decide) (by decide)

theorem rarg10 (V : Valuation τ sig (Elt F)) :
    after RefRun.ops V (main_arg10 : DevRef τ sig) = V (main_arg10 : DevRef τ sig) :=
  after_ops_keep V (by decide) (by decide) (by decide) (by decide) (by decide) (by decide)

theorem rarg11 (V : Valuation τ sig (Elt F)) :
    after RefRun.ops V (main_arg11 : DevRef τ sig) = V (main_arg11 : DevRef τ sig) :=
  after_ops_keep V (by decide) (by decide) (by decide) (by decide) (by decide) (by decide)

theorem rarg12 (V : Valuation τ sig (Elt F)) :
    after RefRun.ops V (main_arg12 : DevRef τ sig) = V (main_arg12 : DevRef τ sig) :=
  after_ops_keep V (by decide) (by decide) (by decide) (by decide) (by decide) (by decide)

theorem rarg13 (V : Valuation τ sig (Elt F)) :
    after RefRun.ops V (main_arg13 : DevRef τ sig) = V (main_arg13 : DevRef τ sig) :=
  after_ops_keep V (by decide) (by decide) (by decide) (by decide) (by decide) (by decide)

theorem rarg14 (V : Valuation τ sig (Elt F)) :
    after RefRun.ops V (main_arg14 : DevRef τ sig) = V (main_arg14 : DevRef τ sig) :=
  after_ops_keep V (by decide) (by decide) (by decide) (by decide) (by decide) (by decide)

theorem rarg15 (V : Valuation τ sig (Elt F)) :
    after RefRun.ops V (main_arg15 : DevRef τ sig) = V (main_arg15 : DevRef τ sig) :=
  after_ops_keep V (by decide) (by decide) (by decide) (by decide) (by decide) (by decide)

theorem rarg16 (V : Valuation τ sig (Elt F)) :
    after RefRun.ops V (main_arg16 : DevRef τ sig) = V (main_arg16 : DevRef τ sig) :=
  after_ops_keep V (by decide) (by decide) (by decide) (by decide) (by decide) (by decide)

theorem rarg17 (V : Valuation τ sig (Elt F)) :
    after RefRun.ops V (main_arg17 : DevRef τ sig) = V (main_arg17 : DevRef τ sig) :=
  after_ops_keep V (by decide) (by decide) (by decide) (by decide) (by decide) (by decide)

/-! ## The pieces the segments compute

The edge stage is cut where a value is used again: the first sum of the message network (its input features
times the first weights, plus the first bias), the messages as functions of that sum, and their sums per node. -/

/-- The zero array the output sum starts from. -/
def zeros64 : FVec F S40000x64 .f32 :=
  broadcastInDim S40000x64 ![] bcast_S_S40000x64 (constant S_ .f32 0x00000000#32)

/-- A column of ones, one per edge. -/
def onesCol : FVec F S640000x1 .f32 :=
  broadcastInDim S640000x1 ![] bcast_S_S640000x1 (constant S_ .f32 0x3F800000#32)

/-- A column added into zeros at each edge's destination row. -/
def degFrom (dst : IVec S640000 32) (u : FVec F S640000x1 .f32) : FVec F S40000x1 .f32 :=
  Host.scatterAdd scatter_S40000x1_S640000x1_S640000x1_1_0_0_1
    (broadcastInDim S40000x1 ![] bcast_S_S40000x1 (constant S_ .f32 0x00000000#32))
    (broadcastInDim S640000x1 ![0] bcast_S640000_S640000x1_0 dst) u

/-- The in-degree is the column of ones added up per destination. -/
theorem degOf_eq (dst : IVec S640000 32) : (Tail.degOf dst : FVec F S40000x1 .f32) = degFrom dst onesCol := rfl

/-- The message network's first sum: the 145 features of every edge times the first weights, plus the first bias. -/
def pre1 (h : FVec Ideal S40000x64 .f32) (x : FVec Ideal S40000x3 .f32) (src dst : IVec S640000 32)
    (ef : FVec Ideal S640000x16 .f32) (w1 : FVec Ideal S145x64 .f32) (b1 : FVec Ideal S64 .f32) : FVec Ideal S640000x64 .f32 :=
  addf (Host.dotGeneral dot_S640000x145_S145x64_S640000x64_1_0_0_1_n_n none (REdge.featV h x src dst ef) w1) (REdge.biasV b1)

/-- The feature message of every edge from the first sum: silu, the second weights and bias, silu. -/
def msgHFrom (t : FVec Ideal S640000x64 .f32) (w2 : FVec Ideal S64x64 .f32) (b2 : FVec Ideal S64 .f32) :
    FVec Ideal S640000x64 .f32 :=
  REdge.siluV (addf (Host.dotGeneral dot_S640000x64_S64x64_S640000x64_1_0_0_1_n_n none (REdge.siluV t) w2) (REdge.biasV b2))

/-- The coordinate message of every edge from its feature message and unit difference. -/
def msgXFrom (m : FVec Ideal S640000x64 .f32) (u : FVec Ideal S640000x3 .f32) (c1 : FVec Ideal S64x64 .f32)
    (cb1 : FVec Ideal S64 .f32) (c2 : FVec Ideal S64x1 .f32) : FVec Ideal S640000x3 .f32 :=
  mulf (broadcastInDim S640000x3 ![0, 1] bcast_S640000x1_S640000x3_0_1
      (Host.dotGeneral dot_S640000x64_S64x1_S640000x1_1_0_0_1_n_n none
        (REdge.siluV (addf (Host.dotGeneral dot_S640000x64_S64x64_S640000x64_1_0_0_1_n_n none m c1) (REdge.biasV cb1))) c2)) u

/-- Feature messages added into zeros at each edge's destination row. -/
def sumH (dst : IVec S640000 32) (m : FVec Ideal S640000x64 .f32) : FVec Ideal S40000x64 .f32 :=
  Host.scatterAdd scatter_S40000x64_S640000x1_S640000x64_1_0_0_1
    (broadcastInDim S40000x64 ![] bcast_S_S40000x64 (constant S_ .f32 0x00000000#32))
    (broadcastInDim S640000x1 ![0] bcast_S640000_S640000x1_0 dst) m

/-- Coordinate messages added into zeros at each edge's destination row. -/
def sumX (dst : IVec S640000 32) (p : FVec Ideal S640000x3 .f32) : FVec Ideal S40000x3 .f32 :=
  Host.scatterAdd scatter_S40000x3_S640000x1_S640000x3_1_0_0_1
    (broadcastInDim S40000x3 ![] bcast_S_S40000x3 (constant S_ .f32 0x00000000#32))
    (broadcastInDim S640000x1 ![0] bcast_S640000_S640000x1_0 dst) p

/-- The summed feature messages are the feature messages of the first sum, summed. -/
theorem edgeH_eq (h : FVec Ideal S40000x64 .f32) (x : FVec Ideal S40000x3 .f32) (src dst : IVec S640000 32)
    (ef : FVec Ideal S640000x16 .f32) (w1 : FVec Ideal S145x64 .f32) (b1 : FVec Ideal S64 .f32) (w2 : FVec Ideal S64x64 .f32)
    (b2 : FVec Ideal S64 .f32) (c1 : FVec Ideal S64x64 .f32) (cb1 : FVec Ideal S64 .f32) (c2 : FVec Ideal S64x1 .f32) :
    REdge.edgeH h x src dst ef w1 b1 w2 b2 c1 cb1 c2 = sumH dst (msgHFrom (pre1 h x src dst ef w1 b1) w2 b2) := rfl

/-- The summed coordinate messages likewise. -/
theorem edgeX_eq (h : FVec Ideal S40000x64 .f32) (x : FVec Ideal S40000x3 .f32) (src dst : IVec S640000 32)
    (ef : FVec Ideal S640000x16 .f32) (w1 : FVec Ideal S145x64 .f32) (b1 : FVec Ideal S64 .f32) (w2 : FVec Ideal S64x64 .f32)
    (b2 : FVec Ideal S64 .f32) (c1 : FVec Ideal S64x64 .f32) (cb1 : FVec Ideal S64 .f32) (c2 : FVec Ideal S64x1 .f32) :
    REdge.edgeX h x src dst ef w1 b1 w2 b2 c1 cb1 c2
      = sumX dst (msgXFrom (msgHFrom (pre1 h x src dst ef w1 b1) w2 b2) (REdge.unitV x src dst) c1 cb1 c2) := rfl

/-! ## What each segment leaves, from the contents it starts from

Each is the fold of the segment's operations read at one buffer: every operation's result at its own buffer is its
function of its operands' contents, at any other buffer what was there; what remains is the pieces above unfolded. -/

/-- The zero array (%0). -/
theorem seg0_v0 (W : Valuation τ sig (Elt F)) :
    after seg0 W (no_index (Proc.devRef .tc main_v0)) = zeros64 := by
  simp only [seg0]
  after_results_simp
  rfl

/-- The column of ones (%1). -/
theorem seg0_v1 (W : Valuation τ sig (Elt F)) :
    after seg0 W (no_index (Proc.devRef .tc main_v1)) = onesCol := by
  simp only [seg0]
  after_results_simp
  rfl

attribute [local irreducible] Host.gather Host.scatterAdd Host.reduceAdd in
set_option maxRecDepth 16384 in
set_option maxHeartbeats 4000000 in
/-- The unit difference of every edge's endpoints (%24). -/
theorem seg0_v24 (W : Valuation τ sig (Elt Ideal)) :
    after seg0 W (no_index (Proc.devRef .tc main_v24))
      = REdge.unitV (W (main_arg1 : DevRef τ sig)) (W (main_arg3 : DevRef τ sig)) (W (main_arg4 : DevRef τ sig)) := by
  simp only [seg0]
  after_results_simp
  simp only [REdge.unitV, REdge.radialV, REdge.diffV, REdge.wrapCol] <;> rfl

attribute [local irreducible] Host.gather Host.scatterAdd Host.reduceAdd in
set_option maxRecDepth 16384 in
set_option maxHeartbeats 4000000 in
/-- The message network's first sum (%47), layer 0. -/
theorem seg0_v47 (W : Valuation τ sig (Elt Ideal)) :
    after seg0 W (no_index (Proc.devRef .tc main_v47))
      = pre1 (W (main_arg0 : DevRef τ sig)) (W (main_arg1 : DevRef τ sig)) (W (main_arg3 : DevRef τ sig))
          (W (main_arg4 : DevRef τ sig)) (W (main_arg2 : DevRef τ sig)) (rw1_0 (W (main_arg5 : DevRef τ sig)))
          (rb1_0 (W (main_arg6 : DevRef τ sig))) := by
  simp only [seg0]
  after_results_simp
  simp only [pre1, REdge.featV, REdge.radialV, REdge.diffV, REdge.wrapCol, REdge.biasV, rw1_0, rb1_0] <;> rfl

attribute [local irreducible] Host.gather Host.scatterAdd Host.reduceAdd in
set_option maxRecDepth 16384 in
set_option maxHeartbeats 4000000 in
/-- The summed feature messages (%74), layer 0, from the first sum. -/
theorem seg1_v74 (W : Valuation τ sig (Elt Ideal)) :
    after seg1 W (no_index (Proc.devRef .tc main_v74))
      = sumH (W (main_arg4 : DevRef τ sig))
          (msgHFrom (W (main_v47 : DevRef τ sig)) (rw2_0 (W (main_arg7 : DevRef τ sig))) (rb2_0 (W (main_arg8 : DevRef τ sig)))) := by
  simp only [seg1]
  after_results_simp
  simp only [sumH, msgHFrom, REdge.siluV, REdge.biasV, rw2_0, rb2_0] <;> rfl

attribute [local irreducible] Host.gather Host.scatterAdd Host.reduceAdd in
set_option maxRecDepth 16384 in
set_option maxHeartbeats 4000000 in
/-- The summed coordinate messages (%77), layer 0, from the first sum and the unit difference. -/
theorem seg1_v77 (W : Valuation τ sig (Elt Ideal)) :
    after seg1 W (no_index (Proc.devRef .tc main_v77))
      = sumX (W (main_arg4 : DevRef τ sig))
          (msgXFrom
            (msgHFrom (W (main_v47 : DevRef τ sig)) (rw2_0 (W (main_arg7 : DevRef τ sig))) (rb2_0 (W (main_arg8 : DevRef τ sig))))
            (W (main_v24 : DevRef τ sig)) (rc1_0 (W (main_arg9 : DevRef τ sig))) (rcb1_0 (W (main_arg10 : DevRef τ sig)))
            (rc2_0 (W (main_arg11 : DevRef τ sig)))) := by
  simp only [seg1]
  after_results_simp
  simp only [sumX, msgXFrom, msgHFrom, REdge.siluV, REdge.biasV, rw2_0, rb2_0, rc1_0, rcb1_0, rc2_0] <;> rfl

attribute [local irreducible] Host.gather Host.scatterAdd Host.reduceAdd in
set_option maxRecDepth 16384 in
/-- The in-degree column (%80), from the column of ones. -/
theorem seg1_v80 (W : Valuation τ sig (Elt F)) :
    after seg1 W (no_index (Proc.devRef .tc main_v80))
      = degFrom (W (main_arg4 : DevRef τ sig)) (W (main_v1 : DevRef τ sig)) := by
  simp only [seg1]
  after_results_simp
  simp only [degFrom] <;> rfl

attribute [local irreducible] Host.gather Host.scatterAdd Host.reduceAdd in
set_option maxRecDepth 16384 in
set_option maxHeartbeats 4000000 in
/-- The positions after layer 0 (%103). -/
theorem seg2_v103 (W : Valuation τ sig (Elt F)) :
    after seg2 W (no_index (Proc.devRef .tc main_v103))
      = Tail.newX (W (main_arg1 : DevRef τ sig)) (W (main_v77 : DevRef τ sig)) (W (main_v80 : DevRef τ sig)) := by
  simp only [seg2]
  after_results_simp
  rfl

attribute [local irreducible] Host.gather Host.scatterAdd Host.reduceAdd in
set_option maxRecDepth 16384 in
set_option maxHeartbeats 8000000 in
/-- The node features after layer 0 (%127). -/
theorem seg2_v127 (W : Valuation τ sig (Elt F)) :
    after seg2 W (no_index (Proc.devRef .tc main_v127))
      = Tail.nodeNet (W (main_arg0 : DevRef τ sig)) (W (main_v74 : DevRef τ sig))
          (Tail.nw1_0 (W (main_arg12 : DevRef τ sig))) (Tail.nb1_0 (W (main_arg13 : DevRef τ sig)))
          (Tail.nw2_0 (W (main_arg14 : DevRef τ sig))) (Tail.nb2_0 (W (main_arg15 : DevRef τ sig)))
          (Tail.gamma_0 (W (main_arg16 : DevRef τ sig))) (Tail.beta_0 (W (main_arg17 : DevRef τ sig))) := by
  simp only [seg2]
  after_results_simp
  rfl

attribute [local irreducible] Host.gather Host.scatterAdd Host.reduceAdd in
set_option maxRecDepth 16384 in
set_option maxHeartbeats 8000000 in
/-- The output sum after layer 0 (%128): the zero array plus the node features. -/
theorem seg2_v128 (W : Valuation τ sig (Elt F)) :
    after seg2 W (no_index (Proc.devRef .tc main_v128))
      = addf (W (main_v0 : DevRef τ sig))
          (Tail.nodeNet (W (main_arg0 : DevRef τ sig)) (W (main_v74 : DevRef τ sig))
            (Tail.nw1_0 (W (main_arg12 : DevRef τ sig))) (Tail.nb1_0 (W (main_arg13 : DevRef τ sig)))
            (Tail.nw2_0 (W (main_arg14 : DevRef τ sig))) (Tail.nb2_0 (W (main_arg15 : DevRef τ sig)))
            (Tail.gamma_0 (W (main_arg16 : DevRef τ sig))) (Tail.beta_0 (W (main_arg17 : DevRef τ sig)))) := by
  simp only [seg2]
  after_results_simp
  rfl

attribute [local irreducible] Host.gather Host.scatterAdd Host.reduceAdd in
set_option maxRecDepth 16384 in
set_option maxHeartbeats 4000000 in
/-- The message network's first sum (%174), layer 1: layer 0's reading at layer 0's outputs. -/
theorem seg3_v174 (W : Valuation τ sig (Elt Ideal)) :
    after seg3 W (no_index (Proc.devRef .tc main_v174))
      = pre1 (W (main_v127 : DevRef τ sig)) (W (main_v103 : DevRef τ sig)) (W (main_arg3 : DevRef τ sig))
          (W (main_arg4 : DevRef τ sig)) (W (main_arg2 : DevRef τ sig)) (rw1_1 (W (main_arg5 : DevRef τ sig)))
          (rb1_1 (W (main_arg6 : DevRef τ sig))) := by
  simp only [seg3]
  after_results_simp
  simp only [pre1, REdge.featV, REdge.radialV, REdge.diffV, REdge.wrapCol, REdge.biasV, rw1_1, rb1_1] <;> rfl

attribute [local irreducible] Host.gather Host.scatterAdd Host.reduceAdd in
set_option maxRecDepth 16384 in
set_option maxHeartbeats 4000000 in
/-- The summed feature messages (%201), layer 1, from the first sum. -/
theorem seg4_v201 (W : Valuation τ sig (Elt Ideal)) :
    after seg4 W (no_index (Proc.devRef .tc main_v201))
      = sumH (W (main_arg4 : DevRef τ sig))
          (msgHFrom (W (main_v174 : DevRef τ sig)) (rw2_1 (W (main_arg7 : DevRef τ sig))) (rb2_1 (W (main_arg8 : DevRef τ sig)))) := by
  simp only [seg4]
  after_results_simp
  simp only [sumH, msgHFrom, REdge.siluV, REdge.biasV, rw2_1, rb2_1] <;> rfl

attribute [local irreducible] Host.gather Host.scatterAdd Host.reduceAdd in
set_option maxRecDepth 16384 in
set_option maxHeartbeats 8000000 in
/-- The result (%255): the output sum so far plus the node features after layer 1. -/
theorem seg5_v255 (W : Valuation τ sig (Elt F)) :
    after seg5 W (no_index (Proc.devRef .tc main_v255))
      = addf (W (main_v128 : DevRef τ sig))
          (Tail.nodeNet (W (main_v127 : DevRef τ sig)) (W (main_v201 : DevRef τ sig))
            (Tail.nw1_1 (W (main_arg12 : DevRef τ sig))) (Tail.nb1_1 (W (main_arg13 : DevRef τ sig)))
            (Tail.nw2_1 (W (main_arg14 : DevRef τ sig))) (Tail.nb2_1 (W (main_arg15 : DevRef τ sig)))
            (Tail.gamma_1 (W (main_arg16 : DevRef τ sig))) (Tail.beta_1 (W (main_arg17 : DevRef τ sig)))) := by
  simp only [seg5]
  after_results_simp
  rfl

/-! ## The result -/

set_option maxRecDepth 16384 in
set_option maxHeartbeats 8000000 in
/-- The reference's result is the two layers composed: the zero array plus layer 0's node features, plus layer 1's
    node features computed from layer 0's node features and positions. -/
theorem rval (V : Valuation τ sig (Elt Ideal)) :
    after RefRun.ops V (main_v255 : DevRef τ sig)
      = Final.outR (V (main_arg0 : DevRef τ sig)) (V (main_arg1 : DevRef τ sig)) (V (main_arg2 : DevRef τ sig))
          (V (main_arg3 : DevRef τ sig)) (V (main_arg4 : DevRef τ sig)) (V (main_arg12 : DevRef τ sig))
          (V (main_arg13 : DevRef τ sig)) (V (main_arg14 : DevRef τ sig)) (V (main_arg15 : DevRef τ sig))
          (V (main_arg16 : DevRef τ sig)) (V (main_arg17 : DevRef τ sig)) zeros64
          (rw1_0 (V (main_arg5 : DevRef τ sig))) (rb1_0 (V (main_arg6 : DevRef τ sig))) (rw2_0 (V (main_arg7 : DevRef τ sig)))
          (rb2_0 (V (main_arg8 : DevRef τ sig))) (rc1_0 (V (main_arg9 : DevRef τ sig))) (rcb1_0 (V (main_arg10 : DevRef τ sig)))
          (rc2_0 (V (main_arg11 : DevRef τ sig)))
          (rw1_1 (V (main_arg5 : DevRef τ sig))) (rb1_1 (V (main_arg6 : DevRef τ sig))) (rw2_1 (V (main_arg7 : DevRef τ sig)))
          (rb2_1 (V (main_arg8 : DevRef τ sig))) (rc1_1 (V (main_arg9 : DevRef τ sig))) (rcb1_1 (V (main_arg10 : DevRef τ sig)))
          (rc2_1 (V (main_arg11 : DevRef τ sig))) := by
  rw [after_ops]
  simp (disch := decide) only [seg5_v255, seg4_v201, seg3_v174, seg2_v128, seg2_v127, seg2_v103, seg1_v80, seg1_v77,
    seg1_v74, seg0_v47, seg0_v24, seg0_v1, seg0_v0, keep0, keep1, keep2, keep3, keep4, keep5,
    Final.outR, Final.h1R, Final.x1R, edgeH_eq, edgeX_eq, degOf_eq] <;> rfl

end Cert.Bridge.RRead

end
-- ==== Proof.Assembly.lean ====
/-
  The certificate's claims. Under the precondition (finite floats, and every source and destination index in
  [-40000, 40000), so that after the wrap of a negative index every gather reads a row that exists) the idealized kernel
  program and the idealized reference end with the same result array: both run, the kernel program's result is the
  two-layer term over its two edge stages' arrays, the reference's is the two-layer term over its summed messages, and
  the two terms are one (the join of one layer, applied twice). The finiteness of the float inputs is never used: every
  law that joins the two sides is a regrouping of sums in a commutative monoid.
-/
import proofs.«409836_j4174708212115_3_alg».proof.Defs
import proofs.«409836_j4174708212115_3_alg».proof.Proof.Gen.Pre_finite_inputs
import proofs.«409836_j4174708212115_3_alg».proof.Proof.KRun
import proofs.«409836_j4174708212115_3_alg».proof.Proof.KSide
import proofs.«409836_j4174708212115_3_alg».proof.Proof.KSide1
import proofs.«409836_j4174708212115_3_alg».proof.Proof.RRead
import proofs.«409836_j4174708212115_3_alg».proof.Proof.PreIdx
import proofs.«409836_j4174708212115_3_alg».proof.Proof.Gen.Kernel.Frame

set_option maxRecDepth 16384

noncomputable section

namespace Cert.Bridge.Assembly

open Idealize.ShloMosaic Idealize.ShloMosaic.TcCoe Idealize.ShloMosaic.ValueIdx
open Idealize.SL.Sem
open Cert.Bridge

section Value

open Cert.KernelIdeal Cert.KernelIdeal.Gen

variable (m : (ℓ : Loc nD τ sig) → Buf (Elt Ideal) ℓ) (ρ : Dev nD → PrngReg)

/-- Under the precondition every wrapped source index names a row of the 40000. -/
theorem src_ok (hpre : Cert.Pre_KernelIdeal m) (c : Dev nD) (e : Fin 640000) :
    0 ≤ (Spec.wrapWord (KRead.a3 m c (ix1 e))).toInt ∧ (Spec.wrapWord (KRead.a3 m c (ix1 e))).toInt ≤ 39999 :=
  PreIdx.wrap_range (PreIdx.src_range (hpre c) (ix1 e))

/-- Under the precondition every wrapped destination index names a row of the 40000. -/
theorem dst_ok (hpre : Cert.Pre_KernelIdeal m) (c : Dev nD) (e : Fin 640000) :
    0 ≤ (Spec.wrapWord (KRead.a4 m c (ix1 e))).toInt ∧ (Spec.wrapWord (KRead.a4 m c (ix1 e))).toInt ≤ 39999 :=
  PreIdx.wrap_range (PreIdx.dst_range (hpre c) (ix1 e))

/-- The kernel program's result array, in the reference's words: the reference's two-layer term of the kernel
    program's own launch contents. -/
theorem kernel_result (hpre : Cert.Pre_KernelIdeal m) (c : Dev nD) :
    W23 m ρ c (Proc.devRef .tc main_v161)
      = Final.outR (KRead.a0 m c) (KRead.a1 m c) (KRead.a2 m c) (KRead.a3 m c) (KRead.a4 m c) (KRead.a12 m c) (KRead.a13 m c) (KRead.a14 m c) (KRead.a15 m c) (KRead.a16 m c) (KRead.a17 m c) KOps.zerosH
          (RRead.rw1_0 (KRead.a5 m c)) (RRead.rb1_0 (KRead.a6 m c)) (RRead.rw2_0 (KRead.a7 m c)) (RRead.rb2_0 (KRead.a8 m c)) (RRead.rc1_0 (KRead.a9 m c)) (RRead.rcb1_0 (KRead.a10 m c)) (RRead.rc2_0 (KRead.a11 m c))
          (RRead.rw1_1 (KRead.a5 m c)) (RRead.rb1_1 (KRead.a6 m c)) (RRead.rw2_1 (KRead.a7 m c)) (RRead.rb2_1 (KRead.a8 m c)) (RRead.rc1_1 (KRead.a9 m c)) (RRead.rcb1_1 (KRead.a10 m c)) (RRead.rc2_1 (KRead.a11 m c)) :=
  (KVal.kval m ρ c).trans
    (Final.out_eq (KRead.a0 m c) (KRead.a1 m c) (KRead.a2 m c) (KRead.a3 m c) (KRead.a4 m c) (KRead.a5 m c) (KRead.a6 m c) (KRead.a7 m c) (KRead.a8 m c) (KRead.a9 m c) (KRead.a10 m c) (KRead.a11 m c)
      (KRead.a12 m c) (KRead.a13 m c) (KRead.a14 m c) (KRead.a15 m c) (KRead.a16 m c) (KRead.a17 m c) KOps.zerosH (KRead.P0 m ρ c) (KRead.P1 m ρ c)
      (RRead.rw1_0 (KRead.a5 m c)) (RRead.rb1_0 (KRead.a6 m c)) (RRead.rw2_0 (KRead.a7 m c)) (RRead.rb2_0 (KRead.a8 m c)) (RRead.rc1_0 (KRead.a9 m c)) (RRead.rcb1_0 (KRead.a10 m c)) (RRead.rc2_0 (KRead.a11 m c))
      (RRead.rw1_1 (KRead.a5 m c)) (RRead.rb1_1 (KRead.a6 m c)) (RRead.rw2_1 (KRead.a7 m c)) (RRead.rb2_1 (KRead.a8 m c)) (RRead.rc1_1 (KRead.a9 m c)) (RRead.rcb1_1 (KRead.a10 m c)) (RRead.rc2_1 (KRead.a11 m c))
      (src_ok m hpre c) (dst_ok m hpre c) (KSide.hP0 m ρ c) (KSide1.hP1 m ρ c)
      (RRead.lpR_slices0 (KRead.a5 m c) (KRead.a6 m c) (KRead.a7 m c) (KRead.a8 m c) (KRead.a9 m c) (KRead.a10 m c) (KRead.a11 m c))
      (RRead.lpR_slices1 (KRead.a5 m c) (KRead.a6 m c) (KRead.a7 m c) (KRead.a8 m c) (KRead.a9 m c) (KRead.a10 m c) (KRead.a11 m c)))

end Value

/-! ## The claims -/

section Claims

/-- The word-level kernel program runs and leaves its arguments as launched: the generated frame. -/
theorem frame_K : Cert.frame_Kernel := fun m ρ _ => Cert.Kernel.Gen.frame m ρ

/-- The idealized kernel program runs and leaves its arguments as launched: the generated frame. -/
theorem frame_KI : Cert.frame_KernelIdeal := fun m ρ _ => Cert.KernelIdeal.Gen.frame m ρ

/-- The idealized reference runs and leaves its arguments as launched: its run ends with every array at the fold of
    its operations over the launch contents, and no operation writes an argument. -/
theorem frame_RI : Cert.frame_ReferenceIdeal := fun m ρ _ =>
  (θ_run Cert.ReferenceIdeal.defs _ _).mono
    (fun r h c => ⟨(h c _).trans (RRead.rarg0 _),
      (h c _).trans (RRead.rarg1 _),
      (h c _).trans (RRead.rarg2 _),
      (h c _).trans (RRead.rarg3 _),
      (h c _).trans (RRead.rarg4 _),
      (h c _).trans (RRead.rarg5 _),
      (h c _).trans (RRead.rarg6 _),
      (h c _).trans (RRead.rarg7 _),
      (h c _).trans (RRead.rarg8 _),
      (h c _).trans (RRead.rarg9 _),
      (h c _).trans (RRead.rarg10 _),
      (h c _).trans (RRead.rarg11 _),
      (h c _).trans (RRead.rarg12 _),
      (h c _).trans (RRead.rarg13 _),
      (h c _).trans (RRead.rarg14 _),
      (h c _).trans (RRead.rarg15 _),
      (h c _).trans (RRead.rarg16 _),
      (h c _).trans (RRead.rarg17 _)⟩)
    (RefRun.run (F := Ideal) m ρ)

/-- From memories that agree on the arguments, under the precondition, both idealized programs run and end with the
    same result array: the kernel program's, which `kernel_result` spells in the reference's words; the reference's is
    that same term of its own launch contents, which are the kernel program's. -/
theorem algebraic : Cert.algebraic_KernelIdeal_ReferenceIdeal := by
  intro m ρ m' ρ' hpre hagree
  refine ⟨fun c => Cert.KernelIdeal.Gen.W23 m ρ c (Proc.devRef .tc Cert.KernelIdeal.main_v161),
    KRun.run_result (F := Ideal) m ρ, ?_⟩
  refine (θ_run Cert.ReferenceIdeal.defs _ _).mono
    (fun r h c => ⟨?_, (h c _).trans (RRead.rarg0 _),
      (h c _).trans (RRead.rarg1 _),
      (h c _).trans (RRead.rarg2 _),
      (h c _).trans (RRead.rarg3 _),
      (h c _).trans (RRead.rarg4 _),
      (h c _).trans (RRead.rarg5 _),
      (h c _).trans (RRead.rarg6 _),
      (h c _).trans (RRead.rarg7 _),
      (h c _).trans (RRead.rarg8 _),
      (h c _).trans (RRead.rarg9 _),
      (h c _).trans (RRead.rarg10 _),
      (h c _).trans (RRead.rarg11 _),
      (h c _).trans (RRead.rarg12 _),
      (h c _).trans (RRead.rarg13 _),
      (h c _).trans (RRead.rarg14 _),
      (h c _).trans (RRead.rarg15 _),
      (h c _).trans (RRead.rarg16 _),
      (h c _).trans (RRead.rarg17 _)⟩)
    (RefRun.run (F := Ideal) m' ρ')
  obtain ⟨g0, g1, g2, g3, g4, g5, g6, g7, g8, g9, g10, g11, g12, g13, g14, g15, g16, g17⟩ := hagree c
  have e0 : StableHlo.launchContents m' c (Cert.ReferenceIdeal.main_arg0 : DevRef _ _) = KRead.a0 m c := g0
  have e1 : StableHlo.launchContents m' c (Cert.ReferenceIdeal.main_arg1 : DevRef _ _) = KRead.a1 m c := g1
  have e2 : StableHlo.launchContents m' c (Cert.ReferenceIdeal.main_arg2 : DevRef _ _) = KRead.a2 m c := g2
  have e3 : StableHlo.launchContents m' c (Cert.ReferenceIdeal.main_arg3 : DevRef _ _) = KRead.a3 m c := g3
  have e4 : StableHlo.launchContents m' c (Cert.ReferenceIdeal.main_arg4 : DevRef _ _) = KRead.a4 m c := g4
  have e5 : StableHlo.launchContents m' c (Cert.ReferenceIdeal.main_arg5 : DevRef _ _) = KRead.a5 m c := g5
  have e6 : StableHlo.launchContents m' c (Cert.ReferenceIdeal.main_arg6 : DevRef _ _) = KRead.a6 m c := g6
  have e7 : StableHlo.launchContents m' c (Cert.ReferenceIdeal.main_arg7 : DevRef _ _) = KRead.a7 m c := g7
  have e8 : StableHlo.launchContents m' c (Cert.ReferenceIdeal.main_arg8 : DevRef _ _) = KRead.a8 m c := g8
  have e9 : StableHlo.launchContents m' c (Cert.ReferenceIdeal.main_arg9 : DevRef _ _) = KRead.a9 m c := g9
  have e10 : StableHlo.launchContents m' c (Cert.ReferenceIdeal.main_arg10 : DevRef _ _) = KRead.a10 m c := g10
  have e11 : StableHlo.launchContents m' c (Cert.ReferenceIdeal.main_arg11 : DevRef _ _) = KRead.a11 m c := g11
  have e12 : StableHlo.launchContents m' c (Cert.ReferenceIdeal.main_arg12 : DevRef _ _) = KRead.a12 m c := g12
  have e13 : StableHlo.launchContents m' c (Cert.ReferenceIdeal.main_arg13 : DevRef _ _) = KRead.a13 m c := g13
  have e14 : StableHlo.launchContents m' c (Cert.ReferenceIdeal.main_arg14 : DevRef _ _) = KRead.a14 m c := g14
  have e15 : StableHlo.launchContents m' c (Cert.ReferenceIdeal.main_arg15 : DevRef _ _) = KRead.a15 m c := g15
  have e16 : StableHlo.launchContents m' c (Cert.ReferenceIdeal.main_arg16 : DevRef _ _) = KRead.a16 m c := g16
  have e17 : StableHlo.launchContents m' c (Cert.ReferenceIdeal.main_arg17 : DevRef _ _) = KRead.a17 m c := g17
  beta_reduce
  rw [h c Cert.ReferenceIdeal.main_v255, RRead.rval, kernel_result m ρ hpre c,
    e0, e1, e2, e3, e4, e5, e6, e7, e8, e9, e10, e11, e12, e13, e14, e15, e16, e17]
  rfl

end Claims

end Cert.Bridge.Assembly

end
-- ==== Proof.lean ====
/- Two layers of equivariant message passing over a graph of 40000 nodes and 640000 edges: the kernel program against
   its reference, over the extended reals.

   One layer, for node features h and positions x: every edge e from s = src e to t = dst e forms the coordinate
   difference d = x_s - x_t, its squared length ρ, the unit difference u = d / (√ρ + ε), the features
   [h_s | h_t | ρ | a_e], a feature message m_e (two linear maps with silu) and a coordinate message p_e = c_e · u
   (c_e from m_e by two more linear maps); every node sums the messages of the edges into it; a node network and a
   batch normalisation turn (h, Σ m) into the next h, and x moves by Σ p over the node's degree. The result is the sum
   of the two layers' node features.

   The reference gathers h and x separately, runs the edge networks as whole-array operations and sums m and p
   separately. The kernel program gathers the table [h | x] once per end point, runs the edge networks in a kernel over
   blocks of 6400 edges that writes [m | p | 0] into one 128-wide array, sums that array once, and cuts the sums apart.
   Row by row the kernel's body is the reference's formula: its first linear map is split into four partial products
   over the 145 features, which is a regrouping of one sum; narrowing to the 16-bit float format is the identity over
   the reals; its logistic is the reference's 1 / (1 + e^(-t)). Gathering the concatenated table and cutting the row
   is gathering each part; summing the concatenated rows and cutting the sum is summing each part. So each layer's two
   per-node sums agree as arrays, the rest of the layer is the same operations in both programs, and the second layer
   meets the first layer's outputs, equal by then.

   The precondition: the float inputs are finite (never used: every law above is a regrouping of sums), and every
   source and destination index lies in [-40000, 40000). A negative index counts from the end in both programs; outside
   that range the reference's gather clamps while the kernel's fills, and the claim is false.

   The two kernel frames are the generated ones; the reference's frame is its run with the result dropped; nothing was
   rewritten on the way to the idealized kernel, so that claim is trivial. -/
import proofs.«409836_j4174708212115_3_alg».proof.Defs
import proofs.«409836_j4174708212115_3_alg».proof.Proof.Gen.Kernel
import proofs.«409836_j4174708212115_3_alg».proof.Proof.Gen.Kernel.Skeleton
import proofs.«409836_j4174708212115_3_alg».proof.Proof.Gen.Kernel.Launch
import proofs.«409836_j4174708212115_3_alg».proof.Proof.Gen.Kernel.Points
import proofs.«409836_j4174708212115_3_alg».proof.Proof.Gen.Kernel.Frame
import proofs.«409836_j4174708212115_3_alg».proof.Proof.Gen.KernelIdeal
import proofs.«409836_j4174708212115_3_alg».proof.Proof.Gen.KernelIdeal.Skeleton
import proofs.«409836_j4174708212115_3_alg».proof.Proof.Gen.KernelIdeal.Launch
import proofs.«409836_j4174708212115_3_alg».proof.Proof.Gen.KernelIdeal.Points
import proofs.«409836_j4174708212115_3_alg».proof.Proof.Gen.KernelIdeal.Frame
import proofs.«409836_j4174708212115_3_alg».proof.Proof.Gen.ReferenceIdeal
import proofs.«409836_j4174708212115_3_alg».proof.Proof.Gen.Pre_finite_inputs
import Idealize.ShloMosaic.Adequacy
import Idealize.ShloMosaic.Init
import proofs.«409836_j4174708212115_3_alg».proof.Proof.Assembly

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Bridge.Assembly.frame_K, Cert.Bridge.Assembly.frame_KI, Cert.Bridge.Assembly.frame_RI, trivial,
    Cert.Bridge.Assembly.algebraic⟩

end Cert.Proof

end
